-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S4x1024 : Shape := ⟨2, ![4, 1024]⟩
abbrev S32000x2048 : Shape := ⟨2, ![32000, 2048]⟩
abbrev S_ : Shape := ⟨0, ![]⟩
abbrev S4 : Shape := ⟨1, ![4]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x1024 : S_.BroadcastsInDim S4x1024 (![] : Fin 0 → Fin S4x1024.rank)
  reducesTo_S4x1024_S_d0_1 : S4x1024.ReducesTo [0, 1] S_
  reducesTo_S4x1024_S4_d1 : S4x1024.ReducesTo [1] S4
  bcast_S_S4 : S_.BroadcastsInDim S4 (![] : Fin 0 → Fin S4.rank)
  reducesTo_S4_S_d0 : S4.ReducesTo [0] S_

variable [Facts]

def fn_part2 {F : FTy → Type} [FloatOps F] (main_v28 : IVec S_ 1) (main_v32 : FVec F S4 .f32) (main_cst_12 : FVec F S_ .f32) : IVec S_ 1 :=
  let main_v33 : FVec F S4 .f32 := broadcastInDim S4 ![] bcast_S_S4 main_cst_12
  let main_v34 : IVec S4 1 := cmpf .oge main_v32 main_v33
  let main_c_13 : IVec S_ 1 := constantI S_ 1 1#1
  let main_v35 : IVec S_ 1 := (fun x v => Host.reduce IntOp.andi x v reducesTo_S4_S_d0 h_S_) main_v34 main_c_13
  let main_v36 : IVec S_ 1 := andi main_v28 main_v35
  main_v36

def fn_part1 {F : FTy → Type} [FloatOps F] (main_arg2 : IVec S4x1024 32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_c_6 : IVec S_ 32 := constantI S_ 32 0#32
  let main_v19 : IVec S4x1024 32 := broadcastInDim S4x1024 ![] bcast_S_S4x1024 main_c_6
  let main_v20 : IVec S4x1024 1 := cmpi .sge main_arg2 main_v19
  let main_c_7 : IVec S_ 32 := constantI S_ 32 32000#32
  let main_v21 : IVec S4x1024 32 := broadcastInDim S4x1024 ![] bcast_S_S4x1024 main_c_7
  let main_v22 : IVec S4x1024 1 := cmpi .slt main_arg2 main_v21
  let main_v23 : IVec S4x1024 1 := andi main_v20 main_v22
  let main_c_8 : IVec S_ 32 := constantI S_ 32 4294967196#32
  let main_v24 : IVec S4x1024 32 := broadcastInDim S4x1024 ![] bcast_S_S4x1024 main_c_8
  let main_v25 : IVec S4x1024 1 := cmpi .eq main_arg2 main_v24
  let main_v26 : IVec S4x1024 1 := ori main_v23 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v18 main_v27
  let main_c_10 : IVec S_ 32 := constantI S_ 32 4294967196#32
  let main_v29 : IVec S4x1024 32 := broadcastInDim S4x1024 ![] bcast_S_S4x1024 main_c_10
  let main_v30 : IVec S4x1024 1 := cmpi .ne main_arg2 main_v29
  let main_v31 : FVec F S4x1024 .f32 := uitofp .f32 main_v30
  let main_cst_11 : FVec F S_ .f32 := constant S_ .f32 0x00000000#32
  let main_v32 : FVec F S4 .f32 := (fun x v => Host.reduceAdd x v reducesTo_S4x1024_S4_d1 h_S_) main_v31 main_cst_11
  let main_cst_12 : FVec F S_ .f32 := constant S_ .f32 0x3F800000#32
  fn_part2 (F := F) main_v28 main_v32 main_cst_12

def fn {F : FTy → Type} [FloatOps F] (main_arg0 : FVec F S4x1024x2048 .f32) (main_arg1 : FVec F S4x1024x2048 .f32) (main_arg2 : IVec S4x1024 32) (main_arg3 : FVec F S32000x2048 .f32) (main_arg4 : FVec F S32000x2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S4x1024x2048 .f32 := Host.absf main_arg1
  let main_cst_0 : FVec F S_ .f32 := constant S_ .f32 0x7F800000#32
  let main_v5 : FVec F S4x1024x2048 .f32 := broadcastInDim S4x1024x2048 ![] bcast_S_S4x1024x2048 main_cst_0
  let main_v6 : IVec S4x1024x2048 1 := cmpf .olt main_v4 main_v5
  let main_c_1 : IVec S_ 1 := constantI S_ 1 1#1
  let main_v7 : IVec S_ 1 := (fun x v => Host.reduce IntOp.andi x v reducesTo_S4x1024x2048_S_d0_1_2 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg2 main_v13 main_v16
-- ==== Kernel.lean ====
abbrev S4x1024x2048 : Shape := ⟨3, ![4, 1024, 2048]⟩
abbrev S4x1024 : Shape := ⟨2, ![4, 1024]⟩
abbrev S32000x2048 : Shape := ⟨2, ![32000, 2048]⟩
abbrev S_ : Shape := ⟨0, ![]⟩
abbrev S4096x2048 : Shape := ⟨2, ![4096, 2048]⟩
abbrev S4096x1 : Shape := ⟨2, ![4096, 1]⟩
abbrev S2048x2048 : Shape := ⟨2, ![2048, 2048]⟩
abbrev S640x2048 : Shape := ⟨2, ![640, 2048]⟩
abbrev S2048x1 : Shape := ⟨2, ![2048, 1]⟩
abbrev S2048x640 : Shape := ⟨2, ![2048, 640]⟩
abbrev S2048 : Shape := ⟨1, ![2048]⟩
abbrev S4 : Shape := ⟨1, ![4]⟩
abbrev S2 : Shape := ⟨1, ![2]⟩

abbrev nBuf : Space → Nat
  | .hbm => 65
  | .vmem => 22
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024, .i32⟩
  | .hbm, ⟨3, _⟩ => ⟨S32000x2048, .f32⟩
  | .hbm, ⟨4, _⟩ => ⟨S32000x2048, .f32⟩
  | .hbm, ⟨5, _⟩ => ⟨S_, .i32⟩
  | .hbm, ⟨6, _⟩ => ⟨S4x1024, .i32⟩
  | .hbm, ⟨7, _⟩ => ⟨S4x1024, .i1⟩
  | .hbm, ⟨8, _⟩ => ⟨S4096x2048, .f32⟩
  | .hbm, ⟨9, _⟩ => ⟨S4096x2048, .bf16⟩
  | .hbm, ⟨10, _⟩ => ⟨S32000x2048, .bf16⟩
  | .hbm, ⟨11, _⟩ => ⟨S4096x1, .i32⟩
  | .hbm, ⟨12, _⟩ => ⟨S4096x1, .f32⟩
  | .hbm, ⟨13, _⟩ => ⟨S4x1024, .f32⟩
  | .hbm, ⟨14, _⟩ => ⟨S4096x2048, .f32⟩
  | .hbm, ⟨15, _⟩ => ⟨S4096x2048, .bf16⟩
  | .hbm, ⟨16, _⟩ => ⟨S32000x2048, .bf16⟩
  | .hbm, ⟨17, _⟩ => ⟨S4096x1, .i32⟩
  | .hbm, ⟨18, _⟩ => ⟨S4096x1, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4x1024, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4x1024, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S2, .f32⟩
  | .hbm, ⟨39, _⟩ => ⟨S2, .f32⟩
  | .hbm, ⟨40, _⟩ => ⟨S2, .f32⟩
  | .hbm, ⟨41, _⟩ => ⟨S_, .f32⟩
  | .hbm, ⟨42, _⟩ => ⟨S2, .f32⟩
  | .hbm, ⟨43, _⟩ => ⟨S2, .f32⟩
  | .hbm, ⟨44, _⟩ => ⟨S2, .f32⟩
  | .hbm, ⟨45, _⟩ => ⟨S_, .f32⟩
  | .hbm, ⟨46, _⟩ => ⟨S2, .f32⟩
  | .hbm, ⟨47, _⟩ => ⟨S2, .f32⟩
  | .hbm, ⟨48, _⟩ => ⟨S2, .f32⟩
  | .hbm, ⟨49, _⟩ => ⟨S2, .f32⟩
  | .hbm, ⟨50, _⟩ => ⟨S2, .i1⟩
  | .hbm, ⟨51, _⟩ => ⟨S2, .f32⟩
  | .hbm, ⟨52, _⟩ => ⟨S2, .f32⟩
  | .hbm, ⟨53, _⟩ => ⟨S2, .f32⟩
  | .hbm, ⟨54, _⟩ => ⟨S2, .f32⟩
  | .hbm, ⟨55, _⟩ => ⟨S2, .f32⟩
  | .hbm, ⟨56, _⟩ => ⟨S2, .f32⟩
  | .hbm, ⟨57, _⟩ => ⟨S2, .f32⟩
  | .hbm, ⟨58, _⟩ => ⟨S2, .f32⟩
  | .hbm, ⟨59, _⟩ => ⟨S2, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S2048x2048, .bf16⟩
  | .local _ .vmem, ⟨1, _⟩ => ⟨S2048x2048, .bf16⟩
  | .local _ .vmem, ⟨2, _⟩ => ⟨S640x2048, .bf16⟩
  | .local _ .vmem, ⟨3, _⟩ => ⟨S640x2048, .bf16⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x2048, .bf16⟩
  | .local _ .vmem, ⟨12, _⟩ => ⟨S2048x2048, .bf16⟩
  | .local _ .vmem, ⟨13, _⟩ => ⟨S640x2048, .bf16⟩
  | .local _ .vmem, ⟨14, _⟩ => ⟨S640x2048, .bf16⟩
  | .local _ .vmem, ⟨15, _⟩ => ⟨S2048x1, .i32⟩
  | .local _ .vmem, ⟨16, _⟩ => ⟨S2048x1, .i32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 50], ![false, false]⟩

def k0_mult1 (i : grid0.Coords) : BitVec 32 :=
  let arg1 : BitVec 32 := BitVec.ofNat 32 (i 1).val
  let c640_i32 : BitVec 32 := 640#32
  let v8 : BitVec 32 := Scalar.muli arg1 c640_i32
  v8
def k0_cond2 (i : grid0.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 50], ![false, false]⟩

def k1_mult1 (i : grid1.Coords) : BitVec 32 :=
  let arg1 : BitVec 32 := BitVec.ofNat 32 (i 1).val
  let c640_i32 : BitVec 32 := 640#32
  let v8 : BitVec 32 := Scalar.muli arg1 c640_i32
  v8
def k1_cond2 (i : grid1.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_22 : BitVec 32 := 0#32
  let v48 : BitVec 1 := Scalar.cmpi .ne v47 c0_i32_22
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S640x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S4x1024 : S_.BroadcastsInDim S4x1024 (![] : Fin 0 → Fin S4x1024.rank)
  shapeCasts_S4x1024x2048_S4096x2048 : S4x1024x2048.ShapeCasts S4096x2048
  bitsLt_bf16_f32 : FTy.bits .bf16 < FTy.bits .f32
  shapeCasts_S4x1024_S4096x1 : S4x1024.ShapeCasts S4096x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S640x2048_S640x2048_0_0 : ∀ a, (![0, 0] : Fin 2 → Nat) a + S640x2048.size a ≤ S640x2048.size a
  h_S640x2048 : 0 < S640x2048.numel
  shapeCasts_S640x2048_S640x2048 : S640x2048.ShapeCasts S640x2048
  iota_S2048x640_d1_w32 : S2048x640.Iotas .tc 32 [1]
  broadcasts_S2048x1_S2048x640 : S2048x1.Broadcasts S2048x640
  reduces_S2048x640_S2048 : S2048x640.Reduces [1] S2048
  shapeCasts_S2048_S2048x1 : S2048.ShapeCasts S2048x1
  shapeCasts_S4096x1_S4x1024 : S4096x1.ShapeCasts S4x1024
  reducesTo_S4x1024_S4_d1 : S4x1024.ReducesTo [1] S4
  h_S_ : 0 < S_.numel
  bcast_S_S4 : S_.BroadcastsInDim S4 (![] : Fin 0 → Fin S4.rank)
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S2048x2048_S640x2048_S2048x640_1_1_0_0_n_n_wf : DotDims.WF S2048x2048 S640x2048 S2048x640 [1] [1] [0] [0] [] []
  hrank0 : 0 < grid0.rank
  k0_mult1_dvd : ∀ i : grid0.Coords, 640 ∣ (k0_mult1 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .bf16 = 32 ∨ (Rect.block (s := S4096x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .bf16 = 32 ∨ (Rect.block (s := S32000x2048) S640x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .i32 = 32 ∨ (Rect.block (s := S4096x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hrank1 : 0 < grid1.rank
  k1_mult1_dvd : ∀ i : grid1.Coords, 640 ∣ (k1_mult1 i).toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S4096x2048.size a
  hwx1_0 : ∀ i : grid1.Coords, EltTy.bits .bf16 = 32 ∨ (Rect.block (s := S4096x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x2048.size a ≤ S32000x2048.size a
  hwx1_1 : ∀ i : grid1.Coords, EltTy.bits .bf16 = 32 ∨ (Rect.block (s := S32000x2048) S640x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .i32 = 32 ∨ (Rect.block (s := S4096x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .f32 = 32 ∨ (Rect.block (s := S4096x1) S2048x1.size (cc1_transform_3 i) (hinb1_3 i)).WholeWords (EltTy.packing .f32)

variable [Facts₀]

def dot_S2048x2048_S640x2048_S2048x640_1_1_0_0_n_n : DotDims S2048x2048 S640x2048 S2048x640 where
  lhsContracting := [1]
  rhsContracting := [1]
  lhsNonContracting := [0]
  rhsNonContracting := [0]
  lhsBatch := []
  rhsBatch := []
  wf := dot_S2048x2048_S640x2048_S2048x640_1_1_0_0_n_n_wf

abbrev win0_0 : Pipeline.Window sig grid0 :=
  Pipeline.Window.ofSpec (Memref.whole main_v3) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v9) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S640x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S4x1024 : Shape := ⟨2, ![4, 1024]⟩
abbrev S32000x2048 : Shape := ⟨2, ![32000, 2048]⟩
abbrev S_ : Shape := ⟨0, ![]⟩
abbrev S4x1024x32000 : Shape := ⟨3, ![4, 1024, 32000]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4 : Shape := ⟨1, ![4]⟩
abbrev S2 : Shape := ⟨1, ![2]⟩

abbrev nBuf : Space → Nat
  | .hbm => 141
  | .vmem => 0
  | .smem => 0
  | _ => 0

abbrev hbmTy0_0 (i : Nat) : BufTy := match i % 128 with
  | 0 => ⟨S4x1024x2048, .f32⟩
  | 1 => ⟨S4x1024x2048, .f32⟩
  | 2 => ⟨S4x1024, .i32⟩
  | 3 => ⟨S32000x2048, .f32⟩
  | 4 => ⟨S32000x2048, .f32⟩
  | 5 => ⟨S_, .i32⟩
  | 6 => ⟨S4x1024, .i32⟩
  | 7 => ⟨S4x1024, .i1⟩
  | 8 => ⟨S4x1024x32000, .f32⟩
  | 9 => ⟨S_, .f32⟩
  | 10 => ⟨S4x1024, .f32⟩
  | 11 => ⟨S_, .f32⟩
  | 12 => ⟨S4x1024, .f32⟩
  | 13 => ⟨S4x1024, .f32⟩
  | 14 => ⟨S4x1024x1, .f32⟩
  | 15 => ⟨S4x1024x32000, .f32⟩
  | 16 => ⟨S4x1024x32000, .f32⟩
  | 17 => ⟨S4x1024x32000, .f32⟩
  | 18 => ⟨S_, .f32⟩
  | 19 => ⟨S4x1024, .f32⟩
  | 20 => ⟨S4x1024x1, .f32⟩
  | 21 => ⟨S4x1024x1, .f32⟩
  | 22 => ⟨S4x1024x32000, .f32⟩
  | 23 => ⟨S4x1024x32000, .f32⟩
  | 24 => ⟨S_, .i32⟩
  | 25 => ⟨S_, .i32⟩
  | 26 => ⟨S4x1024, .i32⟩
  | 27 => ⟨S4x1024, .i32⟩
  | 28 => ⟨S4x1024x1, .i32⟩
  | 29 => ⟨S_, .i32⟩
  | 30 => ⟨S4x1024x1, .i32⟩
  | 31 => ⟨S4x1024x1, .i1⟩
  | 32 => ⟨S_, .i32⟩
  | 33 => ⟨S4x1024x1, .i32⟩
  | 34 => ⟨S4x1024x1, .i32⟩
  | 35 => ⟨S4x1024x1, .i32⟩
  | 36 => ⟨S4x1024x1x1, .i32⟩
  | 37 => ⟨S1, .i32⟩
  | 38 => ⟨S_, .i32⟩
  | 39 => ⟨S4x1024x1x1, .i32⟩
  | 40 => ⟨S4x1024x1x1, .i1⟩
  | 41 => ⟨S1x1x1x1, .i32⟩
  | 42 => ⟨S4x1024x1x1, .i32⟩
  | 43 => ⟨S4x1024x1x1, .i1⟩
  | 44 => ⟨S4x1024x1x1, .i1⟩
  | 45 => ⟨S_, .i1⟩
  | 46 => ⟨S4x1024x1, .i1⟩
  | 47 => ⟨S4x1024x1, .f32⟩
  | 48 => ⟨S_, .f32⟩
  | 49 => ⟨S4x1024x1, .f32⟩
  | 50 => ⟨S4x1024x1, .f32⟩
  | 51 => ⟨S4x1024, .f32⟩
  | 52 => ⟨S4x1024, .f32⟩
  | 53 => ⟨S4x1024, .f32⟩
  | 54 => ⟨S_, .f32⟩
  | 55 => ⟨S4, .f32⟩
  | 56 => ⟨S_, .f32⟩
  | 57 => ⟨S4, .f32⟩
  | 58 => ⟨S4, .f32⟩
  | 59 => ⟨S4x1024x32000, .f32⟩
  | 60 => ⟨S_, .f32⟩
  | 61 => ⟨S4x1024, .f32⟩
  | 62 => ⟨S_, .f32⟩
  | 63 => ⟨S4x1024, .f32⟩
  | 64 => ⟨S4x1024, .f32⟩
  | 65 => ⟨S4x1024x1, .f32⟩
  | 66 => ⟨S4x1024x32000, .f32⟩
  | 67 => ⟨S4x1024x32000, .f32⟩
  | 68 => ⟨S4x1024x32000, .f32⟩
  | 69 => ⟨S_, .f32⟩
  | 70 => ⟨S4x1024, .f32⟩
  | 71 => ⟨S4x1024x1, .f32⟩
  | 72 => ⟨S4x1024x1, .f32⟩
  | 73 => ⟨S4x1024x32000, .f32⟩
  | 74 => ⟨S4x1024x32000, .f32⟩
  | 75 => ⟨S_, .i32⟩
  | 76 => ⟨S_, .i32⟩
  | 77 => ⟨S4x1024, .i32⟩
  | 78 => ⟨S4x1024, .i32⟩
  | 79 => ⟨S4x1024x1, .i32⟩
  | 80 => ⟨S_, .i32⟩
  | 81 => ⟨S4x1024x1, .i32⟩
  | 82 => ⟨S4x1024x1, .i1⟩
  | 83 => ⟨S_, .i32⟩
  | 84 => ⟨S4x1024x1, .i32⟩
  | 85 => ⟨S4x1024x1, .i32⟩
  | 86 => ⟨S4x1024x1, .i32⟩
  | 87 => ⟨S4x1024x1x1, .i32⟩
  | 88 => ⟨S1, .i32⟩
  | 89 => ⟨S_, .i32⟩
  | 90 => ⟨S4x1024x1x1, .i32⟩
  | 91 => ⟨S4x1024x1x1, .i1⟩
  | 92 => ⟨S1x1x1x1, .i32⟩
  | 93 => ⟨S4x1024x1x1, .i32⟩
  | 94 => ⟨S4x1024x1x1, .i1⟩
  | 95 => ⟨S4x1024x1x1, .i1⟩
  | 96 => ⟨S_, .i1⟩
  | 97 => ⟨S4x1024x1, .i1⟩
  | 98 => ⟨S4x1024x1, .f32⟩
  | 99 => ⟨S_, .f32⟩
  | 100 => ⟨S4x1024x1, .f32⟩
  | 101 => ⟨S4x1024x1, .f32⟩
  | 102 => ⟨S4x1024, .f32⟩
  | 103 => ⟨S4x1024, .f32⟩
  | 104 => ⟨S4x1024, .f32⟩
  | 105 => ⟨S_, .f32⟩
  | 106 => ⟨S4, .f32⟩
  | 107 => ⟨S_, .f32⟩
  | 108 => ⟨S4, .f32⟩
  | 109 => ⟨S4, .f32⟩
  | 110 => ⟨S2, .f32⟩
  | 111 => ⟨S2, .f32⟩
  | 112 => ⟨S2, .f32⟩
  | 113 => ⟨S2, .f32⟩
  | 114 => ⟨S2, .f32⟩
  | 115 => ⟨S2, .f32⟩
  | 116 => ⟨S2, .f32⟩
  | 117 => ⟨S_, .f32⟩
  | 118 => ⟨S2, .f32⟩
  | 119 => ⟨S2, .f32⟩
  | 120 => ⟨S2, .f32⟩
  | 121 => ⟨S_, .f32⟩
  | 122 => ⟨S2, .f32⟩
  | 123 => ⟨S2, .f32⟩
  | 124 => ⟨S2, .f32⟩
  | 125 => ⟨S2, .f32⟩
  | 126 => ⟨S2, .i1⟩
  | 127 => ⟨S2, .f32⟩
  | _ => ⟨S4x1024x2048, .f32⟩

abbrev hbmTy0_1 (i : Nat) : BufTy := match i % 128 with
  | 0 => ⟨S2, .f32⟩
  | 1 => ⟨S2, .f32⟩
  | 2 => ⟨S2, .f32⟩
  | 3 => ⟨S2, .f32⟩
  | 4 => ⟨S2, .f32⟩
  | 5 => ⟨S2, .f32⟩
  | 6 => ⟨S2, .f32⟩
  | 7 => ⟨S2, .f32⟩
  | 8 => ⟨S_, .f32⟩
  | 9 => ⟨S_, .f32⟩
  | 10 => ⟨S_, .f32⟩
  | 11 => ⟨S_, .f32⟩
  | 12 => ⟨S_, .f32⟩
  | _ => ⟨S4x1024x2048, .f32⟩

abbrev hbmTy (i : Nat) : BufTy := match i / 128 with
  | 0 => hbmTy0_0 i
  | 1 => hbmTy0_1 i
  | _ => ⟨S4x1024x2048, .f32⟩

abbrev bufTy : (tb : Table) → Fin (tcTables nBuf tb) → BufTy
  | .hbm, ⟨i, _⟩ => hbmTy i
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v4 : Ref sig .tc := ⟨.hbm, 27, rfl⟩
abbrev main_v5 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call3_cst : Ref sig .tc := ⟨.hbm, 60, rfl⟩
abbrev main_call3_v0 : Ref sig .tc := ⟨.hbm, 61, rfl⟩
abbrev main_call3_cst_0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_cst_1 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_v14 : Ref sig .tc := ⟨.hbm, 74, rfl⟩
abbrev main_c_2 : Ref sig .tc := ⟨.hbm, 75, rfl⟩
abbrev main_call4_v0 : Ref sig .tc := ⟨.hbm, 76, rfl⟩
abbrev main_call4_v1 : Ref sig .tc := ⟨.hbm, 77, rfl⟩
abbrev main_v15 : Ref sig .tc := ⟨.hbm, 78, rfl⟩
abbrev main_v16 : Ref sig .tc := ⟨.hbm, 79, rfl⟩
abbrev main_call5_c : Ref sig .tc := ⟨.hbm, 80, rfl⟩
abbrev main_call5_v0 : Ref sig .tc := ⟨.hbm, 81, rfl⟩
abbrev main_call5_v1 : Ref sig .tc := ⟨.hbm, 82, rfl⟩
abbrev main_call5_c_0 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_c_1 : Ref sig .tc := ⟨.hbm, 88, rfl⟩
abbrev main_call5_c_2 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_call5_c_3 : Ref sig .tc := ⟨.hbm, 96, rfl⟩
abbrev main_call5_v12 : Ref sig .tc := ⟨.hbm, 97, rfl⟩
abbrev main_call5_v13 : Ref sig .tc := ⟨.hbm, 98, rfl⟩
abbrev main_call5_cst : Ref sig .tc := ⟨.hbm, 99, rfl⟩
abbrev main_call5_v14 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_cst_3 : Ref sig .tc := ⟨.hbm, 105, rfl⟩
abbrev main_v21 : Ref sig .tc := ⟨.hbm, 106, rfl⟩
abbrev main_cst_4 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_cst_5 : Ref sig .tc := ⟨.hbm, 117, rfl⟩
abbrev main_v31 : Ref sig .tc := ⟨.hbm, 118, rfl⟩
abbrev main_v32 : Ref sig .tc := ⟨.hbm, 119, rfl⟩
abbrev main_call6_v0 : Ref sig .tc := ⟨.hbm, 120, rfl⟩
abbrev main_call6_call0_cst : Ref sig .tc := ⟨.hbm, 121, rfl⟩
abbrev main_call6_call0_v0 : Ref sig .tc := ⟨.hbm, 122, rfl⟩
abbrev main_call6_call0_v1 : Ref sig .tc := ⟨.hbm, 123, rfl⟩
abbrev main_call6_call0_v2 : Ref sig .tc := ⟨.hbm, 124, rfl⟩
abbrev main_call6_call0_v3 : Ref sig .tc := ⟨.hbm, 125, rfl⟩
abbrev main_call6_call0_v4 : Ref sig .tc := ⟨.hbm, 126, rfl⟩
abbrev main_call6_call0_v5 : Ref sig .tc := ⟨.hbm, 127, rfl⟩
abbrev main_call6_call0_v6 : Ref sig .tc := ⟨.hbm, 128, rfl⟩
abbrev main_call6_call0_v7 : Ref sig .tc := ⟨.hbm, 129, rfl⟩
abbrev main_call6_call0_v8 : Ref sig .tc := ⟨.hbm, 130, rfl⟩
abbrev main_call6_call0_v9 : Ref sig .tc := ⟨.hbm, 131, rfl⟩
abbrev main_call6_call0_v10 : Ref sig .tc := ⟨.hbm, 132, rfl⟩
abbrev main_call6_call0_v11 : Ref sig .tc := ⟨.hbm, 133, rfl⟩
abbrev main_call6_v1 : Ref sig .tc := ⟨.hbm, 134, rfl⟩
abbrev main_v33 : Ref sig .tc := ⟨.hbm, 135, rfl⟩
abbrev main_cst_6 : Ref sig .tc := ⟨.hbm, 136, rfl⟩
abbrev main_v34 : Ref sig .tc := ⟨.hbm, 137, rfl⟩
abbrev main_v35 : Ref sig .tc := ⟨.hbm, 138, rfl⟩
abbrev main_cst_7 : Ref sig .tc := ⟨.hbm, 139, rfl⟩
abbrev main_v36 : Ref sig .tc := ⟨.hbm, 140, rfl⟩

abbrev nD : Nat := 1
abbrev τ : Topo := Topo.v7x

variable {F : FTy → Type} [FloatOps F]

class Facts₀ : Prop where
  bcast_S_S4x1024 : S_.BroadcastsInDim S4x1024 (![] : Fin 0 → Fin S4x1024.rank)
  reducesTo_S4x1024x32000_S4x1024_d2 : S4x1024x32000.ReducesTo [2] S4x1024
  h_S_ : 0 < S_.numel
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  reducesTo_S4x1024_S4_d1 : S4x1024.ReducesTo [1] S4
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S4x1024x2048_S32000x2048_S4x1024x32000_2_1_01_0_n_n_wf : DotDims.WF S4x1024x2048 S32000x2048 S4x1024x32000 [2] [1] [0, 1] [0] [] []
  gather_S4x1024x32000_S4x1024x1x1_S4x1024x1_n_2_01_01_2_3_111_wf : GatherDims.WF S4x1024x32000 S4x1024x1x1 S4x1024x1 [] [2] [0, 1] [2] [0, 1] 3 ![1, 1, 1]

variable [Facts₀]

def dot_S4x1024x2048_S32000x2048_S4x1024x32000_2_1_01_0_n_n : DotDims S4x1024x2048 S32000x2048 S4x1024x32000 where
  lhsContracting := [2]
  rhsContracting := [1]
  lhsNonContracting := [0, 1]
  rhsNonContracting := [0]
  lhsBatch := []
  rhsBatch := []
  wf := dot_S4x1024x2048_S32000x2048_S4x1024x32000_2_1_01_0_n_n_wf
def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf

class Facts : Prop extends Facts₀ where

variable [Facts]
-- ==== Proof.KbState.lean ====
/-
  The three per-row accumulators a launch of the kernel carries from one vocabulary block to the next — the
  running maximum `m`, the running sum of exponentials `l` (kept relative to `m`) and the target logit `g` —
  as ONE record, and one grid point's effect on it, written over the skeleton's payloads. At any float
  instance: nothing here evaluates an operation.

  * `init`: what the first vocabulary block of a row block resets them to (`m = -∞`, `l = g = 0`);
  * `step i xb wb yb s`: from the block's logits `xb · wbᵀ`, `m' = max m (row max)`,
    `l' = exp (m - m') · l + ∑ exp (logits - m')`, `g' = g + ∑ [position = label] · logits`;
  * `out s = g - (m + log l)`: what the last vocabulary block stores.
  The two launches' payloads are the same terms under two names; `step1 = step0` and so on say so.
-/
import proofs.«425399_j87299505259073_2_alg».proof.Proof.Gen.Kernel.Skeleton

noncomputable section

namespace Cert.Kernel.KS

open Idealize.ShloMosaic Cert.Kernel Cert.Kernel.Gen

variable {F : FTy → Type} [FloatOps F]

/-- The carried accumulators of one row block: running maximum, running sum, target logit. -/
structure St (F : FTy → Type) [FloatOps F] where
  m : Vec F S2048x1 .f32
  l : Vec F S2048x1 .f32
  g : Vec F S2048x1 .f32

/-- The reset at a row block's first vocabulary block. -/
def init0 : St F := ⟨k0_pay4 (F := F), k0_pay5 (F := F), k0_pay6 (F := F)⟩

/-- One vocabulary block's update (launch 0's payloads). -/
def step0 (i : grid0.Coords) (xb : Vec F S2048x2048 .bf16) (wb : Vec F S640x2048 .bf16) (yb : Vec F S2048x1 .i32) (s : St F) : St F :=
  ⟨k0_pay2 (k0_pay9 xb wb s.m), k0_pay1 (k0_pay10 xb wb s.m) (k0_pay11 xb wb s.m) s.l, k0_pay8 i xb wb yb s.g⟩

/-- What the last vocabulary block stores into the output block. -/
def out0 (s : St F) : Vec F S2048x1 .f32 := k0_pay3 s.m s.l s.g

def init1 : St F := ⟨k1_pay4 (F := F), k1_pay5 (F := F), k1_pay6 (F := F)⟩

def step1 (i : grid1.Coords) (xb : Vec F S2048x2048 .bf16) (wb : Vec F S640x2048 .bf16) (yb : Vec F S2048x1 .i32) (s : St F) : St F :=
  ⟨k1_pay2 (k1_pay9 xb wb s.m), k1_pay1 (k1_pay10 xb wb s.m) (k1_pay11 xb wb s.m) s.l, k1_pay8 i xb wb yb s.g⟩

def out1 (s : St F) : Vec F S2048x1 .f32 := k1_pay3 s.m s.l s.g

theorem init1_eq : (init1 : St F) = init0 := rfl
theorem step1_eq (i : grid0.Coords) (xb : Vec F S2048x2048 .bf16) (wb : Vec F S640x2048 .bf16) (yb : Vec F S2048x1 .i32) (s : St F) :
    step1 i xb wb yb s = step0 i xb wb yb s := rfl
theorem out1_eq (s : St F) : out1 s = out0 s := rfl

end Cert.Kernel.KS

end
-- ==== Proof.KbRegion0.lean ====
/-
  Region 0 of the program: the first launch of the fused head, on a grid of 2 row blocks by 50 vocabulary blocks,
  stated at parametric entry contents `V` and at any float instance.

  The body carries three per-row accumulators from one vocabulary block to the next (`KS.St`: the running maximum, the
  running sum of exponentials relative to it, the target logit). At a point of the grid it does one of three things:
  * FIRST (vocabulary block 0): reset the accumulators, then update them with the block — `KS.step0 … KS.init0`;
  * MID: update them — `KS.step0 … s` over what the point before left, `s`;
  * LAST (vocabulary block 49): update them, then store `KS.out0` of the result into the output block.
  Each case is a triple over whole memrefs (`sound_kernel_first` / `_mid` / `_last`): every store is of a whole
  buffer, so a buffer ends at its last stored payload and a load after a store reads the stored payload.

  From the triples: the accumulators after each point of the grid's order (`stAt`, by recursion on the position, with
  its two unfolding equations `stAt_first` / `stAt_next`), the invariant (`PhiS`: before the first point every
  accumulator at anything; afterwards at `stAt` of the point before), the proof data `dat` (inputs left at their
  blocks; the output block at `KS.out0 (stAt …)`, stored only at the last vocabulary block and idle elsewhere) and
  the body obligation at every point.
-/
import proofs.«425399_j87299505259073_2_alg».proof.Proof.Gen.Kernel.Launch
import proofs.«425399_j87299505259073_2_alg».proof.Proof.Gen.Kernel.Skeleton
import proofs.«425399_j87299505259073_2_alg».proof.Proof.Gen.Kernel.Points
import proofs.«425399_j87299505259073_2_alg».proof.Proof.KbState
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first conditional (the vocabulary block is the first one), from the grid coordinates. -/
abbrev cond0_0 (i : grid0.Coords) : Prop := (Scalar.cmpi .ne (Scalar.extui (Scalar.cmpi .eq (BitVec.ofNat 32 (i 1).val) 0#32)) 0#32) = 1#1
/-- The condition of the second one (the vocabulary block is the last one). -/
abbrev cond0_1 (i : grid0.Coords) : Prop := k0_cond2 i = 1#1

/-- The zero offsets of a rank-2 whole-buffer access, as the constant function. -/
theorem zeros2 : (![0, 0] : Fin 2 → ℕ) = fun _ => 0 := by
  funext a; fin_cases a <;> rfl

/-- A load of the whole of a whole buffer whose contents are named by what they read: it reads that. -/
theorem readAt_unread {S : Shape} {e : EltTy} (m : Memref sig .tc .vmem S e) (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- Stores into a buffer, the last of them of the whole buffer: it then reads as that store's payload. -/
theorem read_writes_unit {S : Shape} {e : EltTy} (m : Memref sig .tc .vmem S e) {off : Fin S.rank → ℕ}
    (h : off = fun _ => 0) (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h inb w L]

/-- A load of the whole buffer after one store of the whole buffer reads the store's payload. -/
theorem readCov_unit {S : Shape} {e : EltTy} (m : Memref sig .tc .vmem S e) {off : Fin S.rank → ℕ}
    (h : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view h inb w

/-! ## The body's three cases -/

set_option maxHeartbeats 1000000 in
/-- The body at the first vocabulary block of a row block: on whole memrefs, the three inputs at their blocks, the
    output's buffer at any contents (left as found) and the accumulators at anything, it resets them and runs to the
    continuation holding them at `KS.step0 i x0 w0 y0 KS.init0`. -/
theorem sound_kernel_first (c : Dev nD) (E : Set ℕ) (i : grid0.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond0_0 i) (hc1 : ¬cond0_1 i)
    (x0 : Vec F S2048x2048 .bf16) (w0 : Vec F S640x2048 .bf16) (y0 : Vec F S2048x1 .i32) (o0 : Vec F S2048x1 .f32)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step0 i x0 w0 y0 KS.init0).m ∗ owns (c : Thread nD τ) arg7 fullShare (KS.step0 i x0 w0 y0 KS.init0).l
            ∗ owns (c : Thread nD τ) arg8 fullShare (KS.step0 i x0 w0 y0 KS.init0).g) -∗ K ⟨⟩))
      ⊢ wp frame (wpE (defs₀ (F := F)) Variants.none c none) E (cc0__seq_logp_kernel i arg2 harg2 arg3 harg3 arg4 harg4 arg5 harg5 arg6 harg6 arg7 harg7 arg8 harg8) K := by
  simp only [cc0__seq_logp_kernel_eq_skeleton]; unfold cc0__seq_logp_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readCov_unit arg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readCov_unit arg6 zeros2, readCov_unit arg7 zeros2]
    rfl
  · iexists _; isplitr
    swap; · iexact H8
    ipureintro
    refine (read_writes_unit arg8 zeros2 _ _ _ _).trans ?_
    sl_unfold_run_names
    rw [readAt_unread arg2 harg2 zeros2, readAt_unread arg3 harg3 zeros2, readAt_unread arg4 harg4 zeros2, readCov_unit arg8 zeros2]
    rfl

set_option maxHeartbeats 1000000 in
/-- The body at a vocabulary block that is neither the first nor the last of its row block: on whole memrefs, the three
    inputs at their blocks, the output's buffer at any contents (left as found) and the accumulators at `s`, it runs to
    the continuation holding the accumulators at `KS.step0 i x0 w0 y0 s`. -/
theorem sound_kernel_mid (c : Dev nD) (E : Set ℕ) (i : grid0.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : ¬cond0_1 i)
    (x0 : Vec F S2048x2048 .bf16) (w0 : Vec F S640x2048 .bf16) (y0 : Vec F S2048x1 .i32) (o0 : Vec F S2048x1 .f32) (s : KS.St F)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step0 i x0 w0 y0 s).m ∗ owns (c : Thread nD τ) arg7 fullShare (KS.step0 i x0 w0 y0 s).l
            ∗ owns (c : Thread nD τ) arg8 fullShare (KS.step0 i x0 w0 y0 s).g) -∗ K ⟨⟩))
      ⊢ wp frame (wpE (defs₀ (F := F)) Variants.none c none) E (cc0__seq_logp_kernel i arg2 harg2 arg3 harg3 arg4 harg4 arg5 harg5 arg6 harg6 arg7 harg7 arg8 harg8) K := by
  simp only [cc0__seq_logp_kernel_eq_skeleton]; unfold cc0__seq_logp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

set_option maxHeartbeats 1000000 in
/-- The body at the last vocabulary block of a row block: on whole memrefs, the three inputs at their blocks, the
    output's buffer at anything and the accumulators at `s`, it runs to the continuation holding the accumulators at
    `KS.step0 i x0 w0 y0 s` and the output's buffer at `KS.out0` of that. -/
theorem sound_kernel_last (c : Dev nD) (E : Set ℕ) (i : grid0.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : cond0_1 i)
    (x0 : Vec F S2048x2048 .bf16) (w0 : Vec F S640x2048 .bf16) (y0 : Vec F S2048x1 .i32) (s : KS.St F)
    (K : PUnit → sProp 𝕄) :
    iprop(owns (c : Thread nD τ) arg2 fullShare x0 ∗ owns (c : Thread nD τ) arg3 fullShare w0 ∗ owns (c : Thread nD τ) arg4 fullShare y0
        ∗ (∃ d, owns (c : Thread nD τ) arg5 fullShare d)
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare (KS.out0 (KS.step0 i x0 w0 y0 s))
            ∗ owns (c : Thread nD τ) arg6 fullShare (KS.step0 i x0 w0 y0 s).m ∗ owns (c : Thread nD τ) arg7 fullShare (KS.step0 i x0 w0 y0 s).l
            ∗ owns (c : Thread nD τ) arg8 fullShare (KS.step0 i x0 w0 y0 s).g) -∗ K ⟨⟩))
      ⊢ wp frame (wpE (defs₀ (F := F)) Variants.none c none) E (cc0__seq_logp_kernel i arg2 harg2 arg3 harg3 arg4 harg4 arg5 harg5 arg6 harg6 arg7 harg7 arg8 harg8) K := by
  simp only [cc0__seq_logp_kernel_eq_skeleton]; unfold cc0__seq_logp_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit arg5 zeros2 _ _ _ _).trans ?_
    sl_unfold_run_names
    rw [readAt_unread arg2 harg2 zeros2, readAt_unread arg3 harg3 zeros2, readAt_unread arg4 harg4 zeros2,
      readAt_unread arg6 harg6 zeros2, readAt_unread arg7 harg7 zeros2, readAt_unread arg8 harg8 zeros2,
      readCov_unit arg6 zeros2, readCov_unit arg7 zeros2, readCov_unit arg8 zeros2]
    rfl
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

/-! ## The conditions over the grid, and where the output window is idle -/

/-- The first conditional is taken at the points ≡ 0 (mod 50): decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)
/-- The second at the points ≡ 49 (mod 50). -/
theorem hcond0_1 : ∀ t : Fin cfg0.N, cond0_1 (grid0.coords t) ↔ t.val % 50 = 49 :=
  (by decide +kernel : ∀ t : Fin grid0.N, cond0_1 (grid0.coords t) ↔ t.val % 50 = 49)

/-- The input windows are never idle. -/
theorem liveAt_in0 : ∀ t : Fin cfg0.N, cfg0.idle 0 (grid0.coords t) = false := by decide +kernel
theorem liveAt_in1 : ∀ t : Fin cfg0.N, cfg0.idle 1 (grid0.coords t) = false := by decide +kernel
theorem liveAt_in2 : ∀ t : Fin cfg0.N, cfg0.idle 2 (grid0.coords t) = false := by decide +kernel
/-- Off the last vocabulary block the output window is idle, and its block is not written back; -/
theorem idleAt_out : ∀ t : Fin cfg0.N, ¬cond0_1 (grid0.coords t) → cfg0.idle 3 (grid0.coords t) = true := by decide +kernel
theorem noFlush_out : ∀ t : Fin cfg0.N, ¬cond0_1 (grid0.coords t) → (cfg0.win 3).flush t = false := by decide +kernel
/-- at it the window is live. -/
theorem liveAt_out : ∀ t : Fin cfg0.N, cond0_1 (grid0.coords t) → cfg0.idle 3 (grid0.coords t) = false := by decide +kernel

/-! ## The memrefs the pipeline calls the body with -/

abbrev ms0 (t : Fin cfg0.N) : Memref sig .tc .vmem S2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .f32 := win0_3.stage (cfg0.slots t 3)
abbrev hs3 (t : Fin cfg0.N) : (ms3 t).IsWhole := hstage0_3 ((cfg0.slots t 3).cast nbuf0_3)
/-- The three accumulators: whole scoped buffers of the kernel's own, passed beside the windows. -/
abbrev scM0 : Memref sig .tc .vmem S2048x1 .f32 := Memref.whole cc0_scratch0
abbrev scM1 : Memref sig .tc .vmem S2048x1 .f32 := Memref.whole cc0_scratch1
abbrev scM2 : Memref sig .tc .vmem S2048x1 .f32 := Memref.whole cc0_scratch2

/-- The core's scoped buffers that are neither a staging buffer of this launch nor one of its accumulators, each at
    some contents: the body does not touch them. -/
def restR (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))

/-- The launch's invariant with the accumulators as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ restR (F := F) c) ∗ (∃ r, prngReg c r)) := by
  unfold Pipeline.ΦA restR; rw [scopedRest0_eq]; simp only [scM0, scM1, scM2, owns_whole]; try rfl

section Data

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents' and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents' and whose body leaves the block in place. -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents' and whose body leaves the block in place. -/
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulators after each point -/

/-- One point's update of the accumulators, at position `n` of the grid's order (no update past the grid). -/
def stepAt (c : Dev nD) (n : ℕ) (s : KS.St F) : KS.St F :=
  if h : n < cfg0.N then KS.step0 (grid0.coords ⟨n, h⟩) (iblk V c 0 ⟨n, h⟩) (iblk V c 1 ⟨n, h⟩) (iblk V c 2 ⟨n, h⟩) s else s

/-- The accumulators after the body at position `n`: the point's update of what the point before left, of the reset
    values at a row block's first vocabulary block. -/
def stAt (c : Dev nD) : ℕ → KS.St F
  | 0 => stepAt V c 0 KS.init0
  | n + 1 => stepAt V c (n + 1) (if (n + 1) % 50 = 0 then KS.init0 else stAt c n)

theorem stAt_first (c : Dev nD) (t : Fin cfg0.N) (h : t.val % 50 = 0) :
    stAt V c t.val = KS.step0 (grid0.coords t) (iblk V c 0 t) (iblk V c 1 t) (iblk V c 2 t) KS.init0 := by
  obtain ⟨n, hn⟩ := t
  cases n with
  | zero => unfold stAt stepAt; rw [dif_pos hn]
  | succ n =>
    unfold stAt; rw [if_pos h]; unfold stepAt; rw [dif_pos hn]

theorem stAt_next (c : Dev nD) (t : Fin cfg0.N) (h : t.val % 50 ≠ 0) :
    stAt V c t.val = KS.step0 (grid0.coords t) (iblk V c 0 t) (iblk V c 1 t) (iblk V c 2 t) (stAt V c (t.val - 1)) := by
  obtain ⟨n, hn⟩ := t
  cases n with
  | zero => exact absurd (Nat.zero_mod _) h
  | succ n =>
    rw [show (⟨n + 1, hn⟩ : Fin cfg0.N).val - 1 = n from Nat.add_sub_cancel n 1]
    conv_lhs => unfold stAt
    rw [if_neg h]; unfold stepAt; rw [dif_pos hn]

/-! ## The invariant -/

/-- The region invariant before position `n`: before the first point the launch's own (every accumulator at anything);
    afterwards the accumulators at what the point before left, the untouched scoped buffers and the generator register
    at some state. -/
def PhiS (c : Dev nD) : ℕ → sProp 𝕄
  | 0 => Pipeline.ΦA spec0 c
  | n + 1 => iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r))

theorem PhiS_zero (c : Dev nD) (n : ℕ) (hz : n = 0) : PhiS V c n = Pipeline.ΦA spec0 c := by
  subst hz; rfl

theorem PhiS_succ (c : Dev nD) (n : ℕ) :
    PhiS V c (n + 1) = iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r)) := rfl

theorem PhiS_pos (c : Dev nD) (n : ℕ) (hz : n ≠ 0) :
    PhiS V c n = iprop(iprop(owns (c : Thread nD τ) scM0 fullShare (stAt V c (n - 1)).m ∗ owns (c : Thread nD τ) scM1 fullShare (stAt V c (n - 1)).l
      ∗ owns (c : Thread nD τ) scM2 fullShare (stAt V c (n - 1)).g ∗ restR (F := F) c) ∗ (∃ r, prngReg c r)) := by
  cases n with
  | zero => exact absurd rfl hz
  | succ n => rfl

/-! ## The pipeline's proof data -/

/-- The proof data of the launch on core `c`: the arrays as the region finds them (`V`); after the body at point `t`
    each input's buffer at its block and the output's at `KS.out0` of the accumulators there; the invariant `PhiS`;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => KS.out0 (stAt V c t.val)
  Φ t := PhiS V c t.val
  q _ := fullShare
  owed _ := 0

theorem A_eq (c : Dev nD) (w : Fin cfg0.W) : (dat V c).A w = V c (Pipeline.arrRef spec0 w) := by
  dsimp only [dat]
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_out (c : Dev nD) (t : Fin cfg0.N) : (dat V c).after 3 t = KS.out0 (stAt V c t.val) := by dsimp only [dat]
theorem owed_zero (c : Dev nD) (t : Fin (cfg0.N + 1)) : (dat V c).owed t = 0 := by dsimp only [dat]
theorem q_full (c : Dev nD) (w : Fin cfg0.W) : (dat V c).q w = fullShare := by dsimp only [dat]
theorem recorded_univ (c : Dev nD) (t : Fin (cfg0.N + 1)) : (dat V c).recorded t = Set.univ := by dsimp only [dat]

theorem PhiS_castSucc (c : Dev nD) (t : Fin cfg0.N) : (dat V c).Φ t.castSucc = PhiS V c t.val := by
  dsimp only [dat]; simp only [Fin.coe_castSucc]

theorem before_in0 (c : Dev nD) (t : Fin cfg0.N) (d) : (dat V c).before 0 t d = iblk V c 0 t :=
  before_in0_of V (dat V c) (A_eq V c 0) (after_in0 V c) t d
theorem before_in1 (c : Dev nD) (t : Fin cfg0.N) (d) : (dat V c).before 1 t d = iblk V c 1 t :=
  before_in1_of V (dat V c) (A_eq V c 1) (after_in1 V c) t d
theorem before_in2 (c : Dev nD) (t : Fin cfg0.N) (d) : (dat V c).before 2 t d = iblk V c 2 t :=
  before_in2_of V (dat V c) (A_eq V c 2) (after_in2 V c) t d

/-- What the launch hands the region is the invariant before the first point. -/
theorem hin (c : Dev nD) : (Pipeline.ΦA spec0 c : sProp 𝕄) ⊢ (dat V c).Φ 0 := by
  rw [show (dat V c).Φ 0 = PhiS V c 0 from rfl, PhiS_zero V c 0 rfl]
  try exact Idealize.SL.BI.Entails.refl _

/-- After any point the invariant gives the launch's own back: the accumulators' named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val from rfl, PhiS_pos V c _ ht, PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

theorem hout (c : Dev nD) : (dat V c).Φ (Fin.last cfg0.N) ⊢ (Pipeline.ΦA spec0 c : sProp 𝕄) :=
  Phi_out V c _ (by rw [Fin.val_last]; have : cfg0.N = 100 := N_0; omega)

/-! ## The body obligation, at a generic point -/

/-- What the exact obligation's post says of an input window's buffer: it holds the block. -/
theorem leaves_in0 (c : Dev nD) (t : Fin cfg0.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt_in0 t], after_in0]
theorem leaves_in1 (c : Dev nD) (t : Fin cfg0.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt_in1 t], after_in1]
theorem leaves_in2 (c : Dev nD) (t : Fin cfg0.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt_in2 t], after_in2]

/-- What the body is called with at point `t` (the library's obligation, the windows one by one), -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which of the three cases the
    point is in; the invariant hands the body the accumulators at what the point before left (at anything before a
    row block's first vocabulary block) and takes them back at this point's; off the last vocabulary block the output's
    buffer is handed back as found, at it the buffer holds `KS.out0` of the accumulators; the core owes nothing
    throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2]
  rw [show (dat V c).owesAt () t.succ = (dat V c).owesAt () t.castSucc from rfl]
  rw [show (dat V c).Φ t.succ = PhiS V c (t.val + 1) from rfl, PhiS_succ, PhiS_castSucc]
  rw [leaves_in0, leaves_in1, leaves_in2]
  have hN : t.val < 100 := lt_of_lt_of_eq t.isLt (show cfg0.N = 100 from N_0)
  by_cases h0 : t.val % 50 = 0
  · have h1 : ¬t.val % 50 = 49 := by omega
    have hc0 : cond0_0 (grid0.coords t) := (hcond0_0 t).mpr h0
    have hc1 : ¬cond0_1 (grid0.coords t) := fun h => h1 ((hcond0_1 t).mp h)
    rw [Dat.leavesExact_idle (dat V c) 3 t (idleAt_out t hc1) (noFlush_out t hc1), stAt_first V c t h0]
    by_cases hz : t.val = 0
    · rw [PhiS_zero V c _ hz, PhiA0_eq]
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid0.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
    · rw [PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid0.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
  · have hz : t.val ≠ 0 := by omega
    have hc0 : ¬cond0_0 (grid0.coords t) := fun h => h0 ((hcond0_0 t).mp h)
    by_cases h1 : t.val % 50 = 49
    · have hc1 : cond0_1 (grid0.coords t) := (hcond0_1 t).mpr h1
      rw [show (dat V c).leavesExact 3 t = owns (c : Thread nD τ) (ms3 t) fullShare ((dat V c).after 3 t) from by
        unfold Dat.leavesExact; rw [liveAt_out t hc1], after_out]
      rw [stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_last c Set.univ (grid0.coords t) _ _ _ _ _ _ _ _ _ _ _ _ _ _ hc0 hc1 (iblk V c 0 t) (iblk V c 1 t) (iblk V c 2 t) (stAt V c (t.val - 1)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat V c) 3 t (idleAt_out t hc1) (noFlush_out t hc1), stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_mid c Set.univ (grid0.coords t) _ _ _ _ _ _ _ _ _ _ _ _ _ _ hc0 hc1 (iblk V c 0 t) (iblk V c 1 t) (iblk V c 2 t) ((dat V c).before 3 t d3) (stAt V c (t.val - 1)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

end Data

end Cert.Kernel.Reg0

end
-- ==== Proof.KbRegion1.lean ====
/-
  Region 1 of the program: the second launch of the fused head, on a grid of 2 row blocks by 50 vocabulary blocks,
  stated at parametric entry contents `V` and at any float instance.

  The body carries three per-row accumulators from one vocabulary block to the next (`KS.St`: the running maximum, the
  running sum of exponentials relative to it, the target logit). At a point of the grid it does one of three things:
  * FIRST (vocabulary block 0): reset the accumulators, then update them with the block — `KS.step1 … KS.init1`;
  * MID: update them — `KS.step1 … s` over what the point before left, `s`;
  * LAST (vocabulary block 49): update them, then store `KS.out1` of the result into the output block.
  Each case is a triple over whole memrefs (`sound_kernel_first` / `_mid` / `_last`): every store is of a whole
  buffer, so a buffer ends at its last stored payload and a load after a store reads the stored payload.

  From the triples: the accumulators after each point of the grid's order (`stAt`, by recursion on the position, with
  its two unfolding equations `stAt_first` / `stAt_next`), the invariant (`PhiS`: before the first point every
  accumulator at anything; afterwards at `stAt` of the point before), the proof data `dat` (inputs left at their
  blocks; the output block at `KS.out1 (stAt …)`, stored only at the last vocabulary block and idle elsewhere) and
  the body obligation at every point.
-/
import proofs.«425399_j87299505259073_2_alg».proof.Proof.Gen.Kernel.Launch
import proofs.«425399_j87299505259073_2_alg».proof.Proof.Gen.Kernel.Skeleton
import proofs.«425399_j87299505259073_2_alg».proof.Proof.Gen.Kernel.Points
import proofs.«425399_j87299505259073_2_alg».proof.Proof.KbState
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first conditional (the vocabulary block is the first one), from the grid coordinates. -/
abbrev cond1_0 (i : grid1.Coords) : Prop := (Scalar.cmpi .ne (Scalar.extui (Scalar.cmpi .eq (BitVec.ofNat 32 (i 1).val) 0#32)) 0#32) = 1#1
/-- The condition of the second one (the vocabulary block is the last one). -/
abbrev cond1_1 (i : grid1.Coords) : Prop := k1_cond2 i = 1#1

/-- The zero offsets of a rank-2 whole-buffer access, as the constant function. -/
theorem zeros2 : (![0, 0] : Fin 2 → ℕ) = fun _ => 0 := by
  funext a; fin_cases a <;> rfl

/-- A load of the whole of a whole buffer whose contents are named by what they read: it reads that. -/
theorem readAt_unread {S : Shape} {e : EltTy} (m : Memref sig .tc .vmem S e) (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- Stores into a buffer, the last of them of the whole buffer: it then reads as that store's payload. -/
theorem read_writes_unit {S : Shape} {e : EltTy} (m : Memref sig .tc .vmem S e) {off : Fin S.rank → ℕ}
    (h : off = fun _ => 0) (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h inb w L]

/-- A load of the whole buffer after one store of the whole buffer reads the store's payload. -/
theorem readCov_unit {S : Shape} {e : EltTy} (m : Memref sig .tc .vmem S e) {off : Fin S.rank → ℕ}
    (h : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view h inb w

/-! ## The body's three cases -/

set_option maxHeartbeats 1000000 in
/-- The body at the first vocabulary block of a row block: on whole memrefs, the three inputs at their blocks, the
    output's buffer at any contents (left as found) and the accumulators at anything, it resets them and runs to the
    continuation holding them at `KS.step1 i x0 w0 y0 KS.init1`. -/
theorem sound_kernel_first (c : Dev nD) (E : Set ℕ) (i : grid1.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond1_0 i) (hc1 : ¬cond1_1 i)
    (x0 : Vec F S2048x2048 .bf16) (w0 : Vec F S640x2048 .bf16) (y0 : Vec F S2048x1 .i32) (o0 : Vec F S2048x1 .f32)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step1 i x0 w0 y0 KS.init1).m ∗ owns (c : Thread nD τ) arg7 fullShare (KS.step1 i x0 w0 y0 KS.init1).l
            ∗ owns (c : Thread nD τ) arg8 fullShare (KS.step1 i x0 w0 y0 KS.init1).g) -∗ K ⟨⟩))
      ⊢ wp frame (wpE (defs₀ (F := F)) Variants.none c none) E (cc1__seq_logp_kernel i arg2 harg2 arg3 harg3 arg4 harg4 arg5 harg5 arg6 harg6 arg7 harg7 arg8 harg8) K := by
  simp only [cc1__seq_logp_kernel_eq_skeleton]; unfold cc1__seq_logp_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readCov_unit arg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readCov_unit arg6 zeros2, readCov_unit arg7 zeros2]
    rfl
  · iexists _; isplitr
    swap; · iexact H8
    ipureintro
    refine (read_writes_unit arg8 zeros2 _ _ _ _).trans ?_
    sl_unfold_run_names
    rw [readAt_unread arg2 harg2 zeros2, readAt_unread arg3 harg3 zeros2, readAt_unread arg4 harg4 zeros2, readCov_unit arg8 zeros2]
    rfl

set_option maxHeartbeats 1000000 in
/-- The body at a vocabulary block that is neither the first nor the last of its row block: on whole memrefs, the three
    inputs at their blocks, the output's buffer at any contents (left as found) and the accumulators at `s`, it runs to
    the continuation holding the accumulators at `KS.step1 i x0 w0 y0 s`. -/
theorem sound_kernel_mid (c : Dev nD) (E : Set ℕ) (i : grid1.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : ¬cond1_1 i)
    (x0 : Vec F S2048x2048 .bf16) (w0 : Vec F S640x2048 .bf16) (y0 : Vec F S2048x1 .i32) (o0 : Vec F S2048x1 .f32) (s : KS.St F)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step1 i x0 w0 y0 s).m ∗ owns (c : Thread nD τ) arg7 fullShare (KS.step1 i x0 w0 y0 s).l
            ∗ owns (c : Thread nD τ) arg8 fullShare (KS.step1 i x0 w0 y0 s).g) -∗ K ⟨⟩))
      ⊢ wp frame (wpE (defs₀ (F := F)) Variants.none c none) E (cc1__seq_logp_kernel i arg2 harg2 arg3 harg3 arg4 harg4 arg5 harg5 arg6 harg6 arg7 harg7 arg8 harg8) K := by
  simp only [cc1__seq_logp_kernel_eq_skeleton]; unfold cc1__seq_logp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

set_option maxHeartbeats 1000000 in
/-- The body at the last vocabulary block of a row block: on whole memrefs, the three inputs at their blocks, the
    output's buffer at anything and the accumulators at `s`, it runs to the continuation holding the accumulators at
    `KS.step1 i x0 w0 y0 s` and the output's buffer at `KS.out1` of that. -/
theorem sound_kernel_last (c : Dev nD) (E : Set ℕ) (i : grid1.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : cond1_1 i)
    (x0 : Vec F S2048x2048 .bf16) (w0 : Vec F S640x2048 .bf16) (y0 : Vec F S2048x1 .i32) (s : KS.St F)
    (K : PUnit → sProp 𝕄) :
    iprop(owns (c : Thread nD τ) arg2 fullShare x0 ∗ owns (c : Thread nD τ) arg3 fullShare w0 ∗ owns (c : Thread nD τ) arg4 fullShare y0
        ∗ (∃ d, owns (c : Thread nD τ) arg5 fullShare d)
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare (KS.out1 (KS.step1 i x0 w0 y0 s))
            ∗ owns (c : Thread nD τ) arg6 fullShare (KS.step1 i x0 w0 y0 s).m ∗ owns (c : Thread nD τ) arg7 fullShare (KS.step1 i x0 w0 y0 s).l
            ∗ owns (c : Thread nD τ) arg8 fullShare (KS.step1 i x0 w0 y0 s).g) -∗ K ⟨⟩))
      ⊢ wp frame (wpE (defs₀ (F := F)) Variants.none c none) E (cc1__seq_logp_kernel i arg2 harg2 arg3 harg3 arg4 harg4 arg5 harg5 arg6 harg6 arg7 harg7 arg8 harg8) K := by
  simp only [cc1__seq_logp_kernel_eq_skeleton]; unfold cc1__seq_logp_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit arg5 zeros2 _ _ _ _).trans ?_
    sl_unfold_run_names
    rw [readAt_unread arg2 harg2 zeros2, readAt_unread arg3 harg3 zeros2, readAt_unread arg4 harg4 zeros2,
      readAt_unread arg6 harg6 zeros2, readAt_unread arg7 harg7 zeros2, readAt_unread arg8 harg8 zeros2,
      readCov_unit arg6 zeros2, readCov_unit arg7 zeros2, readCov_unit arg8 zeros2]
    rfl
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

/-! ## The conditions over the grid, and where the output window is idle -/

/-- The first conditional is taken at the points ≡ 0 (mod 50): decided over the grid. -/
theorem hcond1_0 : ∀ t : Fin cfg1.N, cond1_0 (grid1.coords t) ↔ t.val % 50 = 0 :=
  (by decide +kernel : ∀ t : Fin grid1.N, cond1_0 (grid1.coords t) ↔ t.val % 50 = 0)
/-- The second at the points ≡ 49 (mod 50). -/
theorem hcond1_1 : ∀ t : Fin cfg1.N, cond1_1 (grid1.coords t) ↔ t.val % 50 = 49 :=
  (by decide +kernel : ∀ t : Fin grid1.N, cond1_1 (grid1.coords t) ↔ t.val % 50 = 49)

/-- The input windows are never idle. -/
theorem liveAt_in0 : ∀ t : Fin cfg1.N, cfg1.idle 0 (grid1.coords t) = false := by decide +kernel
theorem liveAt_in1 : ∀ t : Fin cfg1.N, cfg1.idle 1 (grid1.coords t) = false := by decide +kernel
theorem liveAt_in2 : ∀ t : Fin cfg1.N, cfg1.idle 2 (grid1.coords t) = false := by decide +kernel
/-- Off the last vocabulary block the output window is idle, and its block is not written back; -/
theorem idleAt_out : ∀ t : Fin cfg1.N, ¬cond1_1 (grid1.coords t) → cfg1.idle 3 (grid1.coords t) = true := by decide +kernel
theorem noFlush_out : ∀ t : Fin cfg1.N, ¬cond1_1 (grid1.coords t) → (cfg1.win 3).flush t = false := by decide +kernel
/-- at it the window is live. -/
theorem liveAt_out : ∀ t : Fin cfg1.N, cond1_1 (grid1.coords t) → cfg1.idle 3 (grid1.coords t) = false := by decide +kernel

/-! ## The memrefs the pipeline calls the body with -/

abbrev ms0 (t : Fin cfg1.N) : Memref sig .tc .vmem S2048x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S640x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x1 .f32 := win1_3.stage (cfg1.slots t 3)
abbrev hs3 (t : Fin cfg1.N) : (ms3 t).IsWhole := hstage1_3 ((cfg1.slots t 3).cast nbuf1_3)
/-- The three accumulators: whole scoped buffers of the kernel's own, passed beside the windows. -/
abbrev scM0 : Memref sig .tc .vmem S2048x1 .f32 := Memref.whole cc1_scratch0
abbrev scM1 : Memref sig .tc .vmem S2048x1 .f32 := Memref.whole cc1_scratch1
abbrev scM2 : Memref sig .tc .vmem S2048x1 .f32 := Memref.whole cc1_scratch2

/-- The core's scoped buffers that are neither a staging buffer of this launch nor one of its accumulators, each at
    some contents: the body does not touch them. -/
def restR (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))

/-- The launch's invariant, in the order the accumulators are used below: they first, at some contents each, then the
    untouched scoped buffers, and the generator register at some state. -/
def PhiAny (c : Dev nD) : sProp 𝕄 :=
  iprop(iprop((∃ d, owns (c : Thread nD τ) scM0 fullShare d) ∗ (∃ d, owns (c : Thread nD τ) scM1 fullShare d)
      ∗ (∃ d, owns (c : Thread nD τ) scM2 fullShare d) ∗ restR (F := F) c) ∗ (∃ r, prngReg c r))

/-- The launch's invariant with the accumulators as memrefs owned at some contents, in the order the scoped buffers are
    listed: the accumulators come last. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ d, owns (c : Thread nD τ) scM0 fullShare d) ∗ (∃ d, owns (c : Thread nD τ) scM1 fullShare d)
      ∗ (∃ d, owns (c : Thread nD τ) scM2 fullShare d)) ∗ (∃ r, prngReg c r)) := by
  unfold Pipeline.ΦA; rw [scopedRest1_eq]; simp only [scM0, scM1, scM2, owns_whole]; try rfl

/-- The two orders entail each other (the separating conjunction commutes). -/
theorem PhiA_fwd (c : Dev nD) : (Pipeline.ΦA spec1 c : sProp 𝕄) ⊢ PhiAny (F := F) c := by
  rw [PhiA1_eq]; unfold PhiAny restR
  iintro ⟨⟨R1, R2, R3, R4, R5, R6, R7, R8, R9, R10, R11, HS0, HS1, HS2⟩, Hg⟩
  isplitr [Hg]
  · isplitl [HS0]; · iexact HS0
    isplitl [HS1]; · iexact HS1
    isplitl [HS2]; · iexact HS2
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

theorem PhiA_bwd (c : Dev nD) : PhiAny (F := F) c ⊢ (Pipeline.ΦA spec1 c : sProp 𝕄) := by
  rw [PhiA1_eq]; unfold PhiAny restR
  iintro ⟨⟨HS0, HS1, HS2, R1, R2, R3, R4, R5, R6, R7, R8, R9, R10, R11⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexact HS0
    isplitl [HS1]; · iexact HS1
    iexact HS2
  iexact Hg

section Data

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents' and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents' and whose body leaves the block in place. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents' and whose body leaves the block in place. -/
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulators after each point -/

/-- One point's update of the accumulators, at position `n` of the grid's order (no update past the grid). -/
def stepAt (c : Dev nD) (n : ℕ) (s : KS.St F) : KS.St F :=
  if h : n < cfg1.N then KS.step1 (grid1.coords ⟨n, h⟩) (iblk V c 0 ⟨n, h⟩) (iblk V c 1 ⟨n, h⟩) (iblk V c 2 ⟨n, h⟩) s else s

/-- The accumulators after the body at position `n`: the point's update of what the point before left, of the reset
    values at a row block's first vocabulary block. -/
def stAt (c : Dev nD) : ℕ → KS.St F
  | 0 => stepAt V c 0 KS.init1
  | n + 1 => stepAt V c (n + 1) (if (n + 1) % 50 = 0 then KS.init1 else stAt c n)

theorem stAt_first (c : Dev nD) (t : Fin cfg1.N) (h : t.val % 50 = 0) :
    stAt V c t.val = KS.step1 (grid1.coords t) (iblk V c 0 t) (iblk V c 1 t) (iblk V c 2 t) KS.init1 := by
  obtain ⟨n, hn⟩ := t
  cases n with
  | zero => unfold stAt stepAt; rw [dif_pos hn]
  | succ n =>
    unfold stAt; rw [if_pos h]; unfold stepAt; rw [dif_pos hn]

theorem stAt_next (c : Dev nD) (t : Fin cfg1.N) (h : t.val % 50 ≠ 0) :
    stAt V c t.val = KS.step1 (grid1.coords t) (iblk V c 0 t) (iblk V c 1 t) (iblk V c 2 t) (stAt V c (t.val - 1)) := by
  obtain ⟨n, hn⟩ := t
  cases n with
  | zero => exact absurd (Nat.zero_mod _) h
  | succ n =>
    rw [show (⟨n + 1, hn⟩ : Fin cfg1.N).val - 1 = n from Nat.add_sub_cancel n 1]
    conv_lhs => unfold stAt
    rw [if_neg h]; unfold stepAt; rw [dif_pos hn]

/-! ## The invariant -/

/-- The region invariant before position `n`: before the first point the launch's own, reordered (every accumulator at anything);
    afterwards the accumulators at what the point before left, the untouched scoped buffers and the generator register
    at some state. -/
def PhiS (c : Dev nD) : ℕ → sProp 𝕄
  | 0 => PhiAny c
  | n + 1 => iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r))

theorem PhiS_zero (c : Dev nD) (n : ℕ) (hz : n = 0) : PhiS V c n = PhiAny c := by
  subst hz; rfl

theorem PhiS_succ (c : Dev nD) (n : ℕ) :
    PhiS V c (n + 1) = iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r)) := rfl

theorem PhiS_pos (c : Dev nD) (n : ℕ) (hz : n ≠ 0) :
    PhiS V c n = iprop(iprop(owns (c : Thread nD τ) scM0 fullShare (stAt V c (n - 1)).m ∗ owns (c : Thread nD τ) scM1 fullShare (stAt V c (n - 1)).l
      ∗ owns (c : Thread nD τ) scM2 fullShare (stAt V c (n - 1)).g ∗ restR (F := F) c) ∗ (∃ r, prngReg c r)) := by
  cases n with
  | zero => exact absurd rfl hz
  | succ n => rfl

/-! ## The pipeline's proof data -/

/-- The proof data of the launch on core `c`: the arrays as the region finds them (`V`); after the body at point `t`
    each input's buffer at its block and the output's at `KS.out1` of the accumulators there; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => KS.out1 (stAt V c t.val)
  Φ t := PhiS V c t.val
  q _ := fullShare
  owed _ := 0

theorem A_eq (c : Dev nD) (w : Fin cfg1.W) : (dat V c).A w = V c (Pipeline.arrRef spec1 w) := by
  dsimp only [dat]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_out (c : Dev nD) (t : Fin cfg1.N) : (dat V c).after 3 t = KS.out1 (stAt V c t.val) := by dsimp only [dat]
theorem owed_zero (c : Dev nD) (t : Fin (cfg1.N + 1)) : (dat V c).owed t = 0 := by dsimp only [dat]
theorem q_full (c : Dev nD) (w : Fin cfg1.W) : (dat V c).q w = fullShare := by dsimp only [dat]
theorem recorded_univ (c : Dev nD) (t : Fin (cfg1.N + 1)) : (dat V c).recorded t = Set.univ := by dsimp only [dat]

theorem PhiS_castSucc (c : Dev nD) (t : Fin cfg1.N) : (dat V c).Φ t.castSucc = PhiS V c t.val := by
  dsimp only [dat]; simp only [Fin.coe_castSucc]

theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d

/-- What the launch hands the region is the invariant before the first point. -/
theorem hin (c : Dev nD) : (Pipeline.ΦA spec1 c : sProp 𝕄) ⊢ (dat V c).Φ 0 := by
  rw [show (dat V c).Φ 0 = PhiS V c 0 from rfl, PhiS_zero V c 0 rfl]
  exact PhiA_fwd c

/-- After any point the invariant gives the launch's own back: the accumulators' named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val from rfl, PhiS_pos V c _ ht]
  refine Idealize.SL.BI.BIBase.Entails.trans ?_ (PhiA_bwd c)
  unfold PhiAny
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

theorem hout (c : Dev nD) : (dat V c).Φ (Fin.last cfg1.N) ⊢ (Pipeline.ΦA spec1 c : sProp 𝕄) :=
  Phi_out V c _ (by rw [Fin.val_last]; have : cfg1.N = 100 := N_1; omega)

/-! ## The body obligation, at a generic point -/

/-- What the exact obligation's post says of an input window's buffer: it holds the block. -/
theorem leaves_in0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt_in0 t], after_in0]
theorem leaves_in1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt_in1 t], after_in1]
theorem leaves_in2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt_in2 t], after_in2]

/-- What the body is called with at point `t` (the library's obligation, the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which of the three cases the
    point is in; the invariant hands the body the accumulators at what the point before left (at anything before a
    row block's first vocabulary block) and takes them back at this point's; off the last vocabulary block the output's
    buffer is handed back as found, at it the buffer holds `KS.out1` of the accumulators; the core owes nothing
    throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2]
  rw [show (dat V c).owesAt () t.succ = (dat V c).owesAt () t.castSucc from rfl]
  rw [show (dat V c).Φ t.succ = PhiS V c (t.val + 1) from rfl, PhiS_succ, PhiS_castSucc]
  rw [leaves_in0, leaves_in1, leaves_in2]
  have hN : t.val < 100 := lt_of_lt_of_eq t.isLt (show cfg1.N = 100 from N_1)
  by_cases h0 : t.val % 50 = 0
  · have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat V c) 3 t (idleAt_out t hc1) (noFlush_out t hc1), stAt_first V c t h0]
    by_cases hz : t.val = 0
    · rw [PhiS_zero V c _ hz]; unfold PhiAny
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid1.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
    · rw [PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid1.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
  · have hz : t.val ≠ 0 := by omega
    have hc0 : ¬cond1_0 (grid1.coords t) := fun h => h0 ((hcond1_0 t).mp h)
    by_cases h1 : t.val % 50 = 49
    · have hc1 : cond1_1 (grid1.coords t) := (hcond1_1 t).mpr h1
      rw [show (dat V c).leavesExact 3 t = owns (c : Thread nD τ) (ms3 t) fullShare ((dat V c).after 3 t) from by
        unfold Dat.leavesExact; rw [liveAt_out t hc1], after_out]
      rw [stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_last c Set.univ (grid1.coords t) _ _ _ _ _ _ _ _ _ _ _ _ _ _ hc0 hc1 (iblk V c 0 t) (iblk V c 1 t) (iblk V c 2 t) (stAt V c (t.val - 1)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat V c) 3 t (idleAt_out t hc1) (noFlush_out t hc1), stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_mid c Set.univ (grid1.coords t) _ _ _ _ _ _ _ _ _ _ _ _ _ _ hc0 hc1 (iblk V c 0 t) (iblk V c 1 t) (iblk V c 2 t) ((dat V c).before 3 t d3) (stAt V c (t.val - 1)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

end Data

end Cert.Kernel.Reg1

end
-- ==== Proof.KbW.lean ====
/-
  The contents of every unscoped buffer of the core at each boundary between the seven segments of @main of the
  ideal kernel program, at any float instance, as ONE valuation per boundary:
  `W0` the launch contents; `W1 = after hostOps0 W0`; `W2` is `W1` with the first launch's four arrays at what its
  write-backs leave; `W3 = after hostOps1 W2`; `W4` likewise for the second launch; then `W5`, `W6`, `W7` after the
  three closing stretches of host operations. No segment writes an argument array, so each argument's buffer holds
  at `W7` what it held at launch.
-/
import proofs.«425399_j87299505259073_2_alg».proof.Proof.KbRegion0
import proofs.«425399_j87299505259073_2_alg».proof.Proof.KbRegion1
import proofs.«425399_j87299505259073_2_alg».proof.Proof.Gen.Kernel.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b
/-- At the first launch's exit: its arrays at what its write-backs leave, every other buffer as entered. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second launch's entry). -/
abbrev W3 : Dev nD → Valuation τ sig (Elt F) := fun c => StableHlo.after hostOps1 (W2 m ρ c)
/-- The same read at the core's references. -/
abbrev V3 : (c : Dev nD) → (b : Ref sig .tc) → Buf (Elt F) ((c : Thread nD τ).loc b) := fun c b => W3 m ρ c b
/-- At the second launch's exit: its arrays at what its write-backs leave, every other buffer as entered. -/
def W4 (c : Dev nD) : Valuation τ sig (Elt F) :=
  Pipeline.withArrays spec1 c (W3 m ρ c) fun w => (Reg1.dat (V3 m ρ) c).arrAt w cfg1.N
theorem W4_arr (c : Dev nD) (w : Fin cfg1.W) :
    W4 m ρ c (Proc.devRef .tc (Pipeline.arrRef spec1 w)) = (Reg1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m ρ c b
theorem hF1 (c : Dev nD) (w : Fin cfg1.W) : (Reg1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the masked means and the scaled difference), -/
abbrev W5 : Dev nD → Valuation τ sig (Elt F) := fun c => StableHlo.after hostOps2 (W4 m ρ c)
/-- the fourth (the log-sigmoid), -/
abbrev W6 : Dev nD → Valuation τ sig (Elt F) := fun c => StableHlo.after hostOps2_1 (W5 m ρ c)
/-- and the fifth (the mean over the pairs): the contents @main returns with. -/
abbrev W7 : Dev nD → Valuation τ sig (Elt F) := fun c => StableHlo.after hostOps2_2 (W6 m ρ c)

/-! ### A buffer no segment writes ends as launched -/

/-- A reference that no host stretch writes and that is no array of either launch holds at the end what it held
    at launch: the fold walks back to the launch memory one boundary at a time. -/
theorem W7_of_untouched (c : Dev nD) (r : Ref sig .tc)
    (h0 : r ∉ hostOps0_W) (h1 : ∀ w, Pipeline.arrRef spec0 w ≠ r) (h2 : r ∉ hostOps1_W) (h3 : ∀ w, Pipeline.arrRef spec1 w ≠ r)
    (h4 : r ∉ hostOps2_W) (h5 : r ∉ hostOps2_1_W) (h6 : r ∉ hostOps2_2_W) :
    W7 m ρ c (Proc.devRef .tc r) = m ((c : Thread nD τ).loc r) :=
  calc W7 m ρ c (Proc.devRef .tc r)
    _ = W6 m ρ c (Proc.devRef .tc r) := StableHlo.after_of_writes_sub hostOps2_2 _ hostOps2_2_writes h6
    _ = W5 m ρ c (Proc.devRef .tc r) := StableHlo.after_of_writes_sub hostOps2_1 _ hostOps2_1_writes h5
    _ = W4 m ρ c (Proc.devRef .tc r) := StableHlo.after_of_writes_sub hostOps2 _ hostOps2_writes h4
    _ = W3 m ρ c (Proc.devRef .tc r) := W4_of_ne m ρ c r h3
    _ = W2 m ρ c (Proc.devRef .tc r) := StableHlo.after_of_writes_sub hostOps1 _ hostOps1_writes h2
    _ = W1 m ρ c (Proc.devRef .tc r) := W2_of_ne m ρ c r h1
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)

/-! ### The references the thread state holds -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Run

end
-- ==== Proof.KbRun.lean ====
/-
  The run of @main of the ideal kernel program, at any float instance: its seven segments in order — a stretch of
  host operations, the first launch of the log-probability kernel (on the policy's activations and weights), a second
  stretch, the second launch (on the reference model's), and three closing stretches that form the masked means and
  the loss — over the boundary valuations `W0 … W7` of every unscoped buffer.

  `run_all`: every weakly fair execution terminates, nothing faulting, and the final memory holds every unscoped
  buffer at `W7`. No segment writes an argument array, so each ends as launched (`frame`).
-/
import proofs.«425399_j87299505259073_2_alg».proof.Proof.KbW

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Each launch's proof data at its entry contents — a literal `match`, so that the pinned configuration at a numeral
    reduces to the printed one. -/
def pdats : (p : Fin 2) → (c : Dev nD) → Dat τ (Elt F) Unit ℕ (UR sig nD τ) ℕ (Pipeline.pin (pcfgs (F := F)) adm p) c
  | ⟨0, _⟩ => fun c => Reg0.dat (V1 m ρ) c
  | ⟨1, _⟩ => fun c => Reg1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves them
    at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The two launches as segments -/

-- a library lemma stated over the pinned configuration unifies with the printed one only when unification may
-- unfold plain definitions in a metavariable's type
set_option backward.isDefEq.respectTransparency.types false in
/-- Launch 0 of the kernel over the thread state: entered from every unscoped buffer at `W1`, left at `W2`. Its
    four arrays are split out of the unscoped buffers and put back at the exit contents; the generator register and
    the scoped buffers no window stages (among them the three accumulators) go into the region's invariant and come
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun c t => Reg0.owed_zero (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => Reg0.q_full (V1 m ρ) c w) (V1 m ρ c) fun w => Reg0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from Reg0.owed_zero (V1 m ρ) c 0]
      icases HO with ⟨%W, HO⟩; iexists W; isplitr
      · ipureintro
        exact fun x _ => Or.inl (show x ∈ (Reg0.dat (V1 m ρ) c).recorded 0 by rw [Reg0.recorded_univ]; exact Set.mem_univ x)
      iexact HO
    isplitl [Hp]; · iexact Hp
    iexact Hrest
  hin c := by
    refine BIBase.Entails.trans ?_ (Reg0.hin (V1 m ρ) c)
    unfold Pipeline.ΦA
    iintro ⟨Hp, -, Hr⟩
    isplitl [Hr]; · iexact Hr
    iexact Hp
  hout c := by
    refine (Reg0.hout (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => Reg0.q_full (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from Reg0.owed_zero (V1 m ρ) c _]
    icases HO with ⟨%W, -, HO⟩; iexists W; iexact HO

-- a library lemma stated over the pinned configuration unifies with the printed one only when unification may
-- unfold plain definitions in a metavariable's type
set_option backward.isDefEq.respectTransparency.types false in
/-- Launch 1 of the kernel over the thread state: entered from every unscoped buffer at `W3`, left at `W4`. Its
    four arrays are split out of the unscoped buffers and put back at the exit contents; the generator register and
    the scoped buffers no window stages (among them the three accumulators) go into the region's invariant and come
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m ρ) c).loose
  hwaits := Pipeline.hwaits_of_owed_zero _ _ _ _ L lv 1 fun c t => Reg1.owed_zero (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => Reg1.q_full (V3 m ρ) c w) (V3 m ρ c) fun w => Reg1.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from Reg1.owed_zero (V3 m ρ) c 0]
      icases HO with ⟨%W, HO⟩; iexists W; isplitr
      · ipureintro
        exact fun x _ => Or.inl (show x ∈ (Reg1.dat (V3 m ρ) c).recorded 0 by rw [Reg1.recorded_univ]; exact Set.mem_univ x)
      iexact HO
    isplitl [Hp]; · iexact Hp
    iexact Hrest
  hin c := by
    refine BIBase.Entails.trans ?_ (Reg1.hin (V3 m ρ) c)
    unfold Pipeline.ΦA
    iintro ⟨Hp, -, Hr⟩
    isplitl [Hr]; · iexact Hr
    iexact Hp
  hout c := by
    refine (Reg1.hout (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => Reg1.q_full (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from Reg1.owed_zero (V3 m ρ) c _]
    icases HO with ⟨%W, -, HO⟩; iexists W; iexact HO

/-! ## @main as segments, and the run -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]
/-- @main IS the run of the segments: the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main terminates, nothing faulting,
    and every final state holds every unscoped buffer at `W7`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the run, read at the five argument arrays — each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c)⟩) (run_all m ρ)

end Cert.Kernel.Run

end
-- ==== Proof.KiState.lean ====
/-
  The three per-row accumulators a launch of the kernel carries from one vocabulary block to the next — the
  running maximum `m`, the running sum of exponentials `l` (kept relative to `m`) and the target logit `g` —
  as ONE record, and one grid point's effect on it, written over the skeleton's payloads. At any float
  instance: nothing here evaluates an operation.

  * `init`: what the first vocabulary block of a row block resets them to (`m = -∞`, `l = g = 0`);
  * `step i xb wb yb s`: from the block's logits `xb · wbᵀ`, `m' = max m (row max)`,
    `l' = exp (m - m') · l + ∑ exp (logits - m')`, `g' = g + ∑ [position = label] · logits`;
  * `out s = g - (m + log l)`: what the last vocabulary block stores.
  The two launches' payloads are the same terms under two names; `step1 = step0` and so on say so.
-/
import proofs.«425399_j87299505259073_2_alg».proof.Proof.Gen.KernelIdeal.Skeleton

noncomputable section

namespace Cert.KernelIdeal.KS

open Idealize.ShloMosaic Cert.KernelIdeal Cert.KernelIdeal.Gen

variable {F : FTy → Type} [FloatOps F]

/-- The carried accumulators of one row block: running maximum, running sum, target logit. -/
structure St (F : FTy → Type) [FloatOps F] where
  m : Vec F S2048x1 .f32
  l : Vec F S2048x1 .f32
  g : Vec F S2048x1 .f32

/-- The reset at a row block's first vocabulary block. -/
def init0 : St F := ⟨k0_pay4 (F := F), k0_pay5 (F := F), k0_pay6 (F := F)⟩

/-- One vocabulary block's update (launch 0's payloads). -/
def step0 (i : grid0.Coords) (xb : Vec F S2048x2048 .bf16) (wb : Vec F S640x2048 .bf16) (yb : Vec F S2048x1 .i32) (s : St F) : St F :=
  ⟨k0_pay2 (k0_pay9 xb wb s.m), k0_pay1 (k0_pay10 xb wb s.m) (k0_pay11 xb wb s.m) s.l, k0_pay8 i xb wb yb s.g⟩

/-- What the last vocabulary block stores into the output block. -/
def out0 (s : St F) : Vec F S2048x1 .f32 := k0_pay3 s.m s.l s.g

def init1 : St F := ⟨k1_pay4 (F := F), k1_pay5 (F := F), k1_pay6 (F := F)⟩

def step1 (i : grid1.Coords) (xb : Vec F S2048x2048 .bf16) (wb : Vec F S640x2048 .bf16) (yb : Vec F S2048x1 .i32) (s : St F) : St F :=
  ⟨k1_pay2 (k1_pay9 xb wb s.m), k1_pay1 (k1_pay10 xb wb s.m) (k1_pay11 xb wb s.m) s.l, k1_pay8 i xb wb yb s.g⟩

def out1 (s : St F) : Vec F S2048x1 .f32 := k1_pay3 s.m s.l s.g

theorem init1_eq : (init1 : St F) = init0 := rfl
theorem step1_eq (i : grid0.Coords) (xb : Vec F S2048x2048 .bf16) (wb : Vec F S640x2048 .bf16) (yb : Vec F S2048x1 .i32) (s : St F) :
    step1 i xb wb yb s = step0 i xb wb yb s := rfl
theorem out1_eq (s : St F) : out1 s = out0 s := rfl

end Cert.KernelIdeal.KS

end
-- ==== Proof.KiRegion0.lean ====
/-
  Region 0 of the program: the first launch of the fused head, on a grid of 2 row blocks by 50 vocabulary blocks,
  stated at parametric entry contents `V` and at any float instance.

  The body carries three per-row accumulators from one vocabulary block to the next (`KS.St`: the running maximum, the
  running sum of exponentials relative to it, the target logit). At a point of the grid it does one of three things:
  * FIRST (vocabulary block 0): reset the accumulators, then update them with the block — `KS.step0 … KS.init0`;
  * MID: update them — `KS.step0 … s` over what the point before left, `s`;
  * LAST (vocabulary block 49): update them, then store `KS.out0` of the result into the output block.
  Each case is a triple over whole memrefs (`sound_kernel_first` / `_mid` / `_last`): every store is of a whole
  buffer, so a buffer ends at its last stored payload and a load after a store reads the stored payload.

  From the triples: the accumulators after each point of the grid's order (`stAt`, by recursion on the position, with
  its two unfolding equations `stAt_first` / `stAt_next`), the invariant (`PhiS`: before the first point every
  accumulator at anything; afterwards at `stAt` of the point before), the proof data `dat` (inputs left at their
  blocks; the output block at `KS.out0 (stAt …)`, stored only at the last vocabulary block and idle elsewhere) and
  the body obligation at every point.
-/
import proofs.«425399_j87299505259073_2_alg».proof.Proof.Gen.KernelIdeal.Launch
import proofs.«425399_j87299505259073_2_alg».proof.Proof.Gen.KernelIdeal.Skeleton
import proofs.«425399_j87299505259073_2_alg».proof.Proof.Gen.KernelIdeal.Points
import proofs.«425399_j87299505259073_2_alg».proof.Proof.KiState
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first conditional (the vocabulary block is the first one), from the grid coordinates. -/
abbrev cond0_0 (i : grid0.Coords) : Prop := (Scalar.cmpi .ne (Scalar.extui (Scalar.cmpi .eq (BitVec.ofNat 32 (i 1).val) 0#32)) 0#32) = 1#1
/-- The condition of the second one (the vocabulary block is the last one). -/
abbrev cond0_1 (i : grid0.Coords) : Prop := k0_cond2 i = 1#1

/-- The zero offsets of a rank-2 whole-buffer access, as the constant function. -/
theorem zeros2 : (![0, 0] : Fin 2 → ℕ) = fun _ => 0 := by
  funext a; fin_cases a <;> rfl

/-- A load of the whole of a whole buffer whose contents are named by what they read: it reads that. -/
theorem readAt_unread {S : Shape} {e : EltTy} (m : Memref sig .tc .vmem S e) (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- Stores into a buffer, the last of them of the whole buffer: it then reads as that store's payload. -/
theorem read_writes_unit {S : Shape} {e : EltTy} (m : Memref sig .tc .vmem S e) {off : Fin S.rank → ℕ}
    (h : off = fun _ => 0) (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h inb w L]

/-- A load of the whole buffer after one store of the whole buffer reads the store's payload. -/
theorem readCov_unit {S : Shape} {e : EltTy} (m : Memref sig .tc .vmem S e) {off : Fin S.rank → ℕ}
    (h : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view h inb w

/-! ## The body's three cases -/

set_option maxHeartbeats 1000000 in
/-- The body at the first vocabulary block of a row block: on whole memrefs, the three inputs at their blocks, the
    output's buffer at any contents (left as found) and the accumulators at anything, it resets them and runs to the
    continuation holding them at `KS.step0 i x0 w0 y0 KS.init0`. -/
theorem sound_kernel_first (c : Dev nD) (E : Set ℕ) (i : grid0.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond0_0 i) (hc1 : ¬cond0_1 i)
    (x0 : Vec F S2048x2048 .bf16) (w0 : Vec F S640x2048 .bf16) (y0 : Vec F S2048x1 .i32) (o0 : Vec F S2048x1 .f32)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step0 i x0 w0 y0 KS.init0).m ∗ owns (c : Thread nD τ) arg7 fullShare (KS.step0 i x0 w0 y0 KS.init0).l
            ∗ owns (c : Thread nD τ) arg8 fullShare (KS.step0 i x0 w0 y0 KS.init0).g) -∗ K ⟨⟩))
      ⊢ wp frame (wpE (defs₀ (F := F)) Variants.none c none) E (cc0__seq_logp_kernel i arg2 harg2 arg3 harg3 arg4 harg4 arg5 harg5 arg6 harg6 arg7 harg7 arg8 harg8) K := by
  simp only [cc0__seq_logp_kernel_eq_skeleton]; unfold cc0__seq_logp_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readCov_unit arg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readCov_unit arg6 zeros2, readCov_unit arg7 zeros2]
    rfl
  · iexists _; isplitr
    swap; · iexact H8
    ipureintro
    refine (read_writes_unit arg8 zeros2 _ _ _ _).trans ?_
    sl_unfold_run_names
    rw [readAt_unread arg2 harg2 zeros2, readAt_unread arg3 harg3 zeros2, readAt_unread arg4 harg4 zeros2, readCov_unit arg8 zeros2]
    rfl

set_option maxHeartbeats 1000000 in
/-- The body at a vocabulary block that is neither the first nor the last of its row block: on whole memrefs, the three
    inputs at their blocks, the output's buffer at any contents (left as found) and the accumulators at `s`, it runs to
    the continuation holding the accumulators at `KS.step0 i x0 w0 y0 s`. -/
theorem sound_kernel_mid (c : Dev nD) (E : Set ℕ) (i : grid0.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : ¬cond0_1 i)
    (x0 : Vec F S2048x2048 .bf16) (w0 : Vec F S640x2048 .bf16) (y0 : Vec F S2048x1 .i32) (o0 : Vec F S2048x1 .f32) (s : KS.St F)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step0 i x0 w0 y0 s).m ∗ owns (c : Thread nD τ) arg7 fullShare (KS.step0 i x0 w0 y0 s).l
            ∗ owns (c : Thread nD τ) arg8 fullShare (KS.step0 i x0 w0 y0 s).g) -∗ K ⟨⟩))
      ⊢ wp frame (wpE (defs₀ (F := F)) Variants.none c none) E (cc0__seq_logp_kernel i arg2 harg2 arg3 harg3 arg4 harg4 arg5 harg5 arg6 harg6 arg7 harg7 arg8 harg8) K := by
  simp only [cc0__seq_logp_kernel_eq_skeleton]; unfold cc0__seq_logp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

set_option maxHeartbeats 1000000 in
/-- The body at the last vocabulary block of a row block: on whole memrefs, the three inputs at their blocks, the
    output's buffer at anything and the accumulators at `s`, it runs to the continuation holding the accumulators at
    `KS.step0 i x0 w0 y0 s` and the output's buffer at `KS.out0` of that. -/
theorem sound_kernel_last (c : Dev nD) (E : Set ℕ) (i : grid0.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond0_0 i) (hc1 : cond0_1 i)
    (x0 : Vec F S2048x2048 .bf16) (w0 : Vec F S640x2048 .bf16) (y0 : Vec F S2048x1 .i32) (s : KS.St F)
    (K : PUnit → sProp 𝕄) :
    iprop(owns (c : Thread nD τ) arg2 fullShare x0 ∗ owns (c : Thread nD τ) arg3 fullShare w0 ∗ owns (c : Thread nD τ) arg4 fullShare y0
        ∗ (∃ d, owns (c : Thread nD τ) arg5 fullShare d)
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare (KS.out0 (KS.step0 i x0 w0 y0 s))
            ∗ owns (c : Thread nD τ) arg6 fullShare (KS.step0 i x0 w0 y0 s).m ∗ owns (c : Thread nD τ) arg7 fullShare (KS.step0 i x0 w0 y0 s).l
            ∗ owns (c : Thread nD τ) arg8 fullShare (KS.step0 i x0 w0 y0 s).g) -∗ K ⟨⟩))
      ⊢ wp frame (wpE (defs₀ (F := F)) Variants.none c none) E (cc0__seq_logp_kernel i arg2 harg2 arg3 harg3 arg4 harg4 arg5 harg5 arg6 harg6 arg7 harg7 arg8 harg8) K := by
  simp only [cc0__seq_logp_kernel_eq_skeleton]; unfold cc0__seq_logp_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit arg5 zeros2 _ _ _ _).trans ?_
    sl_unfold_run_names
    rw [readAt_unread arg2 harg2 zeros2, readAt_unread arg3 harg3 zeros2, readAt_unread arg4 harg4 zeros2,
      readAt_unread arg6 harg6 zeros2, readAt_unread arg7 harg7 zeros2, readAt_unread arg8 harg8 zeros2,
      readCov_unit arg6 zeros2, readCov_unit arg7 zeros2, readCov_unit arg8 zeros2]
    rfl
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

/-! ## The conditions over the grid, and where the output window is idle -/

/-- The first conditional is taken at the points ≡ 0 (mod 50): decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)
/-- The second at the points ≡ 49 (mod 50). -/
theorem hcond0_1 : ∀ t : Fin cfg0.N, cond0_1 (grid0.coords t) ↔ t.val % 50 = 49 :=
  (by decide +kernel : ∀ t : Fin grid0.N, cond0_1 (grid0.coords t) ↔ t.val % 50 = 49)

/-- The input windows are never idle. -/
theorem liveAt_in0 : ∀ t : Fin cfg0.N, cfg0.idle 0 (grid0.coords t) = false := by decide +kernel
theorem liveAt_in1 : ∀ t : Fin cfg0.N, cfg0.idle 1 (grid0.coords t) = false := by decide +kernel
theorem liveAt_in2 : ∀ t : Fin cfg0.N, cfg0.idle 2 (grid0.coords t) = false := by decide +kernel
/-- Off the last vocabulary block the output window is idle, and its block is not written back; -/
theorem idleAt_out : ∀ t : Fin cfg0.N, ¬cond0_1 (grid0.coords t) → cfg0.idle 3 (grid0.coords t) = true := by decide +kernel
theorem noFlush_out : ∀ t : Fin cfg0.N, ¬cond0_1 (grid0.coords t) → (cfg0.win 3).flush t = false := by decide +kernel
/-- at it the window is live. -/
theorem liveAt_out : ∀ t : Fin cfg0.N, cond0_1 (grid0.coords t) → cfg0.idle 3 (grid0.coords t) = false := by decide +kernel

/-! ## The memrefs the pipeline calls the body with -/

abbrev ms0 (t : Fin cfg0.N) : Memref sig .tc .vmem S2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .f32 := win0_3.stage (cfg0.slots t 3)
abbrev hs3 (t : Fin cfg0.N) : (ms3 t).IsWhole := hstage0_3 ((cfg0.slots t 3).cast nbuf0_3)
/-- The three accumulators: whole scoped buffers of the kernel's own, passed beside the windows. -/
abbrev scM0 : Memref sig .tc .vmem S2048x1 .f32 := Memref.whole cc0_scratch0
abbrev scM1 : Memref sig .tc .vmem S2048x1 .f32 := Memref.whole cc0_scratch1
abbrev scM2 : Memref sig .tc .vmem S2048x1 .f32 := Memref.whole cc0_scratch2

/-- The core's scoped buffers that are neither a staging buffer of this launch nor one of its accumulators, each at
    some contents: the body does not touch them. -/
def restR (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f))

/-- The launch's invariant with the accumulators as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ restR (F := F) c) ∗ (∃ r, prngReg c r)) := by
  unfold Pipeline.ΦA restR; rw [scopedRest0_eq]; simp only [scM0, scM1, scM2, owns_whole]; try rfl

section Data

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents' and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents' and whose body leaves the block in place. -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents' and whose body leaves the block in place. -/
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulators after each point -/

/-- One point's update of the accumulators, at position `n` of the grid's order (no update past the grid). -/
def stepAt (c : Dev nD) (n : ℕ) (s : KS.St F) : KS.St F :=
  if h : n < cfg0.N then KS.step0 (grid0.coords ⟨n, h⟩) (iblk V c 0 ⟨n, h⟩) (iblk V c 1 ⟨n, h⟩) (iblk V c 2 ⟨n, h⟩) s else s

/-- The accumulators after the body at position `n`: the point's update of what the point before left, of the reset
    values at a row block's first vocabulary block. -/
def stAt (c : Dev nD) : ℕ → KS.St F
  | 0 => stepAt V c 0 KS.init0
  | n + 1 => stepAt V c (n + 1) (if (n + 1) % 50 = 0 then KS.init0 else stAt c n)

theorem stAt_first (c : Dev nD) (t : Fin cfg0.N) (h : t.val % 50 = 0) :
    stAt V c t.val = KS.step0 (grid0.coords t) (iblk V c 0 t) (iblk V c 1 t) (iblk V c 2 t) KS.init0 := by
  obtain ⟨n, hn⟩ := t
  cases n with
  | zero => unfold stAt stepAt; rw [dif_pos hn]
  | succ n =>
    unfold stAt; rw [if_pos h]; unfold stepAt; rw [dif_pos hn]

theorem stAt_next (c : Dev nD) (t : Fin cfg0.N) (h : t.val % 50 ≠ 0) :
    stAt V c t.val = KS.step0 (grid0.coords t) (iblk V c 0 t) (iblk V c 1 t) (iblk V c 2 t) (stAt V c (t.val - 1)) := by
  obtain ⟨n, hn⟩ := t
  cases n with
  | zero => exact absurd (Nat.zero_mod _) h
  | succ n =>
    rw [show (⟨n + 1, hn⟩ : Fin cfg0.N).val - 1 = n from Nat.add_sub_cancel n 1]
    conv_lhs => unfold stAt
    rw [if_neg h]; unfold stepAt; rw [dif_pos hn]

/-! ## The invariant -/

/-- The region invariant before position `n`: before the first point the launch's own (every accumulator at anything);
    afterwards the accumulators at what the point before left, the untouched scoped buffers and the generator register
    at some state. -/
def PhiS (c : Dev nD) : ℕ → sProp 𝕄
  | 0 => Pipeline.ΦA spec0 c
  | n + 1 => iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r))

theorem PhiS_zero (c : Dev nD) (n : ℕ) (hz : n = 0) : PhiS V c n = Pipeline.ΦA spec0 c := by
  subst hz; rfl

theorem PhiS_succ (c : Dev nD) (n : ℕ) :
    PhiS V c (n + 1) = iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r)) := rfl

theorem PhiS_pos (c : Dev nD) (n : ℕ) (hz : n ≠ 0) :
    PhiS V c n = iprop(iprop(owns (c : Thread nD τ) scM0 fullShare (stAt V c (n - 1)).m ∗ owns (c : Thread nD τ) scM1 fullShare (stAt V c (n - 1)).l
      ∗ owns (c : Thread nD τ) scM2 fullShare (stAt V c (n - 1)).g ∗ restR (F := F) c) ∗ (∃ r, prngReg c r)) := by
  cases n with
  | zero => exact absurd rfl hz
  | succ n => rfl

/-! ## The pipeline's proof data -/

/-- The proof data of the launch on core `c`: the arrays as the region finds them (`V`); after the body at point `t`
    each input's buffer at its block and the output's at `KS.out0` of the accumulators there; the invariant `PhiS`;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => KS.out0 (stAt V c t.val)
  Φ t := PhiS V c t.val
  q _ := fullShare
  owed _ := 0

theorem A_eq (c : Dev nD) (w : Fin cfg0.W) : (dat V c).A w = V c (Pipeline.arrRef spec0 w) := by
  dsimp only [dat]
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_out (c : Dev nD) (t : Fin cfg0.N) : (dat V c).after 3 t = KS.out0 (stAt V c t.val) := by dsimp only [dat]
theorem owed_zero (c : Dev nD) (t : Fin (cfg0.N + 1)) : (dat V c).owed t = 0 := by dsimp only [dat]
theorem q_full (c : Dev nD) (w : Fin cfg0.W) : (dat V c).q w = fullShare := by dsimp only [dat]
theorem recorded_univ (c : Dev nD) (t : Fin (cfg0.N + 1)) : (dat V c).recorded t = Set.univ := by dsimp only [dat]

theorem PhiS_castSucc (c : Dev nD) (t : Fin cfg0.N) : (dat V c).Φ t.castSucc = PhiS V c t.val := by
  dsimp only [dat]; simp only [Fin.coe_castSucc]

theorem before_in0 (c : Dev nD) (t : Fin cfg0.N) (d) : (dat V c).before 0 t d = iblk V c 0 t :=
  before_in0_of V (dat V c) (A_eq V c 0) (after_in0 V c) t d
theorem before_in1 (c : Dev nD) (t : Fin cfg0.N) (d) : (dat V c).before 1 t d = iblk V c 1 t :=
  before_in1_of V (dat V c) (A_eq V c 1) (after_in1 V c) t d
theorem before_in2 (c : Dev nD) (t : Fin cfg0.N) (d) : (dat V c).before 2 t d = iblk V c 2 t :=
  before_in2_of V (dat V c) (A_eq V c 2) (after_in2 V c) t d

/-- What the launch hands the region is the invariant before the first point. -/
theorem hin (c : Dev nD) : (Pipeline.ΦA spec0 c : sProp 𝕄) ⊢ (dat V c).Φ 0 := by
  rw [show (dat V c).Φ 0 = PhiS V c 0 from rfl, PhiS_zero V c 0 rfl]
  try exact Idealize.SL.BI.Entails.refl _

/-- After any point the invariant gives the launch's own back: the accumulators' named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val from rfl, PhiS_pos V c _ ht, PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

theorem hout (c : Dev nD) : (dat V c).Φ (Fin.last cfg0.N) ⊢ (Pipeline.ΦA spec0 c : sProp 𝕄) :=
  Phi_out V c _ (by rw [Fin.val_last]; have : cfg0.N = 100 := N_0; omega)

/-! ## The body obligation, at a generic point -/

/-- What the exact obligation's post says of an input window's buffer: it holds the block. -/
theorem leaves_in0 (c : Dev nD) (t : Fin cfg0.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt_in0 t], after_in0]
theorem leaves_in1 (c : Dev nD) (t : Fin cfg0.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt_in1 t], after_in1]
theorem leaves_in2 (c : Dev nD) (t : Fin cfg0.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt_in2 t], after_in2]

/-- What the body is called with at point `t` (the library's obligation, the windows one by one), -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which of the three cases the
    point is in; the invariant hands the body the accumulators at what the point before left (at anything before a
    row block's first vocabulary block) and takes them back at this point's; off the last vocabulary block the output's
    buffer is handed back as found, at it the buffer holds `KS.out0` of the accumulators; the core owes nothing
    throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2]
  rw [show (dat V c).owesAt () t.succ = (dat V c).owesAt () t.castSucc from rfl]
  rw [show (dat V c).Φ t.succ = PhiS V c (t.val + 1) from rfl, PhiS_succ, PhiS_castSucc]
  rw [leaves_in0, leaves_in1, leaves_in2]
  have hN : t.val < 100 := lt_of_lt_of_eq t.isLt (show cfg0.N = 100 from N_0)
  by_cases h0 : t.val % 50 = 0
  · have h1 : ¬t.val % 50 = 49 := by omega
    have hc0 : cond0_0 (grid0.coords t) := (hcond0_0 t).mpr h0
    have hc1 : ¬cond0_1 (grid0.coords t) := fun h => h1 ((hcond0_1 t).mp h)
    rw [Dat.leavesExact_idle (dat V c) 3 t (idleAt_out t hc1) (noFlush_out t hc1), stAt_first V c t h0]
    by_cases hz : t.val = 0
    · rw [PhiS_zero V c _ hz, PhiA0_eq]
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid0.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
    · rw [PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid0.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
  · have hz : t.val ≠ 0 := by omega
    have hc0 : ¬cond0_0 (grid0.coords t) := fun h => h0 ((hcond0_0 t).mp h)
    by_cases h1 : t.val % 50 = 49
    · have hc1 : cond0_1 (grid0.coords t) := (hcond0_1 t).mpr h1
      rw [show (dat V c).leavesExact 3 t = owns (c : Thread nD τ) (ms3 t) fullShare ((dat V c).after 3 t) from by
        unfold Dat.leavesExact; rw [liveAt_out t hc1], after_out]
      rw [stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_last c Set.univ (grid0.coords t) _ _ _ _ _ _ _ _ _ _ _ _ _ _ hc0 hc1 (iblk V c 0 t) (iblk V c 1 t) (iblk V c 2 t) (stAt V c (t.val - 1)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat V c) 3 t (idleAt_out t hc1) (noFlush_out t hc1), stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_mid c Set.univ (grid0.coords t) _ _ _ _ _ _ _ _ _ _ _ _ _ _ hc0 hc1 (iblk V c 0 t) (iblk V c 1 t) (iblk V c 2 t) ((dat V c).before 3 t d3) (stAt V c (t.val - 1)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

end Data

end Cert.KernelIdeal.Reg0

end
-- ==== Proof.KiRegion1.lean ====
/-
  Region 1 of the program: the second launch of the fused head, on a grid of 2 row blocks by 50 vocabulary blocks,
  stated at parametric entry contents `V` and at any float instance.

  The body carries three per-row accumulators from one vocabulary block to the next (`KS.St`: the running maximum, the
  running sum of exponentials relative to it, the target logit). At a point of the grid it does one of three things:
  * FIRST (vocabulary block 0): reset the accumulators, then update them with the block — `KS.step1 … KS.init1`;
  * MID: update them — `KS.step1 … s` over what the point before left, `s`;
  * LAST (vocabulary block 49): update them, then store `KS.out1` of the result into the output block.
  Each case is a triple over whole memrefs (`sound_kernel_first` / `_mid` / `_last`): every store is of a whole
  buffer, so a buffer ends at its last stored payload and a load after a store reads the stored payload.

  From the triples: the accumulators after each point of the grid's order (`stAt`, by recursion on the position, with
  its two unfolding equations `stAt_first` / `stAt_next`), the invariant (`PhiS`: before the first point every
  accumulator at anything; afterwards at `stAt` of the point before), the proof data `dat` (inputs left at their
  blocks; the output block at `KS.out1 (stAt …)`, stored only at the last vocabulary block and idle elsewhere) and
  the body obligation at every point.
-/
import proofs.«425399_j87299505259073_2_alg».proof.Proof.Gen.KernelIdeal.Launch
import proofs.«425399_j87299505259073_2_alg».proof.Proof.Gen.KernelIdeal.Skeleton
import proofs.«425399_j87299505259073_2_alg».proof.Proof.Gen.KernelIdeal.Points
import proofs.«425399_j87299505259073_2_alg».proof.Proof.KiState
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first conditional (the vocabulary block is the first one), from the grid coordinates. -/
abbrev cond1_0 (i : grid1.Coords) : Prop := (Scalar.cmpi .ne (Scalar.extui (Scalar.cmpi .eq (BitVec.ofNat 32 (i 1).val) 0#32)) 0#32) = 1#1
/-- The condition of the second one (the vocabulary block is the last one). -/
abbrev cond1_1 (i : grid1.Coords) : Prop := k1_cond2 i = 1#1

/-- The zero offsets of a rank-2 whole-buffer access, as the constant function. -/
theorem zeros2 : (![0, 0] : Fin 2 → ℕ) = fun _ => 0 := by
  funext a; fin_cases a <;> rfl

/-- A load of the whole of a whole buffer whose contents are named by what they read: it reads that. -/
theorem readAt_unread {S : Shape} {e : EltTy} (m : Memref sig .tc .vmem S e) (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- Stores into a buffer, the last of them of the whole buffer: it then reads as that store's payload. -/
theorem read_writes_unit {S : Shape} {e : EltTy} (m : Memref sig .tc .vmem S e) {off : Fin S.rank → ℕ}
    (h : off = fun _ => 0) (inb : ∀ a, off a + S.size a ≤ S.size a) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h inb w L]

/-- A load of the whole buffer after one store of the whole buffer reads the store's payload. -/
theorem readCov_unit {S : Shape} {e : EltTy} (m : Memref sig .tc .vmem S e) {off : Fin S.rank → ℕ}
    (h : off = fun _ => 0) (inb : ∀ a, off a + S.size a ≤ S.size a) (w : S.Idx → Elt F e) :
    m.view.readCov [(⟨Rect.unit off S.size inb, w⟩ : View.Piece (Elt F) S e)] (Rect.unit off S.size inb).toLoadRect = w :=
  View.readCov_unit_zero m.view h inb w

/-! ## The body's three cases -/

set_option maxHeartbeats 1000000 in
/-- The body at the first vocabulary block of a row block: on whole memrefs, the three inputs at their blocks, the
    output's buffer at any contents (left as found) and the accumulators at anything, it resets them and runs to the
    continuation holding them at `KS.step1 i x0 w0 y0 KS.init1`. -/
theorem sound_kernel_first (c : Dev nD) (E : Set ℕ) (i : grid1.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : cond1_0 i) (hc1 : ¬cond1_1 i)
    (x0 : Vec F S2048x2048 .bf16) (w0 : Vec F S640x2048 .bf16) (y0 : Vec F S2048x1 .i32) (o0 : Vec F S2048x1 .f32)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step1 i x0 w0 y0 KS.init1).m ∗ owns (c : Thread nD τ) arg7 fullShare (KS.step1 i x0 w0 y0 KS.init1).l
            ∗ owns (c : Thread nD τ) arg8 fullShare (KS.step1 i x0 w0 y0 KS.init1).g) -∗ K ⟨⟩))
      ⊢ wp frame (wpE (defs₀ (F := F)) Variants.none c none) E (cc1__seq_logp_kernel i arg2 harg2 arg3 harg3 arg4 harg4 arg5 harg5 arg6 harg6 arg7 harg7 arg8 harg8) K := by
  simp only [cc1__seq_logp_kernel_eq_skeleton]; unfold cc1__seq_logp_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readCov_unit arg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readCov_unit arg6 zeros2, readCov_unit arg7 zeros2]
    rfl
  · iexists _; isplitr
    swap; · iexact H8
    ipureintro
    refine (read_writes_unit arg8 zeros2 _ _ _ _).trans ?_
    sl_unfold_run_names
    rw [readAt_unread arg2 harg2 zeros2, readAt_unread arg3 harg3 zeros2, readAt_unread arg4 harg4 zeros2, readCov_unit arg8 zeros2]
    rfl

set_option maxHeartbeats 1000000 in
/-- The body at a vocabulary block that is neither the first nor the last of its row block: on whole memrefs, the three
    inputs at their blocks, the output's buffer at any contents (left as found) and the accumulators at `s`, it runs to
    the continuation holding the accumulators at `KS.step1 i x0 w0 y0 s`. -/
theorem sound_kernel_mid (c : Dev nD) (E : Set ℕ) (i : grid1.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : ¬cond1_1 i)
    (x0 : Vec F S2048x2048 .bf16) (w0 : Vec F S640x2048 .bf16) (y0 : Vec F S2048x1 .i32) (o0 : Vec F S2048x1 .f32) (s : KS.St F)
    (K : PUnit → sProp 𝕄) :
    iprop(owns (c : Thread nD τ) arg2 fullShare x0 ∗ owns (c : Thread nD τ) arg3 fullShare w0 ∗ owns (c : Thread nD τ) arg4 fullShare y0
        ∗ owns (c : Thread nD τ) arg5 fullShare o0
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare o0
            ∗ owns (c : Thread nD τ) arg6 fullShare (KS.step1 i x0 w0 y0 s).m ∗ owns (c : Thread nD τ) arg7 fullShare (KS.step1 i x0 w0 y0 s).l
            ∗ owns (c : Thread nD τ) arg8 fullShare (KS.step1 i x0 w0 y0 s).g) -∗ K ⟨⟩))
      ⊢ wp frame (wpE (defs₀ (F := F)) Variants.none c none) E (cc1__seq_logp_kernel i arg2 harg2 arg3 harg3 arg4 harg4 arg5 harg5 arg6 harg6 arg7 harg7 arg8 harg8) K := by
  simp only [cc1__seq_logp_kernel_eq_skeleton]; unfold cc1__seq_logp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

set_option maxHeartbeats 1000000 in
/-- The body at the last vocabulary block of a row block: on whole memrefs, the three inputs at their blocks, the
    output's buffer at anything and the accumulators at `s`, it runs to the continuation holding the accumulators at
    `KS.step1 i x0 w0 y0 s` and the output's buffer at `KS.out1` of that. -/
theorem sound_kernel_last (c : Dev nD) (E : Set ℕ) (i : grid1.Coords)
    (arg2 : Memref sig .tc .vmem S2048x2048 .bf16) (harg2 : arg2.IsWhole) (arg3 : Memref sig .tc .vmem S640x2048 .bf16) (harg3 : arg3.IsWhole)
    (arg4 : Memref sig .tc .vmem S2048x1 .i32) (harg4 : arg4.IsWhole) (arg5 : Memref sig .tc .vmem S2048x1 .f32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole)
    (hc0 : ¬cond1_0 i) (hc1 : cond1_1 i)
    (x0 : Vec F S2048x2048 .bf16) (w0 : Vec F S640x2048 .bf16) (y0 : Vec F S2048x1 .i32) (s : KS.St F)
    (K : PUnit → sProp 𝕄) :
    iprop(owns (c : Thread nD τ) arg2 fullShare x0 ∗ owns (c : Thread nD τ) arg3 fullShare w0 ∗ owns (c : Thread nD τ) arg4 fullShare y0
        ∗ (∃ d, owns (c : Thread nD τ) arg5 fullShare d)
        ∗ owns (c : Thread nD τ) arg6 fullShare s.m ∗ owns (c : Thread nD τ) arg7 fullShare s.l ∗ owns (c : Thread nD τ) arg8 fullShare s.g
        ∗ (iprop(owns (c : Thread nD τ) arg2 fullShare x0 ∗ owns (c : Thread nD τ) arg3 fullShare w0 ∗ owns (c : Thread nD τ) arg4 fullShare y0
            ∗ owns (c : Thread nD τ) arg5 fullShare (KS.out1 (KS.step1 i x0 w0 y0 s))
            ∗ owns (c : Thread nD τ) arg6 fullShare (KS.step1 i x0 w0 y0 s).m ∗ owns (c : Thread nD τ) arg7 fullShare (KS.step1 i x0 w0 y0 s).l
            ∗ owns (c : Thread nD τ) arg8 fullShare (KS.step1 i x0 w0 y0 s).g) -∗ K ⟨⟩))
      ⊢ wp frame (wpE (defs₀ (F := F)) Variants.none c none) E (cc1__seq_logp_kernel i arg2 harg2 arg3 harg3 arg4 harg4 arg5 harg5 arg6 harg6 arg7 harg7 arg8 harg8) K := by
  simp only [cc1__seq_logp_kernel_eq_skeleton]; unfold cc1__seq_logp_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit arg5 zeros2 _ _ _ _).trans ?_
    sl_unfold_run_names
    rw [readAt_unread arg2 harg2 zeros2, readAt_unread arg3 harg3 zeros2, readAt_unread arg4 harg4 zeros2,
      readAt_unread arg6 harg6 zeros2, readAt_unread arg7 harg7 zeros2, readAt_unread arg8 harg8 zeros2,
      readCov_unit arg6 zeros2, readCov_unit arg7 zeros2, readCov_unit arg8 zeros2]
    rfl
  isplitl [H6]
  · iexists _; isplitr
    swap; · iexact H6
    ipureintro
    refine (read_writes_unit arg6 zeros2 _ _ _ _).trans ?_
    sl_unfold_run_names
    rw [readAt_unread arg2 harg2 zeros2, readAt_unread arg3 harg3 zeros2, readAt_unread arg6 harg6 zeros2]
    rfl
  isplitl [H7]
  · iexists _; isplitr
    swap; · iexact H7
    ipureintro
    refine (read_writes_unit arg7 zeros2 _ _ _ _).trans ?_
    sl_unfold_run_names
    rw [readAt_unread arg2 harg2 zeros2, readAt_unread arg3 harg3 zeros2, readAt_unread arg6 harg6 zeros2, readAt_unread arg7 harg7 zeros2]
    rfl
  · iexists _; isplitr
    swap; · iexact H8
    ipureintro
    refine (read_writes_unit arg8 zeros2 _ _ _ _).trans ?_
    rw [readAt_unread arg2 harg2 zeros2, readAt_unread arg3 harg3 zeros2, readAt_unread arg4 harg4 zeros2, readAt_unread arg8 harg8 zeros2]
    rfl

/-! ## The conditions over the grid, and where the output window is idle -/

/-- The first conditional is taken at the points ≡ 0 (mod 50): decided over the grid. -/
theorem hcond1_0 : ∀ t : Fin cfg1.N, cond1_0 (grid1.coords t) ↔ t.val % 50 = 0 :=
  (by decide +kernel : ∀ t : Fin grid1.N, cond1_0 (grid1.coords t) ↔ t.val % 50 = 0)
/-- The second at the points ≡ 49 (mod 50). -/
theorem hcond1_1 : ∀ t : Fin cfg1.N, cond1_1 (grid1.coords t) ↔ t.val % 50 = 49 :=
  (by decide +kernel : ∀ t : Fin grid1.N, cond1_1 (grid1.coords t) ↔ t.val % 50 = 49)

/-- The input windows are never idle. -/
theorem liveAt_in0 : ∀ t : Fin cfg1.N, cfg1.idle 0 (grid1.coords t) = false := by decide +kernel
theorem liveAt_in1 : ∀ t : Fin cfg1.N, cfg1.idle 1 (grid1.coords t) = false := by decide +kernel
theorem liveAt_in2 : ∀ t : Fin cfg1.N, cfg1.idle 2 (grid1.coords t) = false := by decide +kernel
/-- Off the last vocabulary block the output window is idle, and its block is not written back; -/
theorem idleAt_out : ∀ t : Fin cfg1.N, ¬cond1_1 (grid1.coords t) → cfg1.idle 3 (grid1.coords t) = true := by decide +kernel
theorem noFlush_out : ∀ t : Fin cfg1.N, ¬cond1_1 (grid1.coords t) → (cfg1.win 3).flush t = false := by decide +kernel
/-- at it the window is live. -/
theorem liveAt_out : ∀ t : Fin cfg1.N, cond1_1 (grid1.coords t) → cfg1.idle 3 (grid1.coords t) = false := by decide +kernel

/-! ## The memrefs the pipeline calls the body with -/

abbrev ms0 (t : Fin cfg1.N) : Memref sig .tc .vmem S2048x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S640x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x1 .f32 := win1_3.stage (cfg1.slots t 3)
abbrev hs3 (t : Fin cfg1.N) : (ms3 t).IsWhole := hstage1_3 ((cfg1.slots t 3).cast nbuf1_3)
/-- The three accumulators: whole scoped buffers of the kernel's own, passed beside the windows. -/
abbrev scM0 : Memref sig .tc .vmem S2048x1 .f32 := Memref.whole cc1_scratch0
abbrev scM1 : Memref sig .tc .vmem S2048x1 .f32 := Memref.whole cc1_scratch1
abbrev scM2 : Memref sig .tc .vmem S2048x1 .f32 := Memref.whole cc1_scratch2

/-- The core's scoped buffers that are neither a staging buffer of this launch nor one of its accumulators, each at
    some contents: the body does not touch them. -/
def restR (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))

/-- The launch's invariant, in the order the accumulators are used below: they first, at some contents each, then the
    untouched scoped buffers, and the generator register at some state. -/
def PhiAny (c : Dev nD) : sProp 𝕄 :=
  iprop(iprop((∃ d, owns (c : Thread nD τ) scM0 fullShare d) ∗ (∃ d, owns (c : Thread nD τ) scM1 fullShare d)
      ∗ (∃ d, owns (c : Thread nD τ) scM2 fullShare d) ∗ restR (F := F) c) ∗ (∃ r, prngReg c r))

/-- The launch's invariant with the accumulators as memrefs owned at some contents, in the order the scoped buffers are
    listed: the accumulators come last. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ d, owns (c : Thread nD τ) scM0 fullShare d) ∗ (∃ d, owns (c : Thread nD τ) scM1 fullShare d)
      ∗ (∃ d, owns (c : Thread nD τ) scM2 fullShare d)) ∗ (∃ r, prngReg c r)) := by
  unfold Pipeline.ΦA; rw [scopedRest1_eq]; simp only [scM0, scM1, scM2, owns_whole]; try rfl

/-- The two orders entail each other (the separating conjunction commutes). -/
theorem PhiA_fwd (c : Dev nD) : (Pipeline.ΦA spec1 c : sProp 𝕄) ⊢ PhiAny (F := F) c := by
  rw [PhiA1_eq]; unfold PhiAny restR
  iintro ⟨⟨R1, R2, R3, R4, R5, R6, R7, R8, R9, R10, R11, HS0, HS1, HS2⟩, Hg⟩
  isplitr [Hg]
  · isplitl [HS0]; · iexact HS0
    isplitl [HS1]; · iexact HS1
    isplitl [HS2]; · iexact HS2
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

theorem PhiA_bwd (c : Dev nD) : PhiAny (F := F) c ⊢ (Pipeline.ΦA spec1 c : sProp 𝕄) := by
  rw [PhiA1_eq]; unfold PhiAny restR
  iintro ⟨⟨HS0, HS1, HS2, R1, R2, R3, R4, R5, R6, R7, R8, R9, R10, R11⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexact HS0
    isplitl [HS1]; · iexact HS1
    iexact HS2
  iexact Hg

section Data

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents' and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents' and whose body leaves the block in place. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents' and whose body leaves the block in place. -/
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulators after each point -/

/-- One point's update of the accumulators, at position `n` of the grid's order (no update past the grid). -/
def stepAt (c : Dev nD) (n : ℕ) (s : KS.St F) : KS.St F :=
  if h : n < cfg1.N then KS.step1 (grid1.coords ⟨n, h⟩) (iblk V c 0 ⟨n, h⟩) (iblk V c 1 ⟨n, h⟩) (iblk V c 2 ⟨n, h⟩) s else s

/-- The accumulators after the body at position `n`: the point's update of what the point before left, of the reset
    values at a row block's first vocabulary block. -/
def stAt (c : Dev nD) : ℕ → KS.St F
  | 0 => stepAt V c 0 KS.init1
  | n + 1 => stepAt V c (n + 1) (if (n + 1) % 50 = 0 then KS.init1 else stAt c n)

theorem stAt_first (c : Dev nD) (t : Fin cfg1.N) (h : t.val % 50 = 0) :
    stAt V c t.val = KS.step1 (grid1.coords t) (iblk V c 0 t) (iblk V c 1 t) (iblk V c 2 t) KS.init1 := by
  obtain ⟨n, hn⟩ := t
  cases n with
  | zero => unfold stAt stepAt; rw [dif_pos hn]
  | succ n =>
    unfold stAt; rw [if_pos h]; unfold stepAt; rw [dif_pos hn]

theorem stAt_next (c : Dev nD) (t : Fin cfg1.N) (h : t.val % 50 ≠ 0) :
    stAt V c t.val = KS.step1 (grid1.coords t) (iblk V c 0 t) (iblk V c 1 t) (iblk V c 2 t) (stAt V c (t.val - 1)) := by
  obtain ⟨n, hn⟩ := t
  cases n with
  | zero => exact absurd (Nat.zero_mod _) h
  | succ n =>
    rw [show (⟨n + 1, hn⟩ : Fin cfg1.N).val - 1 = n from Nat.add_sub_cancel n 1]
    conv_lhs => unfold stAt
    rw [if_neg h]; unfold stepAt; rw [dif_pos hn]

/-! ## The invariant -/

/-- The region invariant before position `n`: before the first point the launch's own, reordered (every accumulator at anything);
    afterwards the accumulators at what the point before left, the untouched scoped buffers and the generator register
    at some state. -/
def PhiS (c : Dev nD) : ℕ → sProp 𝕄
  | 0 => PhiAny c
  | n + 1 => iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r))

theorem PhiS_zero (c : Dev nD) (n : ℕ) (hz : n = 0) : PhiS V c n = PhiAny c := by
  subst hz; rfl

theorem PhiS_succ (c : Dev nD) (n : ℕ) :
    PhiS V c (n + 1) = iprop(iprop(owns (c : Thread nD τ) scM0 fullShare (stAt V c n).m ∗ owns (c : Thread nD τ) scM1 fullShare (stAt V c n).l
      ∗ owns (c : Thread nD τ) scM2 fullShare (stAt V c n).g ∗ restR (F := F) c) ∗ (∃ r, prngReg c r)) := rfl

theorem PhiS_pos (c : Dev nD) (n : ℕ) (hz : n ≠ 0) :
    PhiS V c n = iprop(iprop(owns (c : Thread nD τ) scM0 fullShare (stAt V c (n - 1)).m ∗ owns (c : Thread nD τ) scM1 fullShare (stAt V c (n - 1)).l
      ∗ owns (c : Thread nD τ) scM2 fullShare (stAt V c (n - 1)).g ∗ restR (F := F) c) ∗ (∃ r, prngReg c r)) := by
  cases n with
  | zero => exact absurd rfl hz
  | succ n => rfl

/-! ## The pipeline's proof data -/

/-- The proof data of the launch on core `c`: the arrays as the region finds them (`V`); after the body at point `t`
    each input's buffer at its block and the output's at `KS.out1` of the accumulators there; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => KS.out1 (stAt V c t.val)
  Φ t := PhiS V c t.val
  q _ := fullShare
  owed _ := 0

theorem A_eq (c : Dev nD) (w : Fin cfg1.W) : (dat V c).A w = V c (Pipeline.arrRef spec1 w) := by
  dsimp only [dat]
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_out (c : Dev nD) (t : Fin cfg1.N) : (dat V c).after 3 t = KS.out1 (stAt V c t.val) := by dsimp only [dat]
theorem owed_zero (c : Dev nD) (t : Fin (cfg1.N + 1)) : (dat V c).owed t = 0 := by dsimp only [dat]
theorem q_full (c : Dev nD) (w : Fin cfg1.W) : (dat V c).q w = fullShare := by dsimp only [dat]
theorem recorded_univ (c : Dev nD) (t : Fin (cfg1.N + 1)) : (dat V c).recorded t = Set.univ := by dsimp only [dat]

theorem PhiS_castSucc (c : Dev nD) (t : Fin cfg1.N) : (dat V c).Φ t.castSucc = PhiS V c t.val := by
  dsimp only [dat]; simp only [Fin.coe_castSucc]

theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d

/-- What the launch hands the region is the invariant before the first point. -/
theorem hin (c : Dev nD) : (Pipeline.ΦA spec1 c : sProp 𝕄) ⊢ (dat V c).Φ 0 := by
  rw [show (dat V c).Φ 0 = PhiS V c 0 from rfl, PhiS_zero V c 0 rfl]
  exact PhiA_fwd c

/-- After any point the invariant gives the launch's own back: the accumulators' named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val from rfl, PhiS_pos V c _ ht]
  refine Idealize.SL.BI.BIBase.Entails.trans ?_ (PhiA_bwd c)
  unfold PhiAny
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

theorem hout (c : Dev nD) : (dat V c).Φ (Fin.last cfg1.N) ⊢ (Pipeline.ΦA spec1 c : sProp 𝕄) :=
  Phi_out V c _ (by rw [Fin.val_last]; have : cfg1.N = 100 := N_1; omega)

/-! ## The body obligation, at a generic point -/

/-- What the exact obligation's post says of an input window's buffer: it holds the block. -/
theorem leaves_in0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt_in0 t], after_in0]
theorem leaves_in1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt_in1 t], after_in1]
theorem leaves_in2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt_in2 t], after_in2]

/-- What the body is called with at point `t` (the library's obligation, the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which of the three cases the
    point is in; the invariant hands the body the accumulators at what the point before left (at anything before a
    row block's first vocabulary block) and takes them back at this point's; off the last vocabulary block the output's
    buffer is handed back as found, at it the buffer holds `KS.out1` of the accumulators; the core owes nothing
    throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2]
  rw [show (dat V c).owesAt () t.succ = (dat V c).owesAt () t.castSucc from rfl]
  rw [show (dat V c).Φ t.succ = PhiS V c (t.val + 1) from rfl, PhiS_succ, PhiS_castSucc]
  rw [leaves_in0, leaves_in1, leaves_in2]
  have hN : t.val < 100 := lt_of_lt_of_eq t.isLt (show cfg1.N = 100 from N_1)
  by_cases h0 : t.val % 50 = 0
  · have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat V c) 3 t (idleAt_out t hc1) (noFlush_out t hc1), stAt_first V c t h0]
    by_cases hz : t.val = 0
    · rw [PhiS_zero V c _ hz]; unfold PhiAny
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid1.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
    · rw [PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_first c Set.univ (grid1.coords t) _ _ _ _ _ _ _ _ _ _ _ _ _ _ hc0 hc1 (iblk V c 0 t) (iblk V c 1 t) (iblk V c 2 t) ((dat V c).before 3 t d3) _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3
  · have hz : t.val ≠ 0 := by omega
    have hc0 : ¬cond1_0 (grid1.coords t) := fun h => h0 ((hcond1_0 t).mp h)
    by_cases h1 : t.val % 50 = 49
    · have hc1 : cond1_1 (grid1.coords t) := (hcond1_1 t).mpr h1
      rw [show (dat V c).leavesExact 3 t = owns (c : Thread nD τ) (ms3 t) fullShare ((dat V c).after 3 t) from by
        unfold Dat.leavesExact; rw [liveAt_out t hc1], after_out]
      rw [stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_last c Set.univ (grid1.coords t) _ _ _ _ _ _ _ _ _ _ _ _ _ _ hc0 hc1 (iblk V c 0 t) (iblk V c 1 t) (iblk V c 2 t) (stAt V c (t.val - 1)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat V c) 3 t (idleAt_out t hc1) (noFlush_out t hc1), stAt_next V c t h0, PhiS_pos V c _ hz]
      iintro ⟨⟨⟨HS0, HS1, HS2, HR⟩, Hg⟩, Ho, ⟨%d0, H0⟩, ⟨%d1, H1⟩, ⟨%d2, H2⟩, ⟨%d3, H3⟩⟩
      iapply (sound_kernel_mid c Set.univ (grid1.coords t) _ _ _ _ _ _ _ _ _ _ _ _ _ _ hc0 hc1 (iblk V c 0 t) (iblk V c 1 t) (iblk V c 2 t) ((dat V c).before 3 t d3) (stAt V c (t.val - 1)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

end Data

end Cert.KernelIdeal.Reg1

end
-- ==== Proof.KiW.lean ====
/-
  The contents of every unscoped buffer of the core at each boundary between the seven segments of @main of the
  ideal kernel program, at any float instance, as ONE valuation per boundary:
  `W0` the launch contents; `W1 = after hostOps0 W0`; `W2` is `W1` with the first launch's four arrays at what its
  write-backs leave; `W3 = after hostOps1 W2`; `W4` likewise for the second launch; then `W5`, `W6`, `W7` after the
  three closing stretches of host operations. No segment writes an argument array, so each argument's buffer holds
  at `W7` what it held at launch.
-/
import proofs.«425399_j87299505259073_2_alg».proof.Proof.KiRegion0
import proofs.«425399_j87299505259073_2_alg».proof.Proof.KiRegion1
import proofs.«425399_j87299505259073_2_alg».proof.Proof.Gen.KernelIdeal.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b
/-- At the first launch's exit: its arrays at what its write-backs leave, every other buffer as entered. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second launch's entry). -/
abbrev W3 : Dev nD → Valuation τ sig (Elt F) := fun c => StableHlo.after hostOps1 (W2 m ρ c)
/-- The same read at the core's references. -/
abbrev V3 : (c : Dev nD) → (b : Ref sig .tc) → Buf (Elt F) ((c : Thread nD τ).loc b) := fun c b => W3 m ρ c b
/-- At the second launch's exit: its arrays at what its write-backs leave, every other buffer as entered. -/
def W4 (c : Dev nD) : Valuation τ sig (Elt F) :=
  Pipeline.withArrays spec1 c (W3 m ρ c) fun w => (Reg1.dat (V3 m ρ) c).arrAt w cfg1.N
theorem W4_arr (c : Dev nD) (w : Fin cfg1.W) :
    W4 m ρ c (Proc.devRef .tc (Pipeline.arrRef spec1 w)) = (Reg1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m ρ c b
theorem hF1 (c : Dev nD) (w : Fin cfg1.W) : (Reg1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the masked means and the scaled difference), -/
abbrev W5 : Dev nD → Valuation τ sig (Elt F) := fun c => StableHlo.after hostOps2 (W4 m ρ c)
/-- the fourth (the log-sigmoid), -/
abbrev W6 : Dev nD → Valuation τ sig (Elt F) := fun c => StableHlo.after hostOps2_1 (W5 m ρ c)
/-- and the fifth (the mean over the pairs): the contents @main returns with. -/
abbrev W7 : Dev nD → Valuation τ sig (Elt F) := fun c => StableHlo.after hostOps2_2 (W6 m ρ c)

/-! ### A buffer no segment writes ends as launched -/

/-- A reference that no host stretch writes and that is no array of either launch holds at the end what it held
    at launch: the fold walks back to the launch memory one boundary at a time. -/
theorem W7_of_untouched (c : Dev nD) (r : Ref sig .tc)
    (h0 : r ∉ hostOps0_W) (h1 : ∀ w, Pipeline.arrRef spec0 w ≠ r) (h2 : r ∉ hostOps1_W) (h3 : ∀ w, Pipeline.arrRef spec1 w ≠ r)
    (h4 : r ∉ hostOps2_W) (h5 : r ∉ hostOps2_1_W) (h6 : r ∉ hostOps2_2_W) :
    W7 m ρ c (Proc.devRef .tc r) = m ((c : Thread nD τ).loc r) :=
  calc W7 m ρ c (Proc.devRef .tc r)
    _ = W6 m ρ c (Proc.devRef .tc r) := StableHlo.after_of_writes_sub hostOps2_2 _ hostOps2_2_writes h6
    _ = W5 m ρ c (Proc.devRef .tc r) := StableHlo.after_of_writes_sub hostOps2_1 _ hostOps2_1_writes h5
    _ = W4 m ρ c (Proc.devRef .tc r) := StableHlo.after_of_writes_sub hostOps2 _ hostOps2_writes h4
    _ = W3 m ρ c (Proc.devRef .tc r) := W4_of_ne m ρ c r h3
    _ = W2 m ρ c (Proc.devRef .tc r) := StableHlo.after_of_writes_sub hostOps1 _ hostOps1_writes h2
    _ = W1 m ρ c (Proc.devRef .tc r) := W2_of_ne m ρ c r h1
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)

/-! ### The references the thread state holds -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Run

end
-- ==== Proof.KiRun.lean ====
/-
  The run of @main of the ideal kernel program, at any float instance: its seven segments in order — a stretch of
  host operations, the first launch of the log-probability kernel (on the policy's activations and weights), a second
  stretch, the second launch (on the reference model's), and three closing stretches that form the masked means and
  the loss — over the boundary valuations `W0 … W7` of every unscoped buffer.

  `run_all`: every weakly fair execution terminates, nothing faulting, and the final memory holds every unscoped
  buffer at `W7`. No segment writes an argument array, so each ends as launched (`frame`).
-/
import proofs.«425399_j87299505259073_2_alg».proof.Proof.KiW

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Each launch's proof data at its entry contents — a literal `match`, so that the pinned configuration at a numeral
    reduces to the printed one. -/
def pdats : (p : Fin 2) → (c : Dev nD) → Dat τ (Elt F) Unit ℕ (UR sig nD τ) ℕ (Pipeline.pin (pcfgs (F := F)) adm p) c
  | ⟨0, _⟩ => fun c => Reg0.dat (V1 m ρ) c
  | ⟨1, _⟩ => fun c => Reg1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves them
    at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The two launches as segments -/

-- a library lemma stated over the pinned configuration unifies with the printed one only when unification may
-- unfold plain definitions in a metavariable's type
set_option backward.isDefEq.respectTransparency.types false in
/-- Launch 0 of the kernel over the thread state: entered from every unscoped buffer at `W1`, left at `W2`. Its
    four arrays are split out of the unscoped buffers and put back at the exit contents; the generator register and
    the scoped buffers no window stages (among them the three accumulators) go into the region's invariant and come
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun c t => Reg0.owed_zero (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => Reg0.q_full (V1 m ρ) c w) (V1 m ρ c) fun w => Reg0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from Reg0.owed_zero (V1 m ρ) c 0]
      icases HO with ⟨%W, HO⟩; iexists W; isplitr
      · ipureintro
        exact fun x _ => Or.inl (show x ∈ (Reg0.dat (V1 m ρ) c).recorded 0 by rw [Reg0.recorded_univ]; exact Set.mem_univ x)
      iexact HO
    isplitl [Hp]; · iexact Hp
    iexact Hrest
  hin c := by
    refine BIBase.Entails.trans ?_ (Reg0.hin (V1 m ρ) c)
    unfold Pipeline.ΦA
    iintro ⟨Hp, -, Hr⟩
    isplitl [Hr]; · iexact Hr
    iexact Hp
  hout c := by
    refine (Reg0.hout (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => Reg0.q_full (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from Reg0.owed_zero (V1 m ρ) c _]
    icases HO with ⟨%W, -, HO⟩; iexists W; iexact HO

-- a library lemma stated over the pinned configuration unifies with the printed one only when unification may
-- unfold plain definitions in a metavariable's type
set_option backward.isDefEq.respectTransparency.types false in
/-- Launch 1 of the kernel over the thread state: entered from every unscoped buffer at `W3`, left at `W4`. Its
    four arrays are split out of the unscoped buffers and put back at the exit contents; the generator register and
    the scoped buffers no window stages (among them the three accumulators) go into the region's invariant and come
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m ρ) c).loose
  hwaits := Pipeline.hwaits_of_owed_zero _ _ _ _ L lv 1 fun c t => Reg1.owed_zero (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => Reg1.q_full (V3 m ρ) c w) (V3 m ρ c) fun w => Reg1.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from Reg1.owed_zero (V3 m ρ) c 0]
      icases HO with ⟨%W, HO⟩; iexists W; isplitr
      · ipureintro
        exact fun x _ => Or.inl (show x ∈ (Reg1.dat (V3 m ρ) c).recorded 0 by rw [Reg1.recorded_univ]; exact Set.mem_univ x)
      iexact HO
    isplitl [Hp]; · iexact Hp
    iexact Hrest
  hin c := by
    refine BIBase.Entails.trans ?_ (Reg1.hin (V3 m ρ) c)
    unfold Pipeline.ΦA
    iintro ⟨Hp, -, Hr⟩
    isplitl [Hr]; · iexact Hr
    iexact Hp
  hout c := by
    refine (Reg1.hout (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => Reg1.q_full (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from Reg1.owed_zero (V3 m ρ) c _]
    icases HO with ⟨%W, -, HO⟩; iexists W; iexact HO

/-! ## @main as segments, and the run -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]
/-- @main IS the run of the segments: the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main terminates, nothing faulting,
    and every final state holds every unscoped buffer at `W7`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the run, read at the five argument arrays — each ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c)⟩) (run_all m ρ)

end Cert.KernelIdeal.Run

end
-- ==== Proof.Spec.lean ====
/-
  The specification both programs are compared against, index by index on the extended reals.

  For activations `X[b,t,h]`, weights `W[v,h]` and labels `Y[b,t]`:
  * `logit X W b t v = ∑ h, X[b,t,h] · W[v,h]`;
  * a row's log-partition is split as its maximum `rowMax` and `rowSum = ∑ v, exp (logit v − rowMax)`,
    so that the log-probability of label `v` is `(logit v − rowMax) − log rowSum`;
  * a label equal to the ignore sentinel `-100` is dropped by the factor `keep ∈ {0, 1}`;
  * a sequence's value is the kept log-probabilities' sum over the number of kept labels.
  Nothing here mentions a program.
-/
import Idealize.ShloMosaic.PureOps.Ideal
import Idealize.ShloMosaic.Lib.ValueIdx

noncomputable section

namespace Cert.Spec

open Idealize.ShloMosaic Idealize.ShloMosaic.ValueIdx

/-- The argument arrays' shapes. -/
abbrev SX : Shape := ⟨3, ![4, 1024, 2048]⟩
abbrev SW : Shape := ⟨2, ![32000, 2048]⟩
abbrev SY : Shape := ⟨2, ![4, 1024]⟩
abbrev SQ : Shape := ⟨1, ![4]⟩

/-- The ignore sentinel `-100` as a 32-bit word. -/
abbrev ignoreWord : BitVec 32 := 4294967196#32

/-- The logit of token `(b, t)` for vocabulary entry `v`: the row of activations against the row of weights. -/
def logit (X : SX.Idx → EReal) (W : SW.Idx → EReal) (b : Fin 4) (t : Fin 1024) (v : Fin 32000) : EReal :=
  ∑ h : Fin 2048, X (ix3 b t h) * W (ix2 v h)

/-- The largest logit of token `(b, t)`. -/
def rowMax (X : SX.Idx → EReal) (W : SW.Idx → EReal) (b : Fin 4) (t : Fin 1024) : EReal :=
  Finset.univ.sup' ⟨(0 : Fin 32000), Finset.mem_univ _⟩ (logit X W b t)

/-- The sum of the exponentials of the logits less their maximum. -/
def rowSum (X : SX.Idx → EReal) (W : SW.Idx → EReal) (b : Fin 4) (t : Fin 1024) : EReal :=
  ∑ v : Fin 32000, Ideal.exp (logit X W b t v - rowMax X W b t)

/-- The log-probability the softmax of token `(b, t)`'s logits gives vocabulary entry `v`. -/
def tokLogp (X : SX.Idx → EReal) (W : SW.Idx → EReal) (b : Fin 4) (t : Fin 1024) (v : Fin 32000) : EReal :=
  (logit X W b t v - rowMax X W b t) - Ideal.log (rowSum X W b t)

/-- `1` where the label is kept, `0` where it is the ignore sentinel. -/
def keep (Y : SY.Idx → BitVec 32) (b : Fin 4) (t : Fin 1024) : EReal :=
  if Y (ix2 b t) = ignoreWord then 0 else 1

/-- The label as a vocabulary entry (its value only matters where the label is kept, and there it is in range). -/
def lab (Y : SY.Idx → BitVec 32) (b : Fin 4) (t : Fin 1024) : Fin 32000 :=
  ⟨(Y (ix2 b t)).toNat % 32000, Nat.mod_lt _ (by norm_num)⟩

/-- A sequence's value: the kept labels' log-probabilities summed, over the number of kept labels. -/
def seqLogp (X : SX.Idx → EReal) (W : SW.Idx → EReal) (Y : SY.Idx → BitVec 32) : SQ.Idx → EReal := fun i =>
  Ideal.div (∑ t : Fin 1024, tokLogp X W (i 0) t (lab Y (i 0) t) * keep Y (i 0) t)
    (∑ t : Fin 1024, keep Y (i 0) t)

/-- What the precondition gives: every label is a vocabulary entry or the sentinel, -/
def LabelsOk (Y : SY.Idx → BitVec 32) : Prop :=
  ∀ (b : Fin 4) (t : Fin 1024), Y (ix2 b t) = ignoreWord ∨ (Y (ix2 b t)).toNat < 32000

/-- every sequence keeps a label, -/
def RowsKept (Y : SY.Idx → BitVec 32) : Prop :=
  ∀ b : Fin 4, (1 : EReal) ≤ ∑ t : Fin 1024, keep Y b t

/-- and an array's entries are real numbers. -/
def Finite {S : Shape} (A : S.Idx → EReal) : Prop := ∀ i, ∃ r : ℝ, A i = (r : EReal)

end Cert.Spec

end
-- ==== Proof.RefVal.lean ====
/-
  The reference program's result as a pure function of its argument arrays, and that function
  read index by index as the specification's sequence log-probability.

  `seqR X W Y` composes, one operation after another exactly as printed, the reference's
  operations from the label mask and the matrix product to the masked mean: the log-softmax
  (row maximum, shift, exponential, row sum, logarithm), the replacement of ignored labels by 0,
  the take along the vocabulary axis (negative-index wrap, bounds test, gather, fill), the mask as
  a float factor, the two row sums and their quotient. `tailR` composes the operations after the
  two masked means (slices, differences, the scale 0.1, the log-sigmoid through softplus, the sum,
  the negation and the division by 2).
-/
import proofs.«425399_j87299505259073_2_alg».proof.ReferenceIdeal
import proofs.«425399_j87299505259073_2_alg».proof.Proof.Gen.ReferenceIdeal
import proofs.«425399_j87299505259073_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Idealize.ShloMosaic Idealize.ShloMosaic.ValueIdx
open Cert.ReferenceIdeal.Facts₀

/-! ## The operations, composed as printed -/

/-- The label mask: `1` where the label differs from the ignore sentinel. -/
def mask (Y : IVec S4x1024 32) : IVec S4x1024 1 :=
  cmpi .ne Y (broadcastInDim S4x1024 ![] bcast_S_S4x1024 (constantI S_ 32 4294967196#32))

/-- The logits: activations against weights, contracted over the hidden axis. -/
def logits (X : FVec Ideal S4x1024x2048 .f32) (W : FVec Ideal S32000x2048 .f32) : FVec Ideal S4x1024x32000 .f32 :=
  Host.dotGeneral (F := Ideal) dot_S4x1024x2048_S32000x2048_S4x1024x32000_2_1_01_0_n_n none X W

/-- The log-softmax's row maximum: the reduce from `-inf`, then the maximum with `-inf`. -/
def lsmMax (z : FVec Ideal S4x1024x32000 .f32) : FVec Ideal S4x1024 .f32 :=
  maximumf (broadcastInDim S4x1024 ![] bcast_S_S4x1024 (constant (F := Ideal) S_ .f32 0xFF800000#32))
    (Host.reduce FloatOps.maximumf z (constant (F := Ideal) S_ .f32 0xFF800000#32) reducesTo_S4x1024x32000_S4x1024_d2 h_S_)

/-- The logits less their row maximum. -/
def lsmShift (z : FVec Ideal S4x1024x32000 .f32) : FVec Ideal S4x1024x32000 .f32 :=
  subf z (broadcastInDim S4x1024x32000 ![0, 1, 2] bcast_S4x1024x1_S4x1024x32000_0_1_2
    (broadcastInDim S4x1024x1 ![0, 1] bcast_S4x1024_S4x1024x1_0_1 (lsmMax z)))

/-- The row sum of the exponentials of the shifted logits. -/
def lsmSum (z : FVec Ideal S4x1024x32000 .f32) : FVec Ideal S4x1024 .f32 :=
  Host.reduceAdd (Host.exp (lsmShift z)) (constant (F := Ideal) S_ .f32 0x00000000#32) reducesTo_S4x1024x32000_S4x1024_d2 h_S_

/-- The log-softmax of the logits along the vocabulary axis. -/
def logSoftmax (z : FVec Ideal S4x1024x32000 .f32) : FVec Ideal S4x1024x32000 .f32 :=
  subf (lsmShift z) (broadcastInDim S4x1024x32000 ![0, 1, 2] bcast_S4x1024x1_S4x1024x32000_0_1_2
    (Host.log (broadcastInDim S4x1024x1 ![0, 1] bcast_S4x1024_S4x1024x1_0_1 (lsmSum z))))

/-- The labels with the ignored ones replaced by `0`. -/
def safeLab (Y : IVec S4x1024 32) : IVec S4x1024 32 :=
  select (mask Y) Y (broadcastInDim S4x1024 ![] bcast_S_S4x1024 (id (constantI S_ 32 0#32)))

/-- The take's start indices: a negative index wrapped by the vocabulary size, as a rank-4 array. -/
def takeIdx4 (idx : IVec S4x1024x1 32) : IVec S4x1024x1x1 32 :=
  fun i => shapeCast S4x1024x1x1
    (select (cmpi .slt idx (broadcastInDim S4x1024x1 ![] bcast_S_S4x1024x1 (constantI S_ 32 0#32)))
      (addi idx (broadcastInDim S4x1024x1 ![] bcast_S_S4x1024x1 (constantI S_ 32 32000#32))) idx)
    shapeCasts_S4x1024x1_S4x1024x1x1 i

/-- The take's bounds test: the start index lies in `[0, 31999]`. -/
def takeOk (idx : IVec S4x1024x1 32) : IVec S4x1024x1 1 :=
  Host.reduce IntOp.andi
    (andi (cmpi .sge (takeIdx4 idx) (broadcastInDim S4x1024x1x1 ![] bcast_S_S4x1024x1x1 (constantI S_ 32 0#32)))
      (cmpi .sle (takeIdx4 idx) (broadcastInDim S4x1024x1x1 ![0, 1, 2, 3] bcast_S1x1x1x1_S4x1024x1x1_0_1_2_3
        (broadcastInDim S1x1x1x1 ![3] bcast_S1_S1x1x1x1_3 (constantI S1 32 31999#32)))))
    (constantI S_ 1 1#1) reducesTo_S4x1024x1x1_S4x1024x1_d3 h_S_

/-- The take along the vocabulary axis: the gathered entry where the index is in bounds, the fill value elsewhere. -/
def takeAlong (z : FVec Ideal S4x1024x32000 .f32) (idx : IVec S4x1024x1 32) : FVec Ideal S4x1024x1 .f32 :=
  select (takeOk idx)
    (Host.gather gather_S4x1024x32000_S4x1024x1x1_S4x1024x1_n_2_01_01_2_3_111 z (takeIdx4 idx))
    (broadcastInDim S4x1024x1 ![] bcast_S_S4x1024x1 (constant (F := Ideal) S_ .f32 0x7FC00000#32))

/-- The label's log-probability at every token, as a rank-2 array. -/
def picked (X : FVec Ideal S4x1024x2048 .f32) (W : FVec Ideal S32000x2048 .f32) (Y : IVec S4x1024 32) :
    FVec Ideal S4x1024 .f32 :=
  fun i => shapeCast S4x1024
    (takeAlong (logSoftmax (logits X W)) (broadcastInDim S4x1024x1 ![0, 1] bcast_S4x1024_S4x1024x1_0_1 (safeLab Y)))
    shapeCasts_S4x1024x1_S4x1024 i

/-- The mask as a float factor. -/
def maskF (Y : IVec S4x1024 32) : FVec Ideal S4x1024 .f32 := uitofp (F := Ideal) .f32 (mask Y)

/-- A sequence's masked mean log-probability: the reference's operations from the mask and the matrix
    product to the quotient of the two row sums. -/
def seqR (X : FVec Ideal S4x1024x2048 .f32) (W : FVec Ideal S32000x2048 .f32) (Y : IVec S4x1024 32) : FVec Ideal S4 .f32 :=
  Host.divf
    (Host.reduceAdd (mulf (picked X W Y) (maskF Y)) (constant (F := Ideal) S_ .f32 0x00000000#32) reducesTo_S4x1024_S4_d1 h_S_)
    (Host.reduceAdd (maskF Y) (constant (F := Ideal) S_ .f32 0x00000000#32) reducesTo_S4x1024_S4_d1 h_S_)

/-- The softplus, as printed. -/
def softplus (x : FVec Ideal S2 .f32) : FVec Ideal S2 .f32 :=
  select (cmpf .une (subf x (broadcastInDim S2 ![] bcast_S_S2 (constant (F := Ideal) S_ .f32 0x00000000#32)))
      (subf x (broadcastInDim S2 ![] bcast_S_S2 (constant (F := Ideal) S_ .f32 0x00000000#32))))
    (addf x (broadcastInDim S2 ![] bcast_S_S2 (constant (F := Ideal) S_ .f32 0x00000000#32)))
    (addf (maximumf x (broadcastInDim S2 ![] bcast_S_S2 (constant (F := Ideal) S_ .f32 0x00000000#32)))
      (Host.log1p (Host.exp (Host.negf (Host.absf
        (subf x (broadcastInDim S2 ![] bcast_S_S2 (constant (F := Ideal) S_ .f32 0x00000000#32))))))))

/-- The log-sigmoid through the softplus, as printed. -/
def logSigmoid (x : FVec Ideal S2 .f32) : FVec Ideal S2 .f32 := Host.negf (softplus (Host.negf x))

/-- The scaled difference of differences the loss is taken of. -/
def margin (a c : FVec Ideal S4 .f32) : FVec Ideal S2 .f32 :=
  mulf (broadcastInDim S2 ![] bcast_S_S2 (constant (F := Ideal) S_ .f32 0x3DCCCCCD#32))
    (subf (subf (extractStridedSlice S2 ![0] a slices_S4_S2_0) (extractStridedSlice S2 ![0] c slices_S4_S2_0))
      (subf (extractStridedSlice S2 ![2] a slices_S4_S2_2) (extractStridedSlice S2 ![2] c slices_S4_S2_2)))

/-- The loss from the two programs' sequence values: the operations after the two masked means. -/
def tailR (a c : FVec Ideal S4 .f32) : FVec Ideal S_ .f32 :=
  Host.divf
    (Host.negf (Host.reduceAdd (logSigmoid (margin a c)) (constant (F := Ideal) S_ .f32 0x00000000#32) reducesTo_S2_S_d0 h_S_))
    (constant (F := Ideal) S_ .f32 0x40000000#32)

/-- The reference's result as a function of its five argument arrays. -/
def res (x rx : FVec Ideal S4x1024x2048 .f32) (y : IVec S4x1024 32) (w wr : FVec Ideal S32000x2048 .f32) : FVec Ideal S_ .f32 :=
  tailR (seqR x w y) (seqR rx wr y)

end Cert.ReferenceIdeal.RefVal

end
-- ==== Proof.LibTypedRef.lean ====
/-
  Typed references: writing a value through a typed reference and reading it back is the identity.

  A typed reference carries the type of the tensor value its buffer holds together with a proof that the buffer's
  declared type is that type; contents are moved between the two types along that proof. Moving there and back
  along one proof is the identity, whatever the reference.
-/
import Idealize.ShloMosaic.Lib.StableHlo

namespace Idealize.ShloMosaic.StableHlo.TRef

variable {sig : RefSig} {Val : EltTy → Type} {T : BufTy}

/-- Contents written through a typed reference and read back through it are unchanged. -/
theorem ofBuf_toBuf (x : TRef sig T) (v : T.Contents Val) : x.ofBuf (x.toBuf v) = v := by
  obtain ⟨r, h, _, _⟩ := x
  subst h
  rfl

end Idealize.ShloMosaic.StableHlo.TRef
-- ==== Proof.RefRun.lean ====
/-
  The run of the reference program.

  The reference's @main is a straight line of 136 array operations once its outlined functions (the log-softmax,
  the replacement of ignored labels by 0, the take along the vocabulary axis, the log-sigmoid through the softplus)
  are read at their call sites, each over the buffers its call names. The line is cut into seven stretches: for each
  of the two pairs (activations, weights) the logits with their log-softmax and the labels as gather indices (the
  first pair's stretch also computes the label mask both pairs use), then the take, then the masked mean; and the
  tail from the two masked means to the loss. For each stretch we state what its result buffers hold after it as a
  function of what its input buffers held before it, and that it leaves every buffer it does not write. Composed
  along the line, the result buffer ends at `RefVal.res` of the five argument arrays, and the arguments end unchanged.
-/
import proofs.«425399_j87299505259073_2_alg».proof.Proof.Gen.ReferenceIdeal
import Idealize.ShloMosaic.Lib.StableHlo.Run
import proofs.«425399_j87299505259073_2_alg».proof.Proof.RefVal
import proofs.«425399_j87299505259073_2_alg».proof.Proof.LibTypedRef

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The labels with the entries outside the mask replaced by `0`, as a column along a new last axis. -/
def labCol (mk : IVec S4x1024 1) (Y : IVec S4x1024 32) : IVec S4x1024x1 32 :=
  broadcastInDim S4x1024x1 ![0, 1] bcast_S4x1024_S4x1024x1_0_1
    (select mk Y (broadcastInDim S4x1024 ![] bcast_S_S4x1024 (id (constantI S_ 32 0#32))))

/-- The mean over a row of the column `p` under the mask `mk`: the masked sum over the mask's count. -/
def maskedMean (p : FVec Ideal S4x1024x1 .f32) (mk : IVec S4x1024 1) : FVec Ideal S4 .f32 :=
  Host.divf
    (Host.reduceAdd (mulf (fun i => shapeCast S4x1024 p shapeCasts_S4x1024x1_S4x1024 i) (uitofp (F := Ideal) .f32 mk))
      (constant (F := Ideal) S_ .f32 0x00000000#32) reducesTo_S4x1024_S4_d1 h_S_)
    (Host.reduceAdd (uitofp (F := Ideal) .f32 mk) (constant (F := Ideal) S_ .f32 0x00000000#32) reducesTo_S4x1024_S4_d1 h_S_)

/-- The masked mean of the taken log-probabilities is the reference's sequence value. -/
theorem maskedMean_seqR (X : FVec Ideal S4x1024x2048 .f32) (W : FVec Ideal S32000x2048 .f32) (Y : IVec S4x1024 32) :
    maskedMean (RefVal.takeAlong (RefVal.logSoftmax (RefVal.logits X W)) (labCol (RefVal.mask Y) Y)) (RefVal.mask Y)
      = RefVal.seqR X W Y := by
  unfold RefVal.seqR RefVal.picked RefVal.maskF RefVal.safeLab maskedMean labCol
  rfl

/-! ## The first pair -/

/-- The label mask, the first pair's logits and their log-softmax, and the labels as gather indices. -/
abbrev opsA1 : List (HloOp τ sig (Elt F)) :=
  [
    nullary main_c (constantI S_ 32 4294967196#32),
    unary main_c main_v0 (broadcastInDim S4x1024 ![] bcast_S_S4x1024 : (⟨S_, .i32⟩ : BufTy).Contents (Elt F) → (⟨S4x1024, .i32⟩ : BufTy).Contents (Elt F)),
    binary main_arg2 main_v0 main_v1 (cmpi .ne : (⟨S4x1024, .i32⟩ : BufTy).Contents (Elt F) → (⟨S4x1024, .i32⟩ : BufTy).Contents (Elt F) → (⟨S4x1024, .i1⟩ : BufTy).Contents (Elt F)),
    binary main_arg0 main_arg3 main_v2 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    TRef.nullary main_call0.cst (constant S_ .f32 0xFF800000#32),
    TRef.binary (TRef.of main_v2 : TRef sig ⟨S4x1024x32000, .f32⟩) main_call0.cst main_call0.v0 (fun x v => Host.reduce FloatOps.maximumf x v reducesTo_S4x1024x32000_S4x1024_d2 h_S_),
    TRef.nullary main_call0.cst_0 (constant S_ .f32 0xFF800000#32),
    TRef.unary main_call0.cst_0 main_call0.v1 (broadcastInDim S4x1024 ![] bcast_S_S4x1024),
    TRef.binary main_call0.v1 main_call0.v0 main_call0.v2 maximumf,
    TRef.unary main_call0.v2 main_call0.v3 (broadcastInDim S4x1024x1 ![0, 1] bcast_S4x1024_S4x1024x1_0_1),
    TRef.unary main_call0.v3 main_call0.v4 (broadcastInDim S4x1024x32000 ![0, 1, 2] bcast_S4x1024x1_S4x1024x32000_0_1_2),
    TRef.binary (TRef.of main_v2 : TRef sig ⟨S4x1024x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4x1024x32000_S4x1024_d2 h_S_),
    TRef.unary main_call0.v7 main_call0.v8 (broadcastInDim S4x1024x1 ![0, 1] bcast_S4x1024_S4x1024x1_0_1),
    TRef.unary main_call0.v8 main_call0.v9 Host.log,
    TRef.unary main_call0.v9 main_call0.v10 (broadcastInDim S4x1024x32000 ![0, 1, 2] bcast_S4x1024x1_S4x1024x32000_0_1_2),
    TRef.binary main_call0.v5 main_call0.v10 main_call0.v11 subf,
    nullary main_c_0 (constantI S_ 32 0#32),
    TRef.unary (TRef.of main_c_0 : TRef sig ⟨S_, .i32⟩) main_call1.v0 id,
    TRef.unary main_call1.v0 main_call1.v1 (broadcastInDim S4x1024 ![] bcast_S_S4x1024),
    TRef.ternary (TRef.of main_v1 : TRef sig ⟨S4x1024, .i1⟩) (TRef.of main_arg2 : TRef sig ⟨S4x1024, .i32⟩) main_call1.v1 main_call1.v2 select,
    unary main_v4 main_v5 (broadcastInDim S4x1024x1 ![0, 1] bcast_S4x1024_S4x1024x1_0_1 : (⟨S4x1024, .i32⟩ : BufTy).Contents (Elt F) → (⟨S4x1024x1, .i32⟩ : BufTy).Contents (Elt F)) ]

theorem opsA1_sub : (opsA1 : List (HloOp τ sig (Elt F))).Forall fun op => op.bufs ⊆ tcRefs τ sig :=
  ⟨
    nullary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub .., nullary_bufs_sub .., unary_bufs_sub .., unary_bufs_sub .., ternary_bufs_sub .., unary_bufs_sub ..⟩

theorem opsA1_fresh : (opsA1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl⟩

/-- Reading or writing these buffers through their typed references is the identity. -/
theorem ofBuf_v2 (h1 h2 h3) (v : (⟨S4x1024x32000, .f32⟩ : BufTy).Contents (Elt Ideal)) :
    (TRef.of (sig := sig) (T := ⟨S4x1024x32000, .f32⟩) main_v2 h1 h2 h3).ofBuf (Val := Elt Ideal) v = v := rfl
theorem toBuf_v3 (h1 h2 h3) (v : (⟨S4x1024x32000, .f32⟩ : BufTy).Contents (Elt Ideal)) :
    (TRef.of (sig := sig) (T := ⟨S4x1024x32000, .f32⟩) main_v3 h1 h2 h3).toBuf (Val := Elt Ideal) v = v := rfl

set_option maxRecDepth 8192 in
theorem A1_v1 (V : Valuation τ sig (Elt Ideal)) :
    after (opsA1 (F := Ideal)) V (Proc.devRef .tc main_v1)
      = RefVal.mask (V (Proc.devRef .tc main_arg2)) := by
  after_results_simp
  rfl

set_option maxRecDepth 8192 in
theorem A1_v3 (V : Valuation τ sig (Elt Ideal)) :
    after (opsA1 (F := Ideal)) V (Proc.devRef .tc main_v3)
      = RefVal.logSoftmax (RefVal.logits (V (Proc.devRef .tc main_arg0)) (V (Proc.devRef .tc main_arg3))) := by
  after_results_simp
  simp only [TRef.ofBuf_toBuf]
  rw [toBuf_v3]
  simp only [ofBuf_v2]
  unfold RefVal.logSoftmax RefVal.lsmSum RefVal.lsmShift RefVal.lsmMax RefVal.logits
  rfl

set_option maxRecDepth 8192 in
theorem A1_v5 (V : Valuation τ sig (Elt Ideal)) :
    after (opsA1 (F := Ideal)) V (Proc.devRef .tc main_v5)
      = labCol (RefVal.mask (V (Proc.devRef .tc main_arg2))) (V (Proc.devRef .tc main_arg2)) := by
  after_results_simp
  rfl

theorem A1_keep_arg0 (V : Valuation τ sig (Elt F)) :
    after (opsA1 (F := F)) V (Proc.devRef .tc main_arg0) = V (Proc.devRef .tc main_arg0) := by
  after_results_simp

theorem A1_keep_arg1 (V : Valuation τ sig (Elt F)) :
    after (opsA1 (F := F)) V (Proc.devRef .tc main_arg1) = V (Proc.devRef .tc main_arg1) := by
  after_results_simp

theorem A1_keep_arg2 (V : Valuation τ sig (Elt F)) :
    after (opsA1 (F := F)) V (Proc.devRef .tc main_arg2) = V (Proc.devRef .tc main_arg2) := by
  after_results_simp

theorem A1_keep_arg3 (V : Valuation τ sig (Elt F)) :
    after (opsA1 (F := F)) V (Proc.devRef .tc main_arg3) = V (Proc.devRef .tc main_arg3) := by
  after_results_simp

theorem A1_keep_arg4 (V : Valuation τ sig (Elt F)) :
    after (opsA1 (F := F)) V (Proc.devRef .tc main_arg4) = V (Proc.devRef .tc main_arg4) := by
  after_results_simp

/-- The first pair's take along the vocabulary axis. -/
abbrev opsA2 : List (HloOp τ sig (Elt F)) :=
  [
    TRef.nullary main_call2.c (constantI S_ 32 0#32),
    TRef.unary main_call2.c main_call2.v0 (broadcastInDim S4x1024x1 ![] bcast_S_S4x1024x1),
    TRef.binary (TRef.of main_v5 : TRef sig ⟨S4x1024x1, .i32⟩) main_call2.v0 main_call2.v1 (cmpi .slt),
    TRef.nullary main_call2.c_0 (constantI S_ 32 32000#32),
    TRef.unary main_call2.c_0 main_call2.v2 (broadcastInDim S4x1024x1 ![] bcast_S_S4x1024x1),
    TRef.binary (TRef.of main_v5 : TRef sig ⟨S4x1024x1, .i32⟩) main_call2.v2 main_call2.v3 addi,
    TRef.ternary main_call2.v1 main_call2.v3 (TRef.of main_v5 : TRef sig ⟨S4x1024x1, .i32⟩) main_call2.v4 select,
    TRef.reshape main_call2.v4 main_call2.v5 rfl shapeCasts_S4x1024x1_S4x1024x1x1,
    TRef.nullary main_call2.c_1 (constantI S1 32 31999#32),
    TRef.nullary main_call2.c_2 (constantI S_ 32 0#32),
    TRef.unary main_call2.c_2 main_call2.v6 (broadcastInDim S4x1024x1x1 ![] bcast_S_S4x1024x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S4x1024x1x1 ![0, 1, 2, 3] bcast_S1x1x1x1_S4x1024x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4x1024x1x1_S4x1024x1_d3 h_S_),
    TRef.binary (TRef.of main_v3 : TRef sig ⟨S4x1024x32000, .f32⟩) main_call2.v5 main_call2.v13 (fun x i => Host.gather gather_S4x1024x32000_S4x1024x1x1_S4x1024x1_n_2_01_01_2_3_111 x i),
    TRef.nullary main_call2.cst (constant S_ .f32 0x7FC00000#32),
    TRef.unary main_call2.cst main_call2.v14 (broadcastInDim S4x1024x1 ![] bcast_S_S4x1024x1),
    TRef.ternary main_call2.v12 main_call2.v13 main_call2.v14 main_call2.v15 select ]

theorem opsA2_sub : (opsA2 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

theorem opsA2_fresh : (opsA2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl⟩

set_option maxRecDepth 8192 in
theorem A2_v6 (V : Valuation τ sig (Elt Ideal)) :
    after (opsA2 (F := Ideal)) V (Proc.devRef .tc main_v6)
      = RefVal.takeAlong (V (Proc.devRef .tc main_v3)) (V (Proc.devRef .tc main_v5)) := by
  after_results_simp
  rfl

theorem A2_keep_v1 (V : Valuation τ sig (Elt F)) :
    after (opsA2 (F := F)) V (Proc.devRef .tc main_v1) = V (Proc.devRef .tc main_v1) := by
  after_results_simp

theorem A2_keep_arg0 (V : Valuation τ sig (Elt F)) :
    after (opsA2 (F := F)) V (Proc.devRef .tc main_arg0) = V (Proc.devRef .tc main_arg0) := by
  after_results_simp

theorem A2_keep_arg1 (V : Valuation τ sig (Elt F)) :
    after (opsA2 (F := F)) V (Proc.devRef .tc main_arg1) = V (Proc.devRef .tc main_arg1) := by
  after_results_simp

theorem A2_keep_arg2 (V : Valuation τ sig (Elt F)) :
    after (opsA2 (F := F)) V (Proc.devRef .tc main_arg2) = V (Proc.devRef .tc main_arg2) := by
  after_results_simp

theorem A2_keep_arg3 (V : Valuation τ sig (Elt F)) :
    after (opsA2 (F := F)) V (Proc.devRef .tc main_arg3) = V (Proc.devRef .tc main_arg3) := by
  after_results_simp

theorem A2_keep_arg4 (V : Valuation τ sig (Elt F)) :
    after (opsA2 (F := F)) V (Proc.devRef .tc main_arg4) = V (Proc.devRef .tc main_arg4) := by
  after_results_simp

/-- The first pair's masked mean. -/
abbrev opsA3 : List (HloOp τ sig (Elt F)) :=
  [
    reshape main_v6 main_v7 rfl shapeCasts_S4x1024x1_S4x1024,
    unary main_v1 main_v8 (uitofp .f32 : (⟨S4x1024, .i1⟩ : BufTy).Contents (Elt F) → (⟨S4x1024, .f32⟩ : BufTy).Contents (Elt F)),
    binary main_v7 main_v8 main_v9 (mulf : (⟨S4x1024, .f32⟩ : BufTy).Contents (Elt F) → (⟨S4x1024, .f32⟩ : BufTy).Contents (Elt F) → (⟨S4x1024, .f32⟩ : BufTy).Contents (Elt F)),
    nullary main_cst (constant S_ .f32 0x00000000#32),
    binary main_v9 main_cst main_v10 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    nullary main_cst_1 (constant S_ .f32 0x00000000#32),
    binary main_v8 main_cst_1 main_v11 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    binary main_v10 main_v11 main_v12 (Host.divf : (⟨S4, .f32⟩ : BufTy).Contents (Elt F) → (⟨S4, .f32⟩ : BufTy).Contents (Elt F) → (⟨S4, .f32⟩ : BufTy).Contents (Elt F)) ]

theorem opsA3_sub : (opsA3 : List (HloOp τ sig (Elt F))).Forall fun op => op.bufs ⊆ tcRefs τ sig :=
  ⟨
    reshape_bufs_sub .., unary_bufs_sub .., binary_bufs_sub .., nullary_bufs_sub .., binary_bufs_sub .., nullary_bufs_sub ..,
    binary_bufs_sub .., binary_bufs_sub ..⟩

theorem opsA3_fresh : (opsA3 : List (HloOp τ sig (Elt F))).Forall fun op => op.fresh = ∅ :=
  ⟨
    rfl, rfl, rfl, rfl, rfl, rfl, rfl, rfl⟩

set_option maxRecDepth 8192 in
theorem A3_v12 (V : Valuation τ sig (Elt Ideal)) :
    after (opsA3 (F := Ideal)) V (Proc.devRef .tc main_v12)
      = maskedMean (V (Proc.devRef .tc main_v6)) (V (Proc.devRef .tc main_v1)) := by
  after_results_simp
  rfl

theorem A3_keep_v1 (V : Valuation τ sig (Elt F)) :
    after (opsA3 (F := F)) V (Proc.devRef .tc main_v1) = V (Proc.devRef .tc main_v1) := by
  after_results_simp

theorem A3_keep_arg0 (V : Valuation τ sig (Elt F)) :
    after (opsA3 (F := F)) V (Proc.devRef .tc main_arg0) = V (Proc.devRef .tc main_arg0) := by
  after_results_simp

theorem A3_keep_arg1 (V : Valuation τ sig (Elt F)) :
    after (opsA3 (F := F)) V (Proc.devRef .tc main_arg1) = V (Proc.devRef .tc main_arg1) := by
  after_results_simp

theorem A3_keep_arg2 (V : Valuation τ sig (Elt F)) :
    after (opsA3 (F := F)) V (Proc.devRef .tc main_arg2) = V (Proc.devRef .tc main_arg2) := by
  after_results_simp

theorem A3_keep_arg3 (V : Valuation τ sig (Elt F)) :
    after (opsA3 (F := F)) V (Proc.devRef .tc main_arg3) = V (Proc.devRef .tc main_arg3) := by
  after_results_simp

theorem A3_keep_arg4 (V : Valuation τ sig (Elt F)) :
    after (opsA3 (F := F)) V (Proc.devRef .tc main_arg4) = V (Proc.devRef .tc main_arg4) := by
  after_results_simp

/-! ## The second pair -/

/-- The second pair's logits and their log-softmax, and the labels as gather indices. -/
abbrev opsB1 : List (HloOp τ sig (Elt F)) :=
  [
    binary main_arg1 main_arg4 main_v13 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    TRef.nullary main_call3.cst (constant S_ .f32 0xFF800000#32),
    TRef.binary (TRef.of main_v13 : TRef sig ⟨S4x1024x32000, .f32⟩) main_call3.cst main_call3.v0 (fun x v => Host.reduce FloatOps.maximumf x v reducesTo_S4x1024x32000_S4x1024_d2 h_S_),
    TRef.nullary main_call3.cst_0 (constant S_ .f32 0xFF800000#32),
    TRef.unary main_call3.cst_0 main_call3.v1 (broadcastInDim S4x1024 ![] bcast_S_S4x1024),
    TRef.binary main_call3.v1 main_call3.v0 main_call3.v2 maximumf,
    TRef.unary main_call3.v2 main_call3.v3 (broadcastInDim S4x1024x1 ![0, 1] bcast_S4x1024_S4x1024x1_0_1),
    TRef.unary main_call3.v3 main_call3.v4 (broadcastInDim S4x1024x32000 ![0, 1, 2] bcast_S4x1024x1_S4x1024x32000_0_1_2),
    TRef.binary (TRef.of main_v13 : TRef sig ⟨S4x1024x32000, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S4x1024x32000_S4x1024_d2 h_S_),
    TRef.unary main_call3.v7 main_call3.v8 (broadcastInDim S4x1024x1 ![0, 1] bcast_S4x1024_S4x1024x1_0_1),
    TRef.unary main_call3.v8 main_call3.v9 Host.log,
    TRef.unary main_call3.v9 main_call3.v10 (broadcastInDim S4x1024x32000 ![0, 1, 2] bcast_S4x1024x1_S4x1024x32000_0_1_2),
    TRef.binary main_call3.v5 main_call3.v10 main_call3.v11 subf,
    nullary main_c_2 (constantI S_ 32 0#32),
    TRef.unary (TRef.of main_c_2 : TRef sig ⟨S_, .i32⟩) main_call4.v0 id,
    TRef.unary main_call4.v0 main_call4.v1 (broadcastInDim S4x1024 ![] bcast_S_S4x1024),
    TRef.ternary (TRef.of main_v1 : TRef sig ⟨S4x1024, .i1⟩) (TRef.of main_arg2 : TRef sig ⟨S4x1024, .i32⟩) main_call4.v1 main_call4.v2 select,
    unary main_v15 main_v16 (broadcastInDim S4x1024x1 ![0, 1] bcast_S4x1024_S4x1024x1_0_1 : (⟨S4x1024, .i32⟩ : BufTy).Contents (Elt F) → (⟨S4x1024x1, .i32⟩ : BufTy).Contents (Elt F)) ]

theorem opsB1_sub : (opsB1 : List (HloOp τ sig (Elt F))).Forall fun op => op.bufs ⊆ tcRefs τ sig :=
  ⟨
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., nullary_bufs_sub .., unary_bufs_sub ..,
    unary_bufs_sub .., ternary_bufs_sub .., unary_bufs_sub ..⟩

theorem opsB1_fresh : (opsB1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl⟩

/-- Reading or writing these buffers through their typed references is the identity. -/
theorem ofBuf_v13 (h1 h2 h3) (v : (⟨S4x1024x32000, .f32⟩ : BufTy).Contents (Elt Ideal)) :
    (TRef.of (sig := sig) (T := ⟨S4x1024x32000, .f32⟩) main_v13 h1 h2 h3).ofBuf (Val := Elt Ideal) v = v := rfl
theorem toBuf_v14 (h1 h2 h3) (v : (⟨S4x1024x32000, .f32⟩ : BufTy).Contents (Elt Ideal)) :
    (TRef.of (sig := sig) (T := ⟨S4x1024x32000, .f32⟩) main_v14 h1 h2 h3).toBuf (Val := Elt Ideal) v = v := rfl

set_option maxRecDepth 8192 in
theorem B1_v14 (V : Valuation τ sig (Elt Ideal)) :
    after (opsB1 (F := Ideal)) V (Proc.devRef .tc main_v14)
      = RefVal.logSoftmax (RefVal.logits (V (Proc.devRef .tc main_arg1)) (V (Proc.devRef .tc main_arg4))) := by
  after_results_simp
  simp only [TRef.ofBuf_toBuf]
  rw [toBuf_v14]
  simp only [ofBuf_v13]
  unfold RefVal.logSoftmax RefVal.lsmSum RefVal.lsmShift RefVal.lsmMax RefVal.logits
  rfl

set_option maxRecDepth 8192 in
theorem B1_v16 (V : Valuation τ sig (Elt Ideal)) :
    after (opsB1 (F := Ideal)) V (Proc.devRef .tc main_v16)
      = labCol (V (Proc.devRef .tc main_v1)) (V (Proc.devRef .tc main_arg2)) := by
  after_results_simp
  rfl

theorem B1_keep_v1 (V : Valuation τ sig (Elt F)) :
    after (opsB1 (F := F)) V (Proc.devRef .tc main_v1) = V (Proc.devRef .tc main_v1) := by
  after_results_simp

theorem B1_keep_v12 (V : Valuation τ sig (Elt F)) :
    after (opsB1 (F := F)) V (Proc.devRef .tc main_v12) = V (Proc.devRef .tc main_v12) := by
  after_results_simp

theorem B1_keep_arg0 (V : Valuation τ sig (Elt F)) :
    after (opsB1 (F := F)) V (Proc.devRef .tc main_arg0) = V (Proc.devRef .tc main_arg0) := by
  after_results_simp

theorem B1_keep_arg1 (V : Valuation τ sig (Elt F)) :
    after (opsB1 (F := F)) V (Proc.devRef .tc main_arg1) = V (Proc.devRef .tc main_arg1) := by
  after_results_simp

theorem B1_keep_arg2 (V : Valuation τ sig (Elt F)) :
    after (opsB1 (F := F)) V (Proc.devRef .tc main_arg2) = V (Proc.devRef .tc main_arg2) := by
  after_results_simp

theorem B1_keep_arg3 (V : Valuation τ sig (Elt F)) :
    after (opsB1 (F := F)) V (Proc.devRef .tc main_arg3) = V (Proc.devRef .tc main_arg3) := by
  after_results_simp

theorem B1_keep_arg4 (V : Valuation τ sig (Elt F)) :
    after (opsB1 (F := F)) V (Proc.devRef .tc main_arg4) = V (Proc.devRef .tc main_arg4) := by
  after_results_simp

/-- The second pair's take along the vocabulary axis. -/
abbrev opsB2 : List (HloOp τ sig (Elt F)) :=
  [
    TRef.nullary main_call5.c (constantI S_ 32 0#32),
    TRef.unary main_call5.c main_call5.v0 (broadcastInDim S4x1024x1 ![] bcast_S_S4x1024x1),
    TRef.binary (TRef.of main_v16 : TRef sig ⟨S4x1024x1, .i32⟩) main_call5.v0 main_call5.v1 (cmpi .slt),
    TRef.nullary main_call5.c_0 (constantI S_ 32 32000#32),
    TRef.unary main_call5.c_0 main_call5.v2 (broadcastInDim S4x1024x1 ![] bcast_S_S4x1024x1),
    TRef.binary (TRef.of main_v16 : TRef sig ⟨S4x1024x1, .i32⟩) main_call5.v2 main_call5.v3 addi,
    TRef.ternary main_call5.v1 main_call5.v3 (TRef.of main_v16 : TRef sig ⟨S4x1024x1, .i32⟩) main_call5.v4 select,
    TRef.reshape main_call5.v4 main_call5.v5 rfl shapeCasts_S4x1024x1_S4x1024x1x1,
    TRef.nullary main_call5.c_1 (constantI S1 32 31999#32),
    TRef.nullary main_call5.c_2 (constantI S_ 32 0#32),
    TRef.unary main_call5.c_2 main_call5.v6 (broadcastInDim S4x1024x1x1 ![] bcast_S_S4x1024x1x1),
    TRef.binary main_call5.v5 main_call5.v6 main_call5.v7 (cmpi .sge),
    TRef.unary main_call5.c_1 main_call5.v8 (broadcastInDim S1x1x1x1 ![3] bcast_S1_S1x1x1x1_3),
    TRef.unary main_call5.v8 main_call5.v9 (broadcastInDim S4x1024x1x1 ![0, 1, 2, 3] bcast_S1x1x1x1_S4x1024x1x1_0_1_2_3),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S4x1024x1x1_S4x1024x1_d3 h_S_),
    TRef.binary (TRef.of main_v14 : TRef sig ⟨S4x1024x32000, .f32⟩) main_call5.v5 main_call5.v13 (fun x i => Host.gather gather_S4x1024x32000_S4x1024x1x1_S4x1024x1_n_2_01_01_2_3_111 x i),
    TRef.nullary main_call5.cst (constant S_ .f32 0x7FC00000#32),
    TRef.unary main_call5.cst main_call5.v14 (broadcastInDim S4x1024x1 ![] bcast_S_S4x1024x1),
    TRef.ternary main_call5.v12 main_call5.v13 main_call5.v14 main_call5.v15 select ]

theorem opsB2_sub : (opsB2 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

theorem opsB2_fresh : (opsB2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl⟩

set_option maxRecDepth 8192 in
theorem B2_v17 (V : Valuation τ sig (Elt Ideal)) :
    after (opsB2 (F := Ideal)) V (Proc.devRef .tc main_v17)
      = RefVal.takeAlong (V (Proc.devRef .tc main_v14)) (V (Proc.devRef .tc main_v16)) := by
  after_results_simp
  rfl

theorem B2_keep_v1 (V : Valuation τ sig (Elt F)) :
    after (opsB2 (F := F)) V (Proc.devRef .tc main_v1) = V (Proc.devRef .tc main_v1) := by
  after_results_simp

theorem B2_keep_v12 (V : Valuation τ sig (Elt F)) :
    after (opsB2 (F := F)) V (Proc.devRef .tc main_v12) = V (Proc.devRef .tc main_v12) := by
  after_results_simp

theorem B2_keep_arg0 (V : Valuation τ sig (Elt F)) :
    after (opsB2 (F := F)) V (Proc.devRef .tc main_arg0) = V (Proc.devRef .tc main_arg0) := by
  after_results_simp

theorem B2_keep_arg1 (V : Valuation τ sig (Elt F)) :
    after (opsB2 (F := F)) V (Proc.devRef .tc main_arg1) = V (Proc.devRef .tc main_arg1) := by
  after_results_simp

theorem B2_keep_arg2 (V : Valuation τ sig (Elt F)) :
    after (opsB2 (F := F)) V (Proc.devRef .tc main_arg2) = V (Proc.devRef .tc main_arg2) := by
  after_results_simp

theorem B2_keep_arg3 (V : Valuation τ sig (Elt F)) :
    after (opsB2 (F := F)) V (Proc.devRef .tc main_arg3) = V (Proc.devRef .tc main_arg3) := by
  after_results_simp

theorem B2_keep_arg4 (V : Valuation τ sig (Elt F)) :
    after (opsB2 (F := F)) V (Proc.devRef .tc main_arg4) = V (Proc.devRef .tc main_arg4) := by
  after_results_simp

/-- The second pair's masked mean. -/
abbrev opsB3 : List (HloOp τ sig (Elt F)) :=
  [
    reshape main_v17 main_v18 rfl shapeCasts_S4x1024x1_S4x1024,
    unary main_v1 main_v19 (uitofp .f32 : (⟨S4x1024, .i1⟩ : BufTy).Contents (Elt F) → (⟨S4x1024, .f32⟩ : BufTy).Contents (Elt F)),
    binary main_v18 main_v19 main_v20 (mulf : (⟨S4x1024, .f32⟩ : BufTy).Contents (Elt F) → (⟨S4x1024, .f32⟩ : BufTy).Contents (Elt F) → (⟨S4x1024, .f32⟩ : BufTy).Contents (Elt F)),
    nullary main_cst_3 (constant S_ .f32 0x00000000#32),
    binary main_v20 main_cst_3 main_v21 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    nullary main_cst_4 (constant S_ .f32 0x00000000#32),
    binary main_v19 main_cst_4 main_v22 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    binary main_v21 main_v22 main_v23 (Host.divf : (⟨S4, .f32⟩ : BufTy).Contents (Elt F) → (⟨S4, .f32⟩ : BufTy).Contents (Elt F) → (⟨S4, .f32⟩ : BufTy).Contents (Elt F)) ]

theorem opsB3_sub : (opsB3 : List (HloOp τ sig (Elt F))).Forall fun op => op.bufs ⊆ tcRefs τ sig :=
  ⟨
    reshape_bufs_sub .., unary_bufs_sub .., binary_bufs_sub .., nullary_bufs_sub .., binary_bufs_sub .., nullary_bufs_sub ..,
    binary_bufs_sub .., binary_bufs_sub ..⟩

theorem opsB3_fresh : (opsB3 : List (HloOp τ sig (Elt F))).Forall fun op => op.fresh = ∅ :=
  ⟨
    rfl, rfl, rfl, rfl, rfl, rfl, rfl, rfl⟩

set_option maxRecDepth 8192 in
theorem B3_v23 (V : Valuation τ sig (Elt Ideal)) :
    after (opsB3 (F := Ideal)) V (Proc.devRef .tc main_v23)
      = maskedMean (V (Proc.devRef .tc main_v17)) (V (Proc.devRef .tc main_v1)) := by
  after_results_simp
  rfl

theorem B3_keep_v12 (V : Valuation τ sig (Elt F)) :
    after (opsB3 (F := F)) V (Proc.devRef .tc main_v12) = V (Proc.devRef .tc main_v12) := by
  after_results_simp

theorem B3_keep_arg0 (V : Valuation τ sig (Elt F)) :
    after (opsB3 (F := F)) V (Proc.devRef .tc main_arg0) = V (Proc.devRef .tc main_arg0) := by
  after_results_simp

theorem B3_keep_arg1 (V : Valuation τ sig (Elt F)) :
    after (opsB3 (F := F)) V (Proc.devRef .tc main_arg1) = V (Proc.devRef .tc main_arg1) := by
  after_results_simp

theorem B3_keep_arg2 (V : Valuation τ sig (Elt F)) :
    after (opsB3 (F := F)) V (Proc.devRef .tc main_arg2) = V (Proc.devRef .tc main_arg2) := by
  after_results_simp

theorem B3_keep_arg3 (V : Valuation τ sig (Elt F)) :
    after (opsB3 (F := F)) V (Proc.devRef .tc main_arg3) = V (Proc.devRef .tc main_arg3) := by
  after_results_simp

theorem B3_keep_arg4 (V : Valuation τ sig (Elt F)) :
    after (opsB3 (F := F)) V (Proc.devRef .tc main_arg4) = V (Proc.devRef .tc main_arg4) := by
  after_results_simp

/-! ## The tail -/

/-- The operations after the two masked means: slices, differences, the scale, the log-sigmoid, the sum, the negation, the halving. -/
abbrev opsC : List (HloOp τ sig (Elt F)) :=
  [
    unary main_v12 main_v24 ((extractStridedSlice S2 ![0] · slices_S4_S2_0) : (⟨S4, .f32⟩ : BufTy).Contents (Elt F) → (⟨S2, .f32⟩ : BufTy).Contents (Elt F)),
    unary main_v12 main_v25 ((extractStridedSlice S2 ![2] · slices_S4_S2_2) : (⟨S4, .f32⟩ : BufTy).Contents (Elt F) → (⟨S2, .f32⟩ : BufTy).Contents (Elt F)),
    unary main_v23 main_v26 ((extractStridedSlice S2 ![0] · slices_S4_S2_0) : (⟨S4, .f32⟩ : BufTy).Contents (Elt F) → (⟨S2, .f32⟩ : BufTy).Contents (Elt F)),
    unary main_v23 main_v27 ((extractStridedSlice S2 ![2] · slices_S4_S2_2) : (⟨S4, .f32⟩ : BufTy).Contents (Elt F) → (⟨S2, .f32⟩ : BufTy).Contents (Elt F)),
    binary main_v24 main_v26 main_v28 (subf : (⟨S2, .f32⟩ : BufTy).Contents (Elt F) → (⟨S2, .f32⟩ : BufTy).Contents (Elt F) → (⟨S2, .f32⟩ : BufTy).Contents (Elt F)),
    binary main_v25 main_v27 main_v29 (subf : (⟨S2, .f32⟩ : BufTy).Contents (Elt F) → (⟨S2, .f32⟩ : BufTy).Contents (Elt F) → (⟨S2, .f32⟩ : BufTy).Contents (Elt F)),
    binary main_v28 main_v29 main_v30 (subf : (⟨S2, .f32⟩ : BufTy).Contents (Elt F) → (⟨S2, .f32⟩ : BufTy).Contents (Elt F) → (⟨S2, .f32⟩ : BufTy).Contents (Elt F)),
    nullary main_cst_5 (constant S_ .f32 0x3DCCCCCD#32),
    unary main_cst_5 main_v31 (broadcastInDim S2 ![] bcast_S_S2 : (⟨S_, .f32⟩ : BufTy).Contents (Elt F) → (⟨S2, .f32⟩ : BufTy).Contents (Elt F)),
    binary main_v31 main_v30 main_v32 (mulf : (⟨S2, .f32⟩ : BufTy).Contents (Elt F) → (⟨S2, .f32⟩ : BufTy).Contents (Elt F) → (⟨S2, .f32⟩ : BufTy).Contents (Elt F)),
    TRef.unary (TRef.of main_v32 : TRef sig ⟨S2, .f32⟩) main_call6.v0 Host.negf,
    TRef.nullary main_call6.call0.cst (constant S_ .f32 0x00000000#32),
    TRef.unary main_call6.call0.cst main_call6.call0.v0 (broadcastInDim S2 ![] bcast_S_S2),
    TRef.binary main_call6.v0 main_call6.call0.v0 main_call6.call0.v1 maximumf,
    TRef.unary main_call6.call0.cst main_call6.call0.v2 (broadcastInDim S2 ![] bcast_S_S2),
    TRef.binary main_call6.v0 main_call6.call0.v2 main_call6.call0.v3 subf,
    TRef.binary main_call6.call0.v3 main_call6.call0.v3 main_call6.call0.v4 (cmpf .une),
    TRef.unary main_call6.call0.cst main_call6.call0.v5 (broadcastInDim S2 ![] bcast_S_S2),
    TRef.binary main_call6.v0 main_call6.call0.v5 main_call6.call0.v6 addf,
    TRef.unary main_call6.call0.v3 main_call6.call0.v7 Host.absf,
    TRef.unary main_call6.call0.v7 main_call6.call0.v8 Host.negf,
    TRef.unary main_call6.call0.v8 main_call6.call0.v9 Host.exp,
    TRef.unary main_call6.call0.v9 main_call6.call0.v10 Host.log1p,
    TRef.binary main_call6.call0.v1 main_call6.call0.v10 main_call6.call0.v11 addf,
    TRef.ternary main_call6.call0.v4 main_call6.call0.v6 main_call6.call0.v11 main_call6.call0.v12 select,
    TRef.unary main_call6.call0.v12 main_call6.v2 Host.negf,
    nullary main_cst_6 (constant S_ .f32 0x00000000#32),
    binary main_v33 main_cst_6 main_v34 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    unary main_v34 main_v35 (Host.negf : (⟨S_, .f32⟩ : BufTy).Contents (Elt F) → (⟨S_, .f32⟩ : BufTy).Contents (Elt F)),
    nullary main_cst_7 (constant S_ .f32 0x40000000#32),
    binary main_v35 main_cst_7 main_v36 (Host.divf : (⟨S_, .f32⟩ : BufTy).Contents (Elt F) → (⟨S_, .f32⟩ : BufTy).Contents (Elt F) → (⟨S_, .f32⟩ : BufTy).Contents (Elt F)) ]

theorem opsC_sub : (opsC : List (HloOp τ sig (Elt F))).Forall fun op => op.bufs ⊆ tcRefs τ sig :=
  ⟨
    unary_bufs_sub .., unary_bufs_sub .., unary_bufs_sub .., unary_bufs_sub .., binary_bufs_sub .., binary_bufs_sub ..,
    binary_bufs_sub .., nullary_bufs_sub .., unary_bufs_sub .., binary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., nullary_bufs_sub .., binary_bufs_sub .., unary_bufs_sub .., nullary_bufs_sub ..,
    binary_bufs_sub ..⟩

theorem opsC_fresh : (opsC : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
theorem C_v36 (V : Valuation τ sig (Elt Ideal)) :
    after (opsC (F := Ideal)) V (Proc.devRef .tc main_v36)
      = RefVal.tailR (V (Proc.devRef .tc main_v12)) (V (Proc.devRef .tc main_v23)) := by
  after_results_simp
  rfl

theorem C_keep_arg0 (V : Valuation τ sig (Elt F)) :
    after (opsC (F := F)) V (Proc.devRef .tc main_arg0) = V (Proc.devRef .tc main_arg0) := by
  after_results_simp

theorem C_keep_arg1 (V : Valuation τ sig (Elt F)) :
    after (opsC (F := F)) V (Proc.devRef .tc main_arg1) = V (Proc.devRef .tc main_arg1) := by
  after_results_simp

theorem C_keep_arg2 (V : Valuation τ sig (Elt F)) :
    after (opsC (F := F)) V (Proc.devRef .tc main_arg2) = V (Proc.devRef .tc main_arg2) := by
  after_results_simp

theorem C_keep_arg3 (V : Valuation τ sig (Elt F)) :
    after (opsC (F := F)) V (Proc.devRef .tc main_arg3) = V (Proc.devRef .tc main_arg3) := by
  after_results_simp

theorem C_keep_arg4 (V : Valuation τ sig (Elt F)) :
    after (opsC (F := F)) V (Proc.devRef .tc main_arg4) = V (Proc.devRef .tc main_arg4) := by
  after_results_simp

/-! ## The whole line -/

/-- @main's operations in order: the seven stretches one after another. -/
abbrev ops : List (HloOp τ sig (Elt F)) :=
  opsA1 ++ (opsA2 ++ (opsA3 ++ (opsB1 ++ (opsB2 ++ (opsB3 ++ (opsC))))))

set_option maxRecDepth 8192 in
/-- @main is that straight line: the outlined functions unfolded at their calls, the sequencing reassociated. -/
theorem main_eq (c : Dev nD) : main (F := F) c = seq ops := by
  simp only [ops, seq_append]
  simp only [main, fn_log_softmax.body, fn_where.body, fn_take_along_axis.body, fn_softplus.body, fn_log_sigmoid.body,
    opsA1, opsA2, opsA3, opsB1, opsB2, opsB3, opsC, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsA1_sub, List.forall_append.mpr ⟨opsA2_sub, List.forall_append.mpr ⟨opsA3_sub, List.forall_append.mpr ⟨opsB1_sub, List.forall_append.mpr ⟨opsB2_sub, List.forall_append.mpr ⟨opsB3_sub, opsC_sub⟩⟩⟩⟩⟩⟩

theorem ops_fresh : ∀ op ∈ (ops : List (HloOp τ sig (Elt F))), op.fresh = ∅ :=
  List.forall_iff_forall_mem.mp (List.forall_append.mpr ⟨opsA1_fresh, List.forall_append.mpr ⟨opsA2_fresh, List.forall_append.mpr ⟨opsA3_fresh, List.forall_append.mpr ⟨opsB1_fresh, List.forall_append.mpr ⟨opsB2_fresh, List.forall_append.mpr ⟨opsB3_fresh, opsC_fresh⟩⟩⟩⟩⟩⟩)

/-- Every weakly fair execution of @main terminates with each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold over the whole line is the stretches' folds one inside the other. -/
theorem after_ops (V : Valuation τ sig (Elt F)) :
    after ops V = after opsC (after opsB3 (after opsB2 (after opsB1 (after opsA3 (after opsA2 (after opsA1 (V))))))) := by
  simp only [ops, after_append]

theorem ops_arg0 (V : Valuation τ sig (Elt F)) :
    after (ops (F := F)) V (Proc.devRef .tc main_arg0) = V (Proc.devRef .tc main_arg0) := by
  rw [after_ops, C_keep_arg0, B3_keep_arg0, B2_keep_arg0, B1_keep_arg0, A3_keep_arg0, A2_keep_arg0, A1_keep_arg0]

theorem ops_arg1 (V : Valuation τ sig (Elt F)) :
    after (ops (F := F)) V (Proc.devRef .tc main_arg1) = V (Proc.devRef .tc main_arg1) := by
  rw [after_ops, C_keep_arg1, B3_keep_arg1, B2_keep_arg1, B1_keep_arg1, A3_keep_arg1, A2_keep_arg1, A1_keep_arg1]

theorem ops_arg2 (V : Valuation τ sig (Elt F)) :
    after (ops (F := F)) V (Proc.devRef .tc main_arg2) = V (Proc.devRef .tc main_arg2) := by
  rw [after_ops, C_keep_arg2, B3_keep_arg2, B2_keep_arg2, B1_keep_arg2, A3_keep_arg2, A2_keep_arg2, A1_keep_arg2]

theorem ops_arg3 (V : Valuation τ sig (Elt F)) :
    after (ops (F := F)) V (Proc.devRef .tc main_arg3) = V (Proc.devRef .tc main_arg3) := by
  rw [after_ops, C_keep_arg3, B3_keep_arg3, B2_keep_arg3, B1_keep_arg3, A3_keep_arg3, A2_keep_arg3, A1_keep_arg3]

theorem ops_arg4 (V : Valuation τ sig (Elt F)) :
    after (ops (F := F)) V (Proc.devRef .tc main_arg4) = V (Proc.devRef .tc main_arg4) := by
  rw [after_ops, C_keep_arg4, B3_keep_arg4, B2_keep_arg4, B1_keep_arg4, A3_keep_arg4, A2_keep_arg4, A1_keep_arg4]

/-- The result buffer after the whole line: the reference's value as a function of the five argument arrays. -/
theorem ops_v36 (V : Valuation τ sig (Elt Ideal)) :
    after (ops (F := Ideal)) V (Proc.devRef .tc main_v36)
      = RefVal.res (V (Proc.devRef .tc main_arg0)) (V (Proc.devRef .tc main_arg1)) (V (Proc.devRef .tc main_arg2)) (V (Proc.devRef .tc main_arg3)) (V (Proc.devRef .tc main_arg4)) := by
  rw [after_ops]
  repeat (first
    | rw [C_v36] | rw [B3_v23] | rw [B2_v17] | rw [B1_v14] | rw [B1_v16] | rw [A3_v12]
    | rw [A2_v6] | rw [A1_v1] | rw [A1_v3] | rw [A1_v5] | rw [A1_keep_arg0] | rw [A1_keep_arg1]
    | rw [A1_keep_arg2] | rw [A1_keep_arg3] | rw [A1_keep_arg4] | rw [A2_keep_v1] | rw [A2_keep_arg0] | rw [A2_keep_arg1]
    | rw [A2_keep_arg2] | rw [A2_keep_arg3] | rw [A2_keep_arg4] | rw [A3_keep_v1] | rw [A3_keep_arg0] | rw [A3_keep_arg1]
    | rw [A3_keep_arg2] | rw [A3_keep_arg3] | rw [A3_keep_arg4] | rw [B1_keep_v1] | rw [B1_keep_v12] | rw [B1_keep_arg0]
    | rw [B1_keep_arg1] | rw [B1_keep_arg2] | rw [B1_keep_arg3] | rw [B1_keep_arg4] | rw [B2_keep_v1] | rw [B2_keep_v12]
    | rw [B2_keep_arg0] | rw [B2_keep_arg1] | rw [B2_keep_arg2] | rw [B2_keep_arg3] | rw [B2_keep_arg4] | rw [B3_keep_v12]
    | rw [B3_keep_arg0] | rw [B3_keep_arg1] | rw [B3_keep_arg2] | rw [B3_keep_arg3] | rw [B3_keep_arg4] | rw [C_keep_arg0]
    | rw [C_keep_arg1] | rw [C_keep_arg2] | rw [C_keep_arg3] | rw [C_keep_arg4])
  rw [maskedMean_seqR, maskedMean_seqR]
  rfl

/-- On every device, from any memory with zero counters: every weakly fair execution of @main terminates with the
    result at the reference's value of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = RefVal.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v36).trans (ops_v36 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c))⟩)
    (run_after m ρ)

/-- The arguments end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.ReferenceIdeal.RefRun

end
-- ==== Proof.KiHost.lean ====
/-
  What the host stretches of the program compute, read off ANY valuation of the device's buffers, at the ideal
  values (extended reals; a format change is the identity):

  * before the first launch: the activations [4,1024,2048] flattened to rows [4096,2048] (row r is sequence
    r / 1024, position r % 1024), the weights unchanged, the labels flattened to a column [4096,1], and the keep
    mask "label ≠ -100";
  * between the launches: the first launch's column [4096,1] folded back to [4,1024], and the same three
    arrays prepared from the reference model's activations and weights;
  * after the second launch: per sequence the kept entries' sum over max(number kept, 1) for both launches'
    outputs (seqK), and from the two results the scalar loss (tailK): the differences of the two halves,
    scaled by 0.1, through log-sigmoid, averaged and negated.
  Last, seqK is the specification's per-sequence value whenever the entries at kept labels are the
  specification's log-probabilities and every sequence keeps a label.
-/
import proofs.«425399_j87299505259073_2_alg».proof.Proof.Gen.KernelIdeal.Launch
import proofs.«425399_j87299505259073_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Idealize.ShloMosaic Idealize.ShloMosaic.ValueIdx Cert.KernelIdeal Cert.KernelIdeal.Gen

/-- A reshape [4,1024,2048] → [4096,2048] read at (r, h): row r is (r / 1024, r % 1024). -/
theorem cast3_apply {α : Type} (x : S4x1024x2048.Idx → α) (hc : S4x1024x2048.ShapeCasts S4096x2048) (r : Fin 4096) (h : Fin 2048) :
    shapeCast S4096x2048 x hc (ix2 r h) = x (ix3 ⟨r.val / 1024, by omega⟩ ⟨r.val % 1024, Nat.mod_lt _ (by norm_num)⟩ h) := by
  refine shapeCast_apply x hc _ _ ?_
  rw [Shape.rowMajor_val_three, Shape.rowMajor_val_two]
  show (r.val / 1024 * 1024 + r.val % 1024) * 2048 + h.val = r.val * 2048 + h.val
  omega

/-- A reshape [4,1024] → [4096,1] read at (r, 0). -/
theorem cast2_apply {α : Type} (x : S4x1024.Idx → α) (hc : S4x1024.ShapeCasts S4096x1) (r : Fin 4096) :
    shapeCast S4096x1 x hc (ix2 r 0) = x (ix2 ⟨r.val / 1024, by omega⟩ ⟨r.val % 1024, Nat.mod_lt _ (by norm_num)⟩) := by
  refine shapeCast_apply x hc _ _ ?_
  rw [Shape.rowMajor_val_two, Shape.rowMajor_val_two]
  show r.val / 1024 * 1024 + r.val % 1024 = r.val * 1 + 0
  omega

/-- A reshape [4096,1] → [4,1024] read at (b, t). -/
theorem uncast2_apply {α : Type} (x : S4096x1.Idx → α) (hc : S4096x1.ShapeCasts S4x1024) (b : Fin 4) (t : Fin 1024) :
    shapeCast S4x1024 x hc (ix2 b t) = x (ix2 ⟨1024 * b.val + t.val, by omega⟩ 0) := by
  refine shapeCast_apply x hc _ _ ?_
  rw [Shape.rowMajor_val_two, Shape.rowMajor_val_two]
  show (1024 * b.val + t.val) * 1 + 0 = b.val * 1024 + t.val
  omega

theorem ops0_v3 (U : Valuation τ sig (Elt Ideal)) (r : Fin 4096) (h : Fin 2048) :
    (StableHlo.after (hostOps0 (F := Ideal)) U (Proc.devRef .tc main_v3) : S4096x2048.Idx → EReal) (ix2 r h)
      = (U (Proc.devRef .tc main_arg0) : S4x1024x2048.Idx → EReal) (ix3 ⟨r.val / 1024, by omega⟩ ⟨r.val % 1024, Nat.mod_lt _ (by norm_num)⟩ h) := by
  have e : (StableHlo.after (hostOps0 (F := Ideal)) U (Proc.devRef .tc main_v3) : S4096x2048.Idx → EReal)
      = shapeCast S4096x2048 (U (Proc.devRef .tc main_arg0) : S4x1024x2048.Idx → EReal) Facts₀.shapeCasts_S4x1024x2048_S4096x2048 := by
    after_results; rfl
  rw [e]
  exact cast3_apply _ _ r h

theorem ops0_v4 (U : Valuation τ sig (Elt Ideal)) :
    (StableHlo.after (hostOps0 (F := Ideal)) U (Proc.devRef .tc main_v4) : S32000x2048.Idx → EReal)
      = (U (Proc.devRef .tc main_arg3) : S32000x2048.Idx → EReal) := by
  after_results; rfl

theorem ops0_v5 (U : Valuation τ sig (Elt Ideal)) (r : Fin 4096) :
    (StableHlo.after (hostOps0 (F := Ideal)) U (Proc.devRef .tc main_v5) : S4096x1.Idx → BitVec 32) (ix2 r 0)
      = (U (Proc.devRef .tc main_arg2) : S4x1024.Idx → BitVec 32) (ix2 ⟨r.val / 1024, by omega⟩ ⟨r.val % 1024, Nat.mod_lt _ (by norm_num)⟩) := by
  have e : (StableHlo.after (hostOps0 (F := Ideal)) U (Proc.devRef .tc main_v5) : S4096x1.Idx → BitVec 32)
      = shapeCast S4096x1 (U (Proc.devRef .tc main_arg2) : S4x1024.Idx → BitVec 32) Facts₀.shapeCasts_S4x1024_S4096x1 := by
    after_results; rfl
  rw [e]
  exact cast2_apply _ _ r

/-- The keep mask as the program computes it: label ≠ the ignore sentinel, as a bit. -/
def maskK (Y : IVec S4x1024 32) : IVec S4x1024 1 :=
  cmpi .ne Y (broadcastInDim S4x1024 ![] Facts₀.bcast_S_S4x1024 (constantI S_ 32 4294967196#32))

theorem ops0_v1 (U : Valuation τ sig (Elt Ideal)) :
    (StableHlo.after (hostOps0 (F := Ideal)) U (Proc.devRef .tc main_v1) : S4x1024.Idx → BitVec 1)
      = maskK (U (Proc.devRef .tc main_arg2) : S4x1024.Idx → BitVec 32) := by
  after_results; rfl

theorem ops1_v7 (U : Valuation τ sig (Elt Ideal)) (b : Fin 4) (t : Fin 1024) :
    (StableHlo.after (hostOps1 (F := Ideal)) U (Proc.devRef .tc main_v7) : S4x1024.Idx → EReal) (ix2 b t)
      = (U (Proc.devRef .tc main_v6) : S4096x1.Idx → EReal) (ix2 ⟨1024 * b.val + t.val, by omega⟩ 0) := by
  have e : (StableHlo.after (hostOps1 (F := Ideal)) U (Proc.devRef .tc main_v7) : S4x1024.Idx → EReal)
      = shapeCast S4x1024 (U (Proc.devRef .tc main_v6) : S4096x1.Idx → EReal) Facts₀.shapeCasts_S4096x1_S4x1024 := by
    after_results; rfl
  rw [e]
  exact uncast2_apply _ _ b t

theorem ops1_v9 (U : Valuation τ sig (Elt Ideal)) (r : Fin 4096) (h : Fin 2048) :
    (StableHlo.after (hostOps1 (F := Ideal)) U (Proc.devRef .tc main_v9) : S4096x2048.Idx → EReal) (ix2 r h)
      = (U (Proc.devRef .tc main_arg1) : S4x1024x2048.Idx → EReal) (ix3 ⟨r.val / 1024, by omega⟩ ⟨r.val % 1024, Nat.mod_lt _ (by norm_num)⟩ h) := by
  have e : (StableHlo.after (hostOps1 (F := Ideal)) U (Proc.devRef .tc main_v9) : S4096x2048.Idx → EReal)
      = shapeCast S4096x2048 (U (Proc.devRef .tc main_arg1) : S4x1024x2048.Idx → EReal) Facts₀.shapeCasts_S4x1024x2048_S4096x2048 := by
    after_results; rfl
  rw [e]
  exact cast3_apply _ _ r h

theorem ops1_v10 (U : Valuation τ sig (Elt Ideal)) :
    (StableHlo.after (hostOps1 (F := Ideal)) U (Proc.devRef .tc main_v10) : S32000x2048.Idx → EReal)
      = (U (Proc.devRef .tc main_arg4) : S32000x2048.Idx → EReal) := by
  after_results; rfl

theorem ops1_v11 (U : Valuation τ sig (Elt Ideal)) (r : Fin 4096) :
    (StableHlo.after (hostOps1 (F := Ideal)) U (Proc.devRef .tc main_v11) : S4096x1.Idx → BitVec 32) (ix2 r 0)
      = (U (Proc.devRef .tc main_arg2) : S4x1024.Idx → BitVec 32) (ix2 ⟨r.val / 1024, by omega⟩ ⟨r.val % 1024, Nat.mod_lt _ (by norm_num)⟩) := by
  have e : (StableHlo.after (hostOps1 (F := Ideal)) U (Proc.devRef .tc main_v11) : S4096x1.Idx → BitVec 32)
      = shapeCast S4096x1 (U (Proc.devRef .tc main_arg2) : S4x1024.Idx → BitVec 32) Facts₀.shapeCasts_S4x1024_S4096x1 := by
    after_results; rfl
  rw [e]
  exact cast2_apply _ _ r

end Cert.KernelIdeal.Host

end
-- ==== Proof.KiChain.lean ====
/-
  The arrays each launch finds and leaves, carried through the run's boundary contents, at the ideal values.

  No stretch of host operations and no launch writes an argument array, so at every boundary an argument's
  buffer holds what it held at launch. Hence
  * the first launch finds the activations flattened to rows (row r is sequence r / 1024, position r % 1024),
    the weights as given and the labels flattened to a column (`V1_v3`, `V1_v4`, `V1_v5`);
  * the second launch finds the same of the reference model's activations and weights and the same labels
    (`V3_v9`, `V3_v10`, `V3_v11`);
  * after the second launch, the first launch's column folded back to [4,1024] is what its write-backs left
    (`W4_v7`), the second launch's column is what its write-backs left (`W4_v12`), the labels are as given
    (`W4_arg2`) and the keep mask is the mask of the labels as given (`W4_v1`).
-/
import proofs.«425399_j87299505259073_2_alg».proof.Proof.KiW
import proofs.«425399_j87299505259073_2_alg».proof.Proof.KiHost

noncomputable section

open Idealize.ShloMosaic Idealize.ShloMosaic.TcCoe Idealize.ShloMosaic.ValueIdx
open Idealize.SL.Sem
open Cert.KernelIdeal Cert.KernelIdeal.Gen

namespace Cert.KernelIdeal.Chain

variable (m : (ℓ : Loc nD τ sig) → Buf (Elt Ideal) ℓ) (ρ : Dev nD → PrngReg) (c : Dev nD)

/-! ## A buffer nothing has written yet holds the launch contents -/

/-- At the first launch's entry, a buffer the first host stretch does not write. -/
theorem W1_kept (r : Ref sig .tc) (h0 : r ∉ hostOps0_W) :
    Run.W1 m ρ c (Proc.devRef .tc r) = m ((c : Thread nD τ).loc r) :=
  StableHlo.after_of_writes_sub hostOps0 _ hostOps0_writes h0

/-- At the first launch's exit, if it is also none of that launch's arrays. -/
theorem W2_kept (r : Ref sig .tc) (h0 : r ∉ hostOps0_W) (h1 : ∀ w, Pipeline.arrRef spec0 w ≠ r) :
    Run.W2 m ρ c (Proc.devRef .tc r) = m ((c : Thread nD τ).loc r) :=
  (Run.W2_of_ne m ρ c r h1).trans (W1_kept m ρ c r h0)

/-- At the second launch's entry, if the second host stretch does not write it either. -/
theorem W3_kept (r : Ref sig .tc) (h0 : r ∉ hostOps0_W) (h1 : ∀ w, Pipeline.arrRef spec0 w ≠ r) (h2 : r ∉ hostOps1_W) :
    Run.W3 m ρ c (Proc.devRef .tc r) = m ((c : Thread nD τ).loc r) :=
  (StableHlo.after_of_writes_sub hostOps1 _ hostOps1_writes h2).trans (W2_kept m ρ c r h0 h1)

/-- At the second launch's exit, if it is none of that launch's arrays. -/
theorem W4_kept (r : Ref sig .tc) (h0 : r ∉ hostOps0_W) (h1 : ∀ w, Pipeline.arrRef spec0 w ≠ r) (h2 : r ∉ hostOps1_W)
    (h3 : ∀ w, Pipeline.arrRef spec1 w ≠ r) :
    Run.W4 m ρ c (Proc.devRef .tc r) = m ((c : Thread nD τ).loc r) :=
  (Run.W4_of_ne m ρ c r h3).trans (W3_kept m ρ c r h0 h1 h2)

/-! ## What the first launch finds -/

/-- The activations as rows: row `r` is sequence `r / 1024`, position `r % 1024` of the policy's activations. -/
theorem V1_v3 (r : Fin 4096) (h : Fin 2048) :
    (Run.V1 m ρ c main_v3 : Vec Ideal S4096x2048 .bf16) (ix2 r h)
      = (m ((c : Thread nD τ).loc main_arg0) : S4x1024x2048.Idx → EReal) (ix3 ⟨r.val / 1024, by omega⟩ ⟨r.val % 1024, by omega⟩ h) :=
  Host.ops0_v3 (Run.W0 m ρ c) r h

/-- The weights are the policy's weights. -/
theorem V1_v4 (v : Fin 32000) (h : Fin 2048) :
    (Run.V1 m ρ c main_v4 : Vec Ideal S32000x2048 .bf16) (ix2 v h)
      = (m ((c : Thread nD τ).loc main_arg3) : S32000x2048.Idx → EReal) (ix2 v h) :=
  congrFun (Host.ops0_v4 (Run.W0 m ρ c)) (ix2 v h)

/-- The labels as a column: row `r` is the label of sequence `r / 1024`, position `r % 1024`. -/
theorem V1_v5 (r : Fin 4096) :
    (Run.V1 m ρ c main_v5 : Vec Ideal S4096x1 .i32) (ix2 r (0 : Fin 1))
      = (m ((c : Thread nD τ).loc main_arg2) : S4x1024.Idx → BitVec 32) (ix2 ⟨r.val / 1024, by omega⟩ ⟨r.val % 1024, by omega⟩) :=
  Host.ops0_v5 (Run.W0 m ρ c) r

/-! ## What the second launch finds -/

/-- The reference model's activations as rows. -/
theorem V3_v9 (r : Fin 4096) (h : Fin 2048) :
    (Run.V3 m ρ c main_v9 : Vec Ideal S4096x2048 .bf16) (ix2 r h)
      = (m ((c : Thread nD τ).loc main_arg1) : S4x1024x2048.Idx → EReal) (ix3 ⟨r.val / 1024, by omega⟩ ⟨r.val % 1024, by omega⟩ h) :=
  (Host.ops1_v9 (Run.W2 m ρ c) r h).trans (congrFun (W2_kept m ρ c main_arg1 (by decide) (by decide)) _)

/-- The reference model's weights. -/
theorem V3_v10 (v : Fin 32000) (h : Fin 2048) :
    (Run.V3 m ρ c main_v10 : Vec Ideal S32000x2048 .bf16) (ix2 v h)
      = (m ((c : Thread nD τ).loc main_arg4) : S32000x2048.Idx → EReal) (ix2 v h) :=
  (congrFun (Host.ops1_v10 (Run.W2 m ρ c)) (ix2 v h)).trans (congrFun (W2_kept m ρ c main_arg4 (by decide) (by decide)) _)

/-- The same labels as a column. -/
theorem V3_v11 (r : Fin 4096) :
    (Run.V3 m ρ c main_v11 : Vec Ideal S4096x1 .i32) (ix2 r (0 : Fin 1))
      = (m ((c : Thread nD τ).loc main_arg2) : S4x1024.Idx → BitVec 32) (ix2 ⟨r.val / 1024, by omega⟩ ⟨r.val % 1024, by omega⟩) :=
  (Host.ops1_v11 (Run.W2 m ρ c) r).trans (congrFun (W2_kept m ρ c main_arg2 (by decide) (by decide)) _)

/-! ## After the second launch -/

/-- The first launch's column folded back to [4,1024]: entry (b, t) is row `1024 b + t` of what its write-backs left. -/
theorem W4_v7 (b : Fin 4) (t : Fin 1024) :
    (Run.W4 m ρ c (Proc.devRef .tc main_v7) : S4x1024.Idx → EReal) (ix2 b t)
      = ((Reg0.dat (Run.V1 m ρ) c).arrAt 3 cfg0.N : Vec Ideal S4096x1 .f32) (ix2 ⟨1024 * b.val + t.val, by omega⟩ (0 : Fin 1)) := by
  rw [Run.W4_of_ne m ρ c main_v7 (by decide)]
  exact (Host.ops1_v7 (Run.W2 m ρ c) b t).trans (congrFun (Run.W2_arr m ρ c 3) _)

/-- The second launch's column is what its write-backs left. -/
theorem W4_v12_eq :
    (Run.W4 m ρ c (Proc.devRef .tc main_v12) : S4096x1.Idx → EReal) = ((Reg1.dat (Run.V3 m ρ) c).arrAt 3 cfg1.N : Vec Ideal S4096x1 .f32) :=
  Run.W4_arr m ρ c 3

theorem W4_v12 (r : Fin 4096) :
    (Run.W4 m ρ c (Proc.devRef .tc main_v12) : S4096x1.Idx → EReal) (ix2 r (0 : Fin 1))
      = ((Reg1.dat (Run.V3 m ρ) c).arrAt 3 cfg1.N : Vec Ideal S4096x1 .f32) (ix2 r (0 : Fin 1)) :=
  congrFun (W4_v12_eq m ρ c) _

/-- The labels are as given. -/
theorem W4_arg2 : Run.W4 m ρ c (Proc.devRef .tc main_arg2) = m ((c : Thread nD τ).loc main_arg2) :=
  W4_kept m ρ c main_arg2 (by decide) (by decide) (by decide) (by decide)

/-- The keep mask, computed before the first launch and written by nothing after, is the mask of the labels as given. -/
theorem W4_v1 :
    (Run.W4 m ρ c (Proc.devRef .tc main_v1) : S4x1024.Idx → BitVec 1)
      = Host.maskK (m ((c : Thread nD τ).loc main_arg2) : S4x1024.Idx → BitVec 32) :=
  calc (Run.W4 m ρ c (Proc.devRef .tc main_v1) : S4x1024.Idx → BitVec 1)
    _ = Run.W3 m ρ c (Proc.devRef .tc main_v1) := Run.W4_of_ne m ρ c main_v1 (by decide)
    _ = Run.W2 m ρ c (Proc.devRef .tc main_v1) := StableHlo.after_of_writes_sub hostOps1 _ hostOps1_writes (by decide)
    _ = Run.W1 m ρ c (Proc.devRef .tc main_v1) := Run.W2_of_ne m ρ c main_v1 (by decide)
    _ = Host.maskK (m ((c : Thread nD τ).loc main_arg2) : S4x1024.Idx → BitVec 32) := Host.ops0_v1 (Run.W0 m ρ c)

end Cert.KernelIdeal.Chain

end
-- ==== Proof.KiArr0.lean ====
/-
  Launch 0's windows against its arrays, at any float instance.

  The grid's point `t` is row block `t / 50` and vocabulary block `t % 50`. This module reads
  * each input window's block at `t` as rows of the array the region finds (`blk0`: activations, rows
    `2048 (t / 50) + p`; `blk1`: weights, rows `640 (t % 50) + j`; `blk2`: labels, rows `2048 (t / 50) + p`);
  * the input arrays after the launch: unchanged (`in_array`);
  * the output column after the launch (`out_array`): the output block is written back only at a row block's last
    vocabulary block, `t % 50 = 49`; the two blocks written tile the column, so row `r` ends holding row `r % 2048`
    of what point `50 (r / 2048) + 49` stores, `KS.out0` of the accumulators carried up to that point.
-/
import proofs.«425399_j87299505259073_2_alg».proof.Proof.KiRegion0
import Idealize.ShloMosaic.Lib.Pipeline.Value
import Idealize.ShloMosaic.Lib.ValueIdx

noncomputable section

open Idealize.ShloMosaic Idealize.ShloMosaic.TcCoe Idealize.ShloMosaic.ValueIdx
open Idealize.SL.Sem
open Idealize.ShloMosaic.Pipeline (Dat)
open Cert.KernelIdeal Cert.KernelIdeal.Gen

namespace Cert.KernelIdeal.Arr0

variable {F : FTy → Type} [FloatOps F]

/-- The grid has a hundred points. -/
theorem point_lt (t : Fin cfg0.N) : t.val < 100 := t.isLt.trans_eq N_0

/-- The printed index maps, decided once over the grid: the row-block windows sit at block `t / 50` of their
    arrays' rows, the vocabulary window at block `t % 50`, and every window at block 0 of its second axis. -/
theorem idx_facts : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0
    ∧ win0_3.index t (0 : Fin 2) = t.val / 50 ∧ win0_3.index t (1 : Fin 2) = 0 :=
  (by decide +kernel : ∀ t : Fin grid0.N, _)

/-- The activations' block at point `t` is rows `2048 (t / 50) …` of the array. -/
theorem blk0 (V : (c : Dev nD) → (b : Ref sig .tc) → Buf (Elt F) ((c : Thread nD τ).loc b)) (c : Dev nD)
    (t : Fin cfg0.N) (p : Fin 2048) (h : Fin 2048) :
    (Reg0.iblk V c 0 t : S2048x2048.Idx → Elt F .bf16) (ix2 p h)
      = (V c main_v3 : S4096x2048.Idx → Elt F .bf16) (ix2 ⟨2048 * (t.val / 50) + p.val, by have := point_lt t; omega⟩ h) := by
  obtain ⟨e0, e1, -⟩ := idx_facts t
  unfold Reg0.iblk
  rw [View.read_apply]
  show V c main_v3 (((cfg0.win 0).blk t).view.emb (ix2 p h)) = V c main_v3 _
  congr 1
  funext a
  apply Fin.ext
  match a with
  | ⟨0, _⟩ => show win0_0.index t (0 : Fin 2) * 2048 + 1 * p.val = 2048 * (t.val / 50) + p.val; omega
  | ⟨1, _⟩ => show win0_0.index t (1 : Fin 2) * 2048 + 1 * h.val = h.val; omega

/-- The weights' block at point `t` is rows `640 (t % 50) …` of the array. -/
theorem blk1 (V : (c : Dev nD) → (b : Ref sig .tc) → Buf (Elt F) ((c : Thread nD τ).loc b)) (c : Dev nD)
    (t : Fin cfg0.N) (j : Fin 640) (h : Fin 2048) :
    (Reg0.iblk V c 1 t : S640x2048.Idx → Elt F .bf16) (ix2 j h)
      = (V c main_v4 : S32000x2048.Idx → Elt F .bf16) (ix2 ⟨640 * (t.val % 50) + j.val, by omega⟩ h) := by
  obtain ⟨-, -, e0, e1, -⟩ := idx_facts t
  unfold Reg0.iblk
  rw [View.read_apply]
  show V c main_v4 (((cfg0.win 1).blk t).view.emb (ix2 j h)) = V c main_v4 _
  congr 1
  funext a
  apply Fin.ext
  match a with
  | ⟨0, _⟩ => show win0_1.index t (0 : Fin 2) * 640 + 1 * j.val = 640 * (t.val % 50) + j.val; omega
  | ⟨1, _⟩ => show win0_1.index t (1 : Fin 2) * 2048 + 1 * h.val = h.val; omega

/-- The labels' block at point `t` is rows `2048 (t / 50) …` of the column. -/
theorem blk2 (V : (c : Dev nD) → (b : Ref sig .tc) → Buf (Elt F) ((c : Thread nD τ).loc b)) (c : Dev nD)
    (t : Fin cfg0.N) (p : Fin 2048) :
    (Reg0.iblk V c 2 t : S2048x1.Idx → Elt F .i32) (ix2 p 0)
      = (V c main_v5 : S4096x1.Idx → Elt F .i32) (ix2 ⟨2048 * (t.val / 50) + p.val, by have := point_lt t; omega⟩ 0) := by
  obtain ⟨-, -, -, -, e0, e1, -⟩ := idx_facts t
  unfold Reg0.iblk
  rw [View.read_apply]
  show V c main_v5 (((cfg0.win 2).blk t).view.emb (ix2 p 0)) = V c main_v5 _
  congr 1
  funext a
  apply Fin.ext
  match a with
  | ⟨0, _⟩ => show win0_2.index t (0 : Fin 2) * 2048 + 1 * p.val = 2048 * (t.val / 50) + p.val; omega
  | ⟨1, _⟩ => show win0_2.index t (1 : Fin 2) * 1 + 1 * 0 = 0; omega

/-- An input window's array is never written. -/
theorem in_array (V : (c : Dev nD) → (b : Ref sig .tc) → Buf (Elt F) ((c : Thread nD τ).loc b)) (c : Dev nD)
    (w : Fin cfg0.W) (hw : w ≠ 3) : (Reg0.dat V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, hw => exact absurd rfl hw
  rw [(Reg0.dat V c).arrAt_in w hin, Reg0.A_eq]

/-! ## The output column -/

/-- What the output column holds after the launch, as one function of the row `r`: the row lies in row block
    `r / 2048`, whose last vocabulary block is grid point `50 (r / 2048) + 49`, and is row `r % 2048` of what
    that point stores. -/
def outCol (V : (c : Dev nD) → (b : Ref sig .tc) → Buf (Elt F) ((c : Thread nD τ).loc b)) (c : Dev nD) :
    S4096x1.Idx → Elt F .f32 := fun i =>
  KS.out0 (Reg0.stAt V c (50 * ((i 0).val / 2048) + 49)) (ix2 ⟨(i 0).val % 2048, by omega⟩ 0)

/-- `outCol` at a row given by its grid point and its row inside the block. -/
theorem outCol_at (V : (c : Dev nD) → (b : Ref sig .tc) → Buf (Elt F) ((c : Thread nD τ).loc b)) (c : Dev nD)
    (n : ℕ) (i : S4096x1.Idx) (y : S2048x1.Idx)
    (h1 : 50 * ((i 0).val / 2048) + 49 = n) (h2 : (i 0).val % 2048 = (y 0).val) :
    outCol V c i = KS.out0 (Reg0.stAt V c n) y := by
  subst h1
  unfold outCol
  congr 1
  funext a
  apply Fin.ext
  match a with
  | ⟨0, _⟩ => exact h2
  | ⟨1, _⟩ => show 0 = (y 1).val; have hy : (y 1).val < 1 := (y 1).isLt; omega

/-- What a point that writes back writes is its block of `outCol`. -/
theorem flushed_eq (V : (c : Dev nD) → (b : Ref sig .tc) → Buf (Elt F) ((c : Thread nD τ).loc b)) (c : Dev nD)
    (t : Fin cfg0.N) (hf : (cfg0.win 3).flush t = true) :
    (Reg0.dat V c).flushed 3 t = ((cfg0.win 3).blk t).view.read (Elt F) (outCol V c) := by
  have h49 : t.val % 50 = 49 := (flush0_3 t).mp hf
  obtain ⟨-, -, -, -, -, -, e0, e1⟩ := idx_facts t
  show (cfg0.win 3).cut (grid0.coords t) ((Reg0.dat V c).after 3 t) = _
  rw [Reg0.after_out]
  funext y
  rw [View.read_apply]
  show KS.out0 (Reg0.stAt V c t.val) y = outCol V c (((cfg0.win 3).blk t).view.emb y)
  have hy : (y 0).val < 2048 := (y 0).isLt
  refine (outCol_at V c t.val _ y ?_ ?_).symm
  · show 50 * ((win0_3.index t (0 : Fin 2) * 2048 + 1 * (y 0).val) / 2048) + 49 = t.val
    omega
  · show (win0_3.index t (0 : Fin 2) * 2048 + 1 * (y 0).val) % 2048 = (y 0).val
    omega

/-- A row of the column is in point `t`'s block iff each coordinate is in the block's range on its axis. -/
theorem mem_blk3 (t : Fin cfg0.N) (i : S4096x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v6).slice (win0_3.rect t)).set ↔ _
  rw [View.set_slice_whole, Rect.mem_set_unit]
  exact Iff.rfl

/-- Every row of the column is in the block of its row block's last point, which writes back. -/
theorem covered (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ : ∃ t : Fin cfg0.N, t.val = 50 * ((i 0).val / 2048) + 49 :=
    ⟨⟨50 * ((i 0).val / 2048) + 49, Nat.lt_of_lt_of_eq (by omega) N_0.symm⟩, rfl⟩
  obtain ⟨-, -, -, -, -, -, e0, e1⟩ := idx_facts t
  refine ⟨t, (flush0_3 t).mpr (by omega), ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1 ≤ (i 1).val ∧ (i 1).val < win0_3.index t (1 : Fin 2) * 1 + 1; omega

/-- The output column after the launch is `outCol`. -/
theorem out_array_eq (V : (c : Dev nD) → (b : Ref sig .tc) → Buf (Elt F) ((c : Thread nD τ).loc b)) (c : Dev nD) :
    (Reg0.dat V c).arrAt 3 cfg0.N = outCol V c :=
  (Reg0.dat V c).arrAt_eq_of_cover 3 (outCol V c) (flushed_eq V c) covered

/-- Row `r` of the output column after the launch: row `r % 2048` of what the last vocabulary block of row block
    `r / 2048` stores. -/
theorem out_array (V : (c : Dev nD) → (b : Ref sig .tc) → Buf (Elt F) ((c : Thread nD τ).loc b)) (c : Dev nD)
    (r : Fin 4096) :
    ((Reg0.dat V c).arrAt 3 cfg0.N : S4096x1.Idx → Elt F .f32) (ix2 r 0)
      = KS.out0 (Reg0.stAt V c (50 * (r.val / 2048) + 49)) (ix2 ⟨r.val % 2048, by omega⟩ 0) := by
  rw [out_array_eq]
  rfl

end Cert.KernelIdeal.Arr0

end
-- ==== Proof.Online.lean ====
/-
  The online (blockwise) form of the log-sum-exp of a row, in closed form, on the extended reals.

  A row of `K * C` real numbers is visited in `K` blocks of `C`. Three accumulators are carried:
  the running maximum `m`, the running sum `l` of exponentials taken relative to `m`, and the entry `g`
  found at one marked position `y`. One block with maximum `c` replaces
  `m` by `m' = max m c`, `l` by `exp (m - m') * l + ∑ exp (entry - m')` and adds to `g` the block's entry at
  the marked position, if it is there. After all the blocks `m` is the row's maximum `M`, `l` is
  `∑ v, exp (row v - M)` and `g` is the row's entry at `y` (or `0` if `y` is outside the row).

  The first block starts from `m = -∞`, `l = 0`: its rescaling factor multiplies `0`, so whatever value
  `exp (-∞ - c)` has, the product is `0`. Every later block has a real `m`, and the rescaling is the
  identity `exp (M - M') * exp (x - M) = exp (x - M')` of the reals, term by term.

  Also here: a few small facts that move a finite sum, a maximum or a difference between the reals and the
  extended reals.
-/
import Idealize.ShloMosaic.PureOps.Ideal
import Mathlib.Data.EReal.Basic
import Mathlib.Data.EReal.Operations
import Mathlib.Analysis.SpecialFunctions.Exp
import Mathlib.Analysis.SpecialFunctions.Log.Basic
import Mathlib.Algebra.BigOperators.Group.Finset.Basic
import Mathlib.Algebra.BigOperators.Fin
import Mathlib.Data.Fintype.BigOperators
import Mathlib.Data.Finset.Lattice.Fold
import Mathlib.Order.MinMax

noncomputable section

namespace Cert.Online

open Idealize.ShloMosaic
open scoped BigOperators

/-! ### Between the reals and the extended reals -/

/-- The embedding of the reals commutes with a binary maximum. -/
theorem coe_max (x y : ℝ) : ((max x y : ℝ) : EReal) = max (x : EReal) (y : EReal) :=
  EReal.coe_strictMono.monotone.map_max

/-- The embedding of the reals commutes with a finite sum (over any finite set). -/
theorem coe_finset_sum {ι : Type*} (s : Finset ι) (f : ι → ℝ) :
    (∑ i ∈ s, (f i : EReal)) = ((∑ i ∈ s, f i : ℝ) : EReal) := by
  classical
  refine Finset.induction_on s (by simp) ?_
  intro i s hi ih
  rw [Finset.sum_insert hi, Finset.sum_insert hi, ih, EReal.coe_add]

/-- The embedding of the reals commutes with a finite sum. -/
theorem coe_sum {ι : Type*} [Fintype ι] (f : ι → ℝ) :
    (∑ i, (f i : EReal)) = ((∑ i, f i : ℝ) : EReal) :=
  coe_finset_sum Finset.univ f

/-- A dot product of real vectors, computed on the extended reals. -/
theorem sum_mul_real {n : ℕ} (x w : Fin n → ℝ) :
    (∑ h, (x h : EReal) * (w h : EReal)) = ((∑ h, x h * w h : ℝ) : EReal) := by
  rw [← coe_sum]
  exact Finset.sum_congr rfl (fun h _ => (EReal.coe_mul (x h) (w h)).symm)

/-- The maximum of finitely many reals, computed on the extended reals. -/
theorem sup'_coe {n : ℕ} (hn : (Finset.univ : Finset (Fin n)).Nonempty) (ℓ : Fin n → ℝ) :
    Finset.univ.sup' hn (fun v => (ℓ v : EReal)) = ((Finset.univ.sup' hn ℓ : ℝ) : EReal) :=
  (Finset.apply_sup'_eq_sup'_comp hn (fun r : ℝ => (r : EReal)) coe_max).symm

/-- The sum of exponentials of real entries less a real offset, computed on the extended reals. -/
theorem sum_exp_coe {n : ℕ} (ℓ : Fin n → ℝ) (M : ℝ) :
    (∑ v, Ideal.exp ((ℓ v : EReal) - (M : EReal))) = ((∑ v, Real.exp (ℓ v - M) : ℝ) : EReal) := by
  rw [← coe_sum]
  refine Finset.sum_congr rfl (fun v _ => ?_)
  rw [← EReal.coe_sub, Ideal.exp_coe]

/-- `g - (M + log L) = (g - M) - log L` for real `g`, `M` and a positive real `L`. -/
theorem lse_assoc (g M L : ℝ) (hL : 0 < L) :
    (g : EReal) - ((M : EReal) + Ideal.log (L : EReal)) = ((g : EReal) - (M : EReal)) - Ideal.log (L : EReal) := by
  rw [Ideal.log_coe, if_neg (not_le.mpr hL), ← EReal.coe_add, ← EReal.coe_sub, ← EReal.coe_sub, ← EReal.coe_sub,
    sub_add_eq_sub_sub]

theorem max_of_ge_one {s : EReal} (h : 1 ≤ s) : max s 1 = s := max_eq_left h

/-! ### The recurrence -/

/-- The three accumulators: running maximum, running sum of exponentials relative to it, marked entry. -/
structure Acc where
  m : EReal
  l : EReal
  g : EReal

/-- Before the first block. -/
def init : Acc := ⟨⊥, 0, 0⟩

/-- One block of `C` entries `a`, `cm` its maximum, `hit j` whether entry `j` sits at the marked position. -/
def step {C : ℕ} (a : Fin C → EReal) (cm : EReal) (hit : Fin C → Prop) [DecidablePred hit] (s : Acc) : Acc :=
  ⟨max s.m cm, Ideal.exp (s.m - max s.m cm) * s.l + ∑ j, Ideal.exp (a j - max s.m cm),
    s.g + ∑ j, if hit j then a j else 0⟩

/-- The accumulators after the first `k` blocks. -/
def run {C : ℕ} (a : ℕ → Fin C → EReal) (cm : ℕ → EReal) (hit : ℕ → Fin C → Prop) [∀ k, DecidablePred (hit k)] :
    ℕ → Acc
  | 0 => init
  | k + 1 => step (a k) (cm k) (hit k) (run a cm hit k)

/-- Entry `j` of block `k` is entry `C * k + j` of the row. -/
theorem idx_lt {K C k : ℕ} (hk : k < K) (j : Fin C) : C * k + j.val < K * C := by
  have h1 : C * k + C ≤ C * K := by
    have := Nat.mul_le_mul_left C (Nat.succ_le_of_lt hk)
    rwa [Nat.mul_succ] at this
  have h2 := j.isLt
  rw [Nat.mul_comm K C]
  omega

section Core

variable {C : ℕ} (K : ℕ) (L : ℕ → ℝ) (a : ℕ → Fin C → EReal)
  (ha : ∀ k, k < K → ∀ j : Fin C, a k j = ((L (C * k + j.val) : ℝ) : EReal))
  (cm : ℕ → EReal) (hcm : ∀ k, k < K → (∀ j, a k j ≤ cm k) ∧ ∃ j, a k j = cm k)
  (y : ℕ) (hit : ℕ → Fin C → Prop) [∀ k, DecidablePred (hit k)] (hhit : ∀ k j, hit k j ↔ C * k + j.val = y)

include ha hhit in
/-- A block contributes the marked entry exactly when the marked position lies in it. -/
theorem block_hit (k : ℕ) (hk : k < K) :
    (∑ j, if hit k j then a k j else 0) = if C * k ≤ y ∧ y < C * (k + 1) then ((L y : ℝ) : EReal) else 0 := by
  have e : C * (k + 1) = C * k + C := by ring
  by_cases h : C * k ≤ y ∧ y < C * (k + 1)
  · rw [if_pos h]
    have hj0 : y - C * k < C := by omega
    rw [Finset.sum_eq_single (⟨y - C * k, hj0⟩ : Fin C)]
    · have hh : hit k ⟨y - C * k, hj0⟩ := (hhit k _).2 (by show C * k + (y - C * k) = y; omega)
      rw [if_pos hh, ha k hk]
      have : C * k + (y - C * k) = y := by omega
      show ((L (C * k + (y - C * k)) : ℝ) : EReal) = _
      rw [this]
    · intro b _ hb
      have : ¬ hit k b := by
        intro hb'
        apply hb
        have := (hhit k b).1 hb'
        apply Fin.ext
        show b.val = y - C * k
        omega
      rw [if_neg this]
    · intro h'
      exact absurd (Finset.mem_univ _) h'
  · rw [if_neg h]
    refine Finset.sum_eq_zero (fun j _ => ?_)
    have : ¬ hit k j := by
      intro hj
      have := (hhit k j).1 hj
      have := j.isLt
      omega
    rw [if_neg this]

include ha hhit in
/-- The marked entry, once its block has been passed. -/
theorem run_g : ∀ k, k ≤ K → (run a cm hit k).g = if y < C * k then ((L y : ℝ) : EReal) else 0
  | 0, _ => by
    have : ¬ y < C * 0 := by omega
    rw [if_neg this]
    rfl
  | k + 1, hk => by
    have ih := run_g k (by omega)
    show (run a cm hit k).g + (∑ j, if hit k j then a k j else 0) = _
    rw [ih, block_hit K L a ha y hit hhit k (by omega)]
    have e : C * (k + 1) = C * k + C := by ring
    by_cases h1 : y < C * k
    · have h2 : y < C * (k + 1) := by omega
      have h3 : ¬ (C * k ≤ y ∧ y < C * (k + 1)) := by omega
      rw [if_pos h1, if_neg h3, if_pos h2, add_zero]
    · by_cases h2 : y < C * (k + 1)
      · have h3 : C * k ≤ y ∧ y < C * (k + 1) := ⟨by omega, h2⟩
        rw [if_neg h1, if_pos h3, if_pos h2, zero_add]
      · have h3 : ¬ (C * k ≤ y ∧ y < C * (k + 1)) := by omega
        rw [if_neg h1, if_neg h3, if_neg h2, add_zero]

include ha hcm in
/-- A block's maximum is a real number, the largest of the block's entries. -/
theorem block_max (k : ℕ) (hk : k < K) :
    ∃ c : ℝ, cm k = (c : EReal) ∧ (∀ j : Fin C, L (C * k + j.val) ≤ c) ∧ ∃ j : Fin C, L (C * k + j.val) = c := by
  obtain ⟨hle, j0, hj0⟩ := hcm k hk
  have hc : cm k = ((L (C * k + j0.val) : ℝ) : EReal) := hj0.symm.trans (ha k hk j0)
  refine ⟨L (C * k + j0.val), hc, fun j => ?_, j0, rfl⟩
  have := hle j
  rw [ha k hk j, hc] at this
  exact EReal.coe_le_coe_iff.1 this

include ha in
/-- A block's sum of exponentials less a real offset. -/
theorem block_exp (k : ℕ) (hk : k < K) (M : ℝ) :
    (∑ j, Ideal.exp (a k j - (M : EReal)))
      = ((∑ i ∈ Finset.range C, Real.exp (L (C * k + i) - M) : ℝ) : EReal) := by
  rw [← Fin.sum_univ_eq_sum_range (fun i => Real.exp (L (C * k + i) - M)) C, ← coe_sum]
  refine Finset.sum_congr rfl (fun j _ => ?_)
  rw [ha k hk j, ← EReal.coe_sub, Ideal.exp_coe]

include ha hcm in
/-- After `k + 1` blocks: the running maximum is the largest of the entries seen, the running sum is the
    sum of their exponentials relative to it. -/
theorem run_ml : ∀ k, k < K → ∃ M : ℝ, (∀ n, n < C * (k + 1) → L n ≤ M) ∧ (∃ n, n < C * (k + 1) ∧ L n = M)
      ∧ (run a cm hit (k + 1)).m = (M : EReal)
      ∧ (run a cm hit (k + 1)).l = ((∑ n ∈ Finset.range (C * (k + 1)), Real.exp (L n - M) : ℝ) : EReal)
  | 0, hk => by
    obtain ⟨c, hc, hle, j0, hj0⟩ := block_max K L a ha cm hcm 0 hk
    have hm : max (⊥ : EReal) (cm 0) = (c : EReal) := by rw [max_eq_right bot_le, hc]
    refine ⟨c, fun n hn => ?_, ⟨C * 0 + j0.val, by have := j0.isLt; omega, hj0⟩, hm, ?_⟩
    · have := hle ⟨n, by omega⟩
      have e : C * 0 + n = n := by omega
      rwa [show C * 0 + (⟨n, by omega⟩ : Fin C).val = n from e] at this
    · show Ideal.exp (⊥ - max (⊥ : EReal) (cm 0)) * 0 + ∑ j, Ideal.exp (a 0 j - max (⊥ : EReal) (cm 0)) = _
      rw [hm, mul_zero, zero_add, block_exp K L a ha 0 hk c]
      have e1 : C * (0 + 1) = C := by omega
      rw [e1]
      refine congrArg _ (Finset.sum_congr rfl (fun i _ => ?_))
      have e2 : C * 0 + i = i := by omega
      rw [e2]
  | k + 1, hk => by
    obtain ⟨M, hMle, ⟨n0, hn0, hn0M⟩, hm, hl⟩ := run_ml k (by omega)
    obtain ⟨c, hc, hle, j0, hj0⟩ := block_max K L a ha cm hcm (k + 1) hk
    have e : C * (k + 1 + 1) = C * (k + 1) + C := by ring
    have hm' : max (run a cm hit (k + 1)).m (cm (k + 1)) = ((max M c : ℝ) : EReal) := by
      rw [hm, hc, coe_max]
    refine ⟨max M c, fun n hn => ?_, ?_, hm', ?_⟩
    · by_cases h : n < C * (k + 1)
      · exact (hMle n h).trans (le_max_left _ _)
      · have hj : n - C * (k + 1) < C := by omega
        have := hle ⟨n - C * (k + 1), hj⟩
        have e2 : C * (k + 1) + (n - C * (k + 1)) = n := by omega
        rw [show C * (k + 1) + (⟨n - C * (k + 1), hj⟩ : Fin C).val = n from e2] at this
        exact this.trans (le_max_right _ _)
    · rcases le_total c M with h | h
      · exact ⟨n0, by omega, by rw [max_eq_left h]; exact hn0M⟩
      · exact ⟨C * (k + 1) + j0.val, by have := j0.isLt; omega, by rw [max_eq_right h]; exact hj0⟩
    · show Ideal.exp ((run a cm hit (k + 1)).m - max (run a cm hit (k + 1)).m (cm (k + 1))) * (run a cm hit (k + 1)).l
          + ∑ j, Ideal.exp (a (k + 1) j - max (run a cm hit (k + 1)).m (cm (k + 1))) = _
      rw [hm', hm, hl, ← EReal.coe_sub, Ideal.exp_coe, ← EReal.coe_mul, block_exp K L a ha (k + 1) hk (max M c),
        ← EReal.coe_add, e, Finset.sum_range_add, Finset.mul_sum]
      refine congrArg _ (congrArg₂ _ (Finset.sum_congr rfl (fun n _ => ?_)) rfl)
      rw [← Real.exp_add]
      exact congrArg _ (by ring)

end Core

/-! ### The closed form -/

/-- After all `K` blocks of a row `ℓ` of `K * C` reals whose maximum is `M`: the running maximum is `M`, the
    running sum is `∑ v, exp (ℓ v - M)` (a positive real), and the marked entry is `ℓ y`. -/
theorem run_closed {K C : ℕ} (hK : 0 < K) (ℓ : Fin (K * C) → ℝ)
    (a : ℕ → Fin C → EReal)
    (ha : ∀ (k : ℕ) (hk : k < K) (j : Fin C), a k j = ((ℓ ⟨C * k + j.val, idx_lt hk j⟩ : ℝ) : EReal))
    (cm : ℕ → EReal) (hcm : ∀ k, k < K → (∀ j, a k j ≤ cm k) ∧ ∃ j, a k j = cm k)
    (y : ℕ) (hit : ℕ → Fin C → Prop) [∀ k, DecidablePred (hit k)] (hhit : ∀ k j, hit k j ↔ C * k + j.val = y)
    (M : ℝ) (hMle : ∀ v, ℓ v ≤ M) (hMex : ∃ v, ℓ v = M) :
    (run a cm hit K).m = (M : EReal)
      ∧ (run a cm hit K).l = ((∑ v, Real.exp (ℓ v - M) : ℝ) : EReal)
      ∧ 0 < ∑ v, Real.exp (ℓ v - M)
      ∧ (run a cm hit K).g = if h : y < K * C then ((ℓ ⟨y, h⟩ : ℝ) : EReal) else 0 := by
  let L : ℕ → ℝ := fun n => if h : n < K * C then ℓ ⟨n, h⟩ else 0
  have hL : ∀ (n : ℕ) (h : n < K * C), L n = ℓ ⟨n, h⟩ := fun n h => dif_pos h
  have ha' : ∀ k, k < K → ∀ j : Fin C, a k j = ((L (C * k + j.val) : ℝ) : EReal) := fun k hk j => by
    rw [ha k hk j, hL _ (idx_lt hk j)]
  have hKC : C * K = K * C := Nat.mul_comm C K
  obtain ⟨K', rfl⟩ : ∃ K', K = K' + 1 := ⟨K - 1, by omega⟩
  obtain ⟨M', hM'le, ⟨n0, hn0, hn0M⟩, hm, hl⟩ := run_ml (K' + 1) L a ha' cm hcm hit K' (by omega)
  have hMM : M' = M := by
    apply le_antisymm
    · rw [← hn0M, hL n0 (by omega)]
      exact hMle _
    · obtain ⟨v, hv⟩ := hMex
      rw [← hv, ← hL v.val v.isLt]
      exact hM'le _ (by have := v.isLt; omega)
  subst hMM
  refine ⟨hm, ?_, ?_, ?_⟩
  · rw [hl, hKC, ← Fin.sum_univ_eq_sum_range (fun n => Real.exp (L n - M')) ((K' + 1) * C)]
    refine congrArg _ (Finset.sum_congr rfl (fun v _ => ?_))
    rw [hL v.val v.isLt]
  · obtain ⟨v, _⟩ := hMex
    exact Finset.sum_pos (fun v _ => Real.exp_pos _) ⟨v, Finset.mem_univ _⟩
  · rw [run_g (K' + 1) L a ha' cm y hit hhit (K' + 1) le_rfl]
    by_cases h : y < (K' + 1) * C
    · rw [dif_pos h, if_pos (by omega), hL y h]
    · rw [dif_neg h, if_neg (by omega)]

/-- The same with the row's maximum spelled as the supremum of its entries. -/
theorem run_closed_sup' {K C : ℕ} (hK : 0 < K) (ℓ : Fin (K * C) → ℝ)
    (hn : (Finset.univ : Finset (Fin (K * C))).Nonempty)
    (a : ℕ → Fin C → EReal)
    (ha : ∀ (k : ℕ) (hk : k < K) (j : Fin C), a k j = ((ℓ ⟨C * k + j.val, idx_lt hk j⟩ : ℝ) : EReal))
    (cm : ℕ → EReal) (hcm : ∀ k, k < K → (∀ j, a k j ≤ cm k) ∧ ∃ j, a k j = cm k)
    (y : ℕ) (hit : ℕ → Fin C → Prop) [∀ k, DecidablePred (hit k)] (hhit : ∀ k j, hit k j ↔ C * k + j.val = y) :
    (run a cm hit K).m = ((Finset.univ.sup' hn ℓ : ℝ) : EReal)
      ∧ (run a cm hit K).l = ((∑ v, Real.exp (ℓ v - Finset.univ.sup' hn ℓ) : ℝ) : EReal)
      ∧ 0 < ∑ v, Real.exp (ℓ v - Finset.univ.sup' hn ℓ)
      ∧ (run a cm hit K).g = if h : y < K * C then ((ℓ ⟨y, h⟩ : ℝ) : EReal) else 0 := by
  obtain ⟨v, _, hv⟩ := Finset.exists_mem_eq_sup' hn ℓ
  exact run_closed hK ℓ a ha cm hcm y hit hhit _ (fun w => Finset.le_sup' ℓ (Finset.mem_univ w)) ⟨v, hv.symm⟩

end Cert.Online

end
-- ==== Proof.KiRow.lean ====
/-
  The kernel's carried accumulators read ROW BY ROW, on the extended reals.

  One vocabulary block's update of the three per-row accumulators — running maximum `m`, running sum `l` of
  exponentials relative to `m`, target logit `g` — is, on each row `p` of the row block, one step of the scalar
  online log-sum-exp recurrence: with `a j = ∑ h, x[p,h] · w[j,h]` the block's logits of that row and `c` their
  maximum, `m' = max m c`, `l' = exp (m - m') · l + ∑ j, exp (a j - m')`, `g' = g + ∑ j, [position j = label] · a j`.
  The position of lane `j` of block `k` is the 32-bit word `640·k + j`, which does not wrap.

  Each payload of the update is read at an index: the matrix product as the sum over the contracted coordinate, the two
  lane reductions as the maximum and the sum over the lanes, the layout operations as re-indexings.
-/
import proofs.«425399_j87299505259073_2_alg».proof.Proof.KiState
import proofs.«425399_j87299505259073_2_alg».proof.Proof.Online
import Idealize.ShloMosaic.Lib.ValueIdx
import Idealize.ShloMosaic.Lib.Pipeline.Value
import Idealize.ShloMosaic.Lib.ValueLayout
import Idealize.ShloMosaic.PureOps.Ideal.Laws
import Mathlib.Data.Finset.Fold
import Mathlib.Data.Finset.Lattice.Fold

noncomputable section

namespace Cert.KernelIdeal.Row

open Idealize.ShloMosaic Idealize.ShloMosaic.ValueIdx Cert.KernelIdeal Cert.KernelIdeal.Gen
open scoped BigOperators

/-! ### Two column layouts read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Words -/

/-- The pattern `0xFF800000` is `-∞`. -/
theorem negInf_f32 : Ideal.ofBits .f32 0xFF800000#32 = ⊥ := by simp [Ideal.ofBits, Ideal.ieee]

/-- A select on an equality test of two words is the `if` on their equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

/-- The position word `640·k + j` of lane `j` of vocabulary block `k` does not wrap, so testing it against a
    label word is testing the numbers. -/
theorem hit_iff (k : Fin 50) (j : Fin 640) (yw : BitVec 32) :
    (BitVec.ofNat 32 k.val * 640#32 + BitVec.ofNat 32 j.val = yw) ↔ (640 * k.val + j.val = yw.toNat) := by
  have hk := k.isLt
  have hj := j.isLt
  constructor
  · intro h
    rw [← h]
    simp only [BitVec.toNat_add, BitVec.toNat_mul, BitVec.toNat_ofNat]
    omega
  · intro h
    apply BitVec.eq_of_toNat_eq
    simp only [BitVec.toNat_add, BitVec.toNat_mul, BitVec.toNat_ofNat]
    omega

/-! ### The resets, the stored maximum and the stored result -/

theorem pay4_apply (q : S2048x1.Idx) : k0_pay4 (F := Ideal) q = ⊥ :=
  (congrFun (shapeCast_self (broadcast S2048x1 (Scalar.ofBits (F := Ideal) .f32 0xFF800000#32)) shapeCasts_S2048x1_S2048x1) q).trans negInf_f32

theorem pay5_apply (q : S2048x1.Idx) : k0_pay5 (F := Ideal) q = 0 :=
  (congrFun (shapeCast_self (broadcast S2048x1 (Scalar.ofBits (F := Ideal) .f32 0x00000000#32)) shapeCasts_S2048x1_S2048x1) q).trans Ideal.ofBits_zero_f32

theorem pay6_apply (q : S2048x1.Idx) : k0_pay6 (F := Ideal) q = 0 :=
  (congrFun (shapeCast_self (broadcast S2048x1 (Scalar.ofBits (F := Ideal) .f32 0x00000000#32)) shapeCasts_S2048x1_S2048x1) q).trans Ideal.ofBits_zero_f32

theorem pay2_apply (v : FVec Ideal S2048x1 .f32) (q : S2048x1.Idx) : k0_pay2 v q = v q :=
  congrFun (shapeCast_self v shapeCasts_S2048x1_S2048x1) q

theorem pay3_apply (m l g : Vec Ideal S2048x1 .f32) (q : S2048x1.Idx) :
    k0_pay3 m l g q = g q - (m q + Ideal.log (l q)) := rfl

/-! ### The block's logits: the matrix product read at an index -/

theorem lhs_0 (i : S2048x640.Idx) (q : dot_S2048x2048_S640x2048_S2048x640_1_1_0_0_n_n.contr.Idx) :
    (dot_S2048x2048_S640x2048_S2048x640_1_1_0_0_n_n.lhsIdx i q 0).val = (i 0).val := by
  unfold DotDims.lhsIdx
  rw [dif_neg (show ¬(0 : Fin S2048x2048.rank) ∈ dot_S2048x2048_S640x2048_S2048x640_1_1_0_0_n_n.lhsBatch by decide),
    dif_pos (show (0 : Fin S2048x2048.rank) ∈ dot_S2048x2048_S640x2048_S2048x640_1_1_0_0_n_n.lhsNonContracting by decide)]
  rfl

theorem lhs_1 (i : S2048x640.Idx) (q : dot_S2048x2048_S640x2048_S2048x640_1_1_0_0_n_n.contr.Idx) :
    (dot_S2048x2048_S640x2048_S2048x640_1_1_0_0_n_n.lhsIdx i q 1).val = (q ⟨0, by decide⟩).val :=
  dot_S2048x2048_S640x2048_S2048x640_1_1_0_0_n_n.lhsIdx_val_of_single rfl i q

theorem rhs_0 (i : S2048x640.Idx) (q : dot_S2048x2048_S640x2048_S2048x640_1_1_0_0_n_n.contr.Idx) :
    (dot_S2048x2048_S640x2048_S2048x640_1_1_0_0_n_n.rhsIdx i q 0).val = (i 1).val := by
  unfold DotDims.rhsIdx
  rw [dif_neg (show ¬(0 : Fin S640x2048.rank) ∈ dot_S2048x2048_S640x2048_S2048x640_1_1_0_0_n_n.rhsBatch by decide),
    dif_pos (show (0 : Fin S640x2048.rank) ∈ dot_S2048x2048_S640x2048_S2048x640_1_1_0_0_n_n.rhsNonContracting by decide)]
  rfl

theorem rhs_1 (i : S2048x640.Idx) (q : dot_S2048x2048_S640x2048_S2048x640_1_1_0_0_n_n.contr.Idx) :
    (dot_S2048x2048_S640x2048_S2048x640_1_1_0_0_n_n.rhsIdx i q 1).val = (q ⟨0, by decide⟩).val :=
  dot_S2048x2048_S640x2048_S2048x640_1_1_0_0_n_n.rhsIdx_val_of_single rfl i q

/-- Row `p`'s logit at lane `j` of the block: the row of activations against the row of weights. -/
def rowLogit (xb : Vec Ideal S2048x2048 .bf16) (wb : Vec Ideal S640x2048 .bf16) (p : Fin 2048) (j : Fin 640) : EReal :=
  ∑ h : Fin 2048, xb (ix2 p h) * wb (ix2 j h)

/-- The matrix product into a zero accumulator, at `(p, j)`: `0 + ∑ = ∑`. -/
theorem pay7_apply (xb : Vec Ideal S2048x2048 .bf16) (wb : Vec Ideal S640x2048 .bf16) (p : Fin 2048) (j : Fin 640) :
    k0_pay7 (F := Ideal) xb wb (ix2 p j) = rowLogit xb wb p j := by
  unfold k0_pay7 rowLogit
  show FloatOps.matmul dot_S2048x2048_S640x2048_S2048x640_1_1_0_0_n_n none
      (shapeCast S2048x2048 xb shapeCasts_S2048x2048_S2048x2048) (shapeCast S640x2048 wb shapeCasts_S640x2048_S640x2048)
      (constant (F := Ideal) S2048x640 .f32 0x00000000#32) (ix2 p j) = _
  rw [shapeCast_self, shapeCast_self]
  refine (Ideal.matmul_constant_zero_apply (φ₁ := .bf16) (φ₂ := .bf16) dot_S2048x2048_S640x2048_S2048x640_1_1_0_0_n_n none xb wb (ix2 p j)).trans ?_
  rw [← Equiv.sum_comp (contrEquiv1 dot_S2048x2048_S640x2048_S2048x640_1_1_0_0_n_n 2048 rfl rfl).symm]
  refine Finset.sum_congr rfl fun k _ => ?_
  have hk := contrEquiv1_symm_val dot_S2048x2048_S640x2048_S2048x640_1_1_0_0_n_n 2048 rfl rfl k
  have el : dot_S2048x2048_S640x2048_S2048x640_1_1_0_0_n_n.lhsIdx (ix2 p j)
      ((contrEquiv1 dot_S2048x2048_S640x2048_S2048x640_1_1_0_0_n_n 2048 rfl rfl).symm k) = ix2 p k :=
    funext fun a => Fin.ext (by
      match a with
      | ⟨0, _⟩ => exact lhs_0 _ _
      | ⟨1, _⟩ => exact (lhs_1 _ _).trans hk)
  have er : dot_S2048x2048_S640x2048_S2048x640_1_1_0_0_n_n.rhsIdx (ix2 p j)
      ((contrEquiv1 dot_S2048x2048_S640x2048_S2048x640_1_1_0_0_n_n 2048 rfl rfl).symm k) = ix2 j k :=
    funext fun a => Fin.ext (by
      match a with
      | ⟨0, _⟩ => exact rhs_0 _ _
      | ⟨1, _⟩ => exact (rhs_1 _ _).trans hk)
  rw [el, er]

/-! ### The two lane reductions, the running maximum and the running sum -/

/-- The lane reduction's inserted index: row `p` with lane `k` put back is `(p, k)`. -/
theorem lift_row (p : Fin 2048) (k : Fin (S2048x640.size 1)) :
    reduces_S2048x640_S2048.lift (ix1 p) k = ix2 p (k : Fin 640) :=
  funext fun a => Fin.ext (by
    match a with
    | ⟨0, _⟩ => rfl
    | ⟨1, _⟩ => rfl)

/-- The largest logit of row `p` in the block. -/
def rowCmax (xb : Vec Ideal S2048x2048 .bf16) (wb : Vec Ideal S640x2048 .bf16) (p : Fin 2048) : EReal :=
  (Finset.univ : Finset (Fin 640)).fold max ⊥ (rowLogit xb wb p)

theorem rowCmax_spec (xb : Vec Ideal S2048x2048 .bf16) (wb : Vec Ideal S640x2048 .bf16) (p : Fin 2048) :
    (∀ j, rowLogit xb wb p j ≤ rowCmax xb wb p) ∧ ∃ j, rowLogit xb wb p j = rowCmax xb wb p := by
  have hsup : rowCmax xb wb p = Finset.univ.sup' ⟨(0 : Fin 640), Finset.mem_univ _⟩ (rowLogit xb wb p) := by
    unfold rowCmax
    refine le_antisymm ?_ ?_
    · exact (Finset.fold_max_le _).mpr ⟨bot_le, fun x hx => Finset.le_sup' (rowLogit xb wb p) hx⟩
    · exact Finset.sup'_le _ _ fun x hx => (Finset.le_fold_max _).mpr (Or.inr ⟨x, hx, le_rfl⟩)
  refine ⟨fun j => ?_, ?_⟩
  · rw [hsup]; exact Finset.le_sup' (rowLogit xb wb p) (Finset.mem_univ j)
  · obtain ⟨j, -, hj⟩ := Finset.exists_mem_eq_sup' ⟨(0 : Fin 640), Finset.mem_univ _⟩ (rowLogit xb wb p)
    exact ⟨j, by rw [hsup, hj]⟩

/-- The maximum lane reduction of the logits, kept as a column, at row `p`. -/
theorem laneMax_apply (xb : Vec Ideal S2048x2048 .bf16) (wb : Vec Ideal S640x2048 .bf16) (p : Fin 2048) :
    shapeCast S2048x1 (multiReduction (F := Ideal) .maximumf [1] S2048 (k0_pay7 xb wb) 0xFF800000#32 reduces_S2048x640_S2048 (.inl rfl) rfl)
      shapeCasts_S2048_S2048x1 (ix2 p (0 : Fin 1)) = rowCmax xb wb p := by
  refine (shapeCast_a_a1_apply _ shapeCasts_S2048_S2048x1 p 0).trans ?_
  refine (Ideal.multiReduction_maximumf_single (k0_pay7 (F := Ideal) xb wb) 0xFF800000#32 reduces_S2048x640_S2048 (.inl rfl) rfl (ix1 p)).trans ?_
  unfold rowCmax
  have e : (k0_pay7 (F := Ideal) xb wb ∘ reduces_S2048x640_S2048.lift (ix1 p)) = rowLogit xb wb p :=
    funext fun k => (congrArg (k0_pay7 (F := Ideal) xb wb) (lift_row p k)).trans (pay7_apply xb wb p k)
  rw [e]
  exact congrArg (fun b => (Finset.univ : Finset (Fin 640)).fold max b (rowLogit xb wb p)) negInf_f32

/-- The new running maximum of row `p`. -/
theorem pay9_apply (xb : Vec Ideal S2048x2048 .bf16) (wb : Vec Ideal S640x2048 .bf16) (m : Vec Ideal S2048x1 .f32) (p : Fin 2048) :
    k0_pay9 (F := Ideal) xb wb m (ix2 p (0 : Fin 1)) = max (m (ix2 p (0 : Fin 1))) (rowCmax xb wb p) :=
  congrArg (max (m (ix2 p (0 : Fin 1)))) (laneMax_apply xb wb p)

/-- The rescaling factor of row `p`'s running sum. -/
theorem pay10_apply (xb : Vec Ideal S2048x2048 .bf16) (wb : Vec Ideal S640x2048 .bf16) (m : Vec Ideal S2048x1 .f32) (p : Fin 2048) :
    k0_pay10 (F := Ideal) xb wb m (ix2 p (0 : Fin 1))
      = Ideal.exp (m (ix2 p (0 : Fin 1)) - max (m (ix2 p (0 : Fin 1))) (rowCmax xb wb p)) :=
  congrArg (fun t => Ideal.exp (m (ix2 p (0 : Fin 1)) - t)) (pay9_apply xb wb m p)

/-- The block's exponentials relative to the new running maximum, at `(p, j)`. -/
theorem pay11_apply (xb : Vec Ideal S2048x2048 .bf16) (wb : Vec Ideal S640x2048 .bf16) (m : Vec Ideal S2048x1 .f32) (p : Fin 2048) (j : Fin 640) :
    k0_pay11 (F := Ideal) xb wb m (ix2 p j)
      = Ideal.exp (rowLogit xb wb p j - max (m (ix2 p (0 : Fin 1))) (rowCmax xb wb p)) := by
  show Ideal.exp (k0_pay7 (F := Ideal) xb wb (ix2 p j)
      - broadcastTo S2048x640 (k0_pay9 (F := Ideal) xb wb m) broadcasts_S2048x1_S2048x640 (ix2 p j)) = _
  rw [pay7_apply, broadcastTo_a1_ab_apply, pay9_apply]

/-- The add lane reduction of a `[2048, 640]` vector, kept as a column, at row `p`. -/
theorem laneSum_apply (v : FVec Ideal S2048x640 .f32) (p : Fin 2048) :
    shapeCast S2048x1 (multiReduction (F := Ideal) .add [1] S2048 v 0x00000000#32 reduces_S2048x640_S2048 (.inl rfl) rfl)
      shapeCasts_S2048_S2048x1 (ix2 p (0 : Fin 1)) = ∑ j : Fin 640, v (ix2 p j) := by
  refine (shapeCast_a_a1_apply _ shapeCasts_S2048_S2048x1 p 0).trans ?_
  refine (Ideal.multiReduction_add_single v 0x00000000#32 reduces_S2048x640_S2048 (.inl rfl) rfl (ix1 p)).trans ?_
  exact Finset.sum_congr rfl fun k _ => congrArg v (lift_row p k)

/-- The new running sum of row `p`, from the rescaling factor `e`, the block's exponentials `ex` and the old sum `l`. -/
theorem pay1_apply (e : FVec Ideal S2048x1 .f32) (ex : FVec Ideal S2048x640 .f32) (l : Vec Ideal S2048x1 .f32) (p : Fin 2048) :
    k0_pay1 e ex l (ix2 p (0 : Fin 1)) = e (ix2 p (0 : Fin 1)) * l (ix2 p (0 : Fin 1)) + ∑ j : Fin 640, ex (ix2 p j) := by
  unfold k0_pay1
  refine (congrFun (shapeCast_self _ shapeCasts_S2048x1_S2048x1) (ix2 p (0 : Fin 1))).trans ?_
  exact congrArg (fun t => e (ix2 p (0 : Fin 1)) * l (ix2 p (0 : Fin 1)) + t) (laneSum_apply ex p)

/-! ### The target logit's accumulator -/

/-- The new target-logit accumulator of row `p`: the old one plus the block's logit at the lane whose position word
    `640·k + j` equals the row's label word, if there is one. -/
theorem pay8_apply (i : grid0.Coords) (xb : Vec Ideal S2048x2048 .bf16) (wb : Vec Ideal S640x2048 .bf16)
    (yb : Vec Ideal S2048x1 .i32) (g : Vec Ideal S2048x1 .f32) (p : Fin 2048) :
    k0_pay8 (F := Ideal) i xb wb yb g (ix2 p (0 : Fin 1))
      = g (ix2 p (0 : Fin 1)) + ∑ j : Fin 640,
          if BitVec.ofNat 32 (i 1).val * 640#32 + BitVec.ofNat 32 j.val = yb (ix2 p (0 : Fin 1)) then rowLogit xb wb p j else 0 := by
  unfold k0_pay8
  refine (congrFun (shapeCast_self _ shapeCasts_S2048x1_S2048x1) (ix2 p (0 : Fin 1))).trans ?_
  refine congrArg (fun t => g (ix2 p (0 : Fin 1)) + t) ?_
  refine (laneSum_apply _ p).trans ?_
  refine Finset.sum_congr rfl fun j _ => ?_
  show Scalar.select (IntOp.cmpi .eq
        (IntOp.addi (Scalar.muli (BitVec.ofNat 32 (i 1).val) 640#32) (iota .tc S2048x640 32 [1] iota_S2048x640_d1_w32 (ix2 p j)))
        (broadcastTo S2048x640 (shapeCast S2048x1 yb shapeCasts_S2048x1_S2048x1) broadcasts_S2048x1_S2048x640 (ix2 p j)))
      (k0_pay7 (F := Ideal) xb wb (ix2 p j)) (Ideal.ofBits .f32 0x00000000#32) = _
  rw [select_cmpi_eq, iota_single_apply, broadcastTo_a1_ab_apply, shapeCast_self, pay7_apply, Ideal.ofBits_zero_f32]
  rfl

/-! ### One grid point, row by row -/

/-- Row `p`'s three accumulators. -/
def accOf (s : KS.St Ideal) (p : Fin 2048) : Cert.Online.Acc :=
  ⟨s.m (ix2 p (0 : Fin 1)), s.l (ix2 p (0 : Fin 1)), s.g (ix2 p (0 : Fin 1))⟩

/-- The reset leaves every row at the recurrence's start: `m = -∞`, `l = g = 0`. -/
theorem init_row (p : Fin 2048) : accOf KS.init0 p = Cert.Online.init := by
  show Cert.Online.Acc.mk (k0_pay4 (F := Ideal) (ix2 p (0 : Fin 1))) (k0_pay5 (F := Ideal) (ix2 p (0 : Fin 1)))
      (k0_pay6 (F := Ideal) (ix2 p (0 : Fin 1))) = Cert.Online.Acc.mk ⊥ 0 0
  rw [pay4_apply, pay5_apply, pay6_apply]

/-- One grid point's update is, on row `p`, one step of the scalar recurrence over the block's logits of that row,
    their maximum, and the test "this lane's position word is the row's label word". -/
theorem step_row (i : grid0.Coords) (xb : Vec Ideal S2048x2048 .bf16) (wb : Vec Ideal S640x2048 .bf16)
    (yb : Vec Ideal S2048x1 .i32) (s : KS.St Ideal) (p : Fin 2048) :
    accOf (KS.step0 i xb wb yb s) p
      = Cert.Online.step (rowLogit xb wb p) (rowCmax xb wb p)
          (fun j : Fin 640 => BitVec.ofNat 32 (i 1).val * 640#32 + BitVec.ofNat 32 j.val = yb (ix2 p (0 : Fin 1))) (accOf s p) := by
  have hm : k0_pay2 (k0_pay9 (F := Ideal) xb wb s.m) (ix2 p (0 : Fin 1))
      = max (s.m (ix2 p (0 : Fin 1))) (rowCmax xb wb p) :=
    (pay2_apply _ _).trans (pay9_apply xb wb s.m p)
  have hl : k0_pay1 (k0_pay10 (F := Ideal) xb wb s.m) (k0_pay11 (F := Ideal) xb wb s.m) s.l (ix2 p (0 : Fin 1))
      = Ideal.exp (s.m (ix2 p (0 : Fin 1)) - max (s.m (ix2 p (0 : Fin 1))) (rowCmax xb wb p)) * s.l (ix2 p (0 : Fin 1))
        + ∑ j : Fin 640, Ideal.exp (rowLogit xb wb p j - max (s.m (ix2 p (0 : Fin 1))) (rowCmax xb wb p)) := by
    rw [pay1_apply, pay10_apply]
    exact congrArg _ (Finset.sum_congr rfl fun j _ => pay11_apply xb wb s.m p j)
  show Cert.Online.Acc.mk (k0_pay2 (k0_pay9 (F := Ideal) xb wb s.m) (ix2 p (0 : Fin 1)))
      (k0_pay1 (k0_pay10 (F := Ideal) xb wb s.m) (k0_pay11 (F := Ideal) xb wb s.m) s.l (ix2 p (0 : Fin 1)))
      (k0_pay8 (F := Ideal) i xb wb yb s.g (ix2 p (0 : Fin 1))) = _
  rw [hm, hl, pay8_apply]
  rfl

/-- What the last vocabulary block stores for row `p`: `g - (m + log l)`. -/
theorem out_row (s : KS.St Ideal) (p : Fin 2048) :
    KS.out0 s (ix2 p (0 : Fin 1))
      = s.g (ix2 p (0 : Fin 1)) - (s.m (ix2 p (0 : Fin 1)) + Ideal.log (s.l (ix2 p (0 : Fin 1)))) := rfl

end Cert.KernelIdeal.Row

end
-- ==== Proof.KiTok.lean ====
/-
  What the first launch of the kernel leaves in its output array at a row IS the specification's log-probability
  of that row's label.

  Row r of the 4096 rows lies in row block r / 2048 at place r % 2048. Over the 50 vocabulary blocks of that row
  block the three accumulators of the row follow the blockwise log-sum-exp recurrence on the row's 32000 logits,
  block k holding the logits of the vocabulary entries 640 k .. 640 k + 639; the closed form of the recurrence
  gives the row's maximum M, the sum of exp (logit - M) and the label's logit, and the stored value
  g - (M + log l) is (logit of the label - M) - log (sum), the specification's value.
-/
import proofs.«425399_j87299505259073_2_alg».proof.Proof.KiArr0
import proofs.«425399_j87299505259073_2_alg».proof.Proof.KiRow
import proofs.«425399_j87299505259073_2_alg».proof.Proof.Spec
import Idealize.ShloMosaic.Lib.ValueIdx
import Mathlib.Data.EReal.Basic
import Mathlib.Data.EReal.Operations
import Mathlib.Analysis.SpecialFunctions.Exp
import Mathlib.Data.Finset.Lattice.Fold

noncomputable section

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

namespace Cert.KernelIdeal.Tok

/-- The second grid coordinate (the vocabulary block) of the t-th point is t modulo 50. -/
theorem coord1 : ∀ t : Fin cfg0.N, ((grid0.coords t) 1).val = t.val % 50 :=
  (by decide +kernel : ∀ t : Fin grid0.N, ((grid0.coords t) 1).val = t.val % 50)

/-- The block update does not depend on how "entry j is the marked one" is spelled. -/
theorem step_congr_hit {C : ℕ} (a : Fin C → EReal) (cm : EReal) (hit hit' : Fin C → Prop) [DecidablePred hit]
    [DecidablePred hit'] (h : ∀ j, hit j ↔ hit' j) (s : Cert.Online.Acc) :
    Cert.Online.step a cm hit s = Cert.Online.step a cm hit' s := by
  have e : (∑ j, if hit j then a j else 0) = ∑ j, if hit' j then a j else 0 :=
    Finset.sum_congr rfl (fun j _ => if_congr (h j) rfl rfl)
  unfold Cert.Online.step
  rw [e]

section Row

variable (V : (c : Dev nD) → (b : Ref sig .tc) → Buf (Elt Ideal) ((c : Thread nD τ).loc b)) (c : Dev nD)

/-- The grid point of row block rb and vocabulary block k (taken modulo 50). -/
def pt (rb : Fin 2) (k : ℕ) : Fin cfg0.N :=
  ⟨50 * rb.val + k % 50, by have : cfg0.N = 100 := N_0; have := rb.isLt; omega⟩

/-- Row p's logits against vocabulary block k, as the kernel's block reads give them. -/
def aOf (rb : Fin 2) (p : Fin 2048) (k : ℕ) : Fin 640 → EReal :=
  Row.rowLogit (Reg0.iblk V c 0 (pt rb k)) (Reg0.iblk V c 1 (pt rb k)) p

/-- The largest of them. -/
def cmOf (rb : Fin 2) (p : Fin 2048) (k : ℕ) : EReal :=
  Row.rowCmax (Reg0.iblk V c 0 (pt rb k)) (Reg0.iblk V c 1 (pt rb k)) p

/-- One grid point's update on row p is the recurrence's block update. -/
theorem step_at (rb : Fin 2) (p : Fin 2048) (yw : BitVec 32)
    (hyb : ∀ k, (Reg0.iblk V c 2 (pt rb k) : Vec Ideal S2048x1 .i32) (ix2 p (0 : Fin 1)) = yw)
    (k : ℕ) (hk : k < 50) (s : KS.St Ideal) :
    Row.accOf (KS.step0 (grid0.coords (pt rb k)) (Reg0.iblk V c 0 (pt rb k)) (Reg0.iblk V c 1 (pt rb k))
        (Reg0.iblk V c 2 (pt rb k)) s) p
      = Cert.Online.step (aOf V c rb p k) (cmOf V c rb p k) (fun j : Fin 640 => 640 * k + j.val = yw.toNat)
          (Row.accOf s p) := by
  rw [Row.step_row]
  refine step_congr_hit _ _ _ _ (fun j => ?_) _
  have h1 : ((grid0.coords (pt rb k)) 1).val = k := by
    rw [coord1]
    show (50 * rb.val + k % 50) % 50 = k
    omega
  rw [hyb k, h1]
  exact Row.hit_iff ⟨k, hk⟩ j yw

/-- After vocabulary block k of row block rb, row p's accumulators are the recurrence's after k + 1 blocks. -/
theorem acc_run (rb : Fin 2) (p : Fin 2048) (yw : BitVec 32)
    (hyb : ∀ k, (Reg0.iblk V c 2 (pt rb k) : Vec Ideal S2048x1 .i32) (ix2 p (0 : Fin 1)) = yw) :
    ∀ k, k < 50 → Row.accOf (Reg0.stAt V c (50 * rb.val + k)) p
      = Cert.Online.run (aOf V c rb p) (cmOf V c rb p) (fun (k : ℕ) (j : Fin 640) => 640 * k + j.val = yw.toNat) (k + 1)
  | 0, hk => by
    have ht : (pt rb 0).val = 50 * rb.val + 0 := rfl
    rw [← ht, Reg0.stAt_first V c (pt rb 0) (by rw [ht]; omega), step_at V c rb p yw hyb 0 hk, Row.init_row]
    rfl
  | k + 1, hk => by
    have ih := acc_run rb p yw hyb k (by omega)
    have ht : (pt rb (k + 1)).val = 50 * rb.val + (k + 1) := by
      show 50 * rb.val + (k + 1) % 50 = _
      rw [Nat.mod_eq_of_lt hk]
    have ht' : (pt rb (k + 1)).val - 1 = 50 * rb.val + k := by omega
    rw [← ht, Reg0.stAt_next V c (pt rb (k + 1)) (by rw [ht]; omega), ht', step_at V c rb p yw hyb (k + 1) hk, ih]
    rfl

end Row

section Out

variable (V : (c : Dev nD) → (b : Ref sig .tc) → Buf (Elt Ideal) ((c : Thread nD τ).loc b)) (c : Dev nD)

/-- A row's logits as real numbers: the row of activations x against each row of the weights w. -/
def rowL (x : Fin 2048 → ℝ) (w : Fin 32000 → Fin 2048 → ℝ) : Fin 32000 → ℝ := fun v => ∑ h, x h * w v h

/-- Row r of the label array is what every grid point of r's row block reads at r's place in the block. -/
theorem hyb_of (r : Fin 4096) (yw : BitVec 32)
    (hy : (V c main_v5 : Vec Ideal S4096x1 .i32) (ix2 r (0 : Fin 1)) = yw) (k : ℕ) :
    (Reg0.iblk V c 2 (pt ⟨r.val / 2048, by omega⟩ k) : Vec Ideal S2048x1 .i32)
      (ix2 (⟨r.val % 2048, by omega⟩ : Fin 2048) (0 : Fin 1)) = yw := by
  rw [Arr0.blk2]
  have key : ∀ i : Fin 4096, i.val = r.val → (V c main_v5 : Vec Ideal S4096x1 .i32) (ix2 i (0 : Fin 1)) = yw :=
    fun i hi => by
      obtain rfl : i = r := Fin.ext hi
      exact hy
  exact key _ (by show 2048 * ((50 * (r.val / 2048) + k % 50) / 50) + r.val % 2048 = r.val; omega)

/-- Row r's logits against vocabulary block k, as the block reads give them, are the real logits of the
    vocabulary entries 640 k + j. -/
theorem a_eq (r : Fin 4096) (x : Fin 2048 → ℝ) (w : Fin 32000 → Fin 2048 → ℝ)
    (hx : ∀ h, (V c main_v3 : Vec Ideal S4096x2048 .bf16) (ix2 r h) = ((x h : ℝ) : EReal))
    (hw : ∀ v h, (V c main_v4 : Vec Ideal S32000x2048 .bf16) (ix2 v h) = ((w v h : ℝ) : EReal))
    (k : ℕ) (hk : k < 50) (j : Fin 640) :
    aOf V c ⟨r.val / 2048, by omega⟩ ⟨r.val % 2048, by omega⟩ k j
      = ((rowL x w ⟨640 * k + j.val, Cert.Online.idx_lt hk j⟩ : ℝ) : EReal) := by
  have keyx : ∀ (i : Fin 4096) (h : Fin 2048), i.val = r.val →
      (V c main_v3 : Vec Ideal S4096x2048 .bf16) (ix2 i h) = ((x h : ℝ) : EReal) := fun i h hi => by
    obtain rfl : i = r := Fin.ext hi
    exact hx h
  have keyw : ∀ (v v' : Fin 32000) (h : Fin 2048), v.val = v'.val →
      (V c main_v4 : Vec Ideal S32000x2048 .bf16) (ix2 v h) = ((w v' h : ℝ) : EReal) := fun v v' h hv => by
    obtain rfl : v = v' := Fin.ext hv
    exact hw v h
  unfold aOf Row.rowLogit
  refine Eq.trans (Finset.sum_congr rfl (fun h _ => ?_))
    (Cert.Online.sum_mul_real x (w ⟨640 * k + j.val, Cert.Online.idx_lt hk j⟩))
  rw [Arr0.blk0, Arr0.blk1]
  refine congrArg₂ (· * ·) (keyx _ h ?_) (keyw _ _ h ?_)
  · show 2048 * ((50 * (r.val / 2048) + k % 50) / 50) + r.val % 2048 = r.val
    omega
  · show 640 * ((50 * (r.val / 2048) + k % 50) % 50) + j.val = 640 * k + j.val
    omega

/-- What the kernel leaves at row r of its output: the label's logit less the row's maximum, less the logarithm
    of the sum of the exponentials of the logits less the maximum. -/
theorem row_out (r : Fin 4096) (x : Fin 2048 → ℝ) (w : Fin 32000 → Fin 2048 → ℝ) (yw : BitVec 32)
    (hx : ∀ h, (V c main_v3 : Vec Ideal S4096x2048 .bf16) (ix2 r h) = ((x h : ℝ) : EReal))
    (hw : ∀ v h, (V c main_v4 : Vec Ideal S32000x2048 .bf16) (ix2 v h) = ((w v h : ℝ) : EReal))
    (hy : (V c main_v5 : Vec Ideal S4096x1 .i32) (ix2 r (0 : Fin 1)) = yw) (hyw : yw.toNat < 32000) :
    ((Reg0.dat V c).arrAt 3 cfg0.N : Vec Ideal S4096x1 .f32) (ix2 r (0 : Fin 1))
      = ((rowL x w ⟨yw.toNat, hyw⟩ : ℝ) : EReal)
          - ((Finset.univ.sup' ⟨(0 : Fin 32000), Finset.mem_univ _⟩ (rowL x w) : ℝ) : EReal)
        - Ideal.log ((∑ v, Real.exp (rowL x w v - Finset.univ.sup' ⟨(0 : Fin 32000), Finset.mem_univ _⟩ (rowL x w)) : ℝ) : EReal) := by
  have hacc := acc_run V c ⟨r.val / 2048, by omega⟩ ⟨r.val % 2048, by omega⟩ yw (hyb_of V c r yw hy) 49 (by omega)
  obtain ⟨hm, hl, hpos, hg⟩ := Cert.Online.run_closed_sup' (K := 50) (C := 640) (by omega) (rowL x w)
    ⟨(0 : Fin 32000), Finset.mem_univ _⟩
    (aOf V c ⟨r.val / 2048, by omega⟩ ⟨r.val % 2048, by omega⟩)
    (fun k hk j => a_eq V c r x w hx hw k hk j)
    (cmOf V c ⟨r.val / 2048, by omega⟩ ⟨r.val % 2048, by omega⟩)
    (fun k _ => Row.rowCmax_spec _ _ _)
    yw.toNat (fun (k : ℕ) (j : Fin 640) => 640 * k + j.val = yw.toNat) (fun _ _ => Iff.rfl)
  rw [Arr0.out_array, Row.out_row]
  have em := (congrArg Cert.Online.Acc.m hacc).trans hm
  have el := (congrArg Cert.Online.Acc.l hacc).trans hl
  have eg := (congrArg Cert.Online.Acc.g hacc).trans hg
  rw [dif_pos (show yw.toNat < 50 * 640 from hyw)] at eg
  refine Eq.trans ?_ (Cert.Online.lse_assoc _ _ _ hpos)
  exact congrArg₂ (· - ·) eg (congrArg₂ (· + ·) em (congrArg Ideal.log el))

/-- The kernel's output at a row whose activations, weights and label are those of token (b, t) is the
    specification's log-probability of the token's label. -/
theorem tok_row (X : Cert.Spec.SX.Idx → EReal) (W : Cert.Spec.SW.Idx → EReal) (Y : Cert.Spec.SY.Idx → BitVec 32)
    (r : Fin 4096) (b : Fin 4) (t : Fin 1024)
    (hx : ∀ h : Fin 2048, (V c main_v3 : Vec Ideal S4096x2048 .bf16) (ix2 r h) = X (ix3 b t h))
    (hw : ∀ (v : Fin 32000) (h : Fin 2048), (V c main_v4 : Vec Ideal S32000x2048 .bf16) (ix2 v h) = W (ix2 v h))
    (hy : (V c main_v5 : Vec Ideal S4096x1 .i32) (ix2 r (0 : Fin 1)) = Y (ix2 b t))
    (hX : Cert.Spec.Finite X) (hW : Cert.Spec.Finite W) (hlab : (Y (ix2 b t)).toNat < 32000) :
    ((Reg0.dat V c).arrAt 3 cfg0.N : Vec Ideal S4096x1 .f32) (ix2 r (0 : Fin 1))
      = Cert.Spec.tokLogp X W b t (Cert.Spec.lab Y b t) := by
  obtain ⟨x, hxd⟩ : ∃ x : Fin 2048 → ℝ, ∀ h, X (ix3 b t h) = ((x h : ℝ) : EReal) :=
    ⟨fun h => Classical.choose (hX (ix3 b t h)), fun h => Classical.choose_spec (hX (ix3 b t h))⟩
  obtain ⟨w, hwd⟩ : ∃ w : Fin 32000 → Fin 2048 → ℝ, ∀ v h, W (ix2 v h) = ((w v h : ℝ) : EReal) :=
    ⟨fun v h => Classical.choose (hW (ix2 v h)), fun v h => Classical.choose_spec (hW (ix2 v h))⟩
  have hlogit : ∀ v, Cert.Spec.logit X W b t v = ((rowL x w v : ℝ) : EReal) := fun v =>
    (Finset.sum_congr rfl (fun h _ => by rw [hxd, hwd])).trans (Cert.Online.sum_mul_real x (w v))
  have hfun : Cert.Spec.logit X W b t = fun v => ((rowL x w v : ℝ) : EReal) := funext hlogit
  have hmax : Cert.Spec.rowMax X W b t
      = ((Finset.univ.sup' ⟨(0 : Fin 32000), Finset.mem_univ _⟩ (rowL x w) : ℝ) : EReal) := by
    unfold Cert.Spec.rowMax
    rw [hfun]
    exact Cert.Online.sup'_coe _ _
  have hsum : Cert.Spec.rowSum X W b t
      = ((∑ v, Real.exp (rowL x w v - Finset.univ.sup' ⟨(0 : Fin 32000), Finset.mem_univ _⟩ (rowL x w)) : ℝ) : EReal) := by
    unfold Cert.Spec.rowSum
    simp only [hmax, hlogit]
    exact Cert.Online.sum_exp_coe _ _
  have hl' : Cert.Spec.lab Y b t = ⟨(Y (ix2 b t)).toNat, hlab⟩ := Fin.ext (Nat.mod_eq_of_lt hlab)
  rw [row_out V c r x w (Y (ix2 b t)) (fun h => (hx h).trans (hxd h)) (fun v h => (hw v h).trans (hwd v h)) hy hlab]
  unfold Cert.Spec.tokLogp
  rw [hsum, hmax, hl', hlogit]

end Out

/-- What region 0 leaves in its output array at a row whose label is kept is the specification's log-probability
    of that token's label. -/
theorem tok0 (V : (c : Dev nD) → (b : Ref sig .tc) → Buf (Elt Ideal) ((c : Thread nD τ).loc b)) (c : Dev nD)
    (X : Cert.Spec.SX.Idx → EReal) (W : Cert.Spec.SW.Idx → EReal) (Y : Cert.Spec.SY.Idx → BitVec 32)
    (hx : ∀ (r : Fin 4096) (h : Fin 2048), (V c main_v3 : Vec Ideal S4096x2048 .bf16) (ix2 r h) = X (ix3 ⟨r.val / 1024, by omega⟩ ⟨r.val % 1024, by omega⟩ h))
    (hw : ∀ (v : Fin 32000) (h : Fin 2048), (V c main_v4 : Vec Ideal S32000x2048 .bf16) (ix2 v h) = W (ix2 v h))
    (hy : ∀ r : Fin 4096, (V c main_v5 : Vec Ideal S4096x1 .i32) (ix2 r (0 : Fin 1)) = Y (ix2 ⟨r.val / 1024, by omega⟩ ⟨r.val % 1024, by omega⟩))
    (hX : Cert.Spec.Finite X) (hW : Cert.Spec.Finite W) (hY : Cert.Spec.LabelsOk Y)
    (r : Fin 4096) (hk : Y (ix2 ⟨r.val / 1024, by omega⟩ ⟨r.val % 1024, by omega⟩) ≠ Cert.Spec.ignoreWord) :
    ((Reg0.dat V c).arrAt 3 cfg0.N : Vec Ideal S4096x1 .f32) (ix2 r (0 : Fin 1))
      = Cert.Spec.tokLogp X W ⟨r.val / 1024, by omega⟩ ⟨r.val % 1024, by omega⟩ (Cert.Spec.lab Y ⟨r.val / 1024, by omega⟩ ⟨r.val % 1024, by omega⟩) :=
  tok_row V c X W Y r ⟨r.val / 1024, by omega⟩ ⟨r.val % 1024, by omega⟩ (hx r) hw (hy r) hX hW
    ((hY _ _).resolve_left hk)

end Cert.KernelIdeal.Tok

end
-- ==== Proof.KiArr1.lean ====
/-
  Launch 0's windows against its arrays, at any float instance.

  The grid's point `t` is row block `t / 50` and vocabulary block `t % 50`. This module reads
  * each input window's block at `t` as rows of the array the region finds (`blk0`: activations, rows
    `2048 (t / 50) + p`; `blk1`: weights, rows `640 (t % 50) + j`; `blk2`: labels, rows `2048 (t / 50) + p`);
  * the input arrays after the launch: unchanged (`in_array`);
  * the output column after the launch (`out_array`): the output block is written back only at a row block's last
    vocabulary block, `t % 50 = 49`; the two blocks written tile the column, so row `r` ends holding row `r % 2048`
    of what point `50 (r / 2048) + 49` stores, `KS.out1` of the accumulators carried up to that point.
-/
import proofs.«425399_j87299505259073_2_alg».proof.Proof.KiRegion1
import Idealize.ShloMosaic.Lib.Pipeline.Value
import Idealize.ShloMosaic.Lib.ValueIdx

noncomputable section

open Idealize.ShloMosaic Idealize.ShloMosaic.TcCoe Idealize.ShloMosaic.ValueIdx
open Idealize.SL.Sem
open Idealize.ShloMosaic.Pipeline (Dat)
open Cert.KernelIdeal Cert.KernelIdeal.Gen

namespace Cert.KernelIdeal.Arr1

variable {F : FTy → Type} [FloatOps F]

/-- The grid has a hundred points. -/
theorem point_lt (t : Fin cfg1.N) : t.val < 100 := t.isLt.trans_eq N_1

/-- The printed index maps, decided once over the grid: the row-block windows sit at block `t / 50` of their
    arrays' rows, the vocabulary window at block `t % 50`, and every window at block 0 of its second axis. -/
theorem idx_facts : ∀ t : Fin cfg1.N,
    win1_0.index t (0 : Fin 2) = t.val / 50 ∧ win1_0.index t (1 : Fin 2) = 0
    ∧ win1_1.index t (0 : Fin 2) = t.val % 50 ∧ win1_1.index t (1 : Fin 2) = 0
    ∧ win1_2.index t (0 : Fin 2) = t.val / 50 ∧ win1_2.index t (1 : Fin 2) = 0
    ∧ win1_3.index t (0 : Fin 2) = t.val / 50 ∧ win1_3.index t (1 : Fin 2) = 0 :=
  (by decide +kernel : ∀ t : Fin grid1.N, _)

/-- The activations' block at point `t` is rows `2048 (t / 50) …` of the array. -/
theorem blk0 (V : (c : Dev nD) → (b : Ref sig .tc) → Buf (Elt F) ((c : Thread nD τ).loc b)) (c : Dev nD)
    (t : Fin cfg1.N) (p : Fin 2048) (h : Fin 2048) :
    (Reg1.iblk V c 0 t : S2048x2048.Idx → Elt F .bf16) (ix2 p h)
      = (V c main_v9 : S4096x2048.Idx → Elt F .bf16) (ix2 ⟨2048 * (t.val / 50) + p.val, by have := point_lt t; omega⟩ h) := by
  obtain ⟨e0, e1, -⟩ := idx_facts t
  unfold Reg1.iblk
  rw [View.read_apply]
  show V c main_v9 (((cfg1.win 0).blk t).view.emb (ix2 p h)) = V c main_v9 _
  congr 1
  funext a
  apply Fin.ext
  match a with
  | ⟨0, _⟩ => show win1_0.index t (0 : Fin 2) * 2048 + 1 * p.val = 2048 * (t.val / 50) + p.val; omega
  | ⟨1, _⟩ => show win1_0.index t (1 : Fin 2) * 2048 + 1 * h.val = h.val; omega

/-- The weights' block at point `t` is rows `640 (t % 50) …` of the array. -/
theorem blk1 (V : (c : Dev nD) → (b : Ref sig .tc) → Buf (Elt F) ((c : Thread nD τ).loc b)) (c : Dev nD)
    (t : Fin cfg1.N) (j : Fin 640) (h : Fin 2048) :
    (Reg1.iblk V c 1 t : S640x2048.Idx → Elt F .bf16) (ix2 j h)
      = (V c main_v10 : S32000x2048.Idx → Elt F .bf16) (ix2 ⟨640 * (t.val % 50) + j.val, by omega⟩ h) := by
  obtain ⟨-, -, e0, e1, -⟩ := idx_facts t
  unfold Reg1.iblk
  rw [View.read_apply]
  show V c main_v10 (((cfg1.win 1).blk t).view.emb (ix2 j h)) = V c main_v10 _
  congr 1
  funext a
  apply Fin.ext
  match a with
  | ⟨0, _⟩ => show win1_1.index t (0 : Fin 2) * 640 + 1 * j.val = 640 * (t.val % 50) + j.val; omega
  | ⟨1, _⟩ => show win1_1.index t (1 : Fin 2) * 2048 + 1 * h.val = h.val; omega

/-- The labels' block at point `t` is rows `2048 (t / 50) …` of the column. -/
theorem blk2 (V : (c : Dev nD) → (b : Ref sig .tc) → Buf (Elt F) ((c : Thread nD τ).loc b)) (c : Dev nD)
    (t : Fin cfg1.N) (p : Fin 2048) :
    (Reg1.iblk V c 2 t : S2048x1.Idx → Elt F .i32) (ix2 p 0)
      = (V c main_v11 : S4096x1.Idx → Elt F .i32) (ix2 ⟨2048 * (t.val / 50) + p.val, by have := point_lt t; omega⟩ 0) := by
  obtain ⟨-, -, -, -, e0, e1, -⟩ := idx_facts t
  unfold Reg1.iblk
  rw [View.read_apply]
  show V c main_v11 (((cfg1.win 2).blk t).view.emb (ix2 p 0)) = V c main_v11 _
  congr 1
  funext a
  apply Fin.ext
  match a with
  | ⟨0, _⟩ => show win1_2.index t (0 : Fin 2) * 2048 + 1 * p.val = 2048 * (t.val / 50) + p.val; omega
  | ⟨1, _⟩ => show win1_2.index t (1 : Fin 2) * 1 + 1 * 0 = 0; omega

/-- An input window's array is never written. -/
theorem in_array (V : (c : Dev nD) → (b : Ref sig .tc) → Buf (Elt F) ((c : Thread nD τ).loc b)) (c : Dev nD)
    (w : Fin cfg1.W) (hw : w ≠ 3) : (Reg1.dat V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, hw => exact absurd rfl hw
  rw [(Reg1.dat V c).arrAt_in w hin, Reg1.A_eq]

/-! ## The output column -/

/-- What the output column holds after the launch, as one function of the row `r`: the row lies in row block
    `r / 2048`, whose last vocabulary block is grid point `50 (r / 2048) + 49`, and is row `r % 2048` of what
    that point stores. -/
def outCol (V : (c : Dev nD) → (b : Ref sig .tc) → Buf (Elt F) ((c : Thread nD τ).loc b)) (c : Dev nD) :
    S4096x1.Idx → Elt F .f32 := fun i =>
  KS.out1 (Reg1.stAt V c (50 * ((i 0).val / 2048) + 49)) (ix2 ⟨(i 0).val % 2048, by omega⟩ 0)

/-- `outCol` at a row given by its grid point and its row inside the block. -/
theorem outCol_at (V : (c : Dev nD) → (b : Ref sig .tc) → Buf (Elt F) ((c : Thread nD τ).loc b)) (c : Dev nD)
    (n : ℕ) (i : S4096x1.Idx) (y : S2048x1.Idx)
    (h1 : 50 * ((i 0).val / 2048) + 49 = n) (h2 : (i 0).val % 2048 = (y 0).val) :
    outCol V c i = KS.out1 (Reg1.stAt V c n) y := by
  subst h1
  unfold outCol
  congr 1
  funext a
  apply Fin.ext
  match a with
  | ⟨0, _⟩ => exact h2
  | ⟨1, _⟩ => show 0 = (y 1).val; have hy : (y 1).val < 1 := (y 1).isLt; omega

/-- What a point that writes back writes is its block of `outCol`. -/
theorem flushed_eq (V : (c : Dev nD) → (b : Ref sig .tc) → Buf (Elt F) ((c : Thread nD τ).loc b)) (c : Dev nD)
    (t : Fin cfg1.N) (hf : (cfg1.win 3).flush t = true) :
    (Reg1.dat V c).flushed 3 t = ((cfg1.win 3).blk t).view.read (Elt F) (outCol V c) := by
  have h49 : t.val % 50 = 49 := (flush1_3 t).mp hf
  obtain ⟨-, -, -, -, -, -, e0, e1⟩ := idx_facts t
  show (cfg1.win 3).cut (grid1.coords t) ((Reg1.dat V c).after 3 t) = _
  rw [Reg1.after_out]
  funext y
  rw [View.read_apply]
  show KS.out1 (Reg1.stAt V c t.val) y = outCol V c (((cfg1.win 3).blk t).view.emb y)
  have hy : (y 0).val < 2048 := (y 0).isLt
  refine (outCol_at V c t.val _ y ?_ ?_).symm
  · show 50 * ((win1_3.index t (0 : Fin 2) * 2048 + 1 * (y 0).val) / 2048) + 49 = t.val
    omega
  · show (win1_3.index t (0 : Fin 2) * 2048 + 1 * (y 0).val) % 2048 = (y 0).val
    omega

/-- A row of the column is in point `t`'s block iff each coordinate is in the block's range on its axis. -/
theorem mem_blk3 (t : Fin cfg1.N) (i : S4096x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v12).slice (win1_3.rect t)).set ↔ _
  rw [View.set_slice_whole, Rect.mem_set_unit]
  exact Iff.rfl

/-- Every row of the column is in the block of its row block's last point, which writes back. -/
theorem covered (i : S4096x1.Idx) :
    ∃ t : Fin cfg1.N, (cfg1.win 3).flush t = true ∧ i ∈ ((cfg1.win 3).blk t).view.set := by
  have hi0 : (i 0).val < 4096 := (i 0).isLt
  have hi1 : (i 1).val < 1 := (i 1).isLt
  obtain ⟨t, ht⟩ : ∃ t : Fin cfg1.N, t.val = 50 * ((i 0).val / 2048) + 49 :=
    ⟨⟨50 * ((i 0).val / 2048) + 49, Nat.lt_of_lt_of_eq (by omega) N_1.symm⟩, rfl⟩
  obtain ⟨-, -, -, -, -, -, e0, e1⟩ := idx_facts t
  refine ⟨t, (flush1_3 t).mpr (by omega), ?_⟩
  rw [mem_blk3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1 ≤ (i 1).val ∧ (i 1).val < win1_3.index t (1 : Fin 2) * 1 + 1; omega

/-- The output column after the launch is `outCol`. -/
theorem out_array_eq (V : (c : Dev nD) → (b : Ref sig .tc) → Buf (Elt F) ((c : Thread nD τ).loc b)) (c : Dev nD) :
    (Reg1.dat V c).arrAt 3 cfg1.N = outCol V c :=
  (Reg1.dat V c).arrAt_eq_of_cover 3 (outCol V c) (flushed_eq V c) covered

/-- Row1 `r` of the output column after the launch: row `r % 2048` of what the last vocabulary block of row block
    `r / 2048` stores. -/
theorem out_array (V : (c : Dev nD) → (b : Ref sig .tc) → Buf (Elt F) ((c : Thread nD τ).loc b)) (c : Dev nD)
    (r : Fin 4096) :
    ((Reg1.dat V c).arrAt 3 cfg1.N : S4096x1.Idx → Elt F .f32) (ix2 r 0)
      = KS.out1 (Reg1.stAt V c (50 * (r.val / 2048) + 49)) (ix2 ⟨r.val % 2048, by omega⟩ 0) := by
  rw [out_array_eq]
  rfl

end Cert.KernelIdeal.Arr1

end
-- ==== Proof.KiRow1.lean ====
/-
  The kernel's carried accumulators read ROW BY ROW, on the extended reals.

  One vocabulary block's update of the three per-row accumulators — running maximum `m`, running sum `l` of
  exponentials relative to `m`, target logit `g` — is, on each row `p` of the row block, one step of the scalar
  online log-sum-exp recurrence: with `a j = ∑ h, x[p,h] · w[j,h]` the block's logits of that row and `c` their
  maximum, `m' = max m c`, `l' = exp (m - m') · l + ∑ j, exp (a j - m')`, `g' = g + ∑ j, [position j = label] · a j`.
  The position of lane `j` of block `k` is the 32-bit word `640·k + j`, which does not wrap.

  Each payload of the update is read at an index: the matrix product as the sum over the contracted coordinate, the two
  lane reductions as the maximum and the sum over the lanes, the layout operations as re-indexings.
-/
import proofs.«425399_j87299505259073_2_alg».proof.Proof.KiState
import proofs.«425399_j87299505259073_2_alg».proof.Proof.Online
import Idealize.ShloMosaic.Lib.ValueIdx
import Idealize.ShloMosaic.Lib.Pipeline.Value
import Idealize.ShloMosaic.Lib.ValueLayout
import Idealize.ShloMosaic.PureOps.Ideal.Laws
import Mathlib.Data.Finset.Fold
import Mathlib.Data.Finset.Lattice.Fold

noncomputable section

namespace Cert.KernelIdeal.Row1

open Idealize.ShloMosaic Idealize.ShloMosaic.ValueIdx Cert.KernelIdeal Cert.KernelIdeal.Gen
open scoped BigOperators

/-! ### Two column layouts read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Words -/

/-- The pattern `0xFF800000` is `-∞`. -/
theorem negInf_f32 : Ideal.ofBits .f32 0xFF800000#32 = ⊥ := by simp [Ideal.ofBits, Ideal.ieee]

/-- A select on an equality test of two words is the `if` on their equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

/-- The position word `640·k + j` of lane `j` of vocabulary block `k` does not wrap, so testing it against a
    label word is testing the numbers. -/
theorem hit_iff (k : Fin 50) (j : Fin 640) (yw : BitVec 32) :
    (BitVec.ofNat 32 k.val * 640#32 + BitVec.ofNat 32 j.val = yw) ↔ (640 * k.val + j.val = yw.toNat) := by
  have hk := k.isLt
  have hj := j.isLt
  constructor
  · intro h
    rw [← h]
    simp only [BitVec.toNat_add, BitVec.toNat_mul, BitVec.toNat_ofNat]
    omega
  · intro h
    apply BitVec.eq_of_toNat_eq
    simp only [BitVec.toNat_add, BitVec.toNat_mul, BitVec.toNat_ofNat]
    omega

/-! ### The resets, the stored maximum and the stored result -/

theorem pay4_apply (q : S2048x1.Idx) : k1_pay4 (F := Ideal) q = ⊥ :=
  (congrFun (shapeCast_self (broadcast S2048x1 (Scalar.ofBits (F := Ideal) .f32 0xFF800000#32)) shapeCasts_S2048x1_S2048x1) q).trans negInf_f32

theorem pay5_apply (q : S2048x1.Idx) : k1_pay5 (F := Ideal) q = 0 :=
  (congrFun (shapeCast_self (broadcast S2048x1 (Scalar.ofBits (F := Ideal) .f32 0x00000000#32)) shapeCasts_S2048x1_S2048x1) q).trans Ideal.ofBits_zero_f32

theorem pay6_apply (q : S2048x1.Idx) : k1_pay6 (F := Ideal) q = 0 :=
  (congrFun (shapeCast_self (broadcast S2048x1 (Scalar.ofBits (F := Ideal) .f32 0x00000000#32)) shapeCasts_S2048x1_S2048x1) q).trans Ideal.ofBits_zero_f32

theorem pay2_apply (v : FVec Ideal S2048x1 .f32) (q : S2048x1.Idx) : k1_pay2 v q = v q :=
  congrFun (shapeCast_self v shapeCasts_S2048x1_S2048x1) q

theorem pay3_apply (m l g : Vec Ideal S2048x1 .f32) (q : S2048x1.Idx) :
    k1_pay3 m l g q = g q - (m q + Ideal.log (l q)) := rfl

/-! ### The block's logits: the matrix product read at an index -/

theorem lhs_0 (i : S2048x640.Idx) (q : dot_S2048x2048_S640x2048_S2048x640_1_1_0_0_n_n.contr.Idx) :
    (dot_S2048x2048_S640x2048_S2048x640_1_1_0_0_n_n.lhsIdx i q 0).val = (i 0).val := by
  unfold DotDims.lhsIdx
  rw [dif_neg (show ¬(0 : Fin S2048x2048.rank) ∈ dot_S2048x2048_S640x2048_S2048x640_1_1_0_0_n_n.lhsBatch by decide),
    dif_pos (show (0 : Fin S2048x2048.rank) ∈ dot_S2048x2048_S640x2048_S2048x640_1_1_0_0_n_n.lhsNonContracting by decide)]
  rfl

theorem lhs_1 (i : S2048x640.Idx) (q : dot_S2048x2048_S640x2048_S2048x640_1_1_0_0_n_n.contr.Idx) :
    (dot_S2048x2048_S640x2048_S2048x640_1_1_0_0_n_n.lhsIdx i q 1).val = (q ⟨0, by decide⟩).val :=
  dot_S2048x2048_S640x2048_S2048x640_1_1_0_0_n_n.lhsIdx_val_of_single rfl i q

theorem rhs_0 (i : S2048x640.Idx) (q : dot_S2048x2048_S640x2048_S2048x640_1_1_0_0_n_n.contr.Idx) :
    (dot_S2048x2048_S640x2048_S2048x640_1_1_0_0_n_n.rhsIdx i q 0).val = (i 1).val := by
  unfold DotDims.rhsIdx
  rw [dif_neg (show ¬(0 : Fin S640x2048.rank) ∈ dot_S2048x2048_S640x2048_S2048x640_1_1_0_0_n_n.rhsBatch by decide),
    dif_pos (show (0 : Fin S640x2048.rank) ∈ dot_S2048x2048_S640x2048_S2048x640_1_1_0_0_n_n.rhsNonContracting by decide)]
  rfl

theorem rhs_1 (i : S2048x640.Idx) (q : dot_S2048x2048_S640x2048_S2048x640_1_1_0_0_n_n.contr.Idx) :
    (dot_S2048x2048_S640x2048_S2048x640_1_1_0_0_n_n.rhsIdx i q 1).val = (q ⟨0, by decide⟩).val :=
  dot_S2048x2048_S640x2048_S2048x640_1_1_0_0_n_n.rhsIdx_val_of_single rfl i q

/-- Row1 `p`'s logit at lane `j` of the block: the row of activations against the row of weights. -/
def rowLogit (xb : Vec Ideal S2048x2048 .bf16) (wb : Vec Ideal S640x2048 .bf16) (p : Fin 2048) (j : Fin 640) : EReal :=
  ∑ h : Fin 2048, xb (ix2 p h) * wb (ix2 j h)

/-- The matrix product into a zero accumulator, at `(p, j)`: `0 + ∑ = ∑`. -/
theorem pay7_apply (xb : Vec Ideal S2048x2048 .bf16) (wb : Vec Ideal S640x2048 .bf16) (p : Fin 2048) (j : Fin 640) :
    k1_pay7 (F := Ideal) xb wb (ix2 p j) = rowLogit xb wb p j := by
  unfold k1_pay7 rowLogit
  show FloatOps.matmul dot_S2048x2048_S640x2048_S2048x640_1_1_0_0_n_n none
      (shapeCast S2048x2048 xb shapeCasts_S2048x2048_S2048x2048) (shapeCast S640x2048 wb shapeCasts_S640x2048_S640x2048)
      (constant (F := Ideal) S2048x640 .f32 0x00000000#32) (ix2 p j) = _
  rw [shapeCast_self, shapeCast_self]
  refine (Ideal.matmul_constant_zero_apply (φ₁ := .bf16) (φ₂ := .bf16) dot_S2048x2048_S640x2048_S2048x640_1_1_0_0_n_n none xb wb (ix2 p j)).trans ?_
  rw [← Equiv.sum_comp (contrEquiv1 dot_S2048x2048_S640x2048_S2048x640_1_1_0_0_n_n 2048 rfl rfl).symm]
  refine Finset.sum_congr rfl fun k _ => ?_
  have hk := contrEquiv1_symm_val dot_S2048x2048_S640x2048_S2048x640_1_1_0_0_n_n 2048 rfl rfl k
  have el : dot_S2048x2048_S640x2048_S2048x640_1_1_0_0_n_n.lhsIdx (ix2 p j)
      ((contrEquiv1 dot_S2048x2048_S640x2048_S2048x640_1_1_0_0_n_n 2048 rfl rfl).symm k) = ix2 p k :=
    funext fun a => Fin.ext (by
      match a with
      | ⟨0, _⟩ => exact lhs_0 _ _
      | ⟨1, _⟩ => exact (lhs_1 _ _).trans hk)
  have er : dot_S2048x2048_S640x2048_S2048x640_1_1_0_0_n_n.rhsIdx (ix2 p j)
      ((contrEquiv1 dot_S2048x2048_S640x2048_S2048x640_1_1_0_0_n_n 2048 rfl rfl).symm k) = ix2 j k :=
    funext fun a => Fin.ext (by
      match a with
      | ⟨0, _⟩ => exact rhs_0 _ _
      | ⟨1, _⟩ => exact (rhs_1 _ _).trans hk)
  rw [el, er]

/-! ### The two lane reductions, the running maximum and the running sum -/

/-- The lane reduction's inserted index: row `p` with lane `k` put back is `(p, k)`. -/
theorem lift_row (p : Fin 2048) (k : Fin (S2048x640.size 1)) :
    reduces_S2048x640_S2048.lift (ix1 p) k = ix2 p (k : Fin 640) :=
  funext fun a => Fin.ext (by
    match a with
    | ⟨0, _⟩ => rfl
    | ⟨1, _⟩ => rfl)

/-- The largest logit of row `p` in the block. -/
def rowCmax (xb : Vec Ideal S2048x2048 .bf16) (wb : Vec Ideal S640x2048 .bf16) (p : Fin 2048) : EReal :=
  (Finset.univ : Finset (Fin 640)).fold max ⊥ (rowLogit xb wb p)

theorem rowCmax_spec (xb : Vec Ideal S2048x2048 .bf16) (wb : Vec Ideal S640x2048 .bf16) (p : Fin 2048) :
    (∀ j, rowLogit xb wb p j ≤ rowCmax xb wb p) ∧ ∃ j, rowLogit xb wb p j = rowCmax xb wb p := by
  have hsup : rowCmax xb wb p = Finset.univ.sup' ⟨(0 : Fin 640), Finset.mem_univ _⟩ (rowLogit xb wb p) := by
    unfold rowCmax
    refine le_antisymm ?_ ?_
    · exact (Finset.fold_max_le _).mpr ⟨bot_le, fun x hx => Finset.le_sup' (rowLogit xb wb p) hx⟩
    · exact Finset.sup'_le _ _ fun x hx => (Finset.le_fold_max _).mpr (Or.inr ⟨x, hx, le_rfl⟩)
  refine ⟨fun j => ?_, ?_⟩
  · rw [hsup]; exact Finset.le_sup' (rowLogit xb wb p) (Finset.mem_univ j)
  · obtain ⟨j, -, hj⟩ := Finset.exists_mem_eq_sup' ⟨(0 : Fin 640), Finset.mem_univ _⟩ (rowLogit xb wb p)
    exact ⟨j, by rw [hsup, hj]⟩

/-- The maximum lane reduction of the logits, kept as a column, at row `p`. -/
theorem laneMax_apply (xb : Vec Ideal S2048x2048 .bf16) (wb : Vec Ideal S640x2048 .bf16) (p : Fin 2048) :
    shapeCast S2048x1 (multiReduction (F := Ideal) .maximumf [1] S2048 (k1_pay7 xb wb) 0xFF800000#32 reduces_S2048x640_S2048 (.inl rfl) rfl)
      shapeCasts_S2048_S2048x1 (ix2 p (0 : Fin 1)) = rowCmax xb wb p := by
  refine (shapeCast_a_a1_apply _ shapeCasts_S2048_S2048x1 p 0).trans ?_
  refine (Ideal.multiReduction_maximumf_single (k1_pay7 (F := Ideal) xb wb) 0xFF800000#32 reduces_S2048x640_S2048 (.inl rfl) rfl (ix1 p)).trans ?_
  unfold rowCmax
  have e : (k1_pay7 (F := Ideal) xb wb ∘ reduces_S2048x640_S2048.lift (ix1 p)) = rowLogit xb wb p :=
    funext fun k => (congrArg (k1_pay7 (F := Ideal) xb wb) (lift_row p k)).trans (pay7_apply xb wb p k)
  rw [e]
  exact congrArg (fun b => (Finset.univ : Finset (Fin 640)).fold max b (rowLogit xb wb p)) negInf_f32

/-- The new running maximum of row `p`. -/
theorem pay9_apply (xb : Vec Ideal S2048x2048 .bf16) (wb : Vec Ideal S640x2048 .bf16) (m : Vec Ideal S2048x1 .f32) (p : Fin 2048) :
    k1_pay9 (F := Ideal) xb wb m (ix2 p (0 : Fin 1)) = max (m (ix2 p (0 : Fin 1))) (rowCmax xb wb p) :=
  congrArg (max (m (ix2 p (0 : Fin 1)))) (laneMax_apply xb wb p)

/-- The rescaling factor of row `p`'s running sum. -/
theorem pay10_apply (xb : Vec Ideal S2048x2048 .bf16) (wb : Vec Ideal S640x2048 .bf16) (m : Vec Ideal S2048x1 .f32) (p : Fin 2048) :
    k1_pay10 (F := Ideal) xb wb m (ix2 p (0 : Fin 1))
      = Ideal.exp (m (ix2 p (0 : Fin 1)) - max (m (ix2 p (0 : Fin 1))) (rowCmax xb wb p)) :=
  congrArg (fun t => Ideal.exp (m (ix2 p (0 : Fin 1)) - t)) (pay9_apply xb wb m p)

/-- The block's exponentials relative to the new running maximum, at `(p, j)`. -/
theorem pay11_apply (xb : Vec Ideal S2048x2048 .bf16) (wb : Vec Ideal S640x2048 .bf16) (m : Vec Ideal S2048x1 .f32) (p : Fin 2048) (j : Fin 640) :
    k1_pay11 (F := Ideal) xb wb m (ix2 p j)
      = Ideal.exp (rowLogit xb wb p j - max (m (ix2 p (0 : Fin 1))) (rowCmax xb wb p)) := by
  show Ideal.exp (k1_pay7 (F := Ideal) xb wb (ix2 p j)
      - broadcastTo S2048x640 (k1_pay9 (F := Ideal) xb wb m) broadcasts_S2048x1_S2048x640 (ix2 p j)) = _
  rw [pay7_apply, broadcastTo_a1_ab_apply, pay9_apply]

/-- The add lane reduction of a `[2048, 640]` vector, kept as a column, at row `p`. -/
theorem laneSum_apply (v : FVec Ideal S2048x640 .f32) (p : Fin 2048) :
    shapeCast S2048x1 (multiReduction (F := Ideal) .add [1] S2048 v 0x00000000#32 reduces_S2048x640_S2048 (.inl rfl) rfl)
      shapeCasts_S2048_S2048x1 (ix2 p (0 : Fin 1)) = ∑ j : Fin 640, v (ix2 p j) := by
  refine (shapeCast_a_a1_apply _ shapeCasts_S2048_S2048x1 p 0).trans ?_
  refine (Ideal.multiReduction_add_single v 0x00000000#32 reduces_S2048x640_S2048 (.inl rfl) rfl (ix1 p)).trans ?_
  exact Finset.sum_congr rfl fun k _ => congrArg v (lift_row p k)

/-- The new running sum of row `p`, from the rescaling factor `e`, the block's exponentials `ex` and the old sum `l`. -/
theorem pay1_apply (e : FVec Ideal S2048x1 .f32) (ex : FVec Ideal S2048x640 .f32) (l : Vec Ideal S2048x1 .f32) (p : Fin 2048) :
    k1_pay1 e ex l (ix2 p (0 : Fin 1)) = e (ix2 p (0 : Fin 1)) * l (ix2 p (0 : Fin 1)) + ∑ j : Fin 640, ex (ix2 p j) := by
  unfold k1_pay1
  refine (congrFun (shapeCast_self _ shapeCasts_S2048x1_S2048x1) (ix2 p (0 : Fin 1))).trans ?_
  exact congrArg (fun t => e (ix2 p (0 : Fin 1)) * l (ix2 p (0 : Fin 1)) + t) (laneSum_apply ex p)

/-! ### The target logit's accumulator -/

/-- The new target-logit accumulator of row `p`: the old one plus the block's logit at the lane whose position word
    `640·k + j` equals the row's label word, if there is one. -/
theorem pay8_apply (i : grid1.Coords) (xb : Vec Ideal S2048x2048 .bf16) (wb : Vec Ideal S640x2048 .bf16)
    (yb : Vec Ideal S2048x1 .i32) (g : Vec Ideal S2048x1 .f32) (p : Fin 2048) :
    k1_pay8 (F := Ideal) i xb wb yb g (ix2 p (0 : Fin 1))
      = g (ix2 p (0 : Fin 1)) + ∑ j : Fin 640,
          if BitVec.ofNat 32 (i 1).val * 640#32 + BitVec.ofNat 32 j.val = yb (ix2 p (0 : Fin 1)) then rowLogit xb wb p j else 0 := by
  unfold k1_pay8
  refine (congrFun (shapeCast_self _ shapeCasts_S2048x1_S2048x1) (ix2 p (0 : Fin 1))).trans ?_
  refine congrArg (fun t => g (ix2 p (0 : Fin 1)) + t) ?_
  refine (laneSum_apply _ p).trans ?_
  refine Finset.sum_congr rfl fun j _ => ?_
  show Scalar.select (IntOp.cmpi .eq
        (IntOp.addi (Scalar.muli (BitVec.ofNat 32 (i 1).val) 640#32) (iota .tc S2048x640 32 [1] iota_S2048x640_d1_w32 (ix2 p j)))
        (broadcastTo S2048x640 (shapeCast S2048x1 yb shapeCasts_S2048x1_S2048x1) broadcasts_S2048x1_S2048x640 (ix2 p j)))
      (k1_pay7 (F := Ideal) xb wb (ix2 p j)) (Ideal.ofBits .f32 0x00000000#32) = _
  rw [select_cmpi_eq, iota_single_apply, broadcastTo_a1_ab_apply, shapeCast_self, pay7_apply, Ideal.ofBits_zero_f32]
  rfl

/-! ### One grid point, row by row -/

/-- Row1 `p`'s three accumulators. -/
def accOf (s : KS.St Ideal) (p : Fin 2048) : Cert.Online.Acc :=
  ⟨s.m (ix2 p (0 : Fin 1)), s.l (ix2 p (0 : Fin 1)), s.g (ix2 p (0 : Fin 1))⟩

/-- The reset leaves every row at the recurrence's start: `m = -∞`, `l = g = 0`. -/
theorem init_row (p : Fin 2048) : accOf KS.init1 p = Cert.Online.init := by
  show Cert.Online.Acc.mk (k1_pay4 (F := Ideal) (ix2 p (0 : Fin 1))) (k1_pay5 (F := Ideal) (ix2 p (0 : Fin 1)))
      (k1_pay6 (F := Ideal) (ix2 p (0 : Fin 1))) = Cert.Online.Acc.mk ⊥ 0 0
  rw [pay4_apply, pay5_apply, pay6_apply]

/-- One grid point's update is, on row `p`, one step of the scalar recurrence over the block's logits of that row,
    their maximum, and the test "this lane's position word is the row's label word". -/
theorem step_row (i : grid1.Coords) (xb : Vec Ideal S2048x2048 .bf16) (wb : Vec Ideal S640x2048 .bf16)
    (yb : Vec Ideal S2048x1 .i32) (s : KS.St Ideal) (p : Fin 2048) :
    accOf (KS.step1 i xb wb yb s) p
      = Cert.Online.step (rowLogit xb wb p) (rowCmax xb wb p)
          (fun j : Fin 640 => BitVec.ofNat 32 (i 1).val * 640#32 + BitVec.ofNat 32 j.val = yb (ix2 p (0 : Fin 1))) (accOf s p) := by
  have hm : k1_pay2 (k1_pay9 (F := Ideal) xb wb s.m) (ix2 p (0 : Fin 1))
      = max (s.m (ix2 p (0 : Fin 1))) (rowCmax xb wb p) :=
    (pay2_apply _ _).trans (pay9_apply xb wb s.m p)
  have hl : k1_pay1 (k1_pay10 (F := Ideal) xb wb s.m) (k1_pay11 (F := Ideal) xb wb s.m) s.l (ix2 p (0 : Fin 1))
      = Ideal.exp (s.m (ix2 p (0 : Fin 1)) - max (s.m (ix2 p (0 : Fin 1))) (rowCmax xb wb p)) * s.l (ix2 p (0 : Fin 1))
        + ∑ j : Fin 640, Ideal.exp (rowLogit xb wb p j - max (s.m (ix2 p (0 : Fin 1))) (rowCmax xb wb p)) := by
    rw [pay1_apply, pay10_apply]
    exact congrArg _ (Finset.sum_congr rfl fun j _ => pay11_apply xb wb s.m p j)
  show Cert.Online.Acc.mk (k1_pay2 (k1_pay9 (F := Ideal) xb wb s.m) (ix2 p (0 : Fin 1)))
      (k1_pay1 (k1_pay10 (F := Ideal) xb wb s.m) (k1_pay11 (F := Ideal) xb wb s.m) s.l (ix2 p (0 : Fin 1)))
      (k1_pay8 (F := Ideal) i xb wb yb s.g (ix2 p (0 : Fin 1))) = _
  rw [hm, hl, pay8_apply]
  rfl

/-- What the last vocabulary block stores for row `p`: `g - (m + log l)`. -/
theorem out_row (s : KS.St Ideal) (p : Fin 2048) :
    KS.out1 s (ix2 p (0 : Fin 1))
      = s.g (ix2 p (0 : Fin 1)) - (s.m (ix2 p (0 : Fin 1)) + Ideal.log (s.l (ix2 p (0 : Fin 1)))) := rfl

end Cert.KernelIdeal.Row1

end
-- ==== Proof.KiTok1.lean ====
/-
  What the first launch of the kernel leaves in its output array at a row IS the specification's log-probability
  of that row's label.

  Row1 r of the 4096 rows lies in row block r / 2048 at place r % 2048. Over the 50 vocabulary blocks of that row
  block the three accumulators of the row follow the blockwise log-sum-exp recurrence on the row's 32000 logits,
  block k holding the logits of the vocabulary entries 640 k .. 640 k + 639; the closed form of the recurrence
  gives the row's maximum M, the sum of exp (logit - M) and the label's logit, and the stored value
  g - (M + log l) is (logit of the label - M) - log (sum), the specification's value.
-/
import proofs.«425399_j87299505259073_2_alg».proof.Proof.KiArr1
import proofs.«425399_j87299505259073_2_alg».proof.Proof.KiRow1
import proofs.«425399_j87299505259073_2_alg».proof.Proof.Spec
import Idealize.ShloMosaic.Lib.ValueIdx
import Mathlib.Data.EReal.Basic
import Mathlib.Data.EReal.Operations
import Mathlib.Analysis.SpecialFunctions.Exp
import Mathlib.Data.Finset.Lattice.Fold

noncomputable section

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

namespace Cert.KernelIdeal.Tok1

/-- The second grid coordinate (the vocabulary block) of the t-th point is t modulo 50. -/
theorem coord1 : ∀ t : Fin cfg1.N, ((grid1.coords t) 1).val = t.val % 50 :=
  (by decide +kernel : ∀ t : Fin grid1.N, ((grid1.coords t) 1).val = t.val % 50)

/-- The block update does not depend on how "entry j is the marked one" is spelled. -/
theorem step_congr_hit {C : ℕ} (a : Fin C → EReal) (cm : EReal) (hit hit' : Fin C → Prop) [DecidablePred hit]
    [DecidablePred hit'] (h : ∀ j, hit j ↔ hit' j) (s : Cert.Online.Acc) :
    Cert.Online.step a cm hit s = Cert.Online.step a cm hit' s := by
  have e : (∑ j, if hit j then a j else 0) = ∑ j, if hit' j then a j else 0 :=
    Finset.sum_congr rfl (fun j _ => if_congr (h j) rfl rfl)
  unfold Cert.Online.step
  rw [e]

section Row1

variable (V : (c : Dev nD) → (b : Ref sig .tc) → Buf (Elt Ideal) ((c : Thread nD τ).loc b)) (c : Dev nD)

/-- The grid point of row block rb and vocabulary block k (taken modulo 50). -/
def pt (rb : Fin 2) (k : ℕ) : Fin cfg1.N :=
  ⟨50 * rb.val + k % 50, by have : cfg1.N = 100 := N_1; have := rb.isLt; omega⟩

/-- Row1 p's logits against vocabulary block k, as the kernel's block reads give them. -/
def aOf (rb : Fin 2) (p : Fin 2048) (k : ℕ) : Fin 640 → EReal :=
  Row1.rowLogit (Reg1.iblk V c 0 (pt rb k)) (Reg1.iblk V c 1 (pt rb k)) p

/-- The largest of them. -/
def cmOf (rb : Fin 2) (p : Fin 2048) (k : ℕ) : EReal :=
  Row1.rowCmax (Reg1.iblk V c 0 (pt rb k)) (Reg1.iblk V c 1 (pt rb k)) p

/-- One grid point's update on row p is the recurrence's block update. -/
theorem step_at (rb : Fin 2) (p : Fin 2048) (yw : BitVec 32)
    (hyb : ∀ k, (Reg1.iblk V c 2 (pt rb k) : Vec Ideal S2048x1 .i32) (ix2 p (0 : Fin 1)) = yw)
    (k : ℕ) (hk : k < 50) (s : KS.St Ideal) :
    Row1.accOf (KS.step1 (grid1.coords (pt rb k)) (Reg1.iblk V c 0 (pt rb k)) (Reg1.iblk V c 1 (pt rb k))
        (Reg1.iblk V c 2 (pt rb k)) s) p
      = Cert.Online.step (aOf V c rb p k) (cmOf V c rb p k) (fun j : Fin 640 => 640 * k + j.val = yw.toNat)
          (Row1.accOf s p) := by
  rw [Row1.step_row]
  refine step_congr_hit _ _ _ _ (fun j => ?_) _
  have h1 : ((grid1.coords (pt rb k)) 1).val = k := by
    rw [coord1]
    show (50 * rb.val + k % 50) % 50 = k
    omega
  rw [hyb k, h1]
  exact Row1.hit_iff ⟨k, hk⟩ j yw

/-- After vocabulary block k of row block rb, row p's accumulators are the recurrence's after k + 1 blocks. -/
theorem acc_run (rb : Fin 2) (p : Fin 2048) (yw : BitVec 32)
    (hyb : ∀ k, (Reg1.iblk V c 2 (pt rb k) : Vec Ideal S2048x1 .i32) (ix2 p (0 : Fin 1)) = yw) :
    ∀ k, k < 50 → Row1.accOf (Reg1.stAt V c (50 * rb.val + k)) p
      = Cert.Online.run (aOf V c rb p) (cmOf V c rb p) (fun (k : ℕ) (j : Fin 640) => 640 * k + j.val = yw.toNat) (k + 1)
  | 0, hk => by
    have ht : (pt rb 0).val = 50 * rb.val + 0 := rfl
    rw [← ht, Reg1.stAt_first V c (pt rb 0) (by rw [ht]; omega), step_at V c rb p yw hyb 0 hk, Row1.init_row]
    rfl
  | k + 1, hk => by
    have ih := acc_run rb p yw hyb k (by omega)
    have ht : (pt rb (k + 1)).val = 50 * rb.val + (k + 1) := by
      show 50 * rb.val + (k + 1) % 50 = _
      rw [Nat.mod_eq_of_lt hk]
    have ht' : (pt rb (k + 1)).val - 1 = 50 * rb.val + k := by omega
    rw [← ht, Reg1.stAt_next V c (pt rb (k + 1)) (by rw [ht]; omega), ht', step_at V c rb p yw hyb (k + 1) hk, ih]
    rfl

end Row1

section Out

variable (V : (c : Dev nD) → (b : Ref sig .tc) → Buf (Elt Ideal) ((c : Thread nD τ).loc b)) (c : Dev nD)

/-- A row's logits as real numbers: the row of activations x against each row of the weights w. -/
def rowL (x : Fin 2048 → ℝ) (w : Fin 32000 → Fin 2048 → ℝ) : Fin 32000 → ℝ := fun v => ∑ h, x h * w v h

/-- Row1 r of the label array is what every grid point of r's row block reads at r's place in the block. -/
theorem hyb_of (r : Fin 4096) (yw : BitVec 32)
    (hy : (V c main_v11 : Vec Ideal S4096x1 .i32) (ix2 r (0 : Fin 1)) = yw) (k : ℕ) :
    (Reg1.iblk V c 2 (pt ⟨r.val / 2048, by omega⟩ k) : Vec Ideal S2048x1 .i32)
      (ix2 (⟨r.val % 2048, by omega⟩ : Fin 2048) (0 : Fin 1)) = yw := by
  rw [Arr1.blk2]
  have key : ∀ i : Fin 4096, i.val = r.val → (V c main_v11 : Vec Ideal S4096x1 .i32) (ix2 i (0 : Fin 1)) = yw :=
    fun i hi => by
      obtain rfl : i = r := Fin.ext hi
      exact hy
  exact key _ (by show 2048 * ((50 * (r.val / 2048) + k % 50) / 50) + r.val % 2048 = r.val; omega)

/-- Row1 r's logits against vocabulary block k, as the block reads give them, are the real logits of the
    vocabulary entries 640 k + j. -/
theorem a_eq (r : Fin 4096) (x : Fin 2048 → ℝ) (w : Fin 32000 → Fin 2048 → ℝ)
    (hx : ∀ h, (V c main_v9 : Vec Ideal S4096x2048 .bf16) (ix2 r h) = ((x h : ℝ) : EReal))
    (hw : ∀ v h, (V c main_v10 : Vec Ideal S32000x2048 .bf16) (ix2 v h) = ((w v h : ℝ) : EReal))
    (k : ℕ) (hk : k < 50) (j : Fin 640) :
    aOf V c ⟨r.val / 2048, by omega⟩ ⟨r.val % 2048, by omega⟩ k j
      = ((rowL x w ⟨640 * k + j.val, Cert.Online.idx_lt hk j⟩ : ℝ) : EReal) := by
  have keyx : ∀ (i : Fin 4096) (h : Fin 2048), i.val = r.val →
      (V c main_v9 : Vec Ideal S4096x2048 .bf16) (ix2 i h) = ((x h : ℝ) : EReal) := fun i h hi => by
    obtain rfl : i = r := Fin.ext hi
    exact hx h
  have keyw : ∀ (v v' : Fin 32000) (h : Fin 2048), v.val = v'.val →
      (V c main_v10 : Vec Ideal S32000x2048 .bf16) (ix2 v h) = ((w v' h : ℝ) : EReal) := fun v v' h hv => by
    obtain rfl : v = v' := Fin.ext hv
    exact hw v h
  unfold aOf Row1.rowLogit
  refine Eq.trans (Finset.sum_congr rfl (fun h _ => ?_))
    (Cert.Online.sum_mul_real x (w ⟨640 * k + j.val, Cert.Online.idx_lt hk j⟩))
  rw [Arr1.blk0, Arr1.blk1]
  refine congrArg₂ (· * ·) (keyx _ h ?_) (keyw _ _ h ?_)
  · show 2048 * ((50 * (r.val / 2048) + k % 50) / 50) + r.val % 2048 = r.val
    omega
  · show 640 * ((50 * (r.val / 2048) + k % 50) % 50) + j.val = 640 * k + j.val
    omega

/-- What the kernel leaves at row r of its output: the label's logit less the row's maximum, less the logarithm
    of the sum of the exponentials of the logits less the maximum. -/
theorem row_out (r : Fin 4096) (x : Fin 2048 → ℝ) (w : Fin 32000 → Fin 2048 → ℝ) (yw : BitVec 32)
    (hx : ∀ h, (V c main_v9 : Vec Ideal S4096x2048 .bf16) (ix2 r h) = ((x h : ℝ) : EReal))
    (hw : ∀ v h, (V c main_v10 : Vec Ideal S32000x2048 .bf16) (ix2 v h) = ((w v h : ℝ) : EReal))
    (hy : (V c main_v11 : Vec Ideal S4096x1 .i32) (ix2 r (0 : Fin 1)) = yw) (hyw : yw.toNat < 32000) :
    ((Reg1.dat V c).arrAt 3 cfg1.N : Vec Ideal S4096x1 .f32) (ix2 r (0 : Fin 1))
      = ((rowL x w ⟨yw.toNat, hyw⟩ : ℝ) : EReal)
          - ((Finset.univ.sup' ⟨(0 : Fin 32000), Finset.mem_univ _⟩ (rowL x w) : ℝ) : EReal)
        - Ideal.log ((∑ v, Real.exp (rowL x w v - Finset.univ.sup' ⟨(0 : Fin 32000), Finset.mem_univ _⟩ (rowL x w)) : ℝ) : EReal) := by
  have hacc := acc_run V c ⟨r.val / 2048, by omega⟩ ⟨r.val % 2048, by omega⟩ yw (hyb_of V c r yw hy) 49 (by omega)
  obtain ⟨hm, hl, hpos, hg⟩ := Cert.Online.run_closed_sup' (K := 50) (C := 640) (by omega) (rowL x w)
    ⟨(0 : Fin 32000), Finset.mem_univ _⟩
    (aOf V c ⟨r.val / 2048, by omega⟩ ⟨r.val % 2048, by omega⟩)
    (fun k hk j => a_eq V c r x w hx hw k hk j)
    (cmOf V c ⟨r.val / 2048, by omega⟩ ⟨r.val % 2048, by omega⟩)
    (fun k _ => Row1.rowCmax_spec _ _ _)
    yw.toNat (fun (k : ℕ) (j : Fin 640) => 640 * k + j.val = yw.toNat) (fun _ _ => Iff.rfl)
  rw [Arr1.out_array, Row1.out_row]
  have em := (congrArg Cert.Online.Acc.m hacc).trans hm
  have el := (congrArg Cert.Online.Acc.l hacc).trans hl
  have eg := (congrArg Cert.Online.Acc.g hacc).trans hg
  rw [dif_pos (show yw.toNat < 50 * 640 from hyw)] at eg
  refine Eq.trans ?_ (Cert.Online.lse_assoc _ _ _ hpos)
  exact congrArg₂ (· - ·) eg (congrArg₂ (· + ·) em (congrArg Ideal.log el))

/-- The kernel's output at a row whose activations, weights and label are those of token (b, t) is the
    specification's log-probability of the token's label. -/
theorem tok_row (X : Cert.Spec.SX.Idx → EReal) (W : Cert.Spec.SW.Idx → EReal) (Y : Cert.Spec.SY.Idx → BitVec 32)
    (r : Fin 4096) (b : Fin 4) (t : Fin 1024)
    (hx : ∀ h : Fin 2048, (V c main_v9 : Vec Ideal S4096x2048 .bf16) (ix2 r h) = X (ix3 b t h))
    (hw : ∀ (v : Fin 32000) (h : Fin 2048), (V c main_v10 : Vec Ideal S32000x2048 .bf16) (ix2 v h) = W (ix2 v h))
    (hy : (V c main_v11 : Vec Ideal S4096x1 .i32) (ix2 r (0 : Fin 1)) = Y (ix2 b t))
    (hX : Cert.Spec.Finite X) (hW : Cert.Spec.Finite W) (hlab : (Y (ix2 b t)).toNat < 32000) :
    ((Reg1.dat V c).arrAt 3 cfg1.N : Vec Ideal S4096x1 .f32) (ix2 r (0 : Fin 1))
      = Cert.Spec.tokLogp X W b t (Cert.Spec.lab Y b t) := by
  obtain ⟨x, hxd⟩ : ∃ x : Fin 2048 → ℝ, ∀ h, X (ix3 b t h) = ((x h : ℝ) : EReal) :=
    ⟨fun h => Classical.choose (hX (ix3 b t h)), fun h => Classical.choose_spec (hX (ix3 b t h))⟩
  obtain ⟨w, hwd⟩ : ∃ w : Fin 32000 → Fin 2048 → ℝ, ∀ v h, W (ix2 v h) = ((w v h : ℝ) : EReal) :=
    ⟨fun v h => Classical.choose (hW (ix2 v h)), fun v h => Classical.choose_spec (hW (ix2 v h))⟩
  have hlogit : ∀ v, Cert.Spec.logit X W b t v = ((rowL x w v : ℝ) : EReal) := fun v =>
    (Finset.sum_congr rfl (fun h _ => by rw [hxd, hwd])).trans (Cert.Online.sum_mul_real x (w v))
  have hfun : Cert.Spec.logit X W b t = fun v => ((rowL x w v : ℝ) : EReal) := funext hlogit
  have hmax : Cert.Spec.rowMax X W b t
      = ((Finset.univ.sup' ⟨(0 : Fin 32000), Finset.mem_univ _⟩ (rowL x w) : ℝ) : EReal) := by
    unfold Cert.Spec.rowMax
    rw [hfun]
    exact Cert.Online.sup'_coe _ _
  have hsum : Cert.Spec.rowSum X W b t
      = ((∑ v, Real.exp (rowL x w v - Finset.univ.sup' ⟨(0 : Fin 32000), Finset.mem_univ _⟩ (rowL x w)) : ℝ) : EReal) := by
    unfold Cert.Spec.rowSum
    simp only [hmax, hlogit]
    exact Cert.Online.sum_exp_coe _ _
  have hl' : Cert.Spec.lab Y b t = ⟨(Y (ix2 b t)).toNat, hlab⟩ := Fin.ext (Nat.mod_eq_of_lt hlab)
  rw [row_out V c r x w (Y (ix2 b t)) (fun h => (hx h).trans (hxd h)) (fun v h => (hw v h).trans (hwd v h)) hy hlab]
  unfold Cert.Spec.tokLogp
  rw [hsum, hmax, hl', hlogit]

end Out

/-- What region 0 leaves in its output array at a row whose label is kept is the specification's log-probability
    of that token's label. -/
theorem tok1 (V : (c : Dev nD) → (b : Ref sig .tc) → Buf (Elt Ideal) ((c : Thread nD τ).loc b)) (c : Dev nD)
    (X : Cert.Spec.SX.Idx → EReal) (W : Cert.Spec.SW.Idx → EReal) (Y : Cert.Spec.SY.Idx → BitVec 32)
    (hx : ∀ (r : Fin 4096) (h : Fin 2048), (V c main_v9 : Vec Ideal S4096x2048 .bf16) (ix2 r h) = X (ix3 ⟨r.val / 1024, by omega⟩ ⟨r.val % 1024, by omega⟩ h))
    (hw : ∀ (v : Fin 32000) (h : Fin 2048), (V c main_v10 : Vec Ideal S32000x2048 .bf16) (ix2 v h) = W (ix2 v h))
    (hy : ∀ r : Fin 4096, (V c main_v11 : Vec Ideal S4096x1 .i32) (ix2 r (0 : Fin 1)) = Y (ix2 ⟨r.val / 1024, by omega⟩ ⟨r.val % 1024, by omega⟩))
    (hX : Cert.Spec.Finite X) (hW : Cert.Spec.Finite W) (hY : Cert.Spec.LabelsOk Y)
    (r : Fin 4096) (hk : Y (ix2 ⟨r.val / 1024, by omega⟩ ⟨r.val % 1024, by omega⟩) ≠ Cert.Spec.ignoreWord) :
    ((Reg1.dat V c).arrAt 3 cfg1.N : Vec Ideal S4096x1 .f32) (ix2 r (0 : Fin 1))
      = Cert.Spec.tokLogp X W ⟨r.val / 1024, by omega⟩ ⟨r.val % 1024, by omega⟩ (Cert.Spec.lab Y ⟨r.val / 1024, by omega⟩ ⟨r.val % 1024, by omega⟩) :=
  tok_row V c X W Y r ⟨r.val / 1024, by omega⟩ ⟨r.val % 1024, by omega⟩ (hx r) hw (hy r) hX hW
    ((hY _ _).resolve_left hk)

end Cert.KernelIdeal.Tok1

end
-- ==== Proof.KiTail.lean ====
/-
  What the host stretches after the second launch compute, read off ANY valuation of the device's buffers, at the
  ideal values: per sequence the kept entries' sum over max(number kept, 1) for both launches' outputs (seqK), and
  from the two results the scalar loss (tailK): the differences of the two halves, scaled by 0.1, through
  log-sigmoid, summed, negated and halved. Last, seqK is the specification's per-sequence value whenever the
  entries at kept labels are the specification's log-probabilities and every sequence keeps a label.
-/
import proofs.«425399_j87299505259073_2_alg».proof.Proof.KiHost
import Idealize.ShloMosaic.Lib.IdealHost

noncomputable section

namespace Cert.KernelIdeal.Host

open Idealize.ShloMosaic Idealize.ShloMosaic.ValueIdx Cert.KernelIdeal Cert.KernelIdeal.Gen

/-- One launch's per-token values `L` [4,1024] and the labels, to a value per sequence: the kept entries' sum over
    max(number of kept labels, 1). -/
def seqK (L : FVec Ideal S4x1024 .f32) (Y : IVec S4x1024 32) : FVec Ideal S4 .f32 :=
  Host.divf
    (Host.reduceAdd (mulf L (uitofp (F := Ideal) .f32 (maskK Y))) (constant (F := Ideal) S_ .f32 0x00000000#32)
      Facts₀.reducesTo_S4x1024_S4_d1 Facts₀.h_S_)
    (maximumf
      (Host.reduceAdd (uitofp (F := Ideal) .f32 (maskK Y)) (constant (F := Ideal) S_ .f32 0x00000000#32)
        Facts₀.reducesTo_S4x1024_S4_d1 Facts₀.h_S_)
      (broadcastInDim S4 ![] Facts₀.bcast_S_S4 (constant (F := Ideal) S_ .f32 0x3F800000#32)))

/-- The scaled margin: with `a`, `c` the policy's and the reference model's per-sequence values (first half chosen,
    second half rejected), 0.1 · ((a_chosen − c_chosen) − (a_rejected − c_rejected)). -/
def preK (a c : FVec Ideal S4 .f32) : FVec Ideal S2 .f32 :=
  mulf (broadcastInDim S2 ![] Facts₀.bcast_S_S2 (constant (F := Ideal) S_ .f32 0x3DCCCCCD#32))
    (subf
      (subf (extractStridedSlice S2 ![0] a Facts₀.slices_S4_S2_0) (extractStridedSlice S2 ![0] c Facts₀.slices_S4_S2_0))
      (subf (extractStridedSlice S2 ![2] a Facts₀.slices_S4_S2_2) (extractStridedSlice S2 ![2] c Facts₀.slices_S4_S2_2)))

/-- log-sigmoid as the program spells it: −softplus(−x), softplus z = select (z − 0 ≠ z − 0) (z + 0)
    (max z 0 + log1p (exp (−|z − 0|))). -/
def lsK (x : FVec Ideal S2 .f32) : FVec Ideal S2 .f32 :=
  Host.negf
    (select
      (cmpf .une
        (subf (Host.negf x) (broadcastInDim S2 ![] Facts₀.bcast_S_S2 (constant (F := Ideal) S_ .f32 0x00000000#32)))
        (subf (Host.negf x) (broadcastInDim S2 ![] Facts₀.bcast_S_S2 (constant (F := Ideal) S_ .f32 0x00000000#32))))
      (addf (Host.negf x) (broadcastInDim S2 ![] Facts₀.bcast_S_S2 (constant (F := Ideal) S_ .f32 0x00000000#32)))
      (addf
        (maximumf (Host.negf x) (broadcastInDim S2 ![] Facts₀.bcast_S_S2 (constant (F := Ideal) S_ .f32 0x00000000#32)))
        (Host.log1p (Host.exp (Host.negf (Host.absf
          (subf (Host.negf x) (broadcastInDim S2 ![] Facts₀.bcast_S_S2 (constant (F := Ideal) S_ .f32 0x00000000#32)))))))))

/-- The loss from the log-sigmoid values: minus their sum, over 2. -/
def meanK (s : FVec Ideal S2 .f32) : FVec Ideal S_ .f32 :=
  Host.divf
    (Host.negf (Host.reduceAdd s (constant (F := Ideal) S_ .f32 0x00000000#32) Facts₀.reducesTo_S2_S_d0 Facts₀.h_S_))
    (constant (F := Ideal) S_ .f32 0x40000000#32)

/-- The whole tail after the two per-sequence reductions. -/
def tailK (a c : FVec Ideal S4 .f32) : FVec Ideal S_ .f32 := meanK (lsK (preK a c))

/-- The second launch's column folded back to [4,1024], read at (b, t). -/
theorem ops2_v13 (U : Valuation τ sig (Elt Ideal)) (b : Fin 4) (t : Fin 1024) :
    (StableHlo.after (hostOps2 (F := Ideal)) U (Proc.devRef .tc main_v13) : S4x1024.Idx → EReal) (ix2 b t)
      = (U (Proc.devRef .tc main_v12) : S4096x1.Idx → EReal) (ix2 ⟨1024 * b.val + t.val, by omega⟩ 0) := by
  have e : (StableHlo.after (hostOps2 (F := Ideal)) U (Proc.devRef .tc main_v13) : S4x1024.Idx → EReal)
      = shapeCast S4x1024 (U (Proc.devRef .tc main_v12) : S4096x1.Idx → EReal) Facts₀.shapeCasts_S4096x1_S4x1024 := by
    after_results; rfl
  rw [e]
  exact uncast2_apply _ _ b t

theorem ops2_v32 (U : Valuation τ sig (Elt Ideal))
    (hmask : (U (Proc.devRef .tc main_v1) : S4x1024.Idx → BitVec 1) = maskK (U (Proc.devRef .tc main_arg2) : S4x1024.Idx → BitVec 32)) :
    (StableHlo.after (hostOps2 (F := Ideal)) U (Proc.devRef .tc main_v32) : S2.Idx → EReal)
      = preK (seqK (U (Proc.devRef .tc main_v7) : S4x1024.Idx → EReal) (U (Proc.devRef .tc main_arg2) : S4x1024.Idx → BitVec 32))
          (seqK (shapeCast S4x1024 (U (Proc.devRef .tc main_v12) : S4096x1.Idx → EReal) Facts₀.shapeCasts_S4096x1_S4x1024)
            (U (Proc.devRef .tc main_arg2) : S4x1024.Idx → BitVec 32)) := by
  after_results_simp
  rw [hmask]
  rfl

/-- The log-sigmoid stretch, from any valuation: it reads the scaled margin and leaves its log-sigmoid. -/
theorem ops21_v33 (U : Valuation τ sig (Elt Ideal)) :
    (StableHlo.after (hostOps2_1 (F := Ideal)) U (Proc.devRef .tc main_v33) : S2.Idx → EReal)
      = lsK (U (Proc.devRef .tc main_v32) : S2.Idx → EReal) := by
  after_results_simp <;> (try simp only [StableHlo.TRef.ofBuf, StableHlo.TRef.toBuf, cast_eq]) <;> rfl

/-- The last stretch, from any valuation: minus the sum of the log-sigmoid values, over 2. -/
theorem ops22_v36 (U : Valuation τ sig (Elt Ideal)) :
    (StableHlo.after (hostOps2_2 (F := Ideal)) U (Proc.devRef .tc main_v36) : S_.Idx → EReal)
      = meanK (U (Proc.devRef .tc main_v33) : S2.Idx → EReal) := by
  after_results; rfl

/-- The three stretches after the second launch, from any valuation whose mask buffer still holds the keep mask of
    the labels: the loss is the tail of the two launches' per-sequence values. -/
theorem tail_v36 (U : Valuation τ sig (Elt Ideal))
    (hmask : (U (Proc.devRef .tc main_v1) : S4x1024.Idx → BitVec 1) = maskK (U (Proc.devRef .tc main_arg2) : S4x1024.Idx → BitVec 32)) :
    (StableHlo.after (hostOps2_2 (F := Ideal)) (StableHlo.after (hostOps2_1 (F := Ideal)) (StableHlo.after (hostOps2 (F := Ideal)) U))
        (Proc.devRef .tc main_v36) : S_.Idx → EReal)
      = tailK (seqK (U (Proc.devRef .tc main_v7) : S4x1024.Idx → EReal) (U (Proc.devRef .tc main_arg2) : S4x1024.Idx → BitVec 32))
          (seqK (shapeCast S4x1024 (U (Proc.devRef .tc main_v12) : S4096x1.Idx → EReal) Facts₀.shapeCasts_S4096x1_S4x1024)
            (U (Proc.devRef .tc main_arg2) : S4x1024.Idx → BitVec 32)) :=
  (ops22_v36 _).trans ((congrArg meanK (ops21_v33 _)).trans (congrArg (fun x => meanK (lsK x)) (ops2_v32 U hmask)))

/-- The mask converted to a float is the specification's keep factor. -/
theorem keepK_apply (Y : IVec S4x1024 32) (b : Fin 4) (t : Fin 1024) :
    (uitofp (F := Ideal) .f32 (maskK Y) : S4x1024.Idx → EReal) (ix2 b t) = Cert.Spec.keep Y b t := by
  show ((((IntOp.cmpi .ne (Y (ix2 b t))
      (broadcastInDim S4x1024 ![] Facts₀.bcast_S_S4x1024 (constantI S_ 32 4294967196#32) (ix2 b t))).toNat : ℝ)) : EReal) = _
  rw [broadcastInDim_scalar_apply]
  show (((IntOp.cmpi .ne (Y (ix2 b t)) 4294967196#32).toNat : ℝ) : EReal) = _
  unfold Cert.Spec.keep
  by_cases h : Y (ix2 b t) = Cert.Spec.ignoreWord
  · rw [if_pos h, h]; simp [IntOp.cmpi]
  · rw [if_neg h]
    have h' : (Y (ix2 b t) != 4294967196#32) = true := by simpa using h
    simp [IntOp.cmpi, h']

/-- The host's sum over the positions of a [4,1024] array from zero, at sequence `i`. -/
theorem rowSum_apply (x : FVec Ideal S4x1024 .f32) (i : S4.Idx) :
    Host.reduceAdd x (constant (F := Ideal) S_ .f32 0x00000000#32) Facts₀.reducesTo_S4x1024_S4_d1 Facts₀.h_S_ i
      = ∑ t : Fin 1024, x (ix2 (i 0) t) := by
  have hred : S4x1024.Reduces [1] S4 := by decide
  rw [hostReduceAdd_apply, Ideal.hostReduceAdd_single _ hred, constant_apply, Ideal.ofBits_zero_f32, zero_add]
  refine Finset.sum_congr rfl fun t _ => congrArg x ?_
  funext c
  match c with
  | ⟨0, _⟩ => exact Fin.ext rfl
  | ⟨1, _⟩ => exact Fin.ext rfl

/-- seqK is the specification's per-sequence value, when the entries at kept labels are the specification's
    log-probabilities and every sequence keeps a label: the mask is the keep factor; where it is 0 both products are
    x · 0 = 0; the sums start from 0; max (number kept) 1 is the number kept. -/
theorem seqK_eq_spec (X : Cert.Spec.SX.Idx → EReal) (W : Cert.Spec.SW.Idx → EReal) (Y : IVec S4x1024 32)
    (L : FVec Ideal S4x1024 .f32)
    (hL : ∀ b t, Y (ix2 b t) ≠ Cert.Spec.ignoreWord → L (ix2 b t) = Cert.Spec.tokLogp X W b t (Cert.Spec.lab Y b t))
    (hrows : Cert.Spec.RowsKept Y) : seqK L Y = Cert.Spec.seqLogp X W Y := by
  funext i
  unfold seqK
  rw [hostDivf_apply, maximumf_apply, rowSum_apply, rowSum_apply, broadcastInDim_scalar_apply, constant_apply,
    Ideal.ofBits_one_f32]
  have hk : ∀ t : Fin 1024, (uitofp (F := Ideal) .f32 (maskK Y) : S4x1024.Idx → EReal) (ix2 (i 0) t) = Cert.Spec.keep Y (i 0) t :=
    keepK_apply Y (i 0)
  have hden : (∑ t : Fin 1024, (uitofp (F := Ideal) .f32 (maskK Y) : S4x1024.Idx → EReal) (ix2 (i 0) t))
      = ∑ t : Fin 1024, Cert.Spec.keep Y (i 0) t := Finset.sum_congr rfl fun t _ => hk t
  have hnum : (∑ t : Fin 1024, mulf L (uitofp (F := Ideal) .f32 (maskK Y)) (ix2 (i 0) t))
      = ∑ t : Fin 1024, Cert.Spec.tokLogp X W (i 0) t (Cert.Spec.lab Y (i 0) t) * Cert.Spec.keep Y (i 0) t :=
    Finset.sum_congr rfl fun t _ => by
      rw [mulf_apply, hk]
      by_cases h : Y (ix2 (i 0) t) = Cert.Spec.ignoreWord
      · have h0 : Cert.Spec.keep Y (i 0) t = 0 := if_pos h
        rw [h0, mul_zero, mul_zero]
      · rw [hL _ _ h]
  rw [hnum, hden, max_eq_left (hrows (i 0))]
  rfl

end Cert.KernelIdeal.Host

end
-- ==== Proof.TailEq.lean ====
/-
  The two programs end in the same operations. After their per-sequence values, both take the differences of the
  two halves, scale them by 0.1, pass them through the log-sigmoid (minus the softplus of the negation), sum,
  negate and halve. The two texts spell these operations identically over the same shapes; they differ only in
  which program's shape facts they cite, and a shape fact is a proposition, so the two terms are one.
-/
import proofs.«425399_j87299505259073_2_alg».proof.Proof.KiTail
import proofs.«425399_j87299505259073_2_alg».proof.Proof.RefVal

noncomputable section

namespace Cert.TailEq

open Idealize.ShloMosaic

/-- The scaled margin, in both spellings. -/
theorem margin_eq (a c : FVec Ideal Cert.KernelIdeal.S4 .f32) :
    Cert.KernelIdeal.Host.preK a c = Cert.ReferenceIdeal.RefVal.margin a c := rfl

/-- The log-sigmoid, in both spellings. -/
theorem logSigmoid_eq (x : FVec Ideal Cert.KernelIdeal.S2 .f32) :
    Cert.KernelIdeal.Host.lsK x = Cert.ReferenceIdeal.RefVal.logSigmoid x := rfl

/-- The loss from the two programs' per-sequence values, in both spellings. -/
theorem tail_eq (a c : FVec Ideal Cert.KernelIdeal.S4 .f32) :
    Cert.KernelIdeal.Host.tailK a c = Cert.ReferenceIdeal.RefVal.tailR a c := rfl

end Cert.TailEq

end
-- ==== Proof.PreFacts.lean ====
/-
  The precondition read back: what the printed predicate being all ones says of the five argument arrays, in the
  specification's terms. The predicate is a conjunction of six `all`s: four of `|a| < +∞` over an array's entries
  (an extended real whose absolute value is below `⊤` is a real number), one of `(0 ≤ y ∧ y < 32000) ∨ y = -100` over
  the labels (a signed word in `[0, 32000)` is, unsigned, below 32000), and one of `1 ≤ ∑ t, [y ≠ -100]` over the
  sequences (the converted bit is the specification's `keep`, the sum starts from zero).
-/
import proofs.«425399_j87299505259073_2_alg».proof.Pre_finite_inputs
import proofs.«425399_j87299505259073_2_alg».proof.Proof.Gen.Pre_finite_inputs
import proofs.«425399_j87299505259073_2_alg».proof.Proof.Spec
import Idealize.ShloMosaic.Lib.ReduceAll
import Idealize.ShloMosaic.Lib.StableHlo.Predicate
import Idealize.ShloMosaic.Lib.IdealHost
import Idealize.ShloMosaic.PureOps.Ideal.Laws

noncomputable section

namespace Cert.PreFacts

open Idealize.ShloMosaic Idealize.ShloMosaic.ValueIdx
open Cert.Spec (SX SW SY SQ)

/-- The shape of a scalar. -/
abbrev S0 : Shape := ⟨0, ![]⟩

/-- The rank-0 shape has one index. -/
instance : Subsingleton S0.Idx := ⟨fun a b => funext fun d => d.elim0⟩

/-! ## The entries are real numbers -/

/-- The f32 pattern of `+∞` is `⊤`. -/
theorem ofBits_inf_f32 : Ideal.ofBits .f32 0x7F800000#32 = ⊤ := by simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One `all (|A| < +∞)`: every entry of `A` is a real number. -/
theorem finite_of_all {s : Shape} {axes : List (Fin s.rank)} (A : s.Idx → EReal)
    (hb : S0.BroadcastsInDim s (![] : Fin 0 → Fin s.rank)) (hr : s.ReducesTo axes S0) (hu : 0 < S0.numel)
    (e : Host.reduce IntOp.andi
          (cmpf (F := Ideal) (φ := .f32) .olt (Host.absf (F := Ideal) (φ := .f32) A)
            (broadcastInDim s ![] hb (constant (F := Ideal) S0 .f32 0x7F800000#32)))
          (constantI S0 1 1#1) hr hu ix0 = 1#1) :
    Cert.Spec.Finite A := by
  intro i
  have hi := Host.reduce_andi_all _ _ hr hu ix0 e i
  have hi' : Ideal.cmp .olt (max (A i) (-(A i))) (Ideal.ofBits .f32 0x7F800000#32) = 1#1 := hi
  rw [ofBits_inf_f32] at hi'
  refine real_of_abs_lt_top (A i) ?_
  simpa [Ideal.cmp, StableHlo.Predicate.ofBool_eq_one_iff] using hi'

/-! ## The labels are vocabulary entries or the sentinel -/

/-- A word that is signed at least 0 and signed below 32000 is, unsigned, below 32000. -/
theorem toNat_lt_of_signed (w : BitVec 32) (h0 : IntOp.cmpi .sge w 0#32 = 1#1) (h1 : IntOp.cmpi .slt w 32000#32 = 1#1) :
    w.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  have hc := BitVec.toInt_eq_toNat_cond w
  have hl := w.isLt
  split at hc <;> omega

/-- The labels' predicate at one word. -/
theorem label_ok_word (w : BitVec 32)
    (h : IntOp.ori (IntOp.andi (IntOp.cmpi .sge w 0#32) (IntOp.cmpi .slt w 32000#32)) (IntOp.cmpi .eq w 4294967196#32) = 1#1) :
    w = Cert.Spec.ignoreWord ∨ w.toNat < 32000 := by
  rcases IntOp.ori_eq_one.1 h with h | h
  · obtain ⟨h0, h1⟩ := IntOp.andi_eq_one.1 h
    exact Or.inr (toNat_lt_of_signed w h0 h1)
  · exact Or.inl (IntOp.cmpi_eq.1 h)

/-- The `all` over the labels. -/
theorem labelsOk_of_all (Y : SY.Idx → BitVec 32)
    (hb : S0.BroadcastsInDim SY (![] : Fin 0 → Fin SY.rank)) (hr : SY.ReducesTo [0, 1] S0) (hu : 0 < S0.numel)
    (e : Host.reduce IntOp.andi
          (ori (andi (cmpi .sge Y (broadcastInDim SY ![] hb (constantI S0 32 0#32)))
                     (cmpi .slt Y (broadcastInDim SY ![] hb (constantI S0 32 32000#32))))
               (cmpi .eq Y (broadcastInDim SY ![] hb (constantI S0 32 4294967196#32))))
          (constantI S0 1 1#1) hr hu ix0 = 1#1) :
    Cert.Spec.LabelsOk Y := by
  intro b t
  exact label_ok_word (Y (ix2 b t)) (Host.reduce_andi_all _ _ hr hu ix0 e (ix2 b t))

/-! ## Every sequence keeps a label -/

/-- The converted bit `[w ≠ -100]` is the specification's `keep`. -/
theorem uitofp_ne_word (w : BitVec 32) :
    (((IntOp.cmpi .ne w 4294967196#32).toNat : ℝ) : EReal) = if w = Cert.Spec.ignoreWord then 0 else 1 := by
  by_cases h : w = Cert.Spec.ignoreWord
  · rw [if_pos h, h]; simp [IntOp.cmpi]
  · rw [if_neg h]
    have : IntOp.cmpi .ne w 4294967196#32 = 1#1 := IntOp.cmpi_ne.2 h
    rw [this]; simp

/-- The `all` over the sequences: the count of kept labels, as a sum of `keep`, is at least one. -/
theorem rowsKept_of_all (Y : SY.Idx → BitVec 32)
    (hbY : S0.BroadcastsInDim SY (![] : Fin 0 → Fin SY.rank)) (hbQ : S0.BroadcastsInDim SQ (![] : Fin 0 → Fin SQ.rank))
    (hrY : SY.ReducesTo [1] SQ) (hrQ : SQ.ReducesTo [0] S0) (hu : 0 < S0.numel)
    (e : Host.reduce IntOp.andi
          (cmpf (F := Ideal) (φ := .f32) .oge
            (Host.reduceAdd (F := Ideal) (φ := .f32)
              (uitofp (F := Ideal) .f32 (cmpi .ne Y (broadcastInDim SY ![] hbY (constantI S0 32 4294967196#32))))
              (constant (F := Ideal) S0 .f32 0x00000000#32) hrY hu)
            (broadcastInDim SQ ![] hbQ (constant (F := Ideal) S0 .f32 0x3F800000#32)))
          (constantI S0 1 1#1) hrQ hu ix0 = 1#1) :
    Cert.Spec.RowsKept Y := by
  intro b
  have hi := Host.reduce_andi_all _ _ hrQ hu ix0 e (ix1 b)
  have hR : SY.Reduces [1] SQ := by decide
  have hsum : Host.reduceAdd (F := Ideal) (φ := .f32)
      (uitofp (F := Ideal) .f32 (cmpi .ne Y (broadcastInDim SY ![] hbY (constantI S0 32 4294967196#32))))
      (constant (F := Ideal) S0 .f32 0x00000000#32) hrY hu (ix1 b) = ∑ t : Fin 1024, Cert.Spec.keep Y b t := by
    refine (hostReduceAdd_apply _ _ hrY hu (ix1 b)).trans ?_
    refine (Ideal.hostReduceAdd_single hrY hR _ _ (ix1 b)).trans ?_
    have h0 : (constant (F := Ideal) S0 .f32 0x00000000#32) (Shape.Idx.first hu) = (0 : EReal) := Ideal.ofBits_zero_f32
    rw [h0, zero_add]
    refine Finset.sum_congr rfl fun t _ => ?_
    have hl : hR.lift (ix1 b) t = ix2 b t := by
      funext d
      match d with
      | ⟨0, _⟩ => exact Fin.ext rfl
      | ⟨1, _⟩ => exact Fin.ext rfl
    rw [hl]
    exact uitofp_ne_word (Y (ix2 b t))
  have hi' : Ideal.cmp .oge (∑ t : Fin 1024, Cert.Spec.keep Y b t) (Ideal.ofBits .f32 0x3F800000#32) = 1#1 := by
    rw [← hsum]; exact hi
  rw [Ideal.ofBits_one_f32] at hi'
  simpa [Ideal.cmp, StableHlo.Predicate.ofBool_eq_one_iff] using hi'

/-! ## The six conjuncts -/

open Cert.Pre_finite_inputs in
/-- The precondition, decoded. -/
theorem facts_of_pre (x rx : SX.Idx → EReal) (y : SY.Idx → BitVec 32) (w wr : SW.Idx → EReal)
    (h : Cert.Pre_finite_inputs.fn (F := Ideal) x rx y w wr = fun _ => 1#1) :
    Cert.Spec.Finite x ∧ Cert.Spec.Finite rx ∧ Cert.Spec.Finite w ∧ Cert.Spec.Finite wr
      ∧ Cert.Spec.LabelsOk y ∧ Cert.Spec.RowsKept y := by
  have e := congrFun h ix0
  dsimp only [Cert.Pre_finite_inputs.fn, Cert.Pre_finite_inputs.fn_part1, Cert.Pre_finite_inputs.fn_part2] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨finite_of_all x _ _ _ e1, finite_of_all rx _ _ _ e2, finite_of_all w _ _ _ e3, finite_of_all wr _ _ _ e4,
    labelsOk_of_all y _ _ _ e5, rowsKept_of_all y _ _ _ _ _ e6⟩

end Cert.PreFacts

end
-- ==== Proof.RefLsm.lean ====
/-
  The reference's log-softmax read at an index. Along the vocabulary axis the printed body takes the row's maximum
  (a reduce by `max` from `-∞`, then the maximum with `-∞` again: both leave the supremum of the row), subtracts it,
  exponentiates, sums the row from zero, takes the logarithm and subtracts that. At `(b, t, v)` this is
  `(z v − sup z) − log (∑ v', exp (z v' − sup z))` over the row `z (b, t, ·)`.
-/
import proofs.«425399_j87299505259073_2_alg».proof.Proof.RefVal
import Idealize.ShloMosaic.Lib.IdealHost
import Idealize.ShloMosaic.PureOps.Ideal.Laws

noncomputable section

namespace Cert.ReferenceIdeal.RefLsm

open Cert.ReferenceIdeal Cert.ReferenceIdeal.RefVal Idealize.ShloMosaic Idealize.ShloMosaic.ValueIdx
open Cert.ReferenceIdeal.Facts₀

/-- The supremum of row `(b, t)` of `z`. -/
abbrev rowSup (z : FVec Ideal S4x1024x32000 .f32) (b : Fin 4) (t : Fin 1024) : EReal :=
  Finset.univ.sup' ⟨(0 : Fin 32000), Finset.mem_univ _⟩ (fun v' => z (ix3 b t v'))

/-- The f32 pattern of `-∞` is `⊥`. -/
theorem ofBits_neginf_f32 : Ideal.ofBits .f32 0xFF800000#32 = ⊥ := by simp [Ideal.ofBits, Ideal.ieee]

/-- A fold of `max` from `⊥` over a nonempty range is the supremum over it. -/
theorem fold_max_bot_eq_sup' {n : Nat} (h : (Finset.univ : Finset (Fin n)).Nonempty) (f : Fin n → EReal) :
    (Finset.univ : Finset (Fin n)).fold max ⊥ f = Finset.univ.sup' h f := by
  apply le_antisymm
  · exact (Finset.fold_max_le _).2 ⟨bot_le, fun k hk => Finset.le_sup' f hk⟩
  · exact Finset.sup'_le h f fun k hk => (Finset.le_fold_max _).2 (Or.inr ⟨k, hk, le_rfl⟩)

/-- The vocabulary axis dropped: the shape fact that names the inserted coordinate. -/
theorem dropV : S4x1024x32000.Reduces [2] S4x1024 := by decide

/-- Row `(b, t)` with the vocabulary coordinate `v` inserted is `(b, t, v)`. -/
theorem lift_eq (b : Fin 4) (t : Fin 1024) (v : Fin 32000) : dropV.lift (ix2 b t) v = ix3 b t v := by
  funext d
  match d with
  | ⟨0, _⟩ => exact Fin.ext rfl
  | ⟨1, _⟩ => exact Fin.ext rfl
  | ⟨2, _⟩ => exact Fin.ext rfl

/-- A row value laid along the vocabulary axis reads, at `(b, t, v)`, the value kept at `(b, t, 0)`. -/
theorem bcastV_apply (m : FVec Ideal S4x1024x1 .f32) (b : Fin 4) (t : Fin 1024) (v : Fin 32000) :
    broadcastInDim S4x1024x32000 ![0, 1, 2] bcast_S4x1024x1_S4x1024x32000_0_1_2 m (ix3 b t v) = m (ix3 b t 0) := by
  unfold broadcastInDim
  refine congrArg m (funext fun a => ?_)
  match a with
  | ⟨0, _⟩ => exact Fin.ext rfl
  | ⟨1, _⟩ => exact Fin.ext rfl
  | ⟨2, _⟩ => exact Fin.ext rfl

/-- A `[4, 1024]` array given a unit trailing axis reads, at `(b, t, 0)`, its entry `(b, t)`. -/
theorem bcastU_apply (m : FVec Ideal S4x1024 .f32) (b : Fin 4) (t : Fin 1024) :
    broadcastInDim S4x1024x1 ![0, 1] bcast_S4x1024_S4x1024x1_0_1 m (ix3 b t 0) = m (ix2 b t) := by
  unfold broadcastInDim
  refine congrArg m (funext fun a => ?_)
  match a with
  | ⟨0, _⟩ => exact Fin.ext rfl
  | ⟨1, _⟩ => exact Fin.ext rfl

/-- The host's logarithm at an index is the logarithm of the entry. -/
theorem hostLog_apply {s : Shape} (x : FVec Ideal s .f32) (i : s.Idx) : Host.log x i = Ideal.log (x i) := rfl

/-- The host's exponential at an index is the exponential of the entry. -/
theorem hostExp_apply {s : Shape} (x : FVec Ideal s .f32) (i : s.Idx) : Host.exp x i = Ideal.exp (x i) := rfl

/-- The row maximum is the row's supremum. -/
theorem lsmMax_apply (z : FVec Ideal S4x1024x32000 .f32) (b : Fin 4) (t : Fin 1024) :
    lsmMax z (ix2 b t) = rowSup z b t := by
  unfold lsmMax
  refine (maximumf_apply _ _ (ix2 b t)).trans ?_
  have h1 : broadcastInDim S4x1024 ![] bcast_S_S4x1024 (constant (F := Ideal) S_ .f32 0xFF800000#32) (ix2 b t) = (⊥ : EReal) :=
    ofBits_neginf_f32
  rw [h1, max_eq_right bot_le]
  refine (Host.reduce_eq_fold_single FloatOps.maximumf z _ reducesTo_S4x1024x32000_S4x1024_d2 dropV h_S_ (ix2 b t)).trans ?_
  have h0 : (constant (F := Ideal) S_ .f32 0xFF800000#32) (Shape.Idx.first h_S_) = (⊥ : EReal) := ofBits_neginf_f32
  rw [h0]
  refine (fold_max_bot_eq_sup' (n := 32000) ⟨(0 : Fin 32000), Finset.mem_univ _⟩ _).trans ?_
  refine congrArg (Finset.univ.sup' ⟨(0 : Fin 32000), Finset.mem_univ _⟩) (funext fun v => ?_)
  exact congrArg z (lift_eq b t v)

/-- The shifted logits. -/
theorem lsmShift_apply (z : FVec Ideal S4x1024x32000 .f32) (b : Fin 4) (t : Fin 1024) (v : Fin 32000) :
    lsmShift z (ix3 b t v) = z (ix3 b t v) - rowSup z b t := by
  unfold lsmShift
  refine (subf_apply _ _ (ix3 b t v)).trans ?_
  exact congrArg (fun c => z (ix3 b t v) - c)
    ((bcastV_apply _ b t v).trans ((bcastU_apply _ b t).trans (lsmMax_apply z b t)))

/-- The row sum of the exponentials. -/
theorem lsmSum_apply (z : FVec Ideal S4x1024x32000 .f32) (b : Fin 4) (t : Fin 1024) :
    lsmSum z (ix2 b t) = ∑ v' : Fin 32000, Ideal.exp (z (ix3 b t v') - rowSup z b t) := by
  unfold lsmSum
  refine (hostReduceAdd_apply _ _ reducesTo_S4x1024x32000_S4x1024_d2 h_S_ (ix2 b t)).trans ?_
  refine (Ideal.hostReduceAdd_single reducesTo_S4x1024x32000_S4x1024_d2 dropV _ _ (ix2 b t)).trans ?_
  have h0 : (constant (F := Ideal) S_ .f32 0x00000000#32) (Shape.Idx.first h_S_) = (0 : EReal) := Ideal.ofBits_zero_f32
  rw [h0, zero_add]
  refine Finset.sum_congr rfl fun v _ => ?_
  rw [lift_eq b t v]
  exact (hostExp_apply _ (ix3 b t v)).trans (congrArg Ideal.exp (lsmShift_apply z b t v))

/-- The log-softmax at `(b, t, v)`. -/
theorem logSoftmax_apply (z : FVec Ideal S4x1024x32000 .f32) (b : Fin 4) (t : Fin 1024) (v : Fin 32000) :
    Cert.ReferenceIdeal.RefVal.logSoftmax z (ix3 b t v)
      = (z (ix3 b t v) - Finset.univ.sup' ⟨(0 : Fin 32000), Finset.mem_univ _⟩ (fun v' => z (ix3 b t v')))
        - Ideal.log (∑ v' : Fin 32000, Ideal.exp (z (ix3 b t v')
            - Finset.univ.sup' ⟨(0 : Fin 32000), Finset.mem_univ _⟩ (fun v'' => z (ix3 b t v'')))) := by
  unfold logSoftmax
  refine (subf_apply _ _ (ix3 b t v)).trans ?_
  have hs := lsmShift_apply z b t v
  have hl : broadcastInDim S4x1024x32000 ![0, 1, 2] bcast_S4x1024x1_S4x1024x32000_0_1_2
      (Host.log (broadcastInDim S4x1024x1 ![0, 1] bcast_S4x1024_S4x1024x1_0_1 (lsmSum z))) (ix3 b t v)
      = Ideal.log (∑ v' : Fin 32000, Ideal.exp (z (ix3 b t v') - rowSup z b t)) := by
    refine (bcastV_apply _ b t v).trans ((hostLog_apply _ (ix3 b t 0)).trans ?_)
    exact congrArg Ideal.log ((bcastU_apply _ b t).trans (lsmSum_apply z b t))
  rw [hs, hl]

end Cert.ReferenceIdeal.RefLsm

end
-- ==== Proof.RefSeq.lean ====
/-
  The reference's sequence value read index by index as the specification's.

  One small reading per operation: the matrix product at `(b, t, v)` is the specification's logit
  (the contraction re-indexed by its one coordinate); the take along the vocabulary axis reads the
  log-softmax's row at the label (a label that is a vocabulary entry is non-negative as a signed
  word, so it is not wrapped, it passes the bounds test, and the gather's clamp leaves it alone);
  the mask's float factor is `keep`; at an ignored label the factor is `0` and `x * 0 = 0` for
  every extended real, so what the take read there does not matter; the two host sums are plain
  sums from `0`; the quotient is the specification's. No finiteness of the inputs is used.
-/
import proofs.«425399_j87299505259073_2_alg».proof.Proof.RefVal
import proofs.«425399_j87299505259073_2_alg».proof.Proof.RefLsm
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefSeq

open Cert.ReferenceIdeal Cert.ReferenceIdeal.RefVal Idealize.ShloMosaic Idealize.ShloMosaic.ValueIdx
open Cert.ReferenceIdeal.Facts₀

/-! ## The matrix product at an index -/

theorem lhs_ax0 (j : S4x1024x32000.Idx) (k : dot_S4x1024x2048_S32000x2048_S4x1024x32000_2_1_01_0_n_n.contr.Idx) :
    (dot_S4x1024x2048_S32000x2048_S4x1024x32000_2_1_01_0_n_n.lhsIdx j k 0).val = (j 0).val := rfl
theorem lhs_ax1 (j : S4x1024x32000.Idx) (k : dot_S4x1024x2048_S32000x2048_S4x1024x32000_2_1_01_0_n_n.contr.Idx) :
    (dot_S4x1024x2048_S32000x2048_S4x1024x32000_2_1_01_0_n_n.lhsIdx j k 1).val = (j 1).val := rfl
theorem lhs_ax2 (j : S4x1024x32000.Idx) (k : dot_S4x1024x2048_S32000x2048_S4x1024x32000_2_1_01_0_n_n.contr.Idx) :
    (dot_S4x1024x2048_S32000x2048_S4x1024x32000_2_1_01_0_n_n.lhsIdx j k 2).val = (k ⟨0, by decide⟩).val :=
  DotDims.lhsIdx_val_of_single _ rfl j k
theorem rhs_ax0 (j : S4x1024x32000.Idx) (k : dot_S4x1024x2048_S32000x2048_S4x1024x32000_2_1_01_0_n_n.contr.Idx) :
    (dot_S4x1024x2048_S32000x2048_S4x1024x32000_2_1_01_0_n_n.rhsIdx j k 0).val = (j 2).val := rfl
theorem rhs_ax1 (j : S4x1024x32000.Idx) (k : dot_S4x1024x2048_S32000x2048_S4x1024x32000_2_1_01_0_n_n.contr.Idx) :
    (dot_S4x1024x2048_S32000x2048_S4x1024x32000_2_1_01_0_n_n.rhsIdx j k 1).val = (k ⟨0, by decide⟩).val :=
  DotDims.rhsIdx_val_of_single _ rfl j k

/-- The matrix product at `(b, t, v)` is the specification's logit. -/
theorem logits_apply (X : FVec Ideal S4x1024x2048 .f32) (W : FVec Ideal S32000x2048 .f32) (b : Fin 4) (t : Fin 1024)
    (v : Fin 32000) : logits X W (ix3 b t v) = Cert.Spec.logit X W b t v := by
  unfold logits Cert.Spec.logit
  simp only [Host.dotGeneral]
  rw [Ideal.dotGeneral_apply,
    ← Equiv.sum_comp (contrEquiv1 dot_S4x1024x2048_S32000x2048_S4x1024x32000_2_1_01_0_n_n 2048 rfl rfl).symm]
  refine Finset.sum_congr rfl fun h _ => ?_
  have e1 : dot_S4x1024x2048_S32000x2048_S4x1024x32000_2_1_01_0_n_n.lhsIdx (ix3 b t v)
      ((contrEquiv1 dot_S4x1024x2048_S32000x2048_S4x1024x32000_2_1_01_0_n_n 2048 rfl rfl).symm h) = ix3 b t h := by
    funext a; refine Fin.ext ?_
    match a with
    | ⟨0, _⟩ => exact lhs_ax0 _ _
    | ⟨1, _⟩ => exact lhs_ax1 _ _
    | ⟨2, _⟩ => exact (lhs_ax2 _ _).trans (contrEquiv1_symm_val _ _ _ _ h)
  have e2 : dot_S4x1024x2048_S32000x2048_S4x1024x32000_2_1_01_0_n_n.rhsIdx (ix3 b t v)
      ((contrEquiv1 dot_S4x1024x2048_S32000x2048_S4x1024x32000_2_1_01_0_n_n 2048 rfl rfl).symm h) = ix2 v h := by
    funext a; refine Fin.ext ?_
    match a with
    | ⟨0, _⟩ => exact rhs_ax0 _ _
    | ⟨1, _⟩ => exact (rhs_ax1 _ _).trans (contrEquiv1_symm_val _ _ _ _ h)
  rw [e1, e2]

/-! ## Small readings: a scalar broadcast, the keepdims column, words -/

instance : Subsingleton S_.Idx := ⟨fun a b => funext fun d => d.elim0⟩

/-- A scalar broadcast reads the scalar's one element. -/
theorem bcast0 {α : Type} {t : Shape} (h : S_.BroadcastsInDim t ![]) (v : S_.Idx → α) (j : t.Idx) :
    broadcastInDim t ![] h v j = v ix0 := by
  rw [StableHlo.Predicate.bcast_scalar h h_S_ v j]
  exact congrArg v (Subsingleton.elim _ _)

/-- The keepdims column of a rank-2 array read at `(b, t, 0)`. -/
theorem bcastCol {α : Type} (m : S4x1024.Idx → α) (b : Fin 4) (t : Fin 1024) :
    broadcastInDim S4x1024x1 ![0, 1] bcast_S4x1024_S4x1024x1_0_1 m (ix3 b t (0 : Fin 1)) = m (ix2 b t) :=
  broadcastInDim_apply _ _ _ _ (ix2 b t) (fun a => by
    match a with
    | ⟨0, _⟩ => rfl
    | ⟨1, _⟩ => rfl)

theorem red3 : S4x1024x1x1.Reduces [3] S4x1024x1 := by decide
theorem red1 : S4x1024.Reduces [1] S4 := by decide

/-- A fold over the one coordinate of a unit axis is one application. -/
theorem fold_fin1 {α : Type} (op : α → α → α) [Std.Commutative op] [Std.Associative op] (init : α) (g : Fin 1 → α) :
    (Finset.univ : Finset (Fin 1)).fold op init g = op (g 0) init := by
  rw [Finset.univ_unique, Finset.fold_singleton]; rfl

instance : Std.Commutative (IntOp.andi (w := 1)) := ⟨fun x y => BitVec.and_comm x y⟩
instance : Std.Associative (IntOp.andi (w := 1)) := ⟨fun x y z => BitVec.and_assoc x y z⟩

/-! ## The take along the vocabulary axis -/

/-- The gather at `(b, t, 0)` reads the operand's row `(b, t)` at the start index, read signed and clamped. -/
theorem gather_apply {α : Type} (z : S4x1024x32000.Idx → α) (idx : IVec S4x1024x1x1 32) (b : Fin 4) (t : Fin 1024) :
    Host.gather gather_S4x1024x32000_S4x1024x1x1_S4x1024x1_n_2_01_01_2_3_111 z idx (ix3 b t (0 : Fin 1))
      = z (ix3 b t (⟨min (idx (ix4 b t (0 : Fin 1) (0 : Fin 1))).toInt.toNat 31999, by omega⟩ : Fin 32000)) := by
  unfold Host.gather
  refine congrArg z (funext fun a => Fin.ext ?_)
  have hsi : gather_S4x1024x32000_S4x1024x1x1_S4x1024x1_n_2_01_01_2_3_111.siIdx (ix3 b t (0 : Fin 1)) ⟨0, by decide⟩
      = ix4 b t (0 : Fin 1) (0 : Fin 1) := by
    funext c; refine Fin.ext ?_
    match c with
    | ⟨0, _⟩ => rfl
    | ⟨1, _⟩ => rfl
    | ⟨2, _⟩ => rfl
    | ⟨3, _⟩ => rfl
  match a with
  | ⟨0, _⟩ => show 0 + b.val + 0 = b.val; omega
  | ⟨1, _⟩ => show 0 + t.val + 0 = t.val; omega
  | ⟨2, _⟩ =>
    show _ = min (idx (ix4 b t (0 : Fin 1) (0 : Fin 1))).toInt.toNat 31999
    rw [← hsi]
    rfl

/-- A start index that is a vocabulary entry: not wrapped, and read as itself at `(b, t, 0, 0)`. -/
theorem takeIdx4_apply (idx : IVec S4x1024x1 32) (b : Fin 4) (t : Fin 1024)
    (hy : (idx (ix3 b t (0 : Fin 1))).toNat < 32000) :
    takeIdx4 idx (ix4 b t (0 : Fin 1) (0 : Fin 1)) = idx (ix3 b t (0 : Fin 1)) := by
  unfold takeIdx4
  rw [shapeCast_apply _ _ (ix4 b t (0 : Fin 1) (0 : Fin 1)) (ix3 b t (0 : Fin 1))
    (by rw [Shape.rowMajor_val_three, Shape.rowMajor_val_four]
        show (b.val * 1024 + t.val) * 1 + 0 = ((b.val * 1024 + t.val) * 1 + 0) * 1 + 0
        omega)]
  rw [select_apply]
  have hlt : cmpi .slt idx (broadcastInDim S4x1024x1 ![] bcast_S_S4x1024x1 (constantI S_ 32 0#32)) (ix3 b t (0 : Fin 1)) = 0#1 := by
    apply eq_zero_of_ne_one
    show ¬ IntOp.cmpi .slt (idx (ix3 b t (0 : Fin 1))) (broadcastInDim S4x1024x1 ![] bcast_S_S4x1024x1 (constantI S_ 32 0#32) (ix3 b t (0 : Fin 1))) = 1#1
    rw [bcast0]
    show ¬ IntOp.cmpi .slt (idx (ix3 b t (0 : Fin 1))) 0#32 = 1#1
    rw [StableHlo.Predicate.slt_iff_toNat (by omega) (by decide)]
    simp
  rw [hlt, select_zero]

/-- The and-reduce over the unit fourth axis, from `true`, reads its one element. -/
theorem reduceAnd_apply (g : IVec S4x1024x1x1 1) (b : Fin 4) (t : Fin 1024) :
    Host.reduce IntOp.andi g (constantI S_ 1 1#1) reducesTo_S4x1024x1x1_S4x1024x1_d3 h_S_ (ix3 b t (0 : Fin 1))
      = IntOp.andi (g (ix4 b t (0 : Fin 1) (0 : Fin 1))) 1#1 := by
  rw [Host.reduce_eq_fold_single IntOp.andi _ _ reducesTo_S4x1024x1x1_S4x1024x1_d3 red3 h_S_]
  refine (fold_fin1 IntOp.andi _ _).trans ?_
  have hl : red3.lift (ix3 b t (0 : Fin 1)) (0 : Fin 1) = ix4 b t (0 : Fin 1) (0 : Fin 1) := by
    funext c; refine Fin.ext ?_
    match c with
    | ⟨0, _⟩ => rfl
    | ⟨1, _⟩ => rfl
    | ⟨2, _⟩ => rfl
    | ⟨3, _⟩ => rfl
  show IntOp.andi (g (red3.lift (ix3 b t (0 : Fin 1)) (0 : Fin 1))) 1#1 = _
  rw [hl]

/-- … and it passes the bounds test. -/
theorem takeOk_apply (idx : IVec S4x1024x1 32) (b : Fin 4) (t : Fin 1024)
    (hy : (idx (ix3 b t (0 : Fin 1))).toNat < 32000) : takeOk idx (ix3 b t (0 : Fin 1)) = 1#1 := by
  unfold takeOk
  rw [reduceAnd_apply]
  have e31999 : (31999#32 : BitVec 32).toNat = 31999 := by decide
  have e0 : (0#32 : BitVec 32).toNat = 0 := by decide
  have hge : IntOp.cmpi .sge (idx (ix3 b t (0 : Fin 1))) 0#32 = 1#1 :=
    (StableHlo.Predicate.sge_iff_toNat (by omega) (by decide)).2 (by rw [e0]; exact Nat.zero_le _)
  have hle : IntOp.cmpi .sle (idx (ix3 b t (0 : Fin 1))) 31999#32 = 1#1 :=
    (StableHlo.Predicate.sle_iff_toNat (by omega) (by decide)).2 (by rw [e31999]; omega)
  show IntOp.andi (IntOp.andi (IntOp.cmpi .sge (takeIdx4 idx (ix4 b t (0 : Fin 1) (0 : Fin 1))) 0#32)
      (IntOp.cmpi .sle (takeIdx4 idx (ix4 b t (0 : Fin 1) (0 : Fin 1))) 31999#32)) 1#1 = 1#1
  rw [takeIdx4_apply idx b t hy, hge, hle]
  decide

/-- The take at `(b, t, 0)` of a start index that is a vocabulary entry: the operand at that entry. -/
theorem takeAlong_apply (z : FVec Ideal S4x1024x32000 .f32) (idx : IVec S4x1024x1 32) (b : Fin 4) (t : Fin 1024)
    (hy : (idx (ix3 b t (0 : Fin 1))).toNat < 32000) :
    takeAlong z idx (ix3 b t (0 : Fin 1)) = z (ix3 b t ⟨(idx (ix3 b t (0 : Fin 1))).toNat, hy⟩) := by
  unfold takeAlong
  rw [select_apply, takeOk_apply idx b t hy, select_one, gather_apply]
  refine congrArg z (congrArg (ix3 b t) (Fin.ext ?_))
  show min (takeIdx4 idx (ix4 b t (0 : Fin 1) (0 : Fin 1))).toInt.toNat 31999 = (idx (ix3 b t (0 : Fin 1))).toNat
  rw [takeIdx4_apply idx b t hy, BitVec.toInt_eq_toNat_of_lt (by omega), Int.toNat_natCast]
  omega

/-! ## The labels: the mask, its float factor, and the ignored labels' replacement -/

/-- The mask at `(b, t)`: `0` at the ignore sentinel, `1` elsewhere. -/
theorem mask_apply (Y : IVec S4x1024 32) (b : Fin 4) (t : Fin 1024) :
    mask Y (ix2 b t) = if Y (ix2 b t) = Cert.Spec.ignoreWord then 0#1 else 1#1 := by
  unfold mask
  show IntOp.cmpi .ne (Y (ix2 b t)) 4294967196#32 = _
  unfold IntOp.cmpi
  by_cases h : Y (ix2 b t) = Cert.Spec.ignoreWord
  · rw [if_pos h, h]; decide
  · rw [if_neg h, show (Y (ix2 b t) != 4294967196#32) = true from bne_iff_ne.mpr h]; rfl

/-- The mask as a float factor is the specification's `keep`. -/
theorem maskF_apply (Y : IVec S4x1024 32) (b : Fin 4) (t : Fin 1024) : maskF Y (ix2 b t) = Cert.Spec.keep Y b t := by
  unfold maskF Cert.Spec.keep
  show (((mask Y (ix2 b t)).toNat : ℝ) : EReal) = _
  rw [mask_apply]
  by_cases h : Y (ix2 b t) = Cert.Spec.ignoreWord
  · simp only [if_pos h]; simp
  · simp only [if_neg h]; simp

/-- The labels with the ignored ones replaced by `0`, at `(b, t)`. -/
theorem safeLab_apply (Y : IVec S4x1024 32) (b : Fin 4) (t : Fin 1024) :
    safeLab Y (ix2 b t) = if Y (ix2 b t) = Cert.Spec.ignoreWord then 0#32 else Y (ix2 b t) := by
  unfold safeLab
  rw [select_apply, mask_apply]
  by_cases h : Y (ix2 b t) = Cert.Spec.ignoreWord
  · simp only [if_pos h]; rw [select_zero]; rfl
  · simp only [if_neg h]; rw [select_one]

/-- Under the labels' precondition the replaced label is always a vocabulary entry. -/
theorem safeLab_lt (Y : IVec S4x1024 32) (hY : Cert.Spec.LabelsOk Y) (b : Fin 4) (t : Fin 1024) :
    (safeLab Y (ix2 b t)).toNat < 32000 := by
  rw [safeLab_apply]
  by_cases h : Y (ix2 b t) = Cert.Spec.ignoreWord
  · rw [if_pos h]; decide
  · rw [if_neg h]; exact (hY b t).resolve_left h

/-! ## The label's log-probability, and the sequence value -/

/-- The log-softmax of the logits at `(b, t, v)` is the specification's token log-probability. -/
theorem logSoftmax_logits (X : FVec Ideal S4x1024x2048 .f32) (W : FVec Ideal S32000x2048 .f32) (b : Fin 4) (t : Fin 1024)
    (v : Fin 32000) : logSoftmax (logits X W) (ix3 b t v) = Cert.Spec.tokLogp X W b t v := by
  rw [RefLsm.logSoftmax_apply]
  unfold Cert.Spec.tokLogp Cert.Spec.rowSum Cert.Spec.rowMax
  simp only [logits_apply]

/-- The picked entry at `(b, t)`: the token log-probability of the replaced label. -/
theorem picked_apply (X : FVec Ideal S4x1024x2048 .f32) (W : FVec Ideal S32000x2048 .f32) (Y : IVec S4x1024 32)
    (hY : Cert.Spec.LabelsOk Y) (b : Fin 4) (t : Fin 1024) :
    picked X W Y (ix2 b t) = Cert.Spec.tokLogp X W b t ⟨(safeLab Y (ix2 b t)).toNat, safeLab_lt Y hY b t⟩ := by
  unfold picked
  rw [shapeCast_apply _ _ (ix2 b t) (ix3 b t (0 : Fin 1))
    (by rw [Shape.rowMajor_val_two, Shape.rowMajor_val_three]
        show (b.val * 1024 + t.val) * 1 + 0 = b.val * 1024 + t.val
        omega)]
  have hb : (broadcastInDim S4x1024x1 ![0, 1] bcast_S4x1024_S4x1024x1_0_1 (safeLab Y)) (ix3 b t (0 : Fin 1))
      = safeLab Y (ix2 b t) := bcastCol _ b t
  rw [takeAlong_apply _ _ b t (by rw [hb]; exact safeLab_lt Y hY b t), logSoftmax_logits]
  exact congrArg (Cert.Spec.tokLogp X W b t) (Fin.ext (congrArg BitVec.toNat hb))

/-- One token's term: the picked entry times the mask factor is the kept label's log-probability times `keep`. -/
theorem term_apply (X : FVec Ideal S4x1024x2048 .f32) (W : FVec Ideal S32000x2048 .f32) (Y : IVec S4x1024 32)
    (hY : Cert.Spec.LabelsOk Y) (b : Fin 4) (t : Fin 1024) :
    mulf (picked X W Y) (maskF Y) (ix2 b t) = Cert.Spec.tokLogp X W b t (Cert.Spec.lab Y b t) * Cert.Spec.keep Y b t := by
  rw [mulf_apply, picked_apply X W Y hY, maskF_apply]
  by_cases h : Y (ix2 b t) = Cert.Spec.ignoreWord
  · have hk : Cert.Spec.keep Y b t = 0 := by unfold Cert.Spec.keep; rw [if_pos h]
    rw [hk, mul_zero, mul_zero]
  · refine congrArg (fun v => Cert.Spec.tokLogp X W b t v * Cert.Spec.keep Y b t) (Fin.ext ?_)
    show (safeLab Y (ix2 b t)).toNat = (Y (ix2 b t)).toNat % 32000
    rw [safeLab_apply, if_neg h, Nat.mod_eq_of_lt ((hY b t).resolve_left h)]

/-- The host's sum along the token axis, from the zero constant, at sequence `b`. -/
theorem rowSum_apply (f : FVec Ideal S4x1024 .f32) (b : Fin 4) :
    Host.reduceAdd f (constant (F := Ideal) S_ .f32 0x00000000#32) reducesTo_S4x1024_S4_d1 h_S_ (ix1 b)
      = ∑ t : Fin 1024, f (ix2 b t) := by
  show Ideal.hostReduceAdd reducesTo_S4x1024_S4_d1 f (Ideal.ofBits .f32 0x00000000#32) (ix1 b) = _
  rw [Ideal.hostReduceAdd_single _ red1, Ideal.ofBits_zero_f32, zero_add]
  refine Finset.sum_congr rfl fun t _ => congrArg f ?_
  funext c; refine Fin.ext ?_
  match c with
  | ⟨0, _⟩ => rfl
  | ⟨1, _⟩ => rfl

/-- THE SEQUENCE VALUE: the reference's masked mean is the specification's. -/
theorem seqR_eq_spec (X : FVec Ideal S4x1024x2048 .f32) (W : FVec Ideal S32000x2048 .f32) (Y : IVec S4x1024 32)
    (hY : Cert.Spec.LabelsOk Y) : seqR X W Y = Cert.Spec.seqLogp X W Y := by
  funext i
  obtain ⟨b, rfl⟩ : ∃ b : Fin 4, i = ix1 b := ⟨i 0, eq_ix1 i⟩
  unfold seqR Cert.Spec.seqLogp
  show Ideal.div (Host.reduceAdd (mulf (picked X W Y) (maskF Y)) (constant (F := Ideal) S_ .f32 0x00000000#32) reducesTo_S4x1024_S4_d1 h_S_ (ix1 b))
      (Host.reduceAdd (maskF Y) (constant (F := Ideal) S_ .f32 0x00000000#32) reducesTo_S4x1024_S4_d1 h_S_ (ix1 b))
    = Ideal.div (∑ t : Fin 1024, Cert.Spec.tokLogp X W b t (Cert.Spec.lab Y b t) * Cert.Spec.keep Y b t)
      (∑ t : Fin 1024, Cert.Spec.keep Y b t)
  rw [rowSum_apply, rowSum_apply]
  simp only [term_apply X W Y hY, maskF_apply]

end Cert.ReferenceIdeal.RefSeq

end
-- ==== Proof.Bridge.lean ====
/-
  The two idealized programs compute one loss.

  The kernel program's result buffer is read off the run's last boundary valuation: the tail of the two launches'
  per-sequence values (masked means of per-token log-probabilities). Each launch's output column holds, at a row
  whose label is kept, the specification's log-probability `(logit − rowMax) − log rowSum` (the online recurrence
  in closed form; the inputs are finite, so the logits are real numbers); a dropped label contributes a zero on both
  sides; every sequence keeps a label, so the kernel's guarded divisor `max (count) 1` is the count. The reference's
  composed term is the same specification, and the tails are one function.
-/
import proofs.«425399_j87299505259073_2_alg».proof.Defs
import proofs.«425399_j87299505259073_2_alg».proof.Proof.Gen.Pre_finite_inputs
import proofs.«425399_j87299505259073_2_alg».proof.Proof.KiRun
import proofs.«425399_j87299505259073_2_alg».proof.Proof.KiChain
import proofs.«425399_j87299505259073_2_alg».proof.Proof.KiTok
import proofs.«425399_j87299505259073_2_alg».proof.Proof.KiTok1
import proofs.«425399_j87299505259073_2_alg».proof.Proof.KiTail
import proofs.«425399_j87299505259073_2_alg».proof.Proof.TailEq
import proofs.«425399_j87299505259073_2_alg».proof.Proof.PreFacts
import proofs.«425399_j87299505259073_2_alg».proof.Proof.RefSeq

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The five argument arrays on core `c`. -/
abbrev A0 : Cert.Spec.SX.Idx → EReal := m ((c.tc : Thread nD τ).loc main_arg0)
abbrev A1 : Cert.Spec.SX.Idx → EReal := m ((c.tc : Thread nD τ).loc main_arg1)
abbrev A2 : Cert.Spec.SY.Idx → BitVec 32 := m ((c.tc : Thread nD τ).loc main_arg2)
abbrev A3 : Cert.Spec.SW.Idx → EReal := m ((c.tc : Thread nD τ).loc main_arg3)
abbrev A4 : Cert.Spec.SW.Idx → EReal := m ((c.tc : Thread nD τ).loc main_arg4)

/-- Under the precondition the kernel program's result is the reference's composed term of the arguments. -/
theorem kernel_value
    (hpre : Cert.Pre_finite_inputs.fn (F := Ideal) (A0 m c) (A1 m c) (A2 m c) (A3 m c) (A4 m c) = fun _ => 1#1) :
    (Run.W7 m ρ c (Proc.devRef .tc main_v36) : S_.Idx → EReal)
      = Cert.ReferenceIdeal.RefVal.res (A0 m c) (A1 m c) (A2 m c) (A3 m c) (A4 m c) := by
  obtain ⟨hx, hrx, hw, hwr, hY, hrows⟩ := Cert.PreFacts.facts_of_pre (A0 m c) (A1 m c) (A2 m c) (A3 m c) (A4 m c) hpre
  have hmask : (Run.W4 m ρ c (Proc.devRef .tc main_v1) : S4x1024.Idx → BitVec 1)
      = Host.maskK (Run.W4 m ρ c (Proc.devRef .tc main_arg2) : S4x1024.Idx → BitVec 32) := by
    rw [Chain.W4_v1 m ρ c, Chain.W4_arg2 m ρ c]
  have h36 := Host.tail_v36 (Run.W4 m ρ c) hmask
  have e1 : Host.seqK (Run.W4 m ρ c (Proc.devRef .tc main_v7) : S4x1024.Idx → EReal)
      (Run.W4 m ρ c (Proc.devRef .tc main_arg2) : S4x1024.Idx → BitVec 32) = Cert.Spec.seqLogp (A0 m c) (A3 m c) (A2 m c) := by
    rw [Chain.W4_arg2 m ρ c]
    refine Host.seqK_eq_spec (A0 m c) (A3 m c) (A2 m c) _ (fun b t hk => ?_) hrows
    rw [Chain.W4_v7 m ρ c b t]
    have hb : (1024 * b.val + t.val) / 1024 = b.val := by omega
    have ht : (1024 * b.val + t.val) % 1024 = t.val := by omega
    have := Tok.tok0 (Run.V1 m ρ) c (A0 m c) (A3 m c) (A2 m c) (Chain.V1_v3 m ρ c) (Chain.V1_v4 m ρ c) (Chain.V1_v5 m ρ c)
      hx hw hY ⟨1024 * b.val + t.val, by omega⟩ (by simpa only [hb, ht] using hk)
    simpa only [hb, ht] using this
  have e2 : Host.seqK (shapeCast S4x1024 (Run.W4 m ρ c (Proc.devRef .tc main_v12) : S4096x1.Idx → EReal) Facts₀.shapeCasts_S4096x1_S4x1024)
      (Run.W4 m ρ c (Proc.devRef .tc main_arg2) : S4x1024.Idx → BitVec 32) = Cert.Spec.seqLogp (A1 m c) (A4 m c) (A2 m c) := by
    rw [Chain.W4_arg2 m ρ c]
    refine Host.seqK_eq_spec (A1 m c) (A4 m c) (A2 m c) _ (fun b t hk => ?_) hrows
    rw [Host.uncast2_apply _ _ b t, Chain.W4_v12 m ρ c]
    have hb : (1024 * b.val + t.val) / 1024 = b.val := by omega
    have ht : (1024 * b.val + t.val) % 1024 = t.val := by omega
    have := Tok1.tok1 (Run.V3 m ρ) c (A1 m c) (A4 m c) (A2 m c) (Chain.V3_v9 m ρ c) (Chain.V3_v10 m ρ c) (Chain.V3_v11 m ρ c)
      hrx hwr hY ⟨1024 * b.val + t.val, by omega⟩ (by simpa only [hb, ht] using hk)
    simpa only [hb, ht] using this
  refine h36.trans ?_
  rw [e1, e2, Cert.TailEq.tail_eq]
  unfold Cert.ReferenceIdeal.RefVal.res
  rw [Cert.ReferenceIdeal.RefSeq.seqR_eq_spec _ _ _ hY, Cert.ReferenceIdeal.RefSeq.seqR_eq_spec _ _ _ hY]

end Cert.Bridge

end
-- ==== Proof.lean ====
/-
  The certificate of the fused LM-head + log-softmax + DPO loss kernel against its jnp reference, on the extended reals.

  Both programs compute, for each of the four sequences and for each of the two (activations, weights) pairs, the mean
  over the kept labels of the softmax log-probability of the label, and feed the two length-4 vectors to one and the
  same DPO tail. The kernel obtains each token's log-probability in two launches that sweep the vocabulary in fifty
  blocks, carrying a running maximum, a running sum of exponentials relative to it and the label's logit; the reference
  takes the maximum, the sum and the gather over the whole row at once. On finite inputs the logits are real numbers,
  the running quantities after the last block are the row's maximum `M`, `∑ exp (logit − M)` and the label's logit,
  and `g − (M + log L) = (g − M) − log L`. A label equal to the ignore sentinel contributes the factor 0 on both
  sides; every sequence keeps a label, so the kernel's guarded divisor `max count 1` is the count.

  The frames: each kernel program is run as its seven segments (three host stretches around and after the two
  launches), every launch's grid point by its body's triple, the accumulators carried in the launch's invariant; the
  reference is run as its list of host operations.
-/
import proofs.«425399_j87299505259073_2_alg».proof.Defs
import proofs.«425399_j87299505259073_2_alg».proof.Proof.Gen.Kernel
import proofs.«425399_j87299505259073_2_alg».proof.Proof.Gen.KernelIdeal
import proofs.«425399_j87299505259073_2_alg».proof.Proof.Gen.ReferenceIdeal
import proofs.«425399_j87299505259073_2_alg».proof.Proof.Gen.Pre_finite_inputs
import proofs.«425399_j87299505259073_2_alg».proof.Proof.KbRun
import proofs.«425399_j87299505259073_2_alg».proof.Proof.KiRun
import proofs.«425399_j87299505259073_2_alg».proof.Proof.RefRun
import proofs.«425399_j87299505259073_2_alg».proof.Proof.Bridge

noncomputable section

namespace Cert.Proof

open Idealize.ShloMosaic Idealize.ShloMosaic.TcCoe Idealize.SL.Sem

/-- The idealized kernel's run names its result as the reference's composed term of the arguments (the bridge), and
    the reference's run names the same term of its own arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefVal.res (Cert.Bridge.A0 m c) (Cert.Bridge.A1 m c) (Cert.Bridge.A2 m c)
    (Cert.Bridge.A3 m c) (Cert.Bridge.A4 m c), ?_, ?_⟩
  · exact (θ_run _ _ _).mono (fun r h c =>
      ⟨(h c _ (Cert.KernelIdeal.Run.mem_uc Cert.KernelIdeal.main_v36 (by decide))).trans (Cert.Bridge.kernel_value m ρ c (hpre c)),
        (h c _ (Cert.KernelIdeal.Run.mem_uc Cert.KernelIdeal.main_arg0 (by decide))).trans (Cert.KernelIdeal.Run.W7_main_arg0 m ρ c),
        (h c _ (Cert.KernelIdeal.Run.mem_uc Cert.KernelIdeal.main_arg1 (by decide))).trans (Cert.KernelIdeal.Run.W7_main_arg1 m ρ c),
        (h c _ (Cert.KernelIdeal.Run.mem_uc Cert.KernelIdeal.main_arg2 (by decide))).trans (Cert.KernelIdeal.Run.W7_main_arg2 m ρ c),
        (h c _ (Cert.KernelIdeal.Run.mem_uc Cert.KernelIdeal.main_arg3 (by decide))).trans (Cert.KernelIdeal.Run.W7_main_arg3 m ρ c),
        (h c _ (Cert.KernelIdeal.Run.mem_uc Cert.KernelIdeal.main_arg4 (by decide))).trans (Cert.KernelIdeal.Run.W7_main_arg4 m ρ c)⟩)
      (Cert.KernelIdeal.Run.run_all m ρ)
  · refine (θ_run _ _ _).mono (fun r h c => ?_) (Cert.ReferenceIdeal.RefRun.run m' ρ')
    obtain ⟨h0, hargs⟩ := h c
    refine ⟨h0.trans ?_, hargs⟩
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Run.frame m ρ,
    fun m ρ _ => Cert.KernelIdeal.Run.frame m ρ,
    fun m ρ _ => Cert.ReferenceIdeal.RefRun.frame m ρ,
    trivial,
    algebraic⟩

end Cert.Proof

end
